-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S3x64x64 : Shape := ⟨3, ![3, 64, 64]⟩
abbrev S3x64 : Shape := ⟨2, ![3, 64]⟩
abbrev S_ : Shape := ⟨0, ![]⟩
abbrev S1x1200000 : Shape := ⟨2, ![1, 1200000]⟩
abbrev S1200000 : Shape := ⟨1, ![1200000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  slices_S2x1200000_S1x1200000_0_0 : S2x1200000.Slices ![0, 0] S1x1200000
  shapeCasts_S1x1200000_S1200000 : S1x1200000.ShapeCasts S1200000
  bcast_S_S1200000 : S_.BroadcastsInDim S1200000 (![] : Fin 0 → Fin S1200000.rank)
  reducesTo_S1200000_S_d0 : S1200000.ReducesTo [0] S_

variable [Facts]

def fn_part1 {F : FTy → Type} [FloatOps F] (main_arg1 : IVec S2x1200000 32) (main_arg5 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : IVec S1x1200000 32 := (extractStridedSlice S1x1200000 ![0, 0] · slices_S2x1200000_S1x1200000_0_0) main_arg1
  let main_v25 : IVec S1200000 32 := shapeCast S1200000 main_v24 shapeCasts_S1x1200000_S1200000
  let main_c_8 : IVec S_ 32 := constantI S_ 32 0#32
  let main_v26 : IVec S1200000 32 := broadcastInDim S1200000 ![] bcast_S_S1200000 main_c_8
  let main_v27 : IVec S1200000 1 := cmpi .sge main_v25 main_v26
  let main_v28 : IVec S1x1200000 32 := (extractStridedSlice S1x1200000 ![0, 0] · slices_S2x1200000_S1x1200000_0_0) main_arg1
  let main_v29 : IVec S1200000 32 := shapeCast S1200000 main_v28 shapeCasts_S1x1200000_S1200000
  let main_c_9 : IVec S_ 32 := constantI S_ 32 100000#32
  let main_v30 : IVec S1200000 32 := broadcastInDim S1200000 ![] bcast_S_S1200000 main_c_9
  let main_v31 : IVec S1200000 1 := cmpi .slt main_v29 main_v30
  let main_v32 : IVec S1200000 1 := andi main_v27 main_v31
  let main_c_10 : IVec S_ 1 := constantI S_ 1 1#1
  let main_v33 : IVec S_ 1 := (fun x v => Host.reduce IntOp.andi x v reducesTo_S1200000_S_d0 h_S_) main_v32 main_c_10
  let main_v34 : IVec S_ 1 := andi main_v23 main_v33
  main_v34

def fn {F : FTy → Type} [FloatOps F] (main_arg0 : FVec F S100000x64 .f32) (main_arg1 : IVec S2x1200000 32) (main_arg2 : FVec F S3x64x64 .f32) (main_arg3 : FVec F S3x64 .f32) (main_arg4 : FVec F S3x64 .f32) (main_arg5 : FVec F S3x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg3
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg4
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg1 main_arg5 main_v13 main_v16
-- ==== Kernel.lean ====
abbrev S100000x64 : Shape := ⟨2, ![100000, 64]⟩
abbrev S2x1200000 : Shape := ⟨2, ![2, 1200000]⟩
abbrev S3x64x64 : Shape := ⟨3, ![3, 64, 64]⟩
abbrev S3x64 : Shape := ⟨2, ![3, 64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1x64x64 : Shape := ⟨3, ![1, 64, 64]⟩
abbrev S64x64 : Shape := ⟨2, ![64, 64]⟩
abbrev S10000x64 : Shape := ⟨2, ![10000, 64]⟩
abbrev S1 : Shape := ⟨1, ![1]⟩
abbrev S1x1 : Shape := ⟨2, ![1, 1]⟩
abbrev S1200000x64 : Shape := ⟨2, ![1200000, 64]⟩
abbrev S1x64 : Shape := ⟨2, ![1, 64]⟩
abbrev S64 : Shape := ⟨1, ![64]⟩

abbrev nBuf : Space → Nat
  | .hbm => 213
  | .vmem => 51
  | .smem => 0
  | _ => 0

abbrev hbmTy0_0 (i : Nat) : BufTy := match i % 128 with
  | 0 => ⟨S100000x64, .f32⟩
  | 1 => ⟨S2x1200000, .i32⟩
  | 2 => ⟨S3x64x64, .f32⟩
  | 3 => ⟨S3x64, .f32⟩
  | 4 => ⟨S3x64, .f32⟩
  | 5 => ⟨S3x64, .f32⟩
  | 6 => ⟨S1x1200000, .i32⟩
  | 7 => ⟨S1200000, .i32⟩
  | 8 => ⟨S1x1200000, .i32⟩
  | 9 => ⟨S1200000, .i32⟩
  | 10 => ⟨S_, .f32⟩
  | 11 => ⟨S1200000, .f32⟩
  | 12 => ⟨S_, .f32⟩
  | 13 => ⟨S100000, .f32⟩
  | 14 => ⟨S1200000x1, .i32⟩
  | 15 => ⟨S100000, .f32⟩
  | 16 => ⟨S_, .f32⟩
  | 17 => ⟨S100000, .f32⟩
  | 18 => ⟨S100000, .f32⟩
  | 19 => ⟨S100000, .f32⟩
  | 20 => ⟨S_, .i32⟩
  | 21 => ⟨S1200000, .i32⟩
  | 22 => ⟨S1200000, .i1⟩
  | 23 => ⟨S_, .i32⟩
  | 24 => ⟨S1200000, .i32⟩
  | 25 => ⟨S1200000, .i32⟩
  | 26 => ⟨S1200000, .i32⟩
  | 27 => ⟨S1200000x1, .i32⟩
  | 28 => ⟨S1200000, .f32⟩
  | 29 => ⟨S_, .i32⟩
  | 30 => ⟨S1200000, .i32⟩
  | 31 => ⟨S1200000, .i1⟩
  | 32 => ⟨S_, .i32⟩
  | 33 => ⟨S1200000, .i32⟩
  | 34 => ⟨S1200000, .i32⟩
  | 35 => ⟨S1200000, .i32⟩
  | 36 => ⟨S1200000x1, .i32⟩
  | 37 => ⟨S1200000, .f32⟩
  | 38 => ⟨S1200000, .f32⟩
  | 39 => ⟨S1200000x1, .f32⟩
  | 40 => ⟨S100000, .f32⟩
  | 41 => ⟨S100000x1, .f32⟩
  | 42 => ⟨S1x64x64, .f32⟩
  | 43 => ⟨S64x64, .f32⟩
  | 44 => ⟨S100000x64, .f32⟩
  | 45 => ⟨S_, .i32⟩
  | 46 => ⟨S1200000, .i32⟩
  | 47 => ⟨S1200000, .i1⟩
  | 48 => ⟨S_, .i32⟩
  | 49 => ⟨S1200000, .i32⟩
  | 50 => ⟨S1200000, .i32⟩
  | 51 => ⟨S1200000, .i32⟩
  | 52 => ⟨S1200000x1, .i32⟩
  | 53 => ⟨S1, .i32⟩
  | 54 => ⟨S_, .i32⟩
  | 55 => ⟨S1200000x1, .i32⟩
  | 56 => ⟨S1200000x1, .i1⟩
  | 57 => ⟨S1x1, .i32⟩
  | 58 => ⟨S1200000x1, .i32⟩
  | 59 => ⟨S1200000x1, .i1⟩
  | 60 => ⟨S1200000x1, .i1⟩
  | 61 => ⟨S_, .i1⟩
  | 62 => ⟨S1200000, .i1⟩
  | 63 => ⟨S1200000x64, .f32⟩
  | 64 => ⟨S1200000x64, .i1⟩
  | 65 => ⟨S_, .f32⟩
  | 66 => ⟨S1200000x64, .f32⟩
  | 67 => ⟨S1200000x64, .f32⟩
  | 68 => ⟨S1200000x64, .f32⟩
  | 69 => ⟨S1200000x64, .f32⟩
  | 70 => ⟨S_, .f32⟩
  | 71 => ⟨S100000x64, .f32⟩
  | 72 => ⟨S1200000x1, .i32⟩
  | 73 => ⟨S100000x64, .f32⟩
  | 74 => ⟨S100000x64, .f32⟩
  | 75 => ⟨S100000x64, .f32⟩
  | 76 => ⟨S100000x64, .f32⟩
  | 77 => ⟨S1x64, .f32⟩
  | 78 => ⟨S64, .f32⟩
  | 79 => ⟨S1x64, .f32⟩
  | 80 => ⟨S100000x64, .f32⟩
  | 81 => ⟨S100000x64, .f32⟩
  | 82 => ⟨S1x64, .f32⟩
  | 83 => ⟨S1x64, .f32⟩
  | 84 => ⟨S_, .f32⟩
  | 85 => ⟨S1x64, .f32⟩
  | 86 => ⟨S1x64, .f32⟩
  | 87 => ⟨S_, .f32⟩
  | 88 => ⟨S1x64, .f32⟩
  | 89 => ⟨S1x64, .f32⟩
  | 90 => ⟨S1x64, .f32⟩
  | 91 => ⟨S1x64, .f32⟩
  | 92 => ⟨S1x64, .f32⟩
  | 93 => ⟨S64, .f32⟩
  | 94 => ⟨S1x64, .f32⟩
  | 95 => ⟨S1x64, .f32⟩
  | 96 => ⟨S64, .f32⟩
  | 97 => ⟨S1x64, .f32⟩
  | 98 => ⟨S100000x64, .f32⟩
  | 99 => ⟨S1x64x64, .f32⟩
  | 100 => ⟨S64x64, .f32⟩
  | 101 => ⟨S100000x64, .f32⟩
  | 102 => ⟨S_, .i32⟩
  | 103 => ⟨S1200000, .i32⟩
  | 104 => ⟨S1200000, .i1⟩
  | 105 => ⟨S_, .i32⟩
  | 106 => ⟨S1200000, .i32⟩
  | 107 => ⟨S1200000, .i32⟩
  | 108 => ⟨S1200000, .i32⟩
  | 109 => ⟨S1200000x1, .i32⟩
  | 110 => ⟨S1, .i32⟩
  | 111 => ⟨S_, .i32⟩
  | 112 => ⟨S1200000x1, .i32⟩
  | 113 => ⟨S1200000x1, .i1⟩
  | 114 => ⟨S1x1, .i32⟩
  | 115 => ⟨S1200000x1, .i32⟩
  | 116 => ⟨S1200000x1, .i1⟩
  | 117 => ⟨S1200000x1, .i1⟩
  | 118 => ⟨S_, .i1⟩
  | 119 => ⟨S1200000, .i1⟩
  | 120 => ⟨S1200000x64, .f32⟩
  | 121 => ⟨S1200000x64, .i1⟩
  | 122 => ⟨S_, .f32⟩
  | 123 => ⟨S1200000x64, .f32⟩
  | 124 => ⟨S1200000x64, .f32⟩
  | 125 => ⟨S1200000x64, .f32⟩
  | 126 => ⟨S1200000x64, .f32⟩
  | 127 => ⟨S_, .f32⟩
  | _ => ⟨S100000x64, .f32⟩

abbrev hbmTy0_1 (i : Nat) : BufTy := match i % 128 with
  | 0 => ⟨S100000x64, .f32⟩
  | 1 => ⟨S1200000x1, .i32⟩
  | 2 => ⟨S100000x64, .f32⟩
  | 3 => ⟨S100000x64, .f32⟩
  | 4 => ⟨S100000x64, .f32⟩
  | 5 => ⟨S100000x64, .f32⟩
  | 6 => ⟨S1x64, .f32⟩
  | 7 => ⟨S64, .f32⟩
  | 8 => ⟨S1x64, .f32⟩
  | 9 => ⟨S100000x64, .f32⟩
  | 10 => ⟨S100000x64, .f32⟩
  | 11 => ⟨S1x64, .f32⟩
  | 12 => ⟨S1x64, .f32⟩
  | 13 => ⟨S_, .f32⟩
  | 14 => ⟨S1x64, .f32⟩
  | 15 => ⟨S1x64, .f32⟩
  | 16 => ⟨S_, .f32⟩
  | 17 => ⟨S1x64, .f32⟩
  | 18 => ⟨S1x64, .f32⟩
  | 19 => ⟨S1x64, .f32⟩
  | 20 => ⟨S1x64, .f32⟩
  | 21 => ⟨S1x64, .f32⟩
  | 22 => ⟨S64, .f32⟩
  | 23 => ⟨S1x64, .f32⟩
  | 24 => ⟨S1x64, .f32⟩
  | 25 => ⟨S64, .f32⟩
  | 26 => ⟨S1x64, .f32⟩
  | 27 => ⟨S100000x64, .f32⟩
  | 28 => ⟨S1x64x64, .f32⟩
  | 29 => ⟨S64x64, .f32⟩
  | 30 => ⟨S100000x64, .f32⟩
  | 31 => ⟨S_, .i32⟩
  | 32 => ⟨S1200000, .i32⟩
  | 33 => ⟨S1200000, .i1⟩
  | 34 => ⟨S_, .i32⟩
  | 35 => ⟨S1200000, .i32⟩
  | 36 => ⟨S1200000, .i32⟩
  | 37 => ⟨S1200000, .i32⟩
  | 38 => ⟨S1200000x1, .i32⟩
  | 39 => ⟨S1, .i32⟩
  | 40 => ⟨S_, .i32⟩
  | 41 => ⟨S1200000x1, .i32⟩
  | 42 => ⟨S1200000x1, .i1⟩
  | 43 => ⟨S1x1, .i32⟩
  | 44 => ⟨S1200000x1, .i32⟩
  | 45 => ⟨S1200000x1, .i1⟩
  | 46 => ⟨S1200000x1, .i1⟩
  | 47 => ⟨S_, .i1⟩
  | 48 => ⟨S1200000, .i1⟩
  | 49 => ⟨S1200000x64, .f32⟩
  | 50 => ⟨S1200000x64, .i1⟩
  | 51 => ⟨S_, .f32⟩
  | 52 => ⟨S1200000x64, .f32⟩
  | 53 => ⟨S1200000x64, .f32⟩
  | 54 => ⟨S1200000x64, .f32⟩
  | 55 => ⟨S1200000x64, .f32⟩
  | 56 => ⟨S_, .f32⟩
  | 57 => ⟨S100000x64, .f32⟩
  | 58 => ⟨S1200000x1, .i32⟩
  | 59 => ⟨S100000x64, .f32⟩
  | 60 => ⟨S100000x64, .f32⟩
  | 61 => ⟨S100000x64, .f32⟩
  | 62 => ⟨S100000x64, .f32⟩
  | 63 => ⟨S1x64, .f32⟩
  | 64 => ⟨S64, .f32⟩
  | 65 => ⟨S1x64, .f32⟩
  | 66 => ⟨S100000x64, .f32⟩
  | 67 => ⟨S100000x64, .f32⟩
  | 68 => ⟨S1x64, .f32⟩
  | 69 => ⟨S1x64, .f32⟩
  | 70 => ⟨S_, .f32⟩
  | 71 => ⟨S1x64, .f32⟩
  | 72 => ⟨S1x64, .f32⟩
  | 73 => ⟨S_, .f32⟩
  | 74 => ⟨S1x64, .f32⟩
  | 75 => ⟨S1x64, .f32⟩
  | 76 => ⟨S1x64, .f32⟩
  | 77 => ⟨S1x64, .f32⟩
  | 78 => ⟨S1x64, .f32⟩
  | 79 => ⟨S64, .f32⟩
  | 80 => ⟨S1x64, .f32⟩
  | 81 => ⟨S1x64, .f32⟩
  | 82 => ⟨S64, .f32⟩
  | 83 => ⟨S1x64, .f32⟩
  | 84 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S1x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S64x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S1x64, .f32⟩
  | .local _ .vmem, ⟨42, _⟩ => ⟨S1x64, .f32⟩
  | .local _ .vmem, ⟨43, _⟩ => ⟨S10000x64, .f32⟩
  | .local _ .vmem, ⟨44, _⟩ => ⟨S10000x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S10000x64, .f32⟩
  | .local _ .vmem, ⟨50, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_c : Ref sig .tc := ⟨.hbm, 45, rfl⟩
abbrev main_call0_v0 : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_c_1 : Ref sig .tc := ⟨.hbm, 53, rfl⟩
abbrev main_call0_c_2 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_3 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_call0_cst : Ref sig .tc := ⟨.hbm, 65, rfl⟩
abbrev main_call0_v15 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_5 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46_0 : Ref sig .tc := ⟨.hbm, 82, rfl⟩
abbrev main_v46_1 : Ref sig .tc := ⟨.hbm, 83, rfl⟩
abbrev main_cst_6 : Ref sig .tc := ⟨.hbm, 84, rfl⟩
abbrev main_v47 : Ref sig .tc := ⟨.hbm, 85, rfl⟩
abbrev main_v48 : Ref sig .tc := ⟨.hbm, 86, rfl⟩
abbrev main_cst_7 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call1_c : Ref sig .tc := ⟨.hbm, 102, rfl⟩
abbrev main_call1_v0 : Ref sig .tc := ⟨.hbm, 103, rfl⟩
abbrev main_call1_v1 : Ref sig .tc := ⟨.hbm, 104, rfl⟩
abbrev main_call1_c_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_c_1 : Ref sig .tc := ⟨.hbm, 110, rfl⟩
abbrev main_call1_c_2 : Ref sig .tc := ⟨.hbm, 111, rfl⟩
abbrev main_call1_v6 : Ref sig .tc := ⟨.hbm, 112, rfl⟩
abbrev main_call1_v7 : Ref sig .tc := ⟨.hbm, 113, rfl⟩
abbrev main_call1_v8 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_c_3 : Ref sig .tc := ⟨.hbm, 118, rfl⟩
abbrev main_call1_v12 : Ref sig .tc := ⟨.hbm, 119, rfl⟩
abbrev main_call1_v13 : Ref sig .tc := ⟨.hbm, 120, rfl⟩
abbrev main_call1_v14 : Ref sig .tc := ⟨.hbm, 121, rfl⟩
abbrev main_call1_cst : Ref sig .tc := ⟨.hbm, 122, rfl⟩
abbrev main_call1_v15 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_cst_8 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77_0 : Ref sig .tc := ⟨.hbm, 139, rfl⟩
abbrev main_v77_1 : Ref sig .tc := ⟨.hbm, 140, rfl⟩
abbrev main_cst_9 : Ref sig .tc := ⟨.hbm, 141, rfl⟩
abbrev main_v78 : Ref sig .tc := ⟨.hbm, 142, rfl⟩
abbrev main_v79 : Ref sig .tc := ⟨.hbm, 143, rfl⟩
abbrev main_cst_10 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_call2_c : Ref sig .tc := ⟨.hbm, 159, rfl⟩
abbrev main_call2_v0 : Ref sig .tc := ⟨.hbm, 160, rfl⟩
abbrev main_call2_v1 : Ref sig .tc := ⟨.hbm, 161, rfl⟩
abbrev main_call2_c_0 : Ref sig .tc := ⟨.hbm, 162, rfl⟩
abbrev main_call2_v2 : Ref sig .tc := ⟨.hbm, 163, rfl⟩
abbrev main_call2_v3 : Ref sig .tc := ⟨.hbm, 164, rfl⟩
abbrev main_call2_v4 : Ref sig .tc := ⟨.hbm, 165, rfl⟩
abbrev main_call2_v5 : Ref sig .tc := ⟨.hbm, 166, rfl⟩
abbrev main_call2_c_1 : Ref sig .tc := ⟨.hbm, 167, rfl⟩
abbrev main_call2_c_2 : Ref sig .tc := ⟨.hbm, 168, rfl⟩
abbrev main_call2_v6 : Ref sig .tc := ⟨.hbm, 169, rfl⟩
abbrev main_call2_v7 : Ref sig .tc := ⟨.hbm, 170, rfl⟩
abbrev main_call2_v8 : Ref sig .tc := ⟨.hbm, 171, rfl⟩
abbrev main_call2_v9 : Ref sig .tc := ⟨.hbm, 172, rfl⟩
abbrev main_call2_v10 : Ref sig .tc := ⟨.hbm, 173, rfl⟩
abbrev main_call2_v11 : Ref sig .tc := ⟨.hbm, 174, rfl⟩
abbrev main_call2_c_3 : Ref sig .tc := ⟨.hbm, 175, rfl⟩
abbrev main_call2_v12 : Ref sig .tc := ⟨.hbm, 176, rfl⟩
abbrev main_call2_v13 : Ref sig .tc := ⟨.hbm, 177, rfl⟩
abbrev main_call2_v14 : Ref sig .tc := ⟨.hbm, 178, rfl⟩
abbrev main_call2_cst : Ref sig .tc := ⟨.hbm, 179, rfl⟩
abbrev main_call2_v15 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_cst_11 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108_0 : Ref sig .tc := ⟨.hbm, 196, rfl⟩
abbrev main_v108_1 : Ref sig .tc := ⟨.hbm, 197, rfl⟩
abbrev main_cst_12 : Ref sig .tc := ⟨.hbm, 198, rfl⟩
abbrev main_v109 : Ref sig .tc := ⟨.hbm, 199, rfl⟩
abbrev main_v110 : Ref sig .tc := ⟨.hbm, 200, rfl⟩
abbrev main_cst_13 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg5_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg3_0 : Ref sig .tc := ⟨.vmem, 47, rfl⟩
abbrev cc8_stg4_0 : Ref sig .tc := ⟨.vmem, 48, rfl⟩
abbrev cc8_stg5_0 : Ref sig .tc := ⟨.vmem, 49, rfl⟩
abbrev cc8_stg5_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem3_0 : DmaSem sig := 47
abbrev cc8_sem4_0 : DmaSem sig := 48
abbrev cc8_sem5_0 : DmaSem sig := 49
abbrev cc8_sem5_1 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  slices_S3x64x64_S1x64x64_0_0_0 : S3x64x64.Slices ![0, 0, 0] S1x64x64
  shapeCasts_S1x64x64_S64x64 : S1x64x64.ShapeCasts S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x64_0 : S1200000.BroadcastsInDim S1200000x64 (![0] : Fin 1 → Fin S1200000x64.rank)
  bcast_S_S1200000x64 : S_.BroadcastsInDim S1200000x64 (![] : Fin 0 → Fin S1200000x64.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S10000x64_S10000x64 : S10000x64.ShapeCasts S10000x64
  shapeCasts_S1x64_S1x64 : S1x64.ShapeCasts S1x64
  reduces_S10000x64_S64 : S10000x64.Reduces [0] S64
  shapeCasts_S64_S1x64 : S64.ShapeCasts S1x64
  bcast_S_S1x64 : S_.BroadcastsInDim S1x64 (![] : Fin 0 → Fin S1x64.rank)
  broadcasts_S1x64_S10000x64 : S1x64.Broadcasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S10000x64_S64x64_S10000x64_1_0_0_1_n_n_wf : DotDims.WF S10000x64 S64x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S100000x64.size a
  hwx8_5 : ∀ i : grid8.Coords, EltTy.bits .f32 = 32 ∨ (Rect.block (s := S100000x64) S10000x64.size (cc8_transform_5 i) (hinb8_5 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77_0) S1x64.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77_1) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v89) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v90) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v90) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v92) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v107) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v108_0) S1x64.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v108_1) S1x64.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v107) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v110) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v114) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v117) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v120) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v121) S10000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S3x64x64 : Shape := ⟨3, ![3, 64, 64]⟩
abbrev S3x64 : Shape := ⟨2, ![3, 64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1x64x64 : Shape := ⟨3, ![1, 64, 64]⟩
abbrev S64x64 : Shape := ⟨2, ![64, 64]⟩
abbrev S1200000x64 : Shape := ⟨2, ![1200000, 64]⟩
abbrev S1x64 : Shape := ⟨2, ![1, 64]⟩
abbrev S64 : Shape := ⟨1, ![64]⟩

abbrev nBuf : Space → Nat
  | .hbm => 285
  | .vmem => 0
  | .smem => 0
  | _ => 0

abbrev hbmTy0_0 (i : Nat) : BufTy := match i % 128 with
  | 0 => ⟨S100000x64, .f32⟩
  | 1 => ⟨S2x1200000, .i32⟩
  | 2 => ⟨S3x64x64, .f32⟩
  | 3 => ⟨S3x64, .f32⟩
  | 4 => ⟨S3x64, .f32⟩
  | 5 => ⟨S3x64, .f32⟩
  | 6 => ⟨S1x1200000, .i32⟩
  | 7 => ⟨S1200000, .i32⟩
  | 8 => ⟨S1x1200000, .i32⟩
  | 9 => ⟨S1200000, .i32⟩
  | 10 => ⟨S_, .f32⟩
  | 11 => ⟨S1200000, .f32⟩
  | 12 => ⟨S_, .f32⟩
  | 13 => ⟨S100000, .f32⟩
  | 14 => ⟨S1200000x1, .i32⟩
  | 15 => ⟨S100000, .f32⟩
  | 16 => ⟨S_, .f32⟩
  | 17 => ⟨S100000, .f32⟩
  | 18 => ⟨S100000, .f32⟩
  | 19 => ⟨S100000, .f32⟩
  | 20 => ⟨S_, .i32⟩
  | 21 => ⟨S1200000, .i32⟩
  | 22 => ⟨S1200000, .i1⟩
  | 23 => ⟨S_, .i32⟩
  | 24 => ⟨S1200000, .i32⟩
  | 25 => ⟨S1200000, .i32⟩
  | 26 => ⟨S1200000, .i32⟩
  | 27 => ⟨S1200000x1, .i32⟩
  | 28 => ⟨S1200000, .f32⟩
  | 29 => ⟨S_, .i32⟩
  | 30 => ⟨S1200000, .i32⟩
  | 31 => ⟨S1200000, .i1⟩
  | 32 => ⟨S_, .i32⟩
  | 33 => ⟨S1200000, .i32⟩
  | 34 => ⟨S1200000, .i32⟩
  | 35 => ⟨S1200000, .i32⟩
  | 36 => ⟨S1200000x1, .i32⟩
  | 37 => ⟨S1200000, .f32⟩
  | 38 => ⟨S1200000, .f32⟩
  | 39 => ⟨S1200000x1, .f32⟩
  | 40 => ⟨S100000, .f32⟩
  | 41 => ⟨S100000x1, .f32⟩
  | 42 => ⟨S1x64x64, .f32⟩
  | 43 => ⟨S64x64, .f32⟩
  | 44 => ⟨S100000x64, .f32⟩
  | 45 => ⟨S_, .i32⟩
  | 46 => ⟨S1200000, .i32⟩
  | 47 => ⟨S1200000, .i1⟩
  | 48 => ⟨S_, .i32⟩
  | 49 => ⟨S1200000, .i32⟩
  | 50 => ⟨S1200000, .i32⟩
  | 51 => ⟨S1200000, .i32⟩
  | 52 => ⟨S1200000x1, .i32⟩
  | 53 => ⟨S1200000x64, .f32⟩
  | 54 => ⟨S1200000x64, .f32⟩
  | 55 => ⟨S1200000x64, .f32⟩
  | 56 => ⟨S_, .f32⟩
  | 57 => ⟨S100000x64, .f32⟩
  | 58 => ⟨S1200000x1, .i32⟩
  | 59 => ⟨S100000x64, .f32⟩
  | 60 => ⟨S100000x64, .f32⟩
  | 61 => ⟨S100000x64, .f32⟩
  | 62 => ⟨S100000x64, .f32⟩
  | 63 => ⟨S1x64, .f32⟩
  | 64 => ⟨S64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .i1⟩
  | 71 => ⟨S_, .f32⟩
  | 72 => ⟨S100000x64, .f32⟩
  | 73 => ⟨S100000x64, .f32⟩
  | 74 => ⟨S100000x64, .f32⟩
  | 75 => ⟨S_, .f32⟩
  | 76 => ⟨S64, .f32⟩
  | 77 => ⟨S_, .f32⟩
  | 78 => ⟨S64, .f32⟩
  | 79 => ⟨S64, .f32⟩
  | 80 => ⟨S_, .i32⟩
  | 81 => ⟨S_, .f32⟩
  | 82 => ⟨S64, .f32⟩
  | 83 => ⟨S1x64, .f32⟩
  | 84 => ⟨S_, .f32⟩
  | 85 => ⟨S1x64, .f32⟩
  | 86 => ⟨S1x64, .f32⟩
  | 87 => ⟨S100000x64, .f32⟩
  | 88 => ⟨S100000x64, .f32⟩
  | 89 => ⟨S100000x64, .f32⟩
  | 90 => ⟨S_, .f32⟩
  | 91 => ⟨S_, .f32⟩
  | 92 => ⟨S_, .f32⟩
  | 93 => ⟨S_, .f32⟩
  | 94 => ⟨S64, .f32⟩
  | 95 => ⟨S64, .f32⟩
  | 96 => ⟨S64, .f32⟩
  | 97 => ⟨S_, .f32⟩
  | 98 => ⟨S_, .i1⟩
  | 99 => ⟨S_, .f32⟩
  | 100 => ⟨S_, .f32⟩
  | 101 => ⟨S64, .f32⟩
  | 102 => ⟨S64, .f32⟩
  | 103 => ⟨S1x64, .f32⟩
  | 104 => ⟨S64, .f32⟩
  | 105 => ⟨S1x64, .f32⟩
  | 106 => ⟨S100000x64, .f32⟩
  | 107 => ⟨S100000x64, .f32⟩
  | 108 => ⟨S1x64, .f32⟩
  | 109 => ⟨S100000x64, .f32⟩
  | 110 => ⟨S100000x64, .f32⟩
  | 111 => ⟨S_, .f32⟩
  | 112 => ⟨S64, .f32⟩
  | 113 => ⟨S64, .f32⟩
  | 114 => ⟨S64, .f32⟩
  | 115 => ⟨S1x64, .f32⟩
  | 116 => ⟨S100000x64, .f32⟩
  | 117 => ⟨S100000x64, .f32⟩
  | 118 => ⟨S1x64, .f32⟩
  | 119 => ⟨S64, .f32⟩
  | 120 => ⟨S1x64, .f32⟩
  | 121 => ⟨S100000x64, .f32⟩
  | 122 => ⟨S100000x64, .f32⟩
  | 123 => ⟨S1x64x64, .f32⟩
  | 124 => ⟨S64x64, .f32⟩
  | 125 => ⟨S100000x64, .f32⟩
  | 126 => ⟨S_, .i32⟩
  | 127 => ⟨S1200000, .i32⟩
  | _ => ⟨S100000x64, .f32⟩

abbrev hbmTy0_1 (i : Nat) : BufTy := match i % 128 with
  | 0 => ⟨S1200000, .i1⟩
  | 1 => ⟨S_, .i32⟩
  | 2 => ⟨S1200000, .i32⟩
  | 3 => ⟨S1200000, .i32⟩
  | 4 => ⟨S1200000, .i32⟩
  | 5 => ⟨S1200000x1, .i32⟩
  | 6 => ⟨S1200000x64, .f32⟩
  | 7 => ⟨S1200000x64, .f32⟩
  | 8 => ⟨S1200000x64, .f32⟩
  | 9 => ⟨S_, .f32⟩
  | 10 => ⟨S100000x64, .f32⟩
  | 11 => ⟨S1200000x1, .i32⟩
  | 12 => ⟨S100000x64, .f32⟩
  | 13 => ⟨S100000x64, .f32⟩
  | 14 => ⟨S100000x64, .f32⟩
  | 15 => ⟨S100000x64, .f32⟩
  | 16 => ⟨S1x64, .f32⟩
  | 17 => ⟨S64, .f32⟩
  | 18 => ⟨S1x64, .f32⟩
  | 19 => ⟨S100000x64, .f32⟩
  | 20 => ⟨S100000x64, .f32⟩
  | 21 => ⟨S_, .f32⟩
  | 22 => ⟨S100000x64, .f32⟩
  | 23 => ⟨S100000x64, .i1⟩
  | 24 => ⟨S_, .f32⟩
  | 25 => ⟨S100000x64, .f32⟩
  | 26 => ⟨S100000x64, .f32⟩
  | 27 => ⟨S100000x64, .f32⟩
  | 28 => ⟨S_, .f32⟩
  | 29 => ⟨S64, .f32⟩
  | 30 => ⟨S_, .f32⟩
  | 31 => ⟨S64, .f32⟩
  | 32 => ⟨S64, .f32⟩
  | 33 => ⟨S_, .i32⟩
  | 34 => ⟨S_, .f32⟩
  | 35 => ⟨S64, .f32⟩
  | 36 => ⟨S1x64, .f32⟩
  | 37 => ⟨S_, .f32⟩
  | 38 => ⟨S1x64, .f32⟩
  | 39 => ⟨S1x64, .f32⟩
  | 40 => ⟨S100000x64, .f32⟩
  | 41 => ⟨S100000x64, .f32⟩
  | 42 => ⟨S100000x64, .f32⟩
  | 43 => ⟨S_, .f32⟩
  | 44 => ⟨S_, .f32⟩
  | 45 => ⟨S_, .f32⟩
  | 46 => ⟨S_, .f32⟩
  | 47 => ⟨S64, .f32⟩
  | 48 => ⟨S64, .f32⟩
  | 49 => ⟨S64, .f32⟩
  | 50 => ⟨S_, .f32⟩
  | 51 => ⟨S_, .i1⟩
  | 52 => ⟨S_, .f32⟩
  | 53 => ⟨S_, .f32⟩
  | 54 => ⟨S64, .f32⟩
  | 55 => ⟨S64, .f32⟩
  | 56 => ⟨S1x64, .f32⟩
  | 57 => ⟨S64, .f32⟩
  | 58 => ⟨S1x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S64, .f32⟩
  | 66 => ⟨S64, .f32⟩
  | 67 => ⟨S64, .f32⟩
  | 68 => ⟨S1x64, .f32⟩
  | 69 => ⟨S100000x64, .f32⟩
  | 70 => ⟨S100000x64, .f32⟩
  | 71 => ⟨S1x64, .f32⟩
  | 72 => ⟨S64, .f32⟩
  | 73 => ⟨S1x64, .f32⟩
  | 74 => ⟨S100000x64, .f32⟩
  | 75 => ⟨S100000x64, .f32⟩
  | 76 => ⟨S1x64x64, .f32⟩
  | 77 => ⟨S64x64, .f32⟩
  | 78 => ⟨S100000x64, .f32⟩
  | 79 => ⟨S_, .i32⟩
  | 80 => ⟨S1200000, .i32⟩
  | 81 => ⟨S1200000, .i1⟩
  | 82 => ⟨S_, .i32⟩
  | 83 => ⟨S1200000, .i32⟩
  | 84 => ⟨S1200000, .i32⟩
  | 85 => ⟨S1200000, .i32⟩
  | 86 => ⟨S1200000x1, .i32⟩
  | 87 => ⟨S1200000x64, .f32⟩
  | 88 => ⟨S1200000x64, .f32⟩
  | 89 => ⟨S1200000x64, .f32⟩
  | 90 => ⟨S_, .f32⟩
  | 91 => ⟨S100000x64, .f32⟩
  | 92 => ⟨S1200000x1, .i32⟩
  | 93 => ⟨S100000x64, .f32⟩
  | 94 => ⟨S100000x64, .f32⟩
  | 95 => ⟨S100000x64, .f32⟩
  | 96 => ⟨S100000x64, .f32⟩
  | 97 => ⟨S1x64, .f32⟩
  | 98 => ⟨S64, .f32⟩
  | 99 => ⟨S1x64, .f32⟩
  | 100 => ⟨S100000x64, .f32⟩
  | 101 => ⟨S100000x64, .f32⟩
  | 102 => ⟨S_, .f32⟩
  | 103 => ⟨S100000x64, .f32⟩
  | 104 => ⟨S100000x64, .i1⟩
  | 105 => ⟨S_, .f32⟩
  | 106 => ⟨S100000x64, .f32⟩
  | 107 => ⟨S100000x64, .f32⟩
  | 108 => ⟨S100000x64, .f32⟩
  | 109 => ⟨S_, .f32⟩
  | 110 => ⟨S64, .f32⟩
  | 111 => ⟨S_, .f32⟩
  | 112 => ⟨S64, .f32⟩
  | 113 => ⟨S64, .f32⟩
  | 114 => ⟨S_, .i32⟩
  | 115 => ⟨S_, .f32⟩
  | 116 => ⟨S64, .f32⟩
  | 117 => ⟨S1x64, .f32⟩
  | 118 => ⟨S_, .f32⟩
  | 119 => ⟨S1x64, .f32⟩
  | 120 => ⟨S1x64, .f32⟩
  | 121 => ⟨S100000x64, .f32⟩
  | 122 => ⟨S100000x64, .f32⟩
  | 123 => ⟨S100000x64, .f32⟩
  | 124 => ⟨S_, .f32⟩
  | 125 => ⟨S_, .f32⟩
  | 126 => ⟨S_, .f32⟩
  | 127 => ⟨S_, .f32⟩
  | _ => ⟨S100000x64, .f32⟩

abbrev hbmTy0_2 (i : Nat) : BufTy := match i % 128 with
  | 0 => ⟨S64, .f32⟩
  | 1 => ⟨S64, .f32⟩
  | 2 => ⟨S64, .f32⟩
  | 3 => ⟨S_, .f32⟩
  | 4 => ⟨S_, .i1⟩
  | 5 => ⟨S_, .f32⟩
  | 6 => ⟨S_, .f32⟩
  | 7 => ⟨S64, .f32⟩
  | 8 => ⟨S64, .f32⟩
  | 9 => ⟨S1x64, .f32⟩
  | 10 => ⟨S64, .f32⟩
  | 11 => ⟨S1x64, .f32⟩
  | 12 => ⟨S100000x64, .f32⟩
  | 13 => ⟨S100000x64, .f32⟩
  | 14 => ⟨S1x64, .f32⟩
  | 15 => ⟨S100000x64, .f32⟩
  | 16 => ⟨S100000x64, .f32⟩
  | 17 => ⟨S_, .f32⟩
  | 18 => ⟨S64, .f32⟩
  | 19 => ⟨S64, .f32⟩
  | 20 => ⟨S64, .f32⟩
  | 21 => ⟨S1x64, .f32⟩
  | 22 => ⟨S100000x64, .f32⟩
  | 23 => ⟨S100000x64, .f32⟩
  | 24 => ⟨S1x64, .f32⟩
  | 25 => ⟨S64, .f32⟩
  | 26 => ⟨S1x64, .f32⟩
  | 27 => ⟨S100000x64, .f32⟩
  | 28 => ⟨S100000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_c_12 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_cst_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_cst_1 : Ref sig .tc := ⟨.hbm, 91, rfl⟩
abbrev main_call1_v8 : Ref sig .tc := ⟨.hbm, 92, rfl⟩
abbrev main_call1_cst_2 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_cst_3 : Ref sig .tc := ⟨.hbm, 97, rfl⟩
abbrev main_call1_v12 : Ref sig .tc := ⟨.hbm, 98, rfl⟩
abbrev main_call1_cst_4 : Ref sig .tc := ⟨.hbm, 99, rfl⟩
abbrev main_call1_call0_v0 : Ref sig .tc := ⟨.hbm, 100, rfl⟩
abbrev main_call1_call0_v1 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_13 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_c_14 : Ref sig .tc := ⟨.hbm, 126, rfl⟩
abbrev main_v83 : Ref sig .tc := ⟨.hbm, 127, rfl⟩
abbrev main_v84 : Ref sig .tc := ⟨.hbm, 128, rfl⟩
abbrev main_c_15 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_16 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_17 : Ref sig .tc := ⟨.hbm, 149, rfl⟩
abbrev main_v103 : Ref sig .tc := ⟨.hbm, 150, rfl⟩
abbrev main_v104 : Ref sig .tc := ⟨.hbm, 151, rfl⟩
abbrev main_cst_18 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_19 : Ref sig .tc := ⟨.hbm, 156, rfl⟩
abbrev main_v108 : Ref sig .tc := ⟨.hbm, 157, rfl⟩
abbrev main_cst_20 : Ref sig .tc := ⟨.hbm, 158, rfl⟩
abbrev main_v109 : Ref sig .tc := ⟨.hbm, 159, rfl⟩
abbrev main_v110 : Ref sig .tc := ⟨.hbm, 160, rfl⟩
abbrev main_c_21 : Ref sig .tc := ⟨.hbm, 161, rfl⟩
abbrev main_call3_cst : Ref sig .tc := ⟨.hbm, 162, rfl⟩
abbrev main_call3_v0 : Ref sig .tc := ⟨.hbm, 163, rfl⟩
abbrev main_call3_v1 : Ref sig .tc := ⟨.hbm, 164, rfl⟩
abbrev main_call3_cst_0 : Ref sig .tc := ⟨.hbm, 165, rfl⟩
abbrev main_call3_v2 : Ref sig .tc := ⟨.hbm, 166, rfl⟩
abbrev main_call3_v3 : Ref sig .tc := ⟨.hbm, 167, rfl⟩
abbrev main_call3_v4 : Ref sig .tc := ⟨.hbm, 168, rfl⟩
abbrev main_call3_v5 : Ref sig .tc := ⟨.hbm, 169, rfl⟩
abbrev main_call3_v6 : Ref sig .tc := ⟨.hbm, 170, rfl⟩
abbrev main_call3_v7 : Ref sig .tc := ⟨.hbm, 171, rfl⟩
abbrev main_call3_cst_1 : Ref sig .tc := ⟨.hbm, 172, rfl⟩
abbrev main_call3_v8 : Ref sig .tc := ⟨.hbm, 173, rfl⟩
abbrev main_call3_cst_2 : Ref sig .tc := ⟨.hbm, 174, rfl⟩
abbrev main_call3_v9 : Ref sig .tc := ⟨.hbm, 175, rfl⟩
abbrev main_call3_v10 : Ref sig .tc := ⟨.hbm, 176, rfl⟩
abbrev main_call3_v11 : Ref sig .tc := ⟨.hbm, 177, rfl⟩
abbrev main_call3_cst_3 : Ref sig .tc := ⟨.hbm, 178, rfl⟩
abbrev main_call3_v12 : Ref sig .tc := ⟨.hbm, 179, rfl⟩
abbrev main_call3_cst_4 : Ref sig .tc := ⟨.hbm, 180, rfl⟩
abbrev main_call3_call0_v0 : Ref sig .tc := ⟨.hbm, 181, rfl⟩
abbrev main_call3_call0_v1 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_cst_22 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_c_23 : Ref sig .tc := ⟨.hbm, 207, rfl⟩
abbrev main_v134 : Ref sig .tc := ⟨.hbm, 208, rfl⟩
abbrev main_v135 : Ref sig .tc := ⟨.hbm, 209, rfl⟩
abbrev main_c_24 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_cst_25 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_cst_26 : Ref sig .tc := ⟨.hbm, 230, rfl⟩
abbrev main_v154 : Ref sig .tc := ⟨.hbm, 231, rfl⟩
abbrev main_v155 : Ref sig .tc := ⟨.hbm, 232, rfl⟩
abbrev main_cst_27 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_cst_28 : Ref sig .tc := ⟨.hbm, 237, rfl⟩
abbrev main_v159 : Ref sig .tc := ⟨.hbm, 238, rfl⟩
abbrev main_cst_29 : Ref sig .tc := ⟨.hbm, 239, rfl⟩
abbrev main_v160 : Ref sig .tc := ⟨.hbm, 240, rfl⟩
abbrev main_v161 : Ref sig .tc := ⟨.hbm, 241, rfl⟩
abbrev main_c_30 : Ref sig .tc := ⟨.hbm, 242, rfl⟩
abbrev main_call5_cst : Ref sig .tc := ⟨.hbm, 243, rfl⟩
abbrev main_call5_v0 : Ref sig .tc := ⟨.hbm, 244, rfl⟩
abbrev main_call5_v1 : Ref sig .tc := ⟨.hbm, 245, rfl⟩
abbrev main_call5_cst_0 : Ref sig .tc := ⟨.hbm, 246, rfl⟩
abbrev main_call5_v2 : Ref sig .tc := ⟨.hbm, 247, rfl⟩
abbrev main_call5_v3 : Ref sig .tc := ⟨.hbm, 248, rfl⟩
abbrev main_call5_v4 : Ref sig .tc := ⟨.hbm, 249, rfl⟩
abbrev main_call5_v5 : Ref sig .tc := ⟨.hbm, 250, rfl⟩
abbrev main_call5_v6 : Ref sig .tc := ⟨.hbm, 251, rfl⟩
abbrev main_call5_v7 : Ref sig .tc := ⟨.hbm, 252, rfl⟩
abbrev main_call5_cst_1 : Ref sig .tc := ⟨.hbm, 253, rfl⟩
abbrev main_call5_v8 : Ref sig .tc := ⟨.hbm, 254, rfl⟩
abbrev main_call5_cst_2 : Ref sig .tc := ⟨.hbm, 255, rfl⟩
abbrev main_call5_v9 : Ref sig .tc := ⟨.hbm, 256, rfl⟩
abbrev main_call5_v10 : Ref sig .tc := ⟨.hbm, 257, rfl⟩
abbrev main_call5_v11 : Ref sig .tc := ⟨.hbm, 258, rfl⟩
abbrev main_call5_cst_3 : Ref sig .tc := ⟨.hbm, 259, rfl⟩
abbrev main_call5_v12 : Ref sig .tc := ⟨.hbm, 260, rfl⟩
abbrev main_call5_cst_4 : Ref sig .tc := ⟨.hbm, 261, rfl⟩
abbrev main_call5_call0_v0 : Ref sig .tc := ⟨.hbm, 262, rfl⟩
abbrev main_call5_call0_v1 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_cst_31 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_v174 : Ref sig .tc := ⟨.hbm, 277, rfl⟩
abbrev main_v175 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  slices_S3x64x64_S1x64x64_0_0_0 : S3x64x64.Slices ![0, 0, 0] S1x64x64
  shapeCasts_S1x64x64_S64x64 : S1x64x64.ShapeCasts S64x64
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.KerTerm.lean ====
/-
  The pure terms the kernel program's host operations compute between its pallas_calls, named by what they are:
  the edge list's two rows, the symmetric normalisation weights of the graph, the aggregation of a node table over
  the graph, and each layer's slice of the stacked parameters. The one difference from the plain program's terms is
  `gath`: here the gathered source rows pass through a select on "the start index lies in 0 … 99999", with a fill
  value for the indices outside.
-/
import proofs.«426465_j33225867002208_1_alg».proof.Proof.Gen.KernelIdeal
import Idealize.ShloMosaic.PureOps.Ideal

noncomputable section

namespace Cert.KernelIdeal.Terms

open Cert.KernelIdeal Cert.KernelIdeal.Gen Idealize.ShloMosaic

variable {F : FTy → Type} [FloatOps F]

/-- The edges' source nodes: row 0 of the edge list. -/
def src (ei : IVec S2x1200000 32) : IVec S1200000 32 :=
  shapeCast S1200000 (extractStridedSlice S1x1200000 ![0, 0] ei slices_S2x1200000_S1x1200000_0_0) shapeCasts_S1x1200000_S1200000
/-- The edges' destination nodes: row 1 of the edge list. -/
def dst (ei : IVec S2x1200000 32) : IVec S1200000 32 :=
  shapeCast S1200000 (extractStridedSlice S1x1200000 ![1, 0] ei slices_S2x1200000_S1x1200000_1_0) shapeCasts_S1x1200000_S1200000
/-- A negative node number counted from the end: `v + 100000` where `v < 0`, else `v`. -/
def wrap (v : IVec S1200000 32) : IVec S1200000 32 :=
  select (cmpi .slt v (broadcastInDim S1200000 ![] bcast_S_S1200000 (constantI S_ 32 0#32)))
    (addi v (broadcastInDim S1200000 ![] bcast_S_S1200000 (constantI S_ 32 100000#32))) v
/-- A node list as a column of start indices. -/
def col (v : IVec S1200000 32) : IVec S1200000x1 32 := broadcastInDim S1200000x1 ![0] bcast_S1200000_S1200000x1_0 v
/-- Each node's in-degree plus one (its self loop): ones scattered onto the destinations, plus one. -/
def deg (ei : IVec S2x1200000 32) : FVec F S100000 .f32 :=
  addf (Host.scatterAdd scatter_S100000_S1200000x1_S1200000_n_0_0_1
      (broadcastInDim S100000 ![] bcast_S_S100000 (constant S_ .f32 0x00000000#32)) (col (dst ei))
      (broadcastInDim S1200000 ![] bcast_S_S1200000 (constant S_ .f32 0x3F800000#32)))
    (broadcastInDim S100000 ![] bcast_S_S100000 (constant S_ .f32 0x3F800000#32))
/-- One over the square root of the degree. -/
def dinv (ei : IVec S2x1200000 32) : FVec F S100000 .f32 := Host.rsqrt (deg ei)
/-- An edge's weight: the product of its endpoints' `dinv`, as a column. -/
def enorm (ei : IVec S2x1200000 32) : FVec F S1200000x1 .f32 :=
  broadcastInDim S1200000x1 ![0] bcast_S1200000_S1200000x1_0
    (mulf (Host.gather gather_S100000_S1200000x1_S1200000_n_0_n_n_0_1_1 (dinv ei) (col (wrap (src ei))))
      (Host.gather gather_S100000_S1200000x1_S1200000_n_0_n_n_0_1_1 (dinv ei) (col (wrap (dst ei)))))
/-- A node's self-loop weight: `dinv` squared, as a column. -/
def snorm (ei : IVec S2x1200000 32) : FVec F S100000x1 .f32 :=
  broadcastInDim S100000x1 ![0] bcast_S100000_S100000x1_0 (mulf (dinv ei) (dinv ei))
/-- The source rows of a node table, one per edge. -/
def gath (ei : IVec S2x1200000 32) (xw : FVec F S100000x64 .f32) : FVec F S1200000x64 .f32 :=
  select (broadcastInDim S1200000x64 ![0] bcast_S1200000_S1200000x64_0
      (Host.reduce IntOp.andi
        (andi (cmpi .sge (col (wrap (src ei))) (broadcastInDim S1200000x1 ![] bcast_S_S1200000x1 (constantI S_ 32 0#32)))
          (cmpi .sle (col (wrap (src ei)))
            (broadcastInDim S1200000x1 ![0, 1] bcast_S1x1_S1200000x1_0_1 (broadcastInDim S1x1 ![1] bcast_S1_S1x1_1 (constantI S1 32 99999#32)))))
        (constantI S_ 1 1#1) reducesTo_S1200000x1_S1200000_d1 h_S_))
    (Host.gather gather_S100000x64_S1200000x1_S1200000x64_1_0_n_n_0_1_164 xw (col (wrap (src ei))))
    (broadcastInDim S1200000x64 ![] bcast_S_S1200000x64 (constant S_ .f32 0x7FC00000#32))
/-- The aggregation over the graph: each edge's weighted source row summed onto its destination, plus the node's own
    row times its self-loop weight, plus the bias row `b`. -/
def agg (ei : IVec S2x1200000 32) (b : FVec F S64 .f32) (xw : FVec F S100000x64 .f32) : FVec F S100000x64 .f32 :=
  addf (addf (Host.scatterAdd scatter_S100000x64_S1200000x1_S1200000x64_1_0_0_1
        (broadcastInDim S100000x64 ![] bcast_S_S100000x64 (constant S_ .f32 0x00000000#32)) (col (dst ei))
        (mulf (gath ei xw) (broadcastInDim S1200000x64 ![0, 1] bcast_S1200000x1_S1200000x64_0_1 (enorm ei))))
      (mulf xw (broadcastInDim S100000x64 ![0, 1] bcast_S100000x1_S100000x64_0_1 (snorm ei))))
    (broadcastInDim S100000x64 ![0, 1] bcast_S1x64_S100000x64_0_1 (broadcastInDim S1x64 ![1] bcast_S64_S1x64_1 b))

/-- Layer 0's weight table out of the stack of three. -/
def w0 (W : FVec F S3x64x64 .f32) : FVec F S64x64 .f32 :=
  shapeCast S64x64 (extractStridedSlice S1x64x64 ![0, 0, 0] W slices_S3x64x64_S1x64x64_0_0_0) shapeCasts_S1x64x64_S64x64
/-- Layer 1's weight table. -/
def w1 (W : FVec F S3x64x64 .f32) : FVec F S64x64 .f32 :=
  shapeCast S64x64 (extractStridedSlice S1x64x64 ![1, 0, 0] W slices_S3x64x64_S1x64x64_1_0_0) shapeCasts_S1x64x64_S64x64
/-- Layer 2's weight table. -/
def w2 (W : FVec F S3x64x64 .f32) : FVec F S64x64 .f32 :=
  shapeCast S64x64 (extractStridedSlice S1x64x64 ![2, 0, 0] W slices_S3x64x64_S1x64x64_2_0_0) shapeCasts_S1x64x64_S64x64
/-- Row 0 of a stack of three rows (a layer's bias, scale or shift). -/
def r0 (B : FVec F S3x64 .f32) : FVec F S64 .f32 :=
  shapeCast S64 (extractStridedSlice S1x64 ![0, 0] B slices_S3x64_S1x64_0_0) shapeCasts_S1x64_S64
/-- Row 1. -/
def r1 (B : FVec F S3x64 .f32) : FVec F S64 .f32 :=
  shapeCast S64 (extractStridedSlice S1x64 ![1, 0] B slices_S3x64_S1x64_1_0) shapeCasts_S1x64_S64
/-- Row 2. -/
def r2 (B : FVec F S3x64 .f32) : FVec F S64 .f32 :=
  shapeCast S64 (extractStridedSlice S1x64 ![2, 0] B slices_S3x64_S1x64_2_0) shapeCasts_S1x64_S64

end Cert.KernelIdeal.Terms

end
-- ==== Proof.Spec.lean ====
/-
  One graph-convolution layer over the extended reals, written on coordinates: a node-by-feature table is a
  function of a node `p : Fin 100000` and a feature `q : Fin 64`.

  A layer takes a table `x`, multiplies it by a 64 x 64 weight table (`mm`), passes the product through an
  aggregation `A` over the graph (kept abstract here: both programs apply the same one), applies the leaky
  rectifier entry by entry (`act`), and normalises every feature column to mean zero and variance one over the
  100000 nodes before an affine map (`g q * (h - mean) * rsqrt (var + eps) + be q`).

  The two programs differ in how they form a column's variance. One takes the mean of the squares minus the
  square of the mean (`varK`); the other the mean of the squared deviations from the mean (`varR`). On real
  numbers the two agree: with `n` the number of rows, `S = ∑ h` and `μ = S / n`,
  `∑ (h - μ)² = ∑ h² - 2 μ S + n μ² = ∑ h² - n μ²`. On the extended reals the identity needs every entry to be
  a real number (an infinite entry makes both sides a sum or difference of infinities), which is why every
  statement below carries the hypothesis that the tables hold real numbers, and why each layer's result is shown
  to hold real numbers again.
-/
import Idealize.ShloMosaic.PureOps.Ideal
import Idealize.ShloMosaic.Lib.ValueIdx

noncomputable section

open scoped BigOperators

namespace Gcn

open Idealize.ShloMosaic Idealize.ShloMosaic.ValueIdx

/-- A node-by-feature table. -/
abbrev Mat := Fin 100000 → Fin 64 → EReal
/-- A feature-by-feature weight table. -/
abbrev Wt := Fin 64 → Fin 64 → EReal
/-- One value per feature. -/
abbrev Row := Fin 64 → EReal

/-- Every entry of the table is a real number. -/
def RealM (a : Mat) : Prop := ∀ p q, ∃ r : ℝ, a p q = (r : EReal)
/-- Every weight is a real number. -/
def RealW (w : Wt) : Prop := ∀ k q, ∃ r : ℝ, w k q = (r : EReal)
/-- Every entry of the row is a real number. -/
def RealR (g : Row) : Prop := ∀ q, ∃ r : ℝ, g q = (r : EReal)

/-- The rectifier's slope on the negative side, the single-precision number nearest 0.2. -/
def slope : EReal := Ideal.ofBits .f32 0x3E4CCCCD#32
/-- The number of nodes, 100000. -/
def cnt : EReal := Ideal.ofBits .f32 0x47C35000#32
/-- The variance's guard, the single-precision number nearest 1e-5. -/
def eps : EReal := Ideal.ofBits .f32 0x3727C5AC#32
/-- Zero, as the pattern of all zero bits. -/
def zero : EReal := Ideal.ofBits .f32 0x00000000#32

/-- The leaky rectifier: `a` above zero, `slope * a` otherwise. -/
def leaky (a : EReal) : EReal := Scalar.select (Ideal.cmp .ogt a zero) a (slope * a)

/-- The product with a weight table: entry `(p, q)` is `∑ k, x p k * w k q`. -/
def mm (x : Mat) (w : Wt) : Mat := fun p q => ∑ k : Fin 64, x p k * w k q
/-- The rectifier applied entry by entry. -/
def act (a : Mat) : Mat := fun p q => leaky (a p q)
/-- The sum of a column over all nodes. -/
def colSum (h : Mat) : Row := fun q => ∑ p : Fin 100000, h p q
/-- A column's mean after the rectifier. -/
def mean (a : Mat) : Row := fun q => Ideal.div (colSum (act a) q) cnt
/-- A column's variance as the mean of the squares minus the square of the mean. -/
def varK (a : Mat) : Row := fun q => Ideal.div (colSum (fun p q => act a p q * act a p q) q) cnt - mean a q * mean a q
/-- A column's variance as the mean of the squared deviations from the mean. -/
def varR (a : Mat) : Row :=
  fun q => Ideal.div (colSum (fun p q => (act a p q - mean a q) * (act a p q - mean a q)) q) cnt
/-- The normalisation with the first form of the variance. -/
def normK (g be : Row) (a : Mat) : Mat :=
  fun p q => g q * (act a p q - mean a q) * Ideal.rsqrt (varK a q + eps) + be q
/-- The normalisation with the second form of the variance. -/
def normR (g be : Row) (a : Mat) : Mat :=
  fun p q => g q * (act a p q - mean a q) * Ideal.rsqrt (varR a q + eps) + be q
/-- A layer with the first form of the variance, over an aggregation `A`. -/
def layerK (A : Mat → Mat) (w : Wt) (g be : Row) (x : Mat) : Mat := normK g be (A (mm x w))
/-- A layer with the second form of the variance, over an aggregation `A`. -/
def layerR (A : Mat → Mat) (w : Wt) (g be : Row) (x : Mat) : Mat := normR g be (A (mm x w))

/-! ## Arrays and tables -/

/-- A rank-2 array of 100000 x 64 extended reals read as a table. -/
def toMat (a : (⟨2, ![100000, 64]⟩ : Shape).Idx → EReal) : Mat := fun p q => a (ix2 p q)
/-- A table written as a rank-2 array. -/
def ofMat (y : Mat) : (⟨2, ![100000, 64]⟩ : Shape).Idx → EReal := fun i => y (i 0) (i 1)
/-- A rank-2 array of 64 x 64 extended reals read as a weight table. -/
def toWt (w : (⟨2, ![64, 64]⟩ : Shape).Idx → EReal) : Wt := fun k q => w (ix2 k q)
/-- A rank-1 array of 64 extended reals read as a row. -/
def toRow (g : (⟨1, ![64]⟩ : Shape).Idx → EReal) : Row := fun q => g (ix1 q)

theorem toMat_ofMat (y : Mat) : toMat (ofMat y) = y := rfl
theorem ofMat_toMat (a : (⟨2, ![100000, 64]⟩ : Shape).Idx → EReal) : ofMat (toMat a) = a := by
  funext i; exact congrArg a (eq_ix2 i).symm

/-! ## The constants -/

/-- The pattern of all zero bits has a zero exponent field and a zero significand: it denotes `0`. -/
theorem zero_eq : zero = 0 := by
  simp [zero, Ideal.ofBits, Ideal.ieee]
/-- Exponent field 143 and significand field 4411392: `(2^23 + 4411392) * 2^(143 - 127 - 23) = 12800000 / 128`. -/
theorem cnt_eq : cnt = ((100000 : ℝ) : EReal) := by
  simp [cnt, Ideal.ofBits, Ideal.ieee, -EReal.coe_mul]; norm_num
/-- Exponent field 124 and significand field 5033165: the normal number `13421773 * 2^(-26)`. -/
theorem slope_real : ∃ r : ℝ, slope = (r : EReal) := by
  refine ⟨13421773 * (2 : ℝ) ^ (-26 : ℤ), ?_⟩
  simp [slope, Ideal.ofBits, Ideal.ieee, -EReal.coe_mul]
/-- Exponent field 110 and significand field 2606508: the positive normal number `10995116 * 2^(-40)`. -/
theorem eps_pos : ∃ r : ℝ, 0 < r ∧ eps = (r : EReal) := by
  refine ⟨10995116 * (2 : ℝ) ^ (-40 : ℤ), by positivity, ?_⟩
  simp [eps, Ideal.ofBits, Ideal.ieee, -EReal.coe_mul]

/-! ## Real tables stay real -/

/-- A finite sum of real numbers, formed in the extended reals, is the real sum. -/
private theorem coe_sum {ι : Type} (s : Finset ι) (f : ι → ℝ) :
    ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- The rectifier of a real number is that number (above zero) or its product with the real slope. -/
theorem leaky_real {a : EReal} (h : ∃ r : ℝ, a = (r : EReal)) : ∃ r : ℝ, leaky a = (r : EReal) := by
  obtain ⟨r, rfl⟩ := h
  obtain ⟨s, hs⟩ := slope_real
  unfold leaky
  by_cases hc : Ideal.cmp .ogt (r : EReal) zero = 1#1
  · rw [hc, select_one]; exact ⟨r, rfl⟩
  · rw [eq_zero_of_ne_one hc, select_zero, hs, ← EReal.coe_mul]; exact ⟨s * r, rfl⟩

/-- An entry of the product is a sum of 64 products of two reals. -/
theorem mm_real {x : Mat} {w : Wt} (hx : RealM x) (hw : RealW w) : RealM (mm x w) := by
  intro p q
  choose f hf using hx
  choose v hv using hw
  refine ⟨∑ k : Fin 64, f p k * v k q, ?_⟩
  show ∑ k : Fin 64, x p k * w k q = _
  simp only [hf, hv, ← EReal.coe_mul]
  exact coe_sum _ _

/-! ## A column of reals: its mean and its two variances as real expressions

  For a column `h p = r p` of reals, with `S = ∑ r` and `c = 1 / 100000`: the mean is `S * c`, the first form of
  the variance is `(∑ r²) * c - (S * c)²`, the second `(∑ (r - S * c)²) * c`. Division by the count is the
  product with the real `c`, and every sum of reals is a real sum. -/

/-- Over a finite index set with `card * c = 1`: the mean of the squares minus the square of the mean is the
    mean of the squared deviations. Expanding the square, `∑ (r - μ)² = ∑ r² - 2 μ S + card * μ²` with
    `μ = S * c`, and `card * c = 1` turns `card * μ²` into `μ * S`. -/
private theorem real_var {ι : Type} [Fintype ι] (r : ι → ℝ) (c : ℝ) (hc : (Fintype.card ι : ℝ) * c = 1) :
    (∑ i, r i * r i) * c - ((∑ i, r i) * c) * ((∑ i, r i) * c)
      = (∑ i, (r i - (∑ j, r j) * c) * (r i - (∑ j, r j) * c)) * c := by
  obtain ⟨S, hS⟩ : ∃ S : ℝ, S = ∑ i, r i := ⟨_, rfl⟩
  rw [← hS]
  have h1 : ∑ i, (r i - S * c) * (r i - S * c)
      = (∑ i, r i * r i) - 2 * (S * c) * S + (Fintype.card ι : ℝ) * ((S * c) * (S * c)) := by
    have h2 : ∀ i, (r i - S * c) * (r i - S * c) = r i * r i - 2 * (S * c) * r i + (S * c) * (S * c) :=
      fun i => by ring
    simp only [h2, Finset.sum_add_distrib, Finset.sum_sub_distrib, ← Finset.mul_sum, Finset.sum_const,
      Finset.card_univ, nsmul_eq_mul, ← hS]
    ring
  rw [h1]
  linear_combination (-(S * S * c * c)) * hc

/-- The reciprocal of the count, as a real number. -/
private def rc : ℝ := 1 / 100000

private theorem card_rc : (Fintype.card (Fin 100000) : ℝ) * rc = 1 := by
  rw [Fintype.card_fin, rc]; norm_num

/-- Division by the count is the product with its real reciprocal. -/
private theorem div_cnt (x : EReal) : Ideal.div x cnt = x * (rc : EReal) := by
  rw [cnt_eq, rc]; exact Ideal.div_coe (by norm_num) x

/-- The mean of a real column. -/
private theorem mean_coe {a : Mat} {q : Fin 64} {r : Fin 100000 → ℝ} (hr : ∀ p, act a p q = (r p : EReal)) :
    mean a q = (((∑ p, r p) * rc : ℝ) : EReal) := by
  show Ideal.div (∑ p : Fin 100000, act a p q) cnt = _
  rw [div_cnt]
  simp only [hr]
  rw [coe_sum, ← EReal.coe_mul]

/-- The first form of the variance of a real column. -/
private theorem varK_coe {a : Mat} {q : Fin 64} {r : Fin 100000 → ℝ} (hr : ∀ p, act a p q = (r p : EReal)) :
    varK a q = (((∑ p, r p * r p) * rc - ((∑ p, r p) * rc) * ((∑ p, r p) * rc) : ℝ) : EReal) := by
  show Ideal.div (∑ p : Fin 100000, act a p q * act a p q) cnt - mean a q * mean a q = _
  rw [div_cnt, mean_coe hr]
  simp only [hr, ← EReal.coe_mul]
  rw [coe_sum, ← EReal.coe_mul, ← EReal.coe_sub]

/-- The second form of the variance of a real column. -/
private theorem varR_coe {a : Mat} {q : Fin 64} {r : Fin 100000 → ℝ} (hr : ∀ p, act a p q = (r p : EReal)) :
    varR a q = (((∑ p, (r p - (∑ j, r j) * rc) * (r p - (∑ j, r j) * rc)) * rc : ℝ) : EReal) := by
  show Ideal.div (∑ p : Fin 100000, (act a p q - mean a q) * (act a p q - mean a q)) cnt = _
  rw [div_cnt, mean_coe hr]
  simp only [hr, ← EReal.coe_sub, ← EReal.coe_mul]
  rw [coe_sum, ← EReal.coe_mul]

/-- Every column of the rectified table of a real table is a column of reals. -/
private theorem act_col {a : Mat} (ha : RealM a) (q : Fin 64) :
    ∃ r : Fin 100000 → ℝ, ∀ p, act a p q = (r p : EReal) := by
  choose r hr using fun p => leaky_real (ha p q)
  exact ⟨r, hr⟩

/-- The reciprocal square root of a positive real is a real. -/
private theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The second form of the variance of a real column is a non-negative real (a sum of squares times a positive
    number), so with the positive guard added it is a positive real and its reciprocal square root is a real;
    the normalised entry is then built from reals by products, a difference and a sum. -/
theorem normR_real {g be : Row} {a : Mat} (hg : RealR g) (hbe : RealR be) (ha : RealM a) : RealM (normR g be a) := by
  intro p q
  obtain ⟨r, hr⟩ := act_col ha q
  obtain ⟨G, hG⟩ := hg q
  obtain ⟨B, hB⟩ := hbe q
  obtain ⟨e, he, hE⟩ := eps_pos
  have hv : 0 ≤ (∑ p, (r p - (∑ j, r j) * rc) * (r p - (∑ j, r j) * rc)) * rc :=
    mul_nonneg (Finset.sum_nonneg fun i _ => mul_self_nonneg _) (by rw [rc]; norm_num)
  show ∃ y : ℝ, g q * (act a p q - mean a q) * Ideal.rsqrt (varR a q + eps) + be q = (y : EReal)
  rw [hG, hB, hr p, mean_coe hr, varR_coe hr, hE, ← EReal.coe_add, rsqrt_pos (add_pos_of_nonneg_of_pos hv he),
    ← EReal.coe_sub, ← EReal.coe_mul, ← EReal.coe_mul, ← EReal.coe_add]
  exact ⟨_, rfl⟩

/-! ## The two forms of the variance agree on real tables -/

/-- Column by column: both forms are real expressions in the column's entries, and those agree over the reals. -/
theorem var_eq {a : Mat} (ha : RealM a) : varK a = varR a := by
  funext q
  obtain ⟨r, hr⟩ := act_col ha q
  rw [varK_coe hr, varR_coe hr, real_var r rc card_rc]
theorem norm_eq (g be : Row) {a : Mat} (ha : RealM a) : normK g be a = normR g be a := by
  funext p q; unfold normK normR; rw [var_eq ha]

/-- One layer: under real inputs and an aggregation that keeps tables real, the two forms give one table, of real
    numbers. -/
theorem layer_eq {A : Mat → Mat} (hA : ∀ y, RealM y → RealM (A y)) {w : Wt} {g be : Row} {x : Mat}
    (hx : RealM x) (hw : RealW w) (hg : RealR g) (hbe : RealR be) :
    layerK A w g be x = layerR A w g be x ∧ RealM (layerR A w g be x) :=
  ⟨norm_eq g be (hA _ (mm_real hx hw)), normR_real hg hbe (hA _ (mm_real hx hw))⟩

end Gcn

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.KMatmul0.lean ====
import proofs.«426465_j33225867002208_1_alg».proof.Proof.Gen.KernelIdeal.Frame
import proofs.«426465_j33225867002208_1_alg».proof.Proof.Spec
import proofs.«426465_j33225867002208_1_alg».proof.Proof.LibPlainDot
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The node table the product region finds on entry. -/
abbrev mx0 (c : Dev nD) : Vec Ideal S100000x64 .f32 := V c (Pipeline.arrRef spec0 0)
/-- The weight table it finds. -/
abbrev mw0 (c : Dev nD) : Vec Ideal S64x64 .f32 := V c (Pipeline.arrRef spec0 1)
/-- What the region leaves in its output array. -/
abbrev mo0 (c : Dev nD) : Vec Ideal S100000x64 .f32 := (dat0 (F := Ideal) V c).arrAt 2 cfg0.N

/-! ## The product region's output array, entry by entry

The region's grid has 10 points. Point `t` reads rows `10000 t … 10000 t + 9999` of the node table and the whole
weight table, and writes rows `10000 t … 10000 t + 9999` of the output array; the body stores the matrix product
of its two blocks into the zero accumulator, the change of format on both operands being the identity on the
extended reals. So every point writes back its rows of ONE table, the product of the two tables the region finds,
and the ten row blocks cover the output array. -/

/-- The offset pair (0, 0) is the constant zero offset. -/
theorem origin0 : (![0, 0] : Fin 2 → Nat) = fun _ => 0 := funext fun a => by fin_cases a <;> rfl

/-- The product of a node table and a weight table as one table: entry (p, q) is the sum over k of
    x (p, k) · w (k, q), the coordinates read off the index. -/
def prod0 (x : Vec Ideal S100000x64 .f32) (w : Vec Ideal S64x64 .f32) : Vec Ideal S100000x64 .f32 :=
  fun i => ∑ k : Fin 64, x (ix2 ⟨(i 0).val, (i 0).isLt⟩ k) * w (ix2 k ⟨(i 1).val, (i 1).isLt⟩)

/-- The body's stored value at entry (r, q) of its block: the sum over k of x0 (r, k) · x1 (k, q). The record
    contracts the left operand's axis 1 with the right operand's axis 0 and has no batch axes; the accumulator
    is the zero constant; truncation and the cast to the same shape leave every entry as it is. -/
theorem body0_entry (x0 : Vec Ideal S10000x64 .f32) (x1 : Vec Ideal S64x64 .f32) (r : Fin 10000) (q : Fin 64) :
    k0_pay1 (F := Ideal) x0 x1 (ix2 r q) = ∑ k : Fin 64, x0 (ix2 r k) * x1 (ix2 k q) := by
  unfold k0_pay1
  refine (PlainDot.matmul_zero_apply dot_S10000x64_S64x64_S10000x64_1_0_0_1_n_n rfl rfl rfl rfl rfl rfl rfl rfl none _ _ r q).trans ?_
  refine Finset.sum_congr rfl fun k _ => ?_
  simp only [shapeCast_self, truncf_apply]

/-- The same at any index of the block, its two coordinates read off it. -/
theorem body0_at (x0 : Vec Ideal S10000x64 .f32) (x1 : Vec Ideal S64x64 .f32) (j : S10000x64.Idx) :
    k0_pay1 (F := Ideal) x0 x1 j = ∑ k : Fin 64, x0 (ix2 ⟨(j 0).val, (j 0).isLt⟩ k) * x1 (ix2 k ⟨(j 1).val, (j 1).isLt⟩) :=
  (congrArg (k0_pay1 (F := Ideal) x0 x1) (eq_ix2 j)).trans (body0_entry x0 x1 (j 0) (j 1))

/-- The printed index maps over the grid: the node table's and the output's block row is the point, their block
    column 0; the weight table's block is (0, 0) at every point. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The node table's block at point t, entry (r, k), is the table's entry (10000 t + r, k): a block's coordinate
    is block index × block size + the coordinate inside the block. -/
theorem xrows0 (c : Dev nD) (t : Fin cfg0.N) (r : Fin 10000) (k : Fin 64) (p : Fin 100000)
    (hp : p.val = t.val * 10000 + r.val) :
    (iblk0 V c 0 t : Vec Ideal S10000x64 .f32) (ix2 r k) = mx0 V c (ix2 p k) := by
  obtain ⟨e0, e1, -⟩ := blockIdx0 t
  unfold iblk0
  rw [View.read_apply]
  show V c (Pipeline.arrRef spec0 0) _ = V c (Pipeline.arrRef spec0 0) _
  congr 1
  funext a; apply Fin.ext
  match a with
  | ⟨0, _⟩ => show win0_0.index t 0 * 10000 + 1 * r.val = p.val; omega
  | ⟨1, _⟩ => show win0_0.index t 1 * 64 + 1 * k.val = k.val; omega

/-- The weight table's block at every point is the whole table. -/
theorem wwhole0 (c : Dev nD) (t : Fin cfg0.N) (k : Fin 64) (q q' : Fin 64) (hq : q'.val = q.val) :
    (iblk0 V c 1 t : Vec Ideal S64x64 .f32) (ix2 k q) = mw0 V c (ix2 k q') := by
  obtain ⟨-, -, e0, e1, -⟩ := blockIdx0 t
  unfold iblk0
  rw [View.read_apply]
  show V c (Pipeline.arrRef spec0 1) _ = V c (Pipeline.arrRef spec0 1) _
  congr 1
  funext a; apply Fin.ext
  match a with
  | ⟨0, _⟩ => show win0_1.index t 0 * 64 + 1 * k.val = k.val; omega
  | ⟨1, _⟩ => show win0_1.index t 1 * 64 + 1 * q.val = q'.val; omega

/-- What point t writes back is rows 10000 t … 10000 t + 9999 of the product of the two tables: the body's one
    store fills the whole block from offset (0, 0); at entry (r, q) it holds the sum over k of the node block's
    (r, k) times the weight block's (k, q), which are the tables' entries (10000 t + r, k) and (k, q); and the
    output block's entry (r, q) sits at (10000 t + r, q) of the array. -/
theorem written0 (c : Dev nD) (t : Fin cfg0.N) :
    (dat0 (F := Ideal) V c).flushed 2 t = ((cfg0.win 2).blk t).view.read (Elt Ideal) (prod0 (mx0 V c) (mw0 V c)) := by
  show (cfg0.win 2).cut (grid0.coords t) ((dat0 (F := Ideal) V c).after 2 t) = _
  rw [after0_2]
  unfold out0_2
  rw [View.canon_unit_zero origin0]
  simp only [View.ld_unit_zero (S := S10000x64) origin0, View.ld_unit_zero (S := S64x64) origin0]
  funext j
  show k0_pay1 (F := Ideal) (iblk0 V c 0 t) (iblk0 V c 1 t) j = prod0 (mx0 V c) (mw0 V c) (((cfg0.win 2).blk t).view.emb j)
  obtain ⟨-, -, -, -, e0, e1⟩ := blockIdx0 t
  have h0 : ((((cfg0.win 2).blk t).view.emb j) 0).val = t.val * 10000 + (j 0).val := by
    show win0_2.index t 0 * 10000 + 1 * (j 0).val = _; omega
  have h1 : ((((cfg0.win 2).blk t).view.emb j) 1).val = (j 1).val := by
    show win0_2.index t 1 * 64 + 1 * (j 1).val = _; omega
  refine (body0_at (iblk0 V c 0 t) (iblk0 V c 1 t) j).trans ?_
  unfold prod0
  refine Finset.sum_congr rfl fun k _ => ?_
  exact congrArg₂ (· * ·) (xrows0 V c t _ k _ h0) (wwhole0 V c t k _ _ h1)

/-- An index of the output array is in point t's block iff each coordinate is in the block's range on its axis. -/
theorem mem_rows0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Row r of the output array is written back by point r / 10000: the ten row blocks cover the array. -/
theorem rows_cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by rw [show cfg0.N = 10 from N_0]; omega⟩, rfl⟩
  obtain ⟨-, -, -, -, e0, e1⟩ := blockIdx0 t
  refine ⟨t, flush0_2 t, ?_⟩
  rw [mem_rows0]
  intro a
  match a with
  | ⟨0, _⟩ => show win0_2.index t 0 * 10000 ≤ (i 0).val ∧ (i 0).val < win0_2.index t 0 * 10000 + 10000; omega
  | ⟨1, _⟩ => show win0_2.index t 1 * 64 ≤ (i 1).val ∧ (i 1).val < win0_2.index t 1 * 64 + 64; omega

/-- So the output array ends holding the product of the two tables the region finds. -/
theorem mo0_eq (c : Dev nD) : mo0 V c = prod0 (mx0 V c) (mw0 V c) :=
  (dat0 (F := Ideal) V c).arrAt_eq_of_cover 2 (prod0 (mx0 V c) (mw0 V c)) (fun t _ => written0 V c t) rows_cover0

theorem mm0 (c : Dev nD) (p : Fin 100000) (q : Fin 64) :
    mo0 V c (ix2 p q) = ∑ k : Fin 64, mx0 V c (ix2 p k) * mw0 V c (ix2 k q) :=
  congrFun (mo0_eq V c) (ix2 p q)

end Cert.KernelIdeal.KerValue

end
-- ==== Proof.KStats1.lean ====
/-
  The column statistics of one layer. The region walks the node table (100000 rows, 64 columns) in ten blocks of
  10000 rows. It keeps two rows of 64 accumulators: at the first block it clears them; at every block it applies the
  leaky rectifier to the block's entries, adds each column's sum to the first row and each column's sum of squares to
  the second. The accumulators are written out after the last block.

  Shown here, over the extended reals: the first output row holds, in column `q`, the sum over all 100000 rows `p` of
  `leaky (a p q)`, and the second the sum of `leaky (a p q) * leaky (a p q)`. The argument: what one block contributes
  (the body's arithmetic read entry by entry), the running sums by induction over the blocks, and the regrouping of a
  sum over 100000 rows into ten sums over 10000 rows, which needs only that addition is commutative and associative.
-/
import proofs.«426465_j33225867002208_1_alg».proof.Proof.Gen.KernelIdeal.Frame
import proofs.«426465_j33225867002208_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The node table the statistics region finds on entry. -/
abbrev sa1 (c : Dev nD) : Vec Ideal S100000x64 .f32 := V c (Pipeline.arrRef spec1 0)
/-- What the region leaves in its first output array (the column sums). -/
abbrev ss1 (c : Dev nD) : Vec Ideal S1x64 .f32 := (dat1 (F := Ideal) V c).arrAt 1 cfg1.N
/-- What it leaves in its second (the column sums of squares). -/
abbrev sq1 (c : Dev nD) : Vec Ideal S1x64 .f32 := (dat1 (F := Ideal) V c).arrAt 2 cfg1.N

/-! ## What one run of the body leaves in the two accumulators

The body stores, in each of the two one-row outputs, the sum of what the output held and a column sum over the
10000 rows of the input block. At the first point it first stores a row of zeros and reads that row back. -/

section Pieces
variable {F : FTy → Type} [FloatOps F]

theorem hz_k1 : (![0, 0] : Fin 2 → Nat) = fun _ => 0 := funext fun a => by fin_cases a <;> rfl

/-- Away from the first point the first output ends at its old contents plus the block's column sums. -/
theorem outB1_k1 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S10000x64 .f32) (xo1 xo2 : Vec F S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  sl_unfold_words
  rw [View.canon_unit_zero hz_k1]
  simp only [View.readAt_eq_ld, h1.read_unread, h2.read_unread, View.ld_unit_zero (S := S10000x64) hz_k1,
    View.ld_unit_zero (S := S1x64) hz_k1]

/-- Away from the first point the second output ends at its old contents plus the block's column sums of squares. -/
theorem outB2_k1 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S10000x64 .f32) (xo1 xo2 : Vec F S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  sl_unfold_words
  rw [View.canon_unit_zero hz_k1]
  simp only [View.readAt_eq_ld, h1.read_unread, h3.read_unread, View.ld_unit_zero (S := S10000x64) hz_k1,
    View.ld_unit_zero (S := S1x64) hz_k1]

/-- At the first point the first output ends at the row of zeros plus the block's column sums. -/
theorem outA1_k1 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S10000x64 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) hz_k1, View.readCov_unit_zero (S := S1x64) _ hz_k1]
  simp only [View.readAt_eq_ld, h1.read_unread, View.ld_unit_zero (S := S10000x64) hz_k1]

/-- At the first point the second output ends at the row of zeros plus the block's column sums of squares. -/
theorem outA2_k1 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S10000x64 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) hz_k1, View.readCov_unit_zero (S := S1x64) _ hz_k1]
  simp only [View.readAt_eq_ld, h1.read_unread, View.ld_unit_zero (S := S10000x64) hz_k1]

end Pieces

/-! ## Regrouping a sum over 100000 rows into ten blocks of 10000

Addition in a commutative monoid may be regrouped freely, so the sum over all rows is the sum over the ten
blocks of the sums inside each block. No finiteness of the summands is used. -/

section Regroup
variable {M : Type*} [AddCommMonoid M]

/-- Row `r` of block `t` of a table of 100000 rows cut into consecutive blocks of 10000 rows. -/
def blockRow_k1 (t : ℕ) (r : Fin 10000) : Fin 100000 := ⟨(10000 * t + r.val) % 100000, Nat.mod_lt _ (by decide)⟩

theorem blockRow_val_k1 (t : ℕ) (ht : t < 10) (r : Fin 10000) : (blockRow_k1 t r).val = 10000 * t + r.val := by
  show (10000 * t + r.val) % 100000 = _
  have := r.isLt
  omega

/-- The sum of `f` over the rows of block `t`. -/
def blockSum_k1 (f : Fin 100000 → M) (t : ℕ) : M := ∑ r : Fin 10000, f (blockRow_k1 t r)

/-- The ten block sums add up to the sum over all rows: every row `p` is row `p % 10000` of block `p / 10000`. -/
theorem sum_blocks_k1 (f : Fin 100000 → M) : ∑ t ∈ Finset.range 10, blockSum_k1 f t = ∑ p : Fin 100000, f p := by
  rw [← Fin.sum_univ_eq_sum_range (fun t => blockSum_k1 f t) 10]
  unfold blockSum_k1
  rw [← Fintype.sum_prod_type' (fun (t : Fin 10) (r : Fin 10000) => f (blockRow_k1 t.val r))]
  refine Fintype.sum_equiv (finProdFinEquiv : Fin 10 × Fin 10000 ≃ Fin 100000) _ _ (fun x => ?_)
  refine congrArg f (Fin.ext ?_)
  rw [blockRow_val_k1 _ x.1.isLt]
  show _ = x.2.val + 10000 * x.1.val
  omega

end Regroup

/-! ## The body's arithmetic at an entry, over the extended reals -/

section Payloads

/-- The entry of the reduced row above entry `q` of the result, at row `r` of the block. -/
theorem lift_eq_k1 (q : Fin 64) (r : Fin 10000) : reduces_S10000x64_S64.lift (ix1 q) r = ix2 r q := by
  funext a
  apply Fin.ext
  match a with
  | ⟨0, _⟩ => rfl
  | ⟨1, _⟩ => rfl

/-- Dropping the leading unit coordinate of `(0, q)` leaves `q`. -/
theorem tail_ix2_k1 (q : Fin 64) : (fun a : Fin 1 => (ix2 (0 : Fin 1) q) a.succ) = ix1 q := by
  funext a
  match a with
  | ⟨0, _⟩ => rfl

/-- The rectified block at an entry: the leaky rectifier of the block's entry. -/
theorem pay3_k1 (x : Vec Ideal S10000x64 .f32) (r : Fin 10000) (q : Fin 64) :
    k1_pay3 (F := Ideal) x (ix2 r q) = Gcn.leaky (x (ix2 r q)) := by
  have e : shapeCast S10000x64 x shapeCasts_S10000x64_S10000x64 = x := shapeCast_self x _
  unfold k1_pay3 Gcn.leaky Gcn.zero Gcn.slope
  rw [e]
  rfl

/-- A column sum over the 10000 rows of a block, reshaped to one row: entry `(0, q)` is the sum of column `q`. -/
theorem colsum_k1 (y : FVec Ideal S10000x64 .f32) (hφ : FKind.Formats .f32)
    (hacc : (0x00000000#32 : BitVec 32) = FKind.add.neutral .f32 hφ) (q : Fin 64) :
    shapeCast S1x64 (multiReduction .add [0] S64 y 0x00000000#32 reduces_S10000x64_S64 hφ hacc) shapeCasts_S64_S1x64 (ix2 0 q)
      = ∑ r : Fin 10000, y (ix2 r q) := by
  refine (shapeCast_addUnit_apply ![64] _ shapeCasts_S64_S1x64 (ix2 0 q)).trans ?_
  rw [tail_ix2_k1]
  refine (Ideal.multiReduction_add_single y 0x00000000#32 reduces_S10000x64_S64 hφ hacc (ix1 q)).trans ?_
  exact Finset.sum_congr rfl fun r _ => congrArg y (lift_eq_k1 q r)

/-- The first accumulator's update at entry `(0, q)`: the old entry plus the sum of the rectified column. -/
theorem pay4_k1 (x : Vec Ideal S10000x64 .f32) (v : Vec Ideal S1x64 .f32) (q : Fin 64) :
    k1_pay4 (F := Ideal) x v (ix2 0 q) = v (ix2 0 q) + ∑ r : Fin 10000, Gcn.leaky (x (ix2 r q)) := by
  have e : shapeCast S1x64 v shapeCasts_S1x64_S1x64 = v := shapeCast_self v _
  unfold k1_pay4
  refine (addf_apply _ _ (ix2 0 q)).trans ?_
  rw [e]
  refine congrArg (v (ix2 0 q) + ·) ?_
  refine (colsum_k1 (k1_pay3 (F := Ideal) x) _ _ q).trans ?_
  exact Finset.sum_congr rfl fun r _ => pay3_k1 x r q

/-- The second accumulator's update at entry `(0, q)`: the old entry plus the sum of the squared rectified column. -/
theorem pay5_k1 (x : Vec Ideal S10000x64 .f32) (v : Vec Ideal S1x64 .f32) (q : Fin 64) :
    k1_pay5 (F := Ideal) x v (ix2 0 q)
      = v (ix2 0 q) + ∑ r : Fin 10000, Gcn.leaky (x (ix2 r q)) * Gcn.leaky (x (ix2 r q)) := by
  have e : shapeCast S1x64 v shapeCasts_S1x64_S1x64 = v := shapeCast_self v _
  unfold k1_pay5
  refine (addf_apply _ _ (ix2 0 q)).trans ?_
  rw [e]
  refine congrArg (v (ix2 0 q) + ·) ?_
  refine (colsum_k1 (mulf (k1_pay3 (F := Ideal) x) (k1_pay3 (F := Ideal) x)) _ _ q).trans ?_
  refine Finset.sum_congr rfl fun r _ => ?_
  refine (mulf_apply _ _ (ix2 r q)).trans ?_
  rw [pay3_k1]

/-- The row of zeros the first point stores, at an entry. -/
theorem pay1_k1 (q : Fin 64) : k1_pay1 (F := Ideal) (ix2 0 q) = 0 := Ideal.ofBits_zero_f32
theorem pay2_k1 (q : Fin 64) : k1_pay2 (F := Ideal) (ix2 0 q) = 0 := Ideal.ofBits_zero_f32

end Payloads

/-! ## The input block at a point

Point `t` of the grid sees rows `10000 t … 10000 t + 9999` of the node table. -/

/-- The block of the node table that point `t` reads. -/
abbrev xblk_k1 (c : Dev nD) (t : Fin cfg1.N) : Vec Ideal S10000x64 .f32 := iblk1 (F := Ideal) V c 0 t

/-- The input window's block index at point `t` is `(t, 0)`: decided over the ten points. -/
theorem idx_k1 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Entry `(r, q)` of point `t`'s block is entry `(10000 t + r, q)` of the node table. -/
theorem xblk_apply_k1 (c : Dev nD) (t : Fin cfg1.N) (r : Fin 10000) (q : Fin 64) :
    xblk_k1 V c t (ix2 r q) = sa1 V c (ix2 (blockRow_k1 t.val r) q) := by
  have hN : t.val < 10 := lt_of_lt_of_eq t.isLt (show cfg1.N = 10 from N_1)
  have hi := idx_k1 t
  show iblk1 (F := Ideal) V c 0 t (ix2 r q) = _
  unfold iblk1
  rw [View.read_apply]
  show V c (Pipeline.arrRef spec1 0) _ = V c (Pipeline.arrRef spec1 0) _
  refine congrArg (V c (Pipeline.arrRef spec1 0)) ?_
  funext a
  apply Fin.ext
  match a with
  | ⟨0, _⟩ =>
    show win1_0.index t 0 * 10000 + 1 * r.val = (10000 * t.val + r.val) % 100000
    rw [hi.1]; have := r.isLt; omega
  | ⟨1, _⟩ =>
    show win1_0.index t 1 * 64 + 1 * q.val = q.val
    rw [hi.2]; omega

/-! ## One point's effect on the two accumulators, entry by entry -/

/-- The rectified entries of column `q` of the node table. -/
abbrev lk_k1 (c : Dev nD) (q : Fin 64) : Fin 100000 → EReal := fun p => Gcn.leaky (sa1 V c (ix2 p q))
/-- Their squares. -/
abbrev lq_k1 (c : Dev nD) (q : Fin 64) : Fin 100000 → EReal :=
  fun p => Gcn.leaky (sa1 V c (ix2 p q)) * Gcn.leaky (sa1 V c (ix2 p q))

/-- The first point leaves in each accumulator the block's own sums (zero plus the sum). -/
theorem stepA_k1 (c : Dev nD) (t : Fin cfg1.N) (h0 : t.val % 10 = 0) (q : Fin 64) :
    (outsAt1 (F := Ideal) V c t.val t.isLt).1 (ix2 0 q) = blockSum_k1 (lk_k1 V c q) t.val
    ∧ (outsAt1 (F := Ideal) V c t.val t.isLt).2 (ix2 0 q) = blockSum_k1 (lq_k1 V c q) t.val := by
  rw [outsAt1_A V c t h0]
  dsimp only
  constructor
  · refine (congrFun (outA1_k1 (F := Ideal) c (grid1.coords t) (ms1_0 t) (hs1_0 t) (ms1_1 t) (hs1_1 t) (ms1_2 t) (hs1_2 t)
      ((hcond1_0 t).mpr h0) (xblk_k1 V c t)) (ix2 0 q)).trans ?_
    rw [pay4_k1, pay1_k1, zero_add]
    exact Finset.sum_congr rfl fun r _ => congrArg Gcn.leaky (xblk_apply_k1 V c t r q)
  · refine (congrFun (outA2_k1 (F := Ideal) c (grid1.coords t) (ms1_0 t) (hs1_0 t) (ms1_1 t) (hs1_1 t) (ms1_2 t) (hs1_2 t)
      ((hcond1_0 t).mpr h0) (xblk_k1 V c t)) (ix2 0 q)).trans ?_
    rw [pay5_k1, pay2_k1, zero_add]
    exact Finset.sum_congr rfl fun r _ => by rw [xblk_apply_k1 V c t r q]

/-- Every later point adds its block's sums to what the point before left. -/
theorem stepB_k1 (c : Dev nD) (t : Fin cfg1.N) (h0 : ¬t.val % 10 = 0) (q : Fin 64) :
    (outsAt1 (F := Ideal) V c t.val t.isLt).1 (ix2 0 q)
        = (outsAt1 (F := Ideal) V c (t.val - 1) (Nat.lt_of_le_of_lt (Nat.sub_le _ _) t.isLt)).1 (ix2 0 q)
          + blockSum_k1 (lk_k1 V c q) t.val
    ∧ (outsAt1 (F := Ideal) V c t.val t.isLt).2 (ix2 0 q)
        = (outsAt1 (F := Ideal) V c (t.val - 1) (Nat.lt_of_le_of_lt (Nat.sub_le _ _) t.isLt)).2 (ix2 0 q)
          + blockSum_k1 (lq_k1 V c q) t.val := by
  rw [outsAt1_B V c t h0]
  dsimp only
  constructor
  · refine (congrFun (outB1_k1 (F := Ideal) c (grid1.coords t) (ms1_0 t) (hs1_0 t) (ms1_1 t) (hs1_1 t) (ms1_2 t) (hs1_2 t)
      (fun h => h0 ((hcond1_0 t).mp h)) (xblk_k1 V c t)
      (outsAt1 (F := Ideal) V c (t.val - 1) (Nat.lt_of_le_of_lt (Nat.sub_le _ _) t.isLt)).1
      (outsAt1 (F := Ideal) V c (t.val - 1) (Nat.lt_of_le_of_lt (Nat.sub_le _ _) t.isLt)).2) (ix2 0 q)).trans ?_
    rw [pay4_k1]
    refine congrArg (_ + ·) ?_
    exact Finset.sum_congr rfl fun r _ => congrArg Gcn.leaky (xblk_apply_k1 V c t r q)
  · refine (congrFun (outB2_k1 (F := Ideal) c (grid1.coords t) (ms1_0 t) (hs1_0 t) (ms1_1 t) (hs1_1 t) (ms1_2 t) (hs1_2 t)
      (fun h => h0 ((hcond1_0 t).mp h)) (xblk_k1 V c t)
      (outsAt1 (F := Ideal) V c (t.val - 1) (Nat.lt_of_le_of_lt (Nat.sub_le _ _) t.isLt)).1
      (outsAt1 (F := Ideal) V c (t.val - 1) (Nat.lt_of_le_of_lt (Nat.sub_le _ _) t.isLt)).2) (ix2 0 q)).trans ?_
    rw [pay5_k1]
    refine congrArg (_ + ·) ?_
    exact Finset.sum_congr rfl fun r _ => by rw [xblk_apply_k1 V c t r q]

/-! ## The running sums

After point `n` each accumulator holds, at entry `(0, q)`, the sum of the block sums of the points `0 … n`:
by induction on the point. -/

theorem outs_eq_k1 (c : Dev nD) (q : Fin 64) : ∀ (n : ℕ) (h : n < cfg1.N),
    (outsAt1 (F := Ideal) V c n h).1 (ix2 0 q) = ∑ t ∈ Finset.range (n + 1), blockSum_k1 (lk_k1 V c q) t
    ∧ (outsAt1 (F := Ideal) V c n h).2 (ix2 0 q) = ∑ t ∈ Finset.range (n + 1), blockSum_k1 (lq_k1 V c q) t
  | 0, h => by
    have s := stepA_k1 V c ⟨0, h⟩ rfl q
    rw [Finset.sum_range_one, Finset.sum_range_one]
    exact s
  | n + 1, h => by
    have hN : cfg1.N = 10 := N_1
    have hB : ¬(⟨n + 1, h⟩ : Fin cfg1.N).val % 10 = 0 := by dsimp only; omega
    have s := stepB_k1 V c ⟨n + 1, h⟩ hB q
    have ih := outs_eq_k1 c q n (Nat.lt_of_succ_lt h)
    rw [Finset.sum_range_succ _ (n + 1), Finset.sum_range_succ _ (n + 1), ← ih.1, ← ih.2]
    exact s

/-! ## The output arrays after the region

Each output window has a single block, the whole one-row array, carried from point to point and written back
after the last point only; so each output array ends holding what point 9 leaves in the accumulator. -/

/-- What the last point leaves in the first accumulator, as contents of the first output array. -/
abbrev res1_k1 (c : Dev nD) : Buf (Elt Ideal) ((c : Thread nD τ).loc main_v46_0) :=
  (outsAt1 (F := Ideal) V c t1_9.val t1_9.isLt).1
/-- What it leaves in the second, as contents of the second output array. -/
abbrev res2_k1 (c : Dev nD) : Buf (Elt Ideal) ((c : Thread nD τ).loc main_v46_1) :=
  (outsAt1 (F := Ideal) V c t1_9.val t1_9.isLt).2

/-- The one write-back of the first output, at point 9: block `(0, 0)` of a `[1, 64]` array is the array. -/
theorem flushed1_k1 (c : Dev nD) (t : Fin cfg1.N) (hf : (cfg1.win 1).flush t = true) :
    (dat1 (F := Ideal) V c).flushed 1 t = ((cfg1.win 1).blk t).view.read (Elt Ideal) (res1_k1 V c) := by
  have hN : cfg1.N = 10 := N_1
  have h9 : t.val = 9 := by have := (flush1_1 t).mp hf; have := t.isLt; omega
  obtain rfl : t = t1_9 := Fin.ext h9
  show (cfg1.win 1).cut (grid1.coords t1_9) ((dat1 (F := Ideal) V c).after 1 t1_9) = _
  rw [after1_1]
  have hz' : (fun a => win1_1.index t1_9 a * main_v46_0.ty.shape.size a) = fun _ => 0 :=
    funext fun a => by fin_cases a <;> decide +kernel
  exact (Memref.read_access_unit_zero (Elt Ideal) main_v46_0 hz' (fun a => by rw [congrFun hz' a]; simp) (res1_k1 V c)).symm

/-- The one write-back of the second output, at point 9. -/
theorem flushed2_k1 (c : Dev nD) (t : Fin cfg1.N) (hf : (cfg1.win 2).flush t = true) :
    (dat1 (F := Ideal) V c).flushed 2 t = ((cfg1.win 2).blk t).view.read (Elt Ideal) (res2_k1 V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 (F := Ideal) V c).after 2 t1_9) = _
  rw [after1_2]
  have hz' : (fun a => win1_2.index t1_9 a * main_v46_1.ty.shape.size a) = fun _ => 0 :=
    funext fun a => by fin_cases a <;> decide +kernel
  exact (Memref.read_access_unit_zero (Elt Ideal) main_v46_1 hz' (fun a => by rw [congrFun hz' a]; simp) (res2_k1 V c)).symm

/-- Point 9's block covers the first output array, so the array ends at what point 9 leaves. -/
theorem final1_k1 (c : Dev nD) : ss1 V c = res1_k1 V c :=
  (dat1 (F := Ideal) V c).arrAt_eq_of_cover 1 (res1_k1 V c) (flushed1_k1 V c) fun i =>
    ⟨t1_9, (flush1_1 t1_9).mpr rfl, by
      show i ∈ ((View.whole main_v46_0).slice (win1_1.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_1.index t1_9 0 * win1_1.size 0 ≤ (i 0 : Nat) ∧ (i 0 : Nat) < win1_1.index t1_9 0 * win1_1.size 0 + win1_1.xsize (grid1.coords t1_9) 0
        rw [show win1_1.index t1_9 0 * win1_1.size 0 = 0 from by decide +kernel, show win1_1.xsize (grid1.coords t1_9) 0 = 1 from by decide +kernel]; omega
      | ⟨1, _⟩ =>
        show win1_1.index t1_9 1 * win1_1.size 1 ≤ (i 1 : Nat) ∧ (i 1 : Nat) < win1_1.index t1_9 1 * win1_1.size 1 + win1_1.xsize (grid1.coords t1_9) 1
        rw [show win1_1.index t1_9 1 * win1_1.size 1 = 0 from by decide +kernel, show win1_1.xsize (grid1.coords t1_9) 1 = 64 from by decide +kernel]; omega⟩

/-- Likewise the second output array. -/
theorem final2_k1 (c : Dev nD) : sq1 V c = res2_k1 V c :=
  (dat1 (F := Ideal) V c).arrAt_eq_of_cover 2 (res2_k1 V c) (flushed2_k1 V c) fun i =>
    ⟨t1_9, (flush1_2 t1_9).mpr rfl, by
      show i ∈ ((View.whole main_v46_1).slice (win1_2.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_2.index t1_9 0 * win1_2.size 0 ≤ (i 0 : Nat) ∧ (i 0 : Nat) < win1_2.index t1_9 0 * win1_2.size 0 + win1_2.xsize (grid1.coords t1_9) 0
        rw [show win1_2.index t1_9 0 * win1_2.size 0 = 0 from by decide +kernel, show win1_2.xsize (grid1.coords t1_9) 0 = 1 from by decide +kernel]; omega
      | ⟨1, _⟩ =>
        show win1_2.index t1_9 1 * win1_2.size 1 ≤ (i 1 : Nat) ∧ (i 1 : Nat) < win1_2.index t1_9 1 * win1_2.size 1 + win1_2.xsize (grid1.coords t1_9) 1
        rw [show win1_2.index t1_9 1 * win1_2.size 1 = 0 from by decide +kernel, show win1_2.xsize (grid1.coords t1_9) 1 = 64 from by decide +kernel]; omega⟩

/-! ## The two results -/

theorem sum1 (c : Dev nD) (q : Fin 64) :
    ss1 V c (ix2 0 q) = ∑ p : Fin 100000, Gcn.leaky (sa1 V c (ix2 p q)) := by
  rw [final1_k1 V c]
  refine ((outs_eq_k1 V c q t1_9.val t1_9.isLt).1).trans ?_
  exact sum_blocks_k1 (lk_k1 V c q)

theorem sqsum1 (c : Dev nD) (q : Fin 64) :
    sq1 V c (ix2 0 q) = ∑ p : Fin 100000, Gcn.leaky (sa1 V c (ix2 p q)) * Gcn.leaky (sa1 V c (ix2 p q)) := by
  rw [final2_k1 V c]
  refine ((outs_eq_k1 V c q t1_9.val t1_9.isLt).2).trans ?_
  exact sum_blocks_k1 (lq_k1 V c q)

end Cert.KernelIdeal.KerValue

end
-- ==== Proof.KBn2.lean ====
import proofs.«426465_j33225867002208_1_alg».proof.Proof.Gen.KernelIdeal.Frame
import proofs.«426465_j33225867002208_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The arrays the normalisation region finds on entry: the node table, the column means, the column variances, the
    scale row and the shift row. -/
abbrev na2 (c : Dev nD) : Vec Ideal S100000x64 .f32 := V c (Pipeline.arrRef spec2 0)
abbrev nm2 (c : Dev nD) : Vec Ideal S1x64 .f32 := V c (Pipeline.arrRef spec2 1)
abbrev nv2 (c : Dev nD) : Vec Ideal S1x64 .f32 := V c (Pipeline.arrRef spec2 2)
abbrev ng2 (c : Dev nD) : Vec Ideal S1x64 .f32 := V c (Pipeline.arrRef spec2 3)
abbrev nb2 (c : Dev nD) : Vec Ideal S1x64 .f32 := V c (Pipeline.arrRef spec2 4)
/-- What the region leaves in its output array. -/
abbrev no2 (c : Dev nD) : Vec Ideal S100000x64 .f32 := (dat2 (F := Ideal) V c).arrAt 5 cfg2.N

/-! ## One block: the body's value at a row and a feature

The body works on a block of ten thousand rows `x0` and on the four rows `xv` (variances), `xg` (scales), `xm`
(means), `xb` (shifts), each broadcast down the block. Entry `(r, q)` of what it stores depends only on `x0 (r, q)`
and on entry `q` of each row:
`xg q * (leaky (x0 (r, q)) - xm q) * rsqrt (xv q + eps) + xb q`,
the products taken from the left, the guard added to the variance before the reciprocal square root. -/

theorem bn_pay2 (x0 : Vec Ideal S10000x64 .f32) (xv xg xm xb : Vec Ideal S1x64 .f32) (r : Fin 10000) (q : Fin 64) :
    k2_pay1 (F := Ideal) x0 xv xg xm xb (ix2 r q)
      = xg (ix2 0 q) * (Gcn.leaky (x0 (ix2 r q)) - xm (ix2 0 q)) * Ideal.rsqrt (xv (ix2 0 q) + Gcn.eps) + xb (ix2 0 q) := by
  unfold k2_pay1
  simp only [shapeCast_self]
  rw [addf_apply, mulf_apply, mulf_apply, broadcastTo_1b_ab_apply, broadcastTo_1b_ab_apply, broadcastTo_1b_ab_apply,
    subf_apply, broadcastTo_1b_ab_apply]
  -- the rectifier at an entry is `Gcn.leaky`: the comparison with the zero pattern chooses between the entry and the
  -- slope times the entry; the guard constant is `Gcn.eps`
  rfl

/-! ## The whole table

The value the region computes, as ONE function of the five arrays: at node `p` and feature `q` it reads the table at
`(p, q)` and each row at `q`. -/

/-- The normalised entry at node `p` and feature `q`. -/
def bnAt2 (a : Vec Ideal S100000x64 .f32) (m v g b : Vec Ideal S1x64 .f32) (p : Fin 100000) (q : Fin 64) : EReal :=
  g (ix2 0 q) * (Gcn.leaky (a (ix2 p q)) - m (ix2 0 q)) * Ideal.rsqrt (v (ix2 0 q) + Gcn.eps) + b (ix2 0 q)

/-- The normalised table. -/
def bnOut2 (a : Vec Ideal S100000x64 .f32) (m v g b : Vec Ideal S1x64 .f32) : Vec Ideal S100000x64 .f32 :=
  fun i => bnAt2 a m v g b (i 0) (i 1)

theorem bn_hz2 : (![0, 0] : Fin 2 → Nat) = fun _ => 0 := funext fun a => by fin_cases a <;> rfl

/-- Where each window's block sits at grid point `t`: the table's and the output's block is the `t`-th band of ten
    thousand rows (block index `(t, 0)`); each of the four rows is its own single block (block index `(0, 0)`).
    Decided over the ten grid points. -/
theorem bn_idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! ## The input blocks as parts of the arrays

An element of a block sits in its array, on each axis, at the block index times the block's extent plus its coordinate
inside the block. So row `r` of the table's block at point `t` is row `10000 * t + r` of the table, and the one block
of each row array is the row array itself. -/

theorem bn_blk2_0 (c : Dev nD) (t : Fin cfg2.N) (r : Fin 10000) (q : Fin 64) (k : S100000x64.Idx)
    (hk0 : (k 0).val = 10000 * t.val + r.val) (hk1 : (k 1).val = q.val) :
    (iblk2 V c 0 t : Vec Ideal S10000x64 .f32) (ix2 r q) = na2 V c k := by
  obtain ⟨e0, e1, -⟩ := bn_idx2 t
  unfold iblk2
  rw [View.read_apply]
  show V c (Pipeline.arrRef spec2 0) _ = V c (Pipeline.arrRef spec2 0) _
  refine congrArg _ ?_
  funext a
  apply Fin.ext
  match a with
  | ⟨0, _⟩ => show win2_0.index t (0 : Fin 2) * 10000 + 1 * r.val = (k 0).val; rw [e0, hk0]; omega
  | ⟨1, _⟩ => show win2_0.index t (1 : Fin 2) * 64 + 1 * q.val = (k 1).val; rw [e1, hk1]; omega

theorem bn_blk2_1 (c : Dev nD) (t : Fin cfg2.N) (q : Fin 64) :
    (iblk2 V c 1 t : Vec Ideal S1x64 .f32) (ix2 0 q) = nm2 V c (ix2 0 q) := by
  obtain ⟨-, -, e0, e1, -⟩ := bn_idx2 t
  unfold iblk2
  rw [View.read_apply]
  show V c (Pipeline.arrRef spec2 1) _ = V c (Pipeline.arrRef spec2 1) _
  refine congrArg _ ?_
  funext a
  apply Fin.ext
  match a with
  | ⟨0, _⟩ => show win2_1.index t (0 : Fin 2) * 1 + 1 * 0 = 0; rw [e0]
  | ⟨1, _⟩ => show win2_1.index t (1 : Fin 2) * 64 + 1 * q.val = q.val; rw [e1]; omega

theorem bn_blk2_2 (c : Dev nD) (t : Fin cfg2.N) (q : Fin 64) :
    (iblk2 V c 2 t : Vec Ideal S1x64 .f32) (ix2 0 q) = nv2 V c (ix2 0 q) := by
  obtain ⟨-, -, -, -, e0, e1, -⟩ := bn_idx2 t
  unfold iblk2
  rw [View.read_apply]
  show V c (Pipeline.arrRef spec2 2) _ = V c (Pipeline.arrRef spec2 2) _
  refine congrArg _ ?_
  funext a
  apply Fin.ext
  match a with
  | ⟨0, _⟩ => show win2_2.index t (0 : Fin 2) * 1 + 1 * 0 = 0; rw [e0]
  | ⟨1, _⟩ => show win2_2.index t (1 : Fin 2) * 64 + 1 * q.val = q.val; rw [e1]; omega

theorem bn_blk2_3 (c : Dev nD) (t : Fin cfg2.N) (q : Fin 64) :
    (iblk2 V c 3 t : Vec Ideal S1x64 .f32) (ix2 0 q) = ng2 V c (ix2 0 q) := by
  obtain ⟨-, -, -, -, -, -, e0, e1, -⟩ := bn_idx2 t
  unfold iblk2
  rw [View.read_apply]
  show V c (Pipeline.arrRef spec2 3) _ = V c (Pipeline.arrRef spec2 3) _
  refine congrArg _ ?_
  funext a
  apply Fin.ext
  match a with
  | ⟨0, _⟩ => show win2_3.index t (0 : Fin 2) * 1 + 1 * 0 = 0; rw [e0]
  | ⟨1, _⟩ => show win2_3.index t (1 : Fin 2) * 64 + 1 * q.val = q.val; rw [e1]; omega

theorem bn_blk2_4 (c : Dev nD) (t : Fin cfg2.N) (q : Fin 64) :
    (iblk2 V c 4 t : Vec Ideal S1x64 .f32) (ix2 0 q) = nb2 V c (ix2 0 q) := by
  obtain ⟨-, -, -, -, -, -, -, -, e0, e1, -⟩ := bn_idx2 t
  unfold iblk2
  rw [View.read_apply]
  show V c (Pipeline.arrRef spec2 4) _ = V c (Pipeline.arrRef spec2 4) _
  refine congrArg _ ?_
  funext a
  apply Fin.ext
  match a with
  | ⟨0, _⟩ => show win2_4.index t (0 : Fin 2) * 1 + 1 * 0 = 0; rw [e0]
  | ⟨1, _⟩ => show win2_4.index t (1 : Fin 2) * 64 + 1 * q.val = q.val; rw [e1]; omega

/-! ## From blocks to the table -/

/-- What grid point `t` writes back is the `t`-th band of the normalised table: the body stores its value over the
    whole block, entry `(r, q)` of that value reads the table's block at `(r, q)`, which is the table at row
    `10000 * t + r`, and the four rows at `q`; the output's block at `t` covers the same rows. -/
theorem bn_flushed2 (c : Dev nD) (t : Fin cfg2.N) :
    (dat2 (F := Ideal) V c).flushed 5 t
      = ((cfg2.win 5).blk t).view.read (Elt Ideal) (bnOut2 (na2 V c) (nm2 V c) (nv2 V c) (ng2 V c) (nb2 V c)) := by
  show (cfg2.win 5).cut (grid2.coords t) ((dat2 (F := Ideal) V c).after 5 t) = _
  rw [after2_5]
  unfold out2_5
  rw [View.canon_unit_zero bn_hz2]
  simp only [View.ld_unit_zero (S := S10000x64) bn_hz2, View.ld_unit_zero (S := S1x64) bn_hz2]
  funext j
  obtain ⟨r, q, rfl⟩ : ∃ (r : Fin 10000) (q : Fin 64), j = ix2 r q := ⟨j 0, j 1, eq_ix2 j⟩
  show k2_pay1 (F := Ideal) (iblk2 V c 0 t) (iblk2 V c 2 t) (iblk2 V c 3 t) (iblk2 V c 1 t) (iblk2 V c 4 t) (ix2 r q)
    = bnOut2 (na2 V c) (nm2 V c) (nv2 V c) (ng2 V c) (nb2 V c) (((cfg2.win 5).blk t).view.emb (ix2 r q))
  refine (bn_pay2 (iblk2 V c 0 t) (iblk2 V c 2 t) (iblk2 V c 3 t) (iblk2 V c 1 t) (iblk2 V c 4 t) r q).trans ?_
  have hN : t.val < 10 := lt_of_lt_of_eq t.isLt N_2
  obtain ⟨-, -, -, -, -, -, -, -, -, -, e0, e1⟩ := bn_idx2 t
  have h0 : ((cfg2.win 5).blk t).view.emb (ix2 r q) 0 = (⟨10000 * t.val + r.val, by omega⟩ : Fin 100000) :=
    Fin.ext (by show win2_5.index t (0 : Fin 2) * 10000 + 1 * r.val = 10000 * t.val + r.val; rw [e0]; omega)
  have h1 : ((cfg2.win 5).blk t).view.emb (ix2 r q) 1 = q :=
    Fin.ext (by show win2_5.index t (1 : Fin 2) * 64 + 1 * q.val = q.val; rw [e1]; omega)
  refine Eq.trans ?_ (congrArg₂ (bnAt2 (na2 V c) (nm2 V c) (nv2 V c) (ng2 V c) (nb2 V c)) h0 h1).symm
  unfold bnAt2
  rw [bn_blk2_0 V c t r q (ix2 ⟨10000 * t.val + r.val, by omega⟩ q) rfl rfl, bn_blk2_1, bn_blk2_2, bn_blk2_3, bn_blk2_4]

/-- An index of the table lies in point `t`'s output block iff, on each axis, its coordinate is within the block's
    extent from the block's first coordinate. -/
theorem bn_mem2 (t : Fin cfg2.N) (i : S100000x64.Idx) :
    i ∈ ((cfg2.win 5).blk t).view.set
      ↔ ∀ a : Fin 2, win2_5.index t a * S10000x64.size a ≤ (i a).val ∧ (i a).val < win2_5.index t a * S10000x64.size a + S10000x64.size a := by
  show i ∈ ((View.whole main_v59).slice (win2_5.rect t)).set ↔ _
  rw [View.set_slice_whole, Rect.mem_set_unit]
  exact Iff.rfl

/-- The ten bands tile the table: row `p` is in the band of point `p / 10000`, and every point writes its band back. So
    the output array ends holding the normalised table. -/
theorem bn_final2 (c : Dev nD) : no2 V c = bnOut2 (na2 V c) (nm2 V c) (nv2 V c) (ng2 V c) (nb2 V c) :=
  (dat2 (F := Ideal) V c).arrAt_eq_of_cover 5 _ (fun t _ => bn_flushed2 V c t) fun i => by
    have hi0 : (i 0).val < 100000 := (i 0).isLt
    have hi1 : (i 1).val < 64 := (i 1).isLt
    have hN : cfg2.N = 10 := N_2
    refine ⟨⟨(i 0).val / 10000, by rw [hN]; omega⟩, flush2_5 _, ?_⟩
    rw [bn_mem2]
    obtain ⟨-, -, -, -, -, -, -, -, -, -, e0, e1⟩ := bn_idx2 ⟨(i 0).val / 10000, by rw [hN]; omega⟩
    intro a
    match a with
    | ⟨0, _⟩ =>
      show win2_5.index ⟨(i 0).val / 10000, _⟩ (0 : Fin 2) * 10000 ≤ (i 0).val
        ∧ (i 0).val < win2_5.index ⟨(i 0).val / 10000, _⟩ (0 : Fin 2) * 10000 + 10000
      rw [e0]
      show (i 0).val / 10000 * 10000 ≤ (i 0).val ∧ (i 0).val < (i 0).val / 10000 * 10000 + 10000
      omega
    | ⟨1, _⟩ =>
      show win2_5.index ⟨(i 0).val / 10000, _⟩ (1 : Fin 2) * 64 ≤ (i 1).val
        ∧ (i 1).val < win2_5.index ⟨(i 0).val / 10000, _⟩ (1 : Fin 2) * 64 + 64
      rw [e1]
      omega

theorem bn2 (c : Dev nD) (p : Fin 100000) (q : Fin 64) :
    no2 V c (ix2 p q)
      = ng2 V c (ix2 0 q) * (Gcn.leaky (na2 V c (ix2 p q)) - nm2 V c (ix2 0 q)) * Ideal.rsqrt (nv2 V c (ix2 0 q) + Gcn.eps)
        + nb2 V c (ix2 0 q) := by
  rw [bn_final2 V c]
  rfl

end Cert.KernelIdeal.KerValue

end
-- ==== Proof.KLayer0.lean ====
import proofs.«426465_j33225867002208_1_alg».proof.Proof.Gen.KernelIdeal.Frame
import proofs.«426465_j33225867002208_1_alg».proof.Proof.KerTerm
import proofs.«426465_j33225867002208_1_alg».proof.Proof.Spec
import proofs.«426465_j33225867002208_1_alg».proof.Proof.KMatmul0
import proofs.«426465_j33225867002208_1_alg».proof.Proof.KStats1
import proofs.«426465_j33225867002208_1_alg».proof.Proof.KBn2
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx

variable (m : (ℓ : Loc nD τ sig) → Buf (Elt Ideal) ℓ) (ρ : Dev nD → PrngReg)

/-- A buffer that no operation of a stretch of host operations writes holds after the stretch what it held before. -/
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The first stretch: the edge list's rows, the normalisation columns, layer 0's weight table

Each is the composition of the printed operations, applied to the edge list (or the weight stack) as the stretch finds it. -/

section Prelude

variable (V : Valuation τ sig (Elt Ideal))

theorem lay0_pre_src :
    (StableHlo.after (hostOps0 (F := Ideal)) V (Proc.devRef .tc main_v1) : IVec S1200000 32)
      = Terms.src (V (Proc.devRef .tc main_arg1)) := by
  after_results
  rfl

theorem lay0_pre_dst :
    (StableHlo.after (hostOps0 (F := Ideal)) V (Proc.devRef .tc main_v3) : IVec S1200000 32)
      = Terms.dst (V (Proc.devRef .tc main_arg1)) := by
  after_results
  rfl

theorem lay0_pre_enorm :
    (StableHlo.after (hostOps0 (F := Ideal)) V (Proc.devRef .tc main_v26) : FVec Ideal S1200000x1 .f32)
      = Terms.enorm (F := Ideal) (V (Proc.devRef .tc main_arg1)) := by
  after_results_simp
  rfl

theorem lay0_pre_snorm :
    (StableHlo.after (hostOps0 (F := Ideal)) V (Proc.devRef .tc main_v28) : FVec Ideal S100000x1 .f32)
      = Terms.snorm (F := Ideal) (V (Proc.devRef .tc main_arg1)) := by
  after_results_simp
  rfl

theorem lay0_pre_w0 :
    (StableHlo.after (hostOps0 (F := Ideal)) V (Proc.devRef .tc main_v30) : FVec Ideal S64x64 .f32)
      = Terms.w0 (F := Ideal) (V (Proc.devRef .tc main_arg2)) := by
  after_results
  rfl

end Prelude

/-- What the first stretch of host operations leaves: the edge list's rows, the normalisation columns, layer 0's
    weight table; the arguments as launched. -/
theorem prelude (c : Dev nD) :
    (W1 m ρ c (Proc.devRef .tc main_v1) : IVec S1200000 32) = Terms.src (m ((c.tc : Thread nD τ).loc main_arg1))
    ∧ (W1 m ρ c (Proc.devRef .tc main_v3) : IVec S1200000 32) = Terms.dst (m ((c.tc : Thread nD τ).loc main_arg1))
    ∧ (W1 m ρ c (Proc.devRef .tc main_v26) : FVec Ideal S1200000x1 .f32) = Terms.enorm (F := Ideal) (m ((c.tc : Thread nD τ).loc main_arg1))
    ∧ (W1 m ρ c (Proc.devRef .tc main_v28) : FVec Ideal S100000x1 .f32) = Terms.snorm (F := Ideal) (m ((c.tc : Thread nD τ).loc main_arg1))
    ∧ (W1 m ρ c (Proc.devRef .tc main_v30) : FVec Ideal S64x64 .f32) = Terms.w0 (F := Ideal) (m ((c.tc : Thread nD τ).loc main_arg2))
    ∧ W1 m ρ c (Proc.devRef .tc main_arg0) = m ((c.tc : Thread nD τ).loc main_arg0)
    ∧ W1 m ρ c (Proc.devRef .tc main_arg2) = m ((c.tc : Thread nD τ).loc main_arg2)
    ∧ W1 m ρ c (Proc.devRef .tc main_arg3) = m ((c.tc : Thread nD τ).loc main_arg3)
    ∧ W1 m ρ c (Proc.devRef .tc main_arg4) = m ((c.tc : Thread nD τ).loc main_arg4)
    ∧ W1 m ρ c (Proc.devRef .tc main_arg5) = m ((c.tc : Thread nD τ).loc main_arg5) := by
  refine ⟨lay0_pre_src (W0 m ρ c), lay0_pre_dst (W0 m ρ c), lay0_pre_enorm (W0 m ρ c), lay0_pre_snorm (W0 m ρ c),
    lay0_pre_w0 (W0 m ρ c), ?_, ?_, ?_, ?_, ?_⟩
  · show StableHlo.after hostOps0 (W0 m ρ c) (Proc.devRef .tc main_arg0) = W0 m ρ c (Proc.devRef .tc main_arg0)
    host_keeps hostOps0
  · show StableHlo.after hostOps0 (W0 m ρ c) (Proc.devRef .tc main_arg2) = W0 m ρ c (Proc.devRef .tc main_arg2)
    host_keeps hostOps0
  · show StableHlo.after hostOps0 (W0 m ρ c) (Proc.devRef .tc main_arg3) = W0 m ρ c (Proc.devRef .tc main_arg3)
    host_keeps hostOps0
  · show StableHlo.after hostOps0 (W0 m ρ c) (Proc.devRef .tc main_arg4) = W0 m ρ c (Proc.devRef .tc main_arg4)
    host_keeps hostOps0
  · show StableHlo.after hostOps0 (W0 m ρ c) (Proc.devRef .tc main_arg5) = W0 m ρ c (Proc.devRef .tc main_arg5)
    host_keeps hostOps0

/-! ## Layer 0

The layer is five steps: the product region, the aggregation over the graph (two stretches of host operations), the
statistics region, the stretch that turns the two column sums into mean and variance and lays out the scale and shift
rows, and the normalisation region. -/

/-- Contents moved to a buffer's own type and back are unchanged. -/
theorem lay0_ofBuf_toBuf {T : BufTy} (x : StableHlo.TRef sig T) (v : T.Contents (Elt Ideal)) : x.ofBuf (x.toBuf v) = v := by
  cases x with
  | mk r h a b => cases h; rfl

/-- At the three buffers through which the gather's operations meet the rest of the program the move is the identity. -/
theorem lay0_ofBuf_src (h1 h2 h3) (X : IVec S1200000 32) :
    (StableHlo.TRef.of main_v1 h1 h2 h3 : StableHlo.TRef sig ⟨S1200000, .i32⟩).ofBuf (Val := Elt Ideal) X = X := rfl
theorem lay0_ofBuf_prod (h1 h2 h3) (X : FVec Ideal S100000x64 .f32) :
    (StableHlo.TRef.of main_v31 h1 h2 h3 : StableHlo.TRef sig ⟨S100000x64, .f32⟩).ofBuf (Val := Elt Ideal) X = X := rfl
theorem lay0_toBuf_gath (h1 h2 h3) (X : FVec Ideal S1200000x64 .f32) :
    (StableHlo.TRef.of main_v32 h1 h2 h3 : StableHlo.TRef sig ⟨S1200000x64, .f32⟩).toBuf (Val := Elt Ideal) X = X := rfl

section Stretches

variable (V : Valuation τ sig (Elt Ideal))

/-- The gather: the product's rows at the edges' (wrapped) sources, with the fill value where a source is out of range. -/
theorem lay0_gath_after (ei : IVec S2x1200000 32)
    (h1 : (V (Proc.devRef .tc main_v1) : IVec S1200000 32) = Terms.src ei) :
    (StableHlo.after (hostOps1 (F := Ideal)) V (Proc.devRef .tc main_v32) : FVec Ideal S1200000x64 .f32)
      = Terms.gath (F := Ideal) ei (V (Proc.devRef .tc main_v31)) := by
  after_results_simp
  simp only [lay0_ofBuf_toBuf, lay0_ofBuf_src, lay0_ofBuf_prod, lay0_toBuf_gath]
  rw [h1]
  rfl

/-- The weighting, the scatter-add onto the destinations, the self-loop term and the bias row. -/
theorem lay0_agg_after (ei : IVec S2x1200000 32) (B : FVec Ideal S3x64 .f32) (xw : FVec Ideal S100000x64 .f32)
    (h32 : (V (Proc.devRef .tc main_v32) : FVec Ideal S1200000x64 .f32) = Terms.gath (F := Ideal) ei xw)
    (h31 : (V (Proc.devRef .tc main_v31) : FVec Ideal S100000x64 .f32) = xw)
    (h3 : (V (Proc.devRef .tc main_v3) : IVec S1200000 32) = Terms.dst ei)
    (h26 : (V (Proc.devRef .tc main_v26) : FVec Ideal S1200000x1 .f32) = Terms.enorm (F := Ideal) ei)
    (h28 : (V (Proc.devRef .tc main_v28) : FVec Ideal S100000x1 .f32) = Terms.snorm (F := Ideal) ei)
    (hB : (V (Proc.devRef .tc main_arg3) : FVec Ideal S3x64 .f32) = B) :
    (StableHlo.after (hostOps1_1 (F := Ideal)) V (Proc.devRef .tc main_v45) : FVec Ideal S100000x64 .f32)
      = Terms.agg (F := Ideal) ei (Terms.r0 (F := Ideal) B) xw := by
  after_results_simp
  rw [h32, h31, h3, h26, h28, hB]
  rfl

end Stretches

section Moments

variable (V : Valuation τ sig (Elt Ideal))

/-- A row laid out as a one-row table reads, at column `q` of its one row, the row's entry `q`. -/
theorem lay0_row_read (v : FVec Ideal S64 .f32) (q : Fin 64) :
    broadcastInDim S1x64 ![1] bcast_S64_S1x64_1 v (ix2 (0 : Fin 1) q) = v (ix1 q) := by
  simp only [broadcastInDim]
  congr 1
  funext a
  match a with
  | ⟨0, _⟩ =>
    apply Fin.ext
    split
    · next h1 => change (64 : ℕ) = 1 at h1; omega
    · rfl

/-- The column mean: the first column sum divided by the number of nodes. -/
theorem lay0_mean_after (q : Fin 64) :
    (StableHlo.after (hostOps2 (F := Ideal)) V (Proc.devRef .tc main_v48) : FVec Ideal S1x64 .f32) (ix2 0 q)
      = Ideal.div ((V (Proc.devRef .tc main_v46_0) : FVec Ideal S1x64 .f32) (ix2 0 q)) Gcn.cnt := by
  after_results
  rfl

/-- The column variance: the second column sum divided by the number of nodes, minus the square of the mean. -/
theorem lay0_var_after (q : Fin 64) :
    (StableHlo.after (hostOps2 (F := Ideal)) V (Proc.devRef .tc main_v52) : FVec Ideal S1x64 .f32) (ix2 0 q)
      = Ideal.div ((V (Proc.devRef .tc main_v46_1) : FVec Ideal S1x64 .f32) (ix2 0 q)) Gcn.cnt
        - Ideal.div ((V (Proc.devRef .tc main_v46_0) : FVec Ideal S1x64 .f32) (ix2 0 q)) Gcn.cnt
          * Ideal.div ((V (Proc.devRef .tc main_v46_0) : FVec Ideal S1x64 .f32) (ix2 0 q)) Gcn.cnt := by
  after_results
  rfl

/-- The scale row, laid out as a one-row table. -/
theorem lay0_scale_after (G : FVec Ideal S3x64 .f32) (hG : (V (Proc.devRef .tc main_arg4) : FVec Ideal S3x64 .f32) = G) (q : Fin 64) :
    (StableHlo.after (hostOps2 (F := Ideal)) V (Proc.devRef .tc main_v55) : FVec Ideal S1x64 .f32) (ix2 0 q)
      = Terms.r0 (F := Ideal) G (ix1 q) := by
  after_results
  rw [hG]
  refine (lay0_row_read _ q).trans ?_
  rfl

/-- The shift row, laid out as a one-row table. -/
theorem lay0_shift_after (BE : FVec Ideal S3x64 .f32) (hBE : (V (Proc.devRef .tc main_arg5) : FVec Ideal S3x64 .f32) = BE) (q : Fin 64) :
    (StableHlo.after (hostOps2 (F := Ideal)) V (Proc.devRef .tc main_v58) : FVec Ideal S1x64 .f32) (ix2 0 q)
      = Terms.r0 (F := Ideal) BE (ix1 q) := by
  after_results
  rw [hBE]
  refine (lay0_row_read _ q).trans ?_
  rfl

end Moments

/-- The normalisation, from its pieces: an output table whose entry `(p, q)` is the scale times the rectified entry
    minus the column mean, times the reciprocal root of the column variance plus the guard, plus the shift, where the
    mean and variance are formed from the two column sums of the rectified table and of its square. -/
theorem lay0_norm_of_pieces (o a : FVec Ideal S100000x64 .f32) (s1 s2 mu va ga sh : FVec Ideal S1x64 .f32) (g be : FVec Ideal S64 .f32)
    (ho : ∀ (p : Fin 100000) (q : Fin 64), o (ix2 p q)
      = ga (ix2 0 q) * (Gcn.leaky (a (ix2 p q)) - mu (ix2 0 q)) * Ideal.rsqrt (va (ix2 0 q) + Gcn.eps) + sh (ix2 0 q))
    (hs1 : ∀ q : Fin 64, s1 (ix2 0 q) = ∑ p : Fin 100000, Gcn.leaky (a (ix2 p q)))
    (hs2 : ∀ q : Fin 64, s2 (ix2 0 q) = ∑ p : Fin 100000, Gcn.leaky (a (ix2 p q)) * Gcn.leaky (a (ix2 p q)))
    (hmu : ∀ q : Fin 64, mu (ix2 0 q) = Ideal.div (s1 (ix2 0 q)) Gcn.cnt)
    (hva : ∀ q : Fin 64, va (ix2 0 q)
      = Ideal.div (s2 (ix2 0 q)) Gcn.cnt - Ideal.div (s1 (ix2 0 q)) Gcn.cnt * Ideal.div (s1 (ix2 0 q)) Gcn.cnt)
    (hga : ∀ q : Fin 64, ga (ix2 0 q) = g (ix1 q)) (hsh : ∀ q : Fin 64, sh (ix2 0 q) = be (ix1 q)) :
    Gcn.toMat o = Gcn.normK (Gcn.toRow g) (Gcn.toRow be) (Gcn.toMat a) := by
  funext p q
  show o (ix2 p q) = _
  rw [ho, hmu, hva, hs1, hs2, hga, hsh]
  rfl

section Chain

/-- The product region: its output table is the input table times the weight table. -/
theorem lay0_prod (c : Dev nD) :
    (W2 m ρ c (Proc.devRef .tc main_v31) : FVec Ideal S100000x64 .f32)
      = Gcn.ofMat (Gcn.mm (Gcn.toMat (W1 m ρ c (Proc.devRef .tc main_arg0) : FVec Ideal S100000x64 .f32))
          (Gcn.toWt (W1 m ρ c (Proc.devRef .tc main_v30) : FVec Ideal S64x64 .f32))) := by
  funext i
  obtain ⟨p, q, rfl⟩ : ∃ (p : Fin 100000) (q : Fin 64), i = ix2 p q := ⟨i 0, i 1, eq_ix2 i⟩
  exact (congrFun (W2_arr m ρ c 2) (ix2 p q)).trans (mm0 (V1 m ρ) c p q)

/-- The aggregation of the product over the graph: the product region writes none of the buffers the two stretches
    read besides its own output, and the gather's stretch writes none that the second stretch reads besides the
    gathered rows. -/
theorem lay0_agg (c : Dev nD) (ei : IVec S2x1200000 32) (B : FVec Ideal S3x64 .f32)
    (h1 : (W1 m ρ c (Proc.devRef .tc main_v1) : IVec S1200000 32) = Terms.src ei)
    (h3 : (W1 m ρ c (Proc.devRef .tc main_v3) : IVec S1200000 32) = Terms.dst ei)
    (h26 : (W1 m ρ c (Proc.devRef .tc main_v26) : FVec Ideal S1200000x1 .f32) = Terms.enorm (F := Ideal) ei)
    (h28 : (W1 m ρ c (Proc.devRef .tc main_v28) : FVec Ideal S100000x1 .f32) = Terms.snorm (F := Ideal) ei)
    (hB : (W1 m ρ c (Proc.devRef .tc main_arg3) : FVec Ideal S3x64 .f32) = B) :
    (W4 m ρ c (Proc.devRef .tc main_v45) : FVec Ideal S100000x64 .f32)
      = Terms.agg (F := Ideal) ei (Terms.r0 (F := Ideal) B) (W2 m ρ c (Proc.devRef .tc main_v31)) := by
  have k1 : W2 m ρ c (Proc.devRef .tc main_v1) = W1 m ρ c (Proc.devRef .tc main_v1) := W2_of_ne m ρ c main_v1 (by decide)
  have k3 : W2 m ρ c (Proc.devRef .tc main_v3) = W1 m ρ c (Proc.devRef .tc main_v3) := W2_of_ne m ρ c main_v3 (by decide)
  have k26 : W2 m ρ c (Proc.devRef .tc main_v26) = W1 m ρ c (Proc.devRef .tc main_v26) := W2_of_ne m ρ c main_v26 (by decide)
  have k28 : W2 m ρ c (Proc.devRef .tc main_v28) = W1 m ρ c (Proc.devRef .tc main_v28) := W2_of_ne m ρ c main_v28 (by decide)
  have kB : W2 m ρ c (Proc.devRef .tc main_arg3) = W1 m ρ c (Proc.devRef .tc main_arg3) := W2_of_ne m ρ c main_arg3 (by decide)
  have g31 : W3 m ρ c (Proc.devRef .tc main_v31) = W2 m ρ c (Proc.devRef .tc main_v31) := by host_keeps hostOps1
  have g3 : W3 m ρ c (Proc.devRef .tc main_v3) = W2 m ρ c (Proc.devRef .tc main_v3) := by host_keeps hostOps1
  have g26 : W3 m ρ c (Proc.devRef .tc main_v26) = W2 m ρ c (Proc.devRef .tc main_v26) := by host_keeps hostOps1
  have g28 : W3 m ρ c (Proc.devRef .tc main_v28) = W2 m ρ c (Proc.devRef .tc main_v28) := by host_keeps hostOps1
  have gB : W3 m ρ c (Proc.devRef .tc main_arg3) = W2 m ρ c (Proc.devRef .tc main_arg3) := by host_keeps hostOps1
  exact lay0_agg_after (W3 m ρ c) ei B _ (lay0_gath_after (W2 m ρ c) ei (k1.trans h1)) g31 (g3.trans (k3.trans h3))
    (g26.trans (k26.trans h26)) (g28.trans (k28.trans h28)) (gB.trans (kB.trans hB))

/-- The statistics region: the column sums of the rectified aggregate and of its square. -/
theorem lay0_sums (c : Dev nD) (q : Fin 64) :
    (W5 m ρ c (Proc.devRef .tc main_v46_0) : FVec Ideal S1x64 .f32) (ix2 0 q)
      = ∑ p : Fin 100000, Gcn.leaky ((W4 m ρ c (Proc.devRef .tc main_v45) : FVec Ideal S100000x64 .f32) (ix2 p q)) :=
  (congrFun (W5_arr m ρ c 1) (ix2 0 q)).trans (sum1 (V4 m ρ) c q)

theorem lay0_sqsums (c : Dev nD) (q : Fin 64) :
    (W5 m ρ c (Proc.devRef .tc main_v46_1) : FVec Ideal S1x64 .f32) (ix2 0 q)
      = ∑ p : Fin 100000, Gcn.leaky ((W4 m ρ c (Proc.devRef .tc main_v45) : FVec Ideal S100000x64 .f32) (ix2 p q))
          * Gcn.leaky ((W4 m ρ c (Proc.devRef .tc main_v45) : FVec Ideal S100000x64 .f32) (ix2 p q)) :=
  (congrFun (W5_arr m ρ c 2) (ix2 0 q)).trans (sqsum1 (V4 m ρ) c q)

/-- The aggregate is an input of the statistics region and no operation of the next stretch writes it. -/
theorem lay0_kept_agg (c : Dev nD) : W6 m ρ c (Proc.devRef .tc main_v45) = W4 m ρ c (Proc.devRef .tc main_v45) := by
  have a : W6 m ρ c (Proc.devRef .tc main_v45) = W5 m ρ c (Proc.devRef .tc main_v45) := by host_keeps hostOps2
  exact a.trans ((W5_arr m ρ c 0).trans (((dat1 (V4 m ρ) c).arrAt_in 0 rfl _).trans (A_eq1 (V4 m ρ) c 0)))

/-- A stacked parameter array reaches the moments' stretch as the product region found it. -/
theorem lay0_kept_scale (c : Dev nD) : W5 m ρ c (Proc.devRef .tc main_arg4) = W1 m ρ c (Proc.devRef .tc main_arg4) := by
  have a : W4 m ρ c (Proc.devRef .tc main_arg4) = W3 m ρ c (Proc.devRef .tc main_arg4) := by host_keeps hostOps1_1
  have b : W3 m ρ c (Proc.devRef .tc main_arg4) = W2 m ρ c (Proc.devRef .tc main_arg4) := by host_keeps hostOps1
  exact (W5_of_ne m ρ c main_arg4 (by decide)).trans (a.trans (b.trans (W2_of_ne m ρ c main_arg4 (by decide))))

theorem lay0_kept_shift (c : Dev nD) : W5 m ρ c (Proc.devRef .tc main_arg5) = W1 m ρ c (Proc.devRef .tc main_arg5) := by
  have a : W4 m ρ c (Proc.devRef .tc main_arg5) = W3 m ρ c (Proc.devRef .tc main_arg5) := by host_keeps hostOps1_1
  have b : W3 m ρ c (Proc.devRef .tc main_arg5) = W2 m ρ c (Proc.devRef .tc main_arg5) := by host_keeps hostOps1
  exact (W5_of_ne m ρ c main_arg5 (by decide)).trans (a.trans (b.trans (W2_of_ne m ρ c main_arg5 (by decide))))

end Chain

/-- Layer 0, from the contents at the product region's entry to the contents after the normalisation region. -/
theorem layer0 (c : Dev nD) (ei : IVec S2x1200000 32) (w : FVec Ideal S64x64 .f32) (B G BE : FVec Ideal S3x64 .f32)
    (h1 : (W1 m ρ c (Proc.devRef .tc main_v1) : IVec S1200000 32) = Terms.src ei)
    (h3 : (W1 m ρ c (Proc.devRef .tc main_v3) : IVec S1200000 32) = Terms.dst ei)
    (h26 : (W1 m ρ c (Proc.devRef .tc main_v26) : FVec Ideal S1200000x1 .f32) = Terms.enorm (F := Ideal) ei)
    (h28 : (W1 m ρ c (Proc.devRef .tc main_v28) : FVec Ideal S100000x1 .f32) = Terms.snorm (F := Ideal) ei)
    (hw : (W1 m ρ c (Proc.devRef .tc main_v30) : FVec Ideal S64x64 .f32) = w)
    (hB : (W1 m ρ c (Proc.devRef .tc main_arg3) : FVec Ideal S3x64 .f32) = B)
    (hG : (W1 m ρ c (Proc.devRef .tc main_arg4) : FVec Ideal S3x64 .f32) = G)
    (hBE : (W1 m ρ c (Proc.devRef .tc main_arg5) : FVec Ideal S3x64 .f32) = BE) :
    Gcn.toMat (W7 m ρ c (Proc.devRef .tc main_v59) : FVec Ideal S100000x64 .f32)
      = Gcn.layerK (fun y => Gcn.toMat (Terms.agg (F := Ideal) ei (Terms.r0 (F := Ideal) B) (Gcn.ofMat y))) (Gcn.toWt w)
          (Gcn.toRow (Terms.r0 (F := Ideal) G)) (Gcn.toRow (Terms.r0 (F := Ideal) BE))
          (Gcn.toMat (W1 m ρ c (Proc.devRef .tc main_arg0) : FVec Ideal S100000x64 .f32)) := by
  have key := lay0_norm_of_pieces
    (W7 m ρ c (Proc.devRef .tc main_v59)) (W4 m ρ c (Proc.devRef .tc main_v45))
    (W5 m ρ c (Proc.devRef .tc main_v46_0)) (W5 m ρ c (Proc.devRef .tc main_v46_1))
    (W6 m ρ c (Proc.devRef .tc main_v48)) (W6 m ρ c (Proc.devRef .tc main_v52))
    (W6 m ρ c (Proc.devRef .tc main_v55)) (W6 m ρ c (Proc.devRef .tc main_v58))
    (Terms.r0 (F := Ideal) G) (Terms.r0 (F := Ideal) BE)
    (fun p q => by
      rw [← lay0_kept_agg m ρ c]
      exact (congrFun (W7_arr m ρ c 5) (ix2 p q)).trans (bn2 (V6 m ρ) c p q))
    (lay0_sums m ρ c) (lay0_sqsums m ρ c) (lay0_mean_after (W5 m ρ c)) (lay0_var_after (W5 m ρ c))
    (lay0_scale_after (W5 m ρ c) G ((lay0_kept_scale m ρ c).trans hG)) (lay0_shift_after (W5 m ρ c) BE ((lay0_kept_shift m ρ c).trans hBE))
  rw [key, lay0_agg m ρ c ei B h1 h3 h26 h28 hB, lay0_prod m ρ c, hw]
  rfl

end Cert.KernelIdeal.KerValue

end
-- ==== Proof.KMatmul3.lean ====
import proofs.«426465_j33225867002208_1_alg».proof.Proof.Gen.KernelIdeal.Frame
import proofs.«426465_j33225867002208_1_alg».proof.Proof.Spec
import proofs.«426465_j33225867002208_1_alg».proof.Proof.LibPlainDot
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The node table the product region finds on entry. -/
abbrev mx3 (c : Dev nD) : Vec Ideal S100000x64 .f32 := V c (Pipeline.arrRef spec3 0)
/-- The weight table it finds. -/
abbrev mw3 (c : Dev nD) : Vec Ideal S64x64 .f32 := V c (Pipeline.arrRef spec3 1)
/-- What the region leaves in its output array. -/
abbrev mo3 (c : Dev nD) : Vec Ideal S100000x64 .f32 := (dat3 (F := Ideal) V c).arrAt 2 cfg3.N

/-! ## The product region's output array, entry by entry

The region's grid has 10 points. Point `t` reads rows `10000 t … 10000 t + 9999` of the node table and the whole
weight table, and writes rows `10000 t … 10000 t + 9999` of the output array; the body stores the matrix product
of its two blocks into the zero accumulator, the change of format on both operands being the identity on the
extended reals. So every point writes back its rows of ONE table, the product of the two tables the region finds,
and the ten row blocks cover the output array. -/

/-- The offset pair (0, 0) is the constant zero offset. -/
theorem origin3 : (![0, 0] : Fin 2 → Nat) = fun _ => 0 := funext fun a => by fin_cases a <;> rfl

/-- The product of a node table and a weight table as one table: entry (p, q) is the sum over k of
    x (p, k) · w (k, q), the coordinates read off the index. -/
def prod3 (x : Vec Ideal S100000x64 .f32) (w : Vec Ideal S64x64 .f32) : Vec Ideal S100000x64 .f32 :=
  fun i => ∑ k : Fin 64, x (ix2 ⟨(i 0).val, (i 0).isLt⟩ k) * w (ix2 k ⟨(i 1).val, (i 1).isLt⟩)

/-- The body's stored value at entry (r, q) of its block: the sum over k of x0 (r, k) · x1 (k, q). The record
    contracts the left operand's axis 1 with the right operand's axis 0 and has no batch axes; the accumulator
    is the zero constant; truncation and the cast to the same shape leave every entry as it is. -/
theorem body3_entry (x0 : Vec Ideal S10000x64 .f32) (x1 : Vec Ideal S64x64 .f32) (r : Fin 10000) (q : Fin 64) :
    k3_pay1 (F := Ideal) x0 x1 (ix2 r q) = ∑ k : Fin 64, x0 (ix2 r k) * x1 (ix2 k q) := by
  unfold k3_pay1
  refine (PlainDot.matmul_zero_apply dot_S10000x64_S64x64_S10000x64_1_0_0_1_n_n rfl rfl rfl rfl rfl rfl rfl rfl none _ _ r q).trans ?_
  refine Finset.sum_congr rfl fun k _ => ?_
  simp only [shapeCast_self, truncf_apply]

/-- The same at any index of the block, its two coordinates read off it. -/
theorem body3_at (x0 : Vec Ideal S10000x64 .f32) (x1 : Vec Ideal S64x64 .f32) (j : S10000x64.Idx) :
    k3_pay1 (F := Ideal) x0 x1 j = ∑ k : Fin 64, x0 (ix2 ⟨(j 0).val, (j 0).isLt⟩ k) * x1 (ix2 k ⟨(j 1).val, (j 1).isLt⟩) :=
  (congrArg (k3_pay1 (F := Ideal) x0 x1) (eq_ix2 j)).trans (body3_entry x0 x1 (j 0) (j 1))

/-- The printed index maps over the grid: the node table's and the output's block row is the point, their block
    column 0; the weight table's block is (0, 0) at every point. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The node table's block at point t, entry (r, k), is the table's entry (10000 t + r, k): a block's coordinate
    is block index × block size + the coordinate inside the block. -/
theorem xrows3 (c : Dev nD) (t : Fin cfg3.N) (r : Fin 10000) (k : Fin 64) (p : Fin 100000)
    (hp : p.val = t.val * 10000 + r.val) :
    (iblk3 V c 0 t : Vec Ideal S10000x64 .f32) (ix2 r k) = mx3 V c (ix2 p k) := by
  obtain ⟨e0, e1, -⟩ := blockIdx3 t
  unfold iblk3
  rw [View.read_apply]
  show V c (Pipeline.arrRef spec3 0) _ = V c (Pipeline.arrRef spec3 0) _
  congr 1
  funext a; apply Fin.ext
  match a with
  | ⟨0, _⟩ => show win3_0.index t 0 * 10000 + 1 * r.val = p.val; omega
  | ⟨1, _⟩ => show win3_0.index t 1 * 64 + 1 * k.val = k.val; omega

/-- The weight table's block at every point is the whole table. -/
theorem wwhole3 (c : Dev nD) (t : Fin cfg3.N) (k : Fin 64) (q q' : Fin 64) (hq : q'.val = q.val) :
    (iblk3 V c 1 t : Vec Ideal S64x64 .f32) (ix2 k q) = mw3 V c (ix2 k q') := by
  obtain ⟨-, -, e0, e1, -⟩ := blockIdx3 t
  unfold iblk3
  rw [View.read_apply]
  show V c (Pipeline.arrRef spec3 1) _ = V c (Pipeline.arrRef spec3 1) _
  congr 1
  funext a; apply Fin.ext
  match a with
  | ⟨0, _⟩ => show win3_1.index t 0 * 64 + 1 * k.val = k.val; omega
  | ⟨1, _⟩ => show win3_1.index t 1 * 64 + 1 * q.val = q'.val; omega

/-- What point t writes back is rows 10000 t … 10000 t + 9999 of the product of the two tables: the body's one
    store fills the whole block from offset (0, 0); at entry (r, q) it holds the sum over k of the node block's
    (r, k) times the weight block's (k, q), which are the tables' entries (10000 t + r, k) and (k, q); and the
    output block's entry (r, q) sits at (10000 t + r, q) of the array. -/
theorem written3 (c : Dev nD) (t : Fin cfg3.N) :
    (dat3 (F := Ideal) V c).flushed 2 t = ((cfg3.win 2).blk t).view.read (Elt Ideal) (prod3 (mx3 V c) (mw3 V c)) := by
  show (cfg3.win 2).cut (grid3.coords t) ((dat3 (F := Ideal) V c).after 2 t) = _
  rw [after3_2]
  unfold out3_2
  rw [View.canon_unit_zero origin3]
  simp only [View.ld_unit_zero (S := S10000x64) origin3, View.ld_unit_zero (S := S64x64) origin3]
  funext j
  show k3_pay1 (F := Ideal) (iblk3 V c 0 t) (iblk3 V c 1 t) j = prod3 (mx3 V c) (mw3 V c) (((cfg3.win 2).blk t).view.emb j)
  obtain ⟨-, -, -, -, e0, e1⟩ := blockIdx3 t
  have h0 : ((((cfg3.win 2).blk t).view.emb j) 0).val = t.val * 10000 + (j 0).val := by
    show win3_2.index t 0 * 10000 + 1 * (j 0).val = _; omega
  have h1 : ((((cfg3.win 2).blk t).view.emb j) 1).val = (j 1).val := by
    show win3_2.index t 1 * 64 + 1 * (j 1).val = _; omega
  refine (body3_at (iblk3 V c 0 t) (iblk3 V c 1 t) j).trans ?_
  unfold prod3
  refine Finset.sum_congr rfl fun k _ => ?_
  exact congrArg₂ (· * ·) (xrows3 V c t _ k _ h0) (wwhole3 V c t k _ _ h1)

/-- An index of the output array is in point t's block iff each coordinate is in the block's range on its axis. -/
theorem mem_rows3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v62).slice (win3_2.rect t)).set ↔ _
  rw [View.set_slice_whole, Rect.mem_set_unit]
  exact Iff.rfl

/-- Row r of the output array is written back by point r / 10000: the ten row blocks cover the array. -/
theorem rows_cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 10000 :=
    ⟨⟨(i 0).val / 10000, by rw [show cfg3.N = 10 from N_3]; omega⟩, rfl⟩
  obtain ⟨-, -, -, -, e0, e1⟩ := blockIdx3 t
  refine ⟨t, flush3_2 t, ?_⟩
  rw [mem_rows3]
  intro a
  match a with
  | ⟨0, _⟩ => show win3_2.index t 0 * 10000 ≤ (i 0).val ∧ (i 0).val < win3_2.index t 0 * 10000 + 10000; omega
  | ⟨1, _⟩ => show win3_2.index t 1 * 64 ≤ (i 1).val ∧ (i 1).val < win3_2.index t 1 * 64 + 64; omega

/-- So the output array ends holding the product of the two tables the region finds. -/
theorem mo3_eq (c : Dev nD) : mo3 V c = prod3 (mx3 V c) (mw3 V c) :=
  (dat3 (F := Ideal) V c).arrAt_eq_of_cover 2 (prod3 (mx3 V c) (mw3 V c)) (fun t _ => written3 V c t) rows_cover3

theorem mm3 (c : Dev nD) (p : Fin 100000) (q : Fin 64) :
    mo3 V c (ix2 p q) = ∑ k : Fin 64, mx3 V c (ix2 p k) * mw3 V c (ix2 k q) :=
  congrFun (mo3_eq V c) (ix2 p q)

end Cert.KernelIdeal.KerValue

end
-- ==== Proof.KStats4.lean ====
/-
  The column statistics of one layer. The region walks the node table (100000 rows, 64 columns) in ten blocks of
  10000 rows. It keeps two rows of 64 accumulators: at the first block it clears them; at every block it applies the
  leaky rectifier to the block's entries, adds each column's sum to the first row and each column's sum of squares to
  the second. The accumulators are written out after the last block.

  Shown here, over the extended reals: the first output row holds, in column `q`, the sum over all 100000 rows `p` of
  `leaky (a p q)`, and the second the sum of `leaky (a p q) * leaky (a p q)`. The argument: what one block contributes
  (the body's arithmetic read entry by entry), the running sums by induction over the blocks, and the regrouping of a
  sum over 100000 rows into ten sums over 10000 rows, which needs only that addition is commutative and associative.
-/
import proofs.«426465_j33225867002208_1_alg».proof.Proof.Gen.KernelIdeal.Frame
import proofs.«426465_j33225867002208_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The node table the statistics region finds on entry. -/
abbrev sa4 (c : Dev nD) : Vec Ideal S100000x64 .f32 := V c (Pipeline.arrRef spec4 0)
/-- What the region leaves in its first output array (the column sums). -/
abbrev ss4 (c : Dev nD) : Vec Ideal S1x64 .f32 := (dat4 (F := Ideal) V c).arrAt 1 cfg4.N
/-- What it leaves in its second (the column sums of squares). -/
abbrev sq4 (c : Dev nD) : Vec Ideal S1x64 .f32 := (dat4 (F := Ideal) V c).arrAt 2 cfg4.N

/-! ## What one run of the body leaves in the two accumulators

The body stores, in each of the two one-row outputs, the sum of what the output held and a column sum over the
10000 rows of the input block. At the first point it first stores a row of zeros and reads that row back. -/

section Pieces
variable {F : FTy → Type} [FloatOps F]

theorem hz_k4 : (![0, 0] : Fin 2 → Nat) = fun _ => 0 := funext fun a => by fin_cases a <;> rfl

/-- Away from the first point the first output ends at its old contents plus the block's column sums. -/
theorem outB1_k4 (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S10000x64 .f32) (xo1 xo2 : Vec F S1x64 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  sl_unfold_words
  rw [View.canon_unit_zero hz_k4]
  simp only [View.readAt_eq_ld, h1.read_unread, h2.read_unread, View.ld_unit_zero (S := S10000x64) hz_k4,
    View.ld_unit_zero (S := S1x64) hz_k4]

/-- Away from the first point the second output ends at its old contents plus the block's column sums of squares. -/
theorem outB2_k4 (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S10000x64 .f32) (xo1 xo2 : Vec F S1x64 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  sl_unfold_words
  rw [View.canon_unit_zero hz_k4]
  simp only [View.readAt_eq_ld, h1.read_unread, h3.read_unread, View.ld_unit_zero (S := S10000x64) hz_k4,
    View.ld_unit_zero (S := S1x64) hz_k4]

/-- At the first point the first output ends at the row of zeros plus the block's column sums. -/
theorem outA1_k4 (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S10000x64 .f32) :
    out4_A_1 c i a1 h1 a2 h2 a3 h3 hc x = k4_pay4 x (k4_pay1 (F := F)) := by
  unfold out4_A_1
  rw [View.read_writes_eq_canon _ _ _ (cover4_A_1 c i a1 h1 a2 h2 a3 h3 hc x)]
  unfold kernelRun4_A
  dsimp only
  sl_unfold_words
  rw [View.canon_cons_unit_zero (S := S1x64) hz_k4, View.readCov_unit_zero (S := S1x64) _ hz_k4]
  simp only [View.readAt_eq_ld, h1.read_unread, View.ld_unit_zero (S := S10000x64) hz_k4]

/-- At the first point the second output ends at the row of zeros plus the block's column sums of squares. -/
theorem outA2_k4 (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S10000x64 .f32) :
    out4_A_2 c i a1 h1 a2 h2 a3 h3 hc x = k4_pay5 x (k4_pay2 (F := F)) := by
  unfold out4_A_2
  rw [View.read_writes_eq_canon _ _ _ (cover4_A_2 c i a1 h1 a2 h2 a3 h3 hc x)]
  unfold kernelRun4_A
  dsimp only
  sl_unfold_words
  rw [View.canon_cons_unit_zero (S := S1x64) hz_k4, View.readCov_unit_zero (S := S1x64) _ hz_k4]
  simp only [View.readAt_eq_ld, h1.read_unread, View.ld_unit_zero (S := S10000x64) hz_k4]

end Pieces

/-! ## Regrouping a sum over 100000 rows into ten blocks of 10000

Addition in a commutative monoid may be regrouped freely, so the sum over all rows is the sum over the ten
blocks of the sums inside each block. No finiteness of the summands is used. -/

section Regroup
variable {M : Type*} [AddCommMonoid M]

/-- Row `r` of block `t` of a table of 100000 rows cut into consecutive blocks of 10000 rows. -/
def blockRow_k4 (t : ℕ) (r : Fin 10000) : Fin 100000 := ⟨(10000 * t + r.val) % 100000, Nat.mod_lt _ (by decide)⟩

theorem blockRow_val_k4 (t : ℕ) (ht : t < 10) (r : Fin 10000) : (blockRow_k4 t r).val = 10000 * t + r.val := by
  show (10000 * t + r.val) % 100000 = _
  have := r.isLt
  omega

/-- The sum of `f` over the rows of block `t`. -/
def blockSum_k4 (f : Fin 100000 → M) (t : ℕ) : M := ∑ r : Fin 10000, f (blockRow_k4 t r)

/-- The ten block sums add up to the sum over all rows: every row `p` is row `p % 10000` of block `p / 10000`. -/
theorem sum_blocks_k4 (f : Fin 100000 → M) : ∑ t ∈ Finset.range 10, blockSum_k4 f t = ∑ p : Fin 100000, f p := by
  rw [← Fin.sum_univ_eq_sum_range (fun t => blockSum_k4 f t) 10]
  unfold blockSum_k4
  rw [← Fintype.sum_prod_type' (fun (t : Fin 10) (r : Fin 10000) => f (blockRow_k4 t.val r))]
  refine Fintype.sum_equiv (finProdFinEquiv : Fin 10 × Fin 10000 ≃ Fin 100000) _ _ (fun x => ?_)
  refine congrArg f (Fin.ext ?_)
  rw [blockRow_val_k4 _ x.1.isLt]
  show _ = x.2.val + 10000 * x.1.val
  omega

end Regroup

/-! ## The body's arithmetic at an entry, over the extended reals -/

section Payloads

/-- The entry of the reduced row above entry `q` of the result, at row `r` of the block. -/
theorem lift_eq_k4 (q : Fin 64) (r : Fin 10000) : reduces_S10000x64_S64.lift (ix1 q) r = ix2 r q := by
  funext a
  apply Fin.ext
  match a with
  | ⟨0, _⟩ => rfl
  | ⟨1, _⟩ => rfl

/-- Dropping the leading unit coordinate of `(0, q)` leaves `q`. -/
theorem tail_ix2_k4 (q : Fin 64) : (fun a : Fin 1 => (ix2 (0 : Fin 1) q) a.succ) = ix1 q := by
  funext a
  match a with
  | ⟨0, _⟩ => rfl

/-- The rectified block at an entry: the leaky rectifier of the block's entry. -/
theorem pay3_k4 (x : Vec Ideal S10000x64 .f32) (r : Fin 10000) (q : Fin 64) :
    k4_pay3 (F := Ideal) x (ix2 r q) = Gcn.leaky (x (ix2 r q)) := by
  have e : shapeCast S10000x64 x shapeCasts_S10000x64_S10000x64 = x := shapeCast_self x _
  unfold k4_pay3 Gcn.leaky Gcn.zero Gcn.slope
  rw [e]
  rfl

/-- A column sum over the 10000 rows of a block, reshaped to one row: entry `(0, q)` is the sum of column `q`. -/
theorem colsum_k4 (y : FVec Ideal S10000x64 .f32) (hφ : FKind.Formats .f32)
    (hacc : (0x00000000#32 : BitVec 32) = FKind.add.neutral .f32 hφ) (q : Fin 64) :
    shapeCast S1x64 (multiReduction .add [0] S64 y 0x00000000#32 reduces_S10000x64_S64 hφ hacc) shapeCasts_S64_S1x64 (ix2 0 q)
      = ∑ r : Fin 10000, y (ix2 r q) := by
  refine (shapeCast_addUnit_apply ![64] _ shapeCasts_S64_S1x64 (ix2 0 q)).trans ?_
  rw [tail_ix2_k4]
  refine (Ideal.multiReduction_add_single y 0x00000000#32 reduces_S10000x64_S64 hφ hacc (ix1 q)).trans ?_
  exact Finset.sum_congr rfl fun r _ => congrArg y (lift_eq_k4 q r)

/-- The first accumulator's update at entry `(0, q)`: the old entry plus the sum of the rectified column. -/
theorem pay4_k4 (x : Vec Ideal S10000x64 .f32) (v : Vec Ideal S1x64 .f32) (q : Fin 64) :
    k4_pay4 (F := Ideal) x v (ix2 0 q) = v (ix2 0 q) + ∑ r : Fin 10000, Gcn.leaky (x (ix2 r q)) := by
  have e : shapeCast S1x64 v shapeCasts_S1x64_S1x64 = v := shapeCast_self v _
  unfold k4_pay4
  refine (addf_apply _ _ (ix2 0 q)).trans ?_
  rw [e]
  refine congrArg (v (ix2 0 q) + ·) ?_
  refine (colsum_k4 (k4_pay3 (F := Ideal) x) _ _ q).trans ?_
  exact Finset.sum_congr rfl fun r _ => pay3_k4 x r q

/-- The second accumulator's update at entry `(0, q)`: the old entry plus the sum of the squared rectified column. -/
theorem pay5_k4 (x : Vec Ideal S10000x64 .f32) (v : Vec Ideal S1x64 .f32) (q : Fin 64) :
    k4_pay5 (F := Ideal) x v (ix2 0 q)
      = v (ix2 0 q) + ∑ r : Fin 10000, Gcn.leaky (x (ix2 r q)) * Gcn.leaky (x (ix2 r q)) := by
  have e : shapeCast S1x64 v shapeCasts_S1x64_S1x64 = v := shapeCast_self v _
  unfold k4_pay5
  refine (addf_apply _ _ (ix2 0 q)).trans ?_
  rw [e]
  refine congrArg (v (ix2 0 q) + ·) ?_
  refine (colsum_k4 (mulf (k4_pay3 (F := Ideal) x) (k4_pay3 (F := Ideal) x)) _ _ q).trans ?_
  refine Finset.sum_congr rfl fun r _ => ?_
  refine (mulf_apply _ _ (ix2 r q)).trans ?_
  rw [pay3_k4]

/-- The row of zeros the first point stores, at an entry. -/
theorem pay1_k4 (q : Fin 64) : k4_pay1 (F := Ideal) (ix2 0 q) = 0 := Ideal.ofBits_zero_f32
theorem pay2_k4 (q : Fin 64) : k4_pay2 (F := Ideal) (ix2 0 q) = 0 := Ideal.ofBits_zero_f32

end Payloads

/-! ## The input block at a point

Point `t` of the grid sees rows `10000 t … 10000 t + 9999` of the node table. -/

/-- The block of the node table that point `t` reads. -/
abbrev xblk_k4 (c : Dev nD) (t : Fin cfg4.N) : Vec Ideal S10000x64 .f32 := iblk4 (F := Ideal) V c 0 t

/-- The input window's block index at point `t` is `(t, 0)`: decided over the ten points. -/
theorem idx_k4 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- Entry `(r, q)` of point `t`'s block is entry `(10000 t + r, q)` of the node table. -/
theorem xblk_apply_k4 (c : Dev nD) (t : Fin cfg4.N) (r : Fin 10000) (q : Fin 64) :
    xblk_k4 V c t (ix2 r q) = sa4 V c (ix2 (blockRow_k4 t.val r) q) := by
  have hN : t.val < 10 := lt_of_lt_of_eq t.isLt (show cfg4.N = 10 from N_4)
  have hi := idx_k4 t
  show iblk4 (F := Ideal) V c 0 t (ix2 r q) = _
  unfold iblk4
  rw [View.read_apply]
  show V c (Pipeline.arrRef spec4 0) _ = V c (Pipeline.arrRef spec4 0) _
  refine congrArg (V c (Pipeline.arrRef spec4 0)) ?_
  funext a
  apply Fin.ext
  match a with
  | ⟨0, _⟩ =>
    show win4_0.index t 0 * 10000 + 1 * r.val = (10000 * t.val + r.val) % 100000
    rw [hi.1]; have := r.isLt; omega
  | ⟨1, _⟩ =>
    show win4_0.index t 1 * 64 + 1 * q.val = q.val
    rw [hi.2]; omega

/-! ## One point's effect on the two accumulators, entry by entry -/

/-- The rectified entries of column `q` of the node table. -/
abbrev lk_k4 (c : Dev nD) (q : Fin 64) : Fin 100000 → EReal := fun p => Gcn.leaky (sa4 V c (ix2 p q))
/-- Their squares. -/
abbrev lq_k4 (c : Dev nD) (q : Fin 64) : Fin 100000 → EReal :=
  fun p => Gcn.leaky (sa4 V c (ix2 p q)) * Gcn.leaky (sa4 V c (ix2 p q))

/-- The first point leaves in each accumulator the block's own sums (zero plus the sum). -/
theorem stepA_k4 (c : Dev nD) (t : Fin cfg4.N) (h0 : t.val % 10 = 0) (q : Fin 64) :
    (outsAt4 (F := Ideal) V c t.val t.isLt).1 (ix2 0 q) = blockSum_k4 (lk_k4 V c q) t.val
    ∧ (outsAt4 (F := Ideal) V c t.val t.isLt).2 (ix2 0 q) = blockSum_k4 (lq_k4 V c q) t.val := by
  rw [outsAt4_A V c t h0]
  dsimp only
  constructor
  · refine (congrFun (outA1_k4 (F := Ideal) c (grid4.coords t) (ms4_0 t) (hs4_0 t) (ms4_1 t) (hs4_1 t) (ms4_2 t) (hs4_2 t)
      ((hcond4_0 t).mpr h0) (xblk_k4 V c t)) (ix2 0 q)).trans ?_
    rw [pay4_k4, pay1_k4, zero_add]
    exact Finset.sum_congr rfl fun r _ => congrArg Gcn.leaky (xblk_apply_k4 V c t r q)
  · refine (congrFun (outA2_k4 (F := Ideal) c (grid4.coords t) (ms4_0 t) (hs4_0 t) (ms4_1 t) (hs4_1 t) (ms4_2 t) (hs4_2 t)
      ((hcond4_0 t).mpr h0) (xblk_k4 V c t)) (ix2 0 q)).trans ?_
    rw [pay5_k4, pay2_k4, zero_add]
    exact Finset.sum_congr rfl fun r _ => by rw [xblk_apply_k4 V c t r q]

/-- Every later point adds its block's sums to what the point before left. -/
theorem stepB_k4 (c : Dev nD) (t : Fin cfg4.N) (h0 : ¬t.val % 10 = 0) (q : Fin 64) :
    (outsAt4 (F := Ideal) V c t.val t.isLt).1 (ix2 0 q)
        = (outsAt4 (F := Ideal) V c (t.val - 1) (Nat.lt_of_le_of_lt (Nat.sub_le _ _) t.isLt)).1 (ix2 0 q)
          + blockSum_k4 (lk_k4 V c q) t.val
    ∧ (outsAt4 (F := Ideal) V c t.val t.isLt).2 (ix2 0 q)
        = (outsAt4 (F := Ideal) V c (t.val - 1) (Nat.lt_of_le_of_lt (Nat.sub_le _ _) t.isLt)).2 (ix2 0 q)
          + blockSum_k4 (lq_k4 V c q) t.val := by
  rw [outsAt4_B V c t h0]
  dsimp only
  constructor
  · refine (congrFun (outB1_k4 (F := Ideal) c (grid4.coords t) (ms4_0 t) (hs4_0 t) (ms4_1 t) (hs4_1 t) (ms4_2 t) (hs4_2 t)
      (fun h => h0 ((hcond4_0 t).mp h)) (xblk_k4 V c t)
      (outsAt4 (F := Ideal) V c (t.val - 1) (Nat.lt_of_le_of_lt (Nat.sub_le _ _) t.isLt)).1
      (outsAt4 (F := Ideal) V c (t.val - 1) (Nat.lt_of_le_of_lt (Nat.sub_le _ _) t.isLt)).2) (ix2 0 q)).trans ?_
    rw [pay4_k4]
    refine congrArg (_ + ·) ?_
    exact Finset.sum_congr rfl fun r _ => congrArg Gcn.leaky (xblk_apply_k4 V c t r q)
  · refine (congrFun (outB2_k4 (F := Ideal) c (grid4.coords t) (ms4_0 t) (hs4_0 t) (ms4_1 t) (hs4_1 t) (ms4_2 t) (hs4_2 t)
      (fun h => h0 ((hcond4_0 t).mp h)) (xblk_k4 V c t)
      (outsAt4 (F := Ideal) V c (t.val - 1) (Nat.lt_of_le_of_lt (Nat.sub_le _ _) t.isLt)).1
      (outsAt4 (F := Ideal) V c (t.val - 1) (Nat.lt_of_le_of_lt (Nat.sub_le _ _) t.isLt)).2) (ix2 0 q)).trans ?_
    rw [pay5_k4]
    refine congrArg (_ + ·) ?_
    exact Finset.sum_congr rfl fun r _ => by rw [xblk_apply_k4 V c t r q]

/-! ## The running sums

After point `n` each accumulator holds, at entry `(0, q)`, the sum of the block sums of the points `0 … n`:
by induction on the point. -/

theorem outs_eq_k4 (c : Dev nD) (q : Fin 64) : ∀ (n : ℕ) (h : n < cfg4.N),
    (outsAt4 (F := Ideal) V c n h).1 (ix2 0 q) = ∑ t ∈ Finset.range (n + 1), blockSum_k4 (lk_k4 V c q) t
    ∧ (outsAt4 (F := Ideal) V c n h).2 (ix2 0 q) = ∑ t ∈ Finset.range (n + 1), blockSum_k4 (lq_k4 V c q) t
  | 0, h => by
    have s := stepA_k4 V c ⟨0, h⟩ rfl q
    rw [Finset.sum_range_one, Finset.sum_range_one]
    exact s
  | n + 1, h => by
    have hN : cfg4.N = 10 := N_4
    have hB : ¬(⟨n + 1, h⟩ : Fin cfg4.N).val % 10 = 0 := by dsimp only; omega
    have s := stepB_k4 V c ⟨n + 1, h⟩ hB q
    have ih := outs_eq_k4 c q n (Nat.lt_of_succ_lt h)
    rw [Finset.sum_range_succ _ (n + 1), Finset.sum_range_succ _ (n + 1), ← ih.1, ← ih.2]
    exact s

/-! ## The output arrays after the region

Each output window has a single block, the whole one-row array, carried from point to point and written back
after the last point only; so each output array ends holding what point 9 leaves in the accumulator. -/

/-- What the last point leaves in the first accumulator, as contents of the first output array. -/
abbrev res1_k4 (c : Dev nD) : Buf (Elt Ideal) ((c : Thread nD τ).loc main_v77_0) :=
  (outsAt4 (F := Ideal) V c t4_9.val t4_9.isLt).1
/-- What it leaves in the second, as contents of the second output array. -/
abbrev res2_k4 (c : Dev nD) : Buf (Elt Ideal) ((c : Thread nD τ).loc main_v77_1) :=
  (outsAt4 (F := Ideal) V c t4_9.val t4_9.isLt).2

/-- The one write-back of the first output, at point 9: block `(0, 0)` of a `[1, 64]` array is the array. -/
theorem flushed1_k4 (c : Dev nD) (t : Fin cfg4.N) (hf : (cfg4.win 1).flush t = true) :
    (dat4 (F := Ideal) V c).flushed 1 t = ((cfg4.win 1).blk t).view.read (Elt Ideal) (res1_k4 V c) := by
  have hN : cfg4.N = 10 := N_4
  have h9 : t.val = 9 := by have := (flush4_1 t).mp hf; have := t.isLt; omega
  obtain rfl : t = t4_9 := Fin.ext h9
  show (cfg4.win 1).cut (grid4.coords t4_9) ((dat4 (F := Ideal) V c).after 1 t4_9) = _
  rw [after4_1]
  have hz' : (fun a => win4_1.index t4_9 a * main_v77_0.ty.shape.size a) = fun _ => 0 :=
    funext fun a => by fin_cases a <;> decide +kernel
  exact (Memref.read_access_unit_zero (Elt Ideal) main_v77_0 hz' (fun a => by rw [congrFun hz' a]; simp) (res1_k4 V c)).symm

/-- The one write-back of the second output, at point 9. -/
theorem flushed2_k4 (c : Dev nD) (t : Fin cfg4.N) (hf : (cfg4.win 2).flush t = true) :
    (dat4 (F := Ideal) V c).flushed 2 t = ((cfg4.win 2).blk t).view.read (Elt Ideal) (res2_k4 V c) := by
  have hN : cfg4.N = 10 := N_4
  have h9 : t.val = 9 := by have := (flush4_2 t).mp hf; have := t.isLt; omega
  obtain rfl : t = t4_9 := Fin.ext h9
  show (cfg4.win 2).cut (grid4.coords t4_9) ((dat4 (F := Ideal) V c).after 2 t4_9) = _
  rw [after4_2]
  have hz' : (fun a => win4_2.index t4_9 a * main_v77_1.ty.shape.size a) = fun _ => 0 :=
    funext fun a => by fin_cases a <;> decide +kernel
  exact (Memref.read_access_unit_zero (Elt Ideal) main_v77_1 hz' (fun a => by rw [congrFun hz' a]; simp) (res2_k4 V c)).symm

/-- Point 9's block covers the first output array, so the array ends at what point 9 leaves. -/
theorem final1_k4 (c : Dev nD) : ss4 V c = res1_k4 V c :=
  (dat4 (F := Ideal) V c).arrAt_eq_of_cover 1 (res1_k4 V c) (flushed1_k4 V c) fun i =>
    ⟨t4_9, (flush4_1 t4_9).mpr rfl, by
      show i ∈ ((View.whole main_v77_0).slice (win4_1.rect t4_9)).set
      rw [View.set_slice_whole, Rect.mem_set_unit]
      intro a
      have h0 : (i 0 : Nat) < 1 := (i 0).isLt
      have h1 : (i 1 : Nat) < 64 := (i 1).isLt
      match a with
      | ⟨0, _⟩ =>
        show win4_1.index t4_9 0 * win4_1.size 0 ≤ (i 0 : Nat) ∧ (i 0 : Nat) < win4_1.index t4_9 0 * win4_1.size 0 + win4_1.xsize (grid4.coords t4_9) 0
        rw [show win4_1.index t4_9 0 * win4_1.size 0 = 0 from by decide +kernel, show win4_1.xsize (grid4.coords t4_9) 0 = 1 from by decide +kernel]; omega
      | ⟨1, _⟩ =>
        show win4_1.index t4_9 1 * win4_1.size 1 ≤ (i 1 : Nat) ∧ (i 1 : Nat) < win4_1.index t4_9 1 * win4_1.size 1 + win4_1.xsize (grid4.coords t4_9) 1
        rw [show win4_1.index t4_9 1 * win4_1.size 1 = 0 from by decide +kernel, show win4_1.xsize (grid4.coords t4_9) 1 = 64 from by decide +kernel]; omega⟩

/-- Likewise the second output array. -/
theorem final2_k4 (c : Dev nD) : sq4 V c = res2_k4 V c :=
  (dat4 (F := Ideal) V c).arrAt_eq_of_cover 2 (res2_k4 V c) (flushed2_k4 V c) fun i =>
    ⟨t4_9, (flush4_2 t4_9).mpr rfl, by
      show i ∈ ((View.whole main_v77_1).slice (win4_2.rect t4_9)).set
      rw [View.set_slice_whole, Rect.mem_set_unit]
      intro a
      have h0 : (i 0 : Nat) < 1 := (i 0).isLt
      have h1 : (i 1 : Nat) < 64 := (i 1).isLt
      match a with
      | ⟨0, _⟩ =>
        show win4_2.index t4_9 0 * win4_2.size 0 ≤ (i 0 : Nat) ∧ (i 0 : Nat) < win4_2.index t4_9 0 * win4_2.size 0 + win4_2.xsize (grid4.coords t4_9) 0
        rw [show win4_2.index t4_9 0 * win4_2.size 0 = 0 from by decide +kernel, show win4_2.xsize (grid4.coords t4_9) 0 = 1 from by decide +kernel]; omega
      | ⟨1, _⟩ =>
        show win4_2.index t4_9 1 * win4_2.size 1 ≤ (i 1 : Nat) ∧ (i 1 : Nat) < win4_2.index t4_9 1 * win4_2.size 1 + win4_2.xsize (grid4.coords t4_9) 1
        rw [show win4_2.index t4_9 1 * win4_2.size 1 = 0 from by decide +kernel, show win4_2.xsize (grid4.coords t4_9) 1 = 64 from by decide +kernel]; omega⟩

/-! ## The two results -/

theorem sum4 (c : Dev nD) (q : Fin 64) :
    ss4 V c (ix2 0 q) = ∑ p : Fin 100000, Gcn.leaky (sa4 V c (ix2 p q)) := by
  rw [final1_k4 V c]
  refine ((outs_eq_k4 V c q t4_9.val t4_9.isLt).1).trans ?_
  exact sum_blocks_k4 (lk_k4 V c q)

theorem sqsum4 (c : Dev nD) (q : Fin 64) :
    sq4 V c (ix2 0 q) = ∑ p : Fin 100000, Gcn.leaky (sa4 V c (ix2 p q)) * Gcn.leaky (sa4 V c (ix2 p q)) := by
  rw [final2_k4 V c]
  refine ((outs_eq_k4 V c q t4_9.val t4_9.isLt).2).trans ?_
  exact sum_blocks_k4 (lq_k4 V c q)

end Cert.KernelIdeal.KerValue

end
-- ==== Proof.KBn5.lean ====
import proofs.«426465_j33225867002208_1_alg».proof.Proof.Gen.KernelIdeal.Frame
import proofs.«426465_j33225867002208_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The arrays the normalisation region finds on entry: the node table, the column means, the column variances, the
    scale row and the shift row. -/
abbrev na5 (c : Dev nD) : Vec Ideal S100000x64 .f32 := V c (Pipeline.arrRef spec5 0)
abbrev nm5 (c : Dev nD) : Vec Ideal S1x64 .f32 := V c (Pipeline.arrRef spec5 1)
abbrev nv5 (c : Dev nD) : Vec Ideal S1x64 .f32 := V c (Pipeline.arrRef spec5 2)
abbrev ng5 (c : Dev nD) : Vec Ideal S1x64 .f32 := V c (Pipeline.arrRef spec5 3)
abbrev nb5 (c : Dev nD) : Vec Ideal S1x64 .f32 := V c (Pipeline.arrRef spec5 4)
/-- What the region leaves in its output array. -/
abbrev no5 (c : Dev nD) : Vec Ideal S100000x64 .f32 := (dat5 (F := Ideal) V c).arrAt 5 cfg5.N

/-! ## One block: the body's value at a row and a feature

The body works on a block of ten thousand rows `x0` and on the four rows `xv` (variances), `xg` (scales), `xm`
(means), `xb` (shifts), each broadcast down the block. Entry `(r, q)` of what it stores depends only on `x0 (r, q)`
and on entry `q` of each row:
`xg q * (leaky (x0 (r, q)) - xm q) * rsqrt (xv q + eps) + xb q`,
the products taken from the left, the guard added to the variance before the reciprocal square root. -/

theorem bn_pay5 (x0 : Vec Ideal S10000x64 .f32) (xv xg xm xb : Vec Ideal S1x64 .f32) (r : Fin 10000) (q : Fin 64) :
    k5_pay1 (F := Ideal) x0 xv xg xm xb (ix2 r q)
      = xg (ix2 0 q) * (Gcn.leaky (x0 (ix2 r q)) - xm (ix2 0 q)) * Ideal.rsqrt (xv (ix2 0 q) + Gcn.eps) + xb (ix2 0 q) := by
  unfold k5_pay1
  simp only [shapeCast_self]
  rw [addf_apply, mulf_apply, mulf_apply, broadcastTo_1b_ab_apply, broadcastTo_1b_ab_apply, broadcastTo_1b_ab_apply,
    subf_apply, broadcastTo_1b_ab_apply]
  -- the rectifier at an entry is `Gcn.leaky`: the comparison with the zero pattern chooses between the entry and the
  -- slope times the entry; the guard constant is `Gcn.eps`
  rfl

/-! ## The whole table

The value the region computes, as ONE function of the five arrays: at node `p` and feature `q` it reads the table at
`(p, q)` and each row at `q`. -/

/-- The normalised entry at node `p` and feature `q`. -/
def bnAt5 (a : Vec Ideal S100000x64 .f32) (m v g b : Vec Ideal S1x64 .f32) (p : Fin 100000) (q : Fin 64) : EReal :=
  g (ix2 0 q) * (Gcn.leaky (a (ix2 p q)) - m (ix2 0 q)) * Ideal.rsqrt (v (ix2 0 q) + Gcn.eps) + b (ix2 0 q)

/-- The normalised table. -/
def bnOut5 (a : Vec Ideal S100000x64 .f32) (m v g b : Vec Ideal S1x64 .f32) : Vec Ideal S100000x64 .f32 :=
  fun i => bnAt5 a m v g b (i 0) (i 1)

theorem bn_hz5 : (![0, 0] : Fin 2 → Nat) = fun _ => 0 := funext fun a => by fin_cases a <;> rfl

/-- Where each window's block sits at grid point `t`: the table's and the output's block is the `t`-th band of ten
    thousand rows (block index `(t, 0)`); each of the four rows is its own single block (block index `(0, 0)`).
    Decided over the ten grid points. -/
theorem bn_idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-! ## The input blocks as parts of the arrays

An element of a block sits in its array, on each axis, at the block index times the block's extent plus its coordinate
inside the block. So row `r` of the table's block at point `t` is row `10000 * t + r` of the table, and the one block
of each row array is the row array itself. -/

theorem bn_blk5_0 (c : Dev nD) (t : Fin cfg5.N) (r : Fin 10000) (q : Fin 64) (k : S100000x64.Idx)
    (hk0 : (k 0).val = 10000 * t.val + r.val) (hk1 : (k 1).val = q.val) :
    (iblk5 V c 0 t : Vec Ideal S10000x64 .f32) (ix2 r q) = na5 V c k := by
  obtain ⟨e0, e1, -⟩ := bn_idx5 t
  unfold iblk5
  rw [View.read_apply]
  show V c (Pipeline.arrRef spec5 0) _ = V c (Pipeline.arrRef spec5 0) _
  refine congrArg _ ?_
  funext a
  apply Fin.ext
  match a with
  | ⟨0, _⟩ => show win5_0.index t (0 : Fin 2) * 10000 + 1 * r.val = (k 0).val; rw [e0, hk0]; omega
  | ⟨1, _⟩ => show win5_0.index t (1 : Fin 2) * 64 + 1 * q.val = (k 1).val; rw [e1, hk1]; omega

theorem bn_blk5_1 (c : Dev nD) (t : Fin cfg5.N) (q : Fin 64) :
    (iblk5 V c 1 t : Vec Ideal S1x64 .f32) (ix2 0 q) = nm5 V c (ix2 0 q) := by
  obtain ⟨-, -, e0, e1, -⟩ := bn_idx5 t
  unfold iblk5
  rw [View.read_apply]
  show V c (Pipeline.arrRef spec5 1) _ = V c (Pipeline.arrRef spec5 1) _
  refine congrArg _ ?_
  funext a
  apply Fin.ext
  match a with
  | ⟨0, _⟩ => show win5_1.index t (0 : Fin 2) * 1 + 1 * 0 = 0; rw [e0]
  | ⟨1, _⟩ => show win5_1.index t (1 : Fin 2) * 64 + 1 * q.val = q.val; rw [e1]; omega

theorem bn_blk5_2 (c : Dev nD) (t : Fin cfg5.N) (q : Fin 64) :
    (iblk5 V c 2 t : Vec Ideal S1x64 .f32) (ix2 0 q) = nv5 V c (ix2 0 q) := by
  obtain ⟨-, -, -, -, e0, e1, -⟩ := bn_idx5 t
  unfold iblk5
  rw [View.read_apply]
  show V c (Pipeline.arrRef spec5 2) _ = V c (Pipeline.arrRef spec5 2) _
  refine congrArg _ ?_
  funext a
  apply Fin.ext
  match a with
  | ⟨0, _⟩ => show win5_2.index t (0 : Fin 2) * 1 + 1 * 0 = 0; rw [e0]
  | ⟨1, _⟩ => show win5_2.index t (1 : Fin 2) * 64 + 1 * q.val = q.val; rw [e1]; omega

theorem bn_blk5_3 (c : Dev nD) (t : Fin cfg5.N) (q : Fin 64) :
    (iblk5 V c 3 t : Vec Ideal S1x64 .f32) (ix2 0 q) = ng5 V c (ix2 0 q) := by
  obtain ⟨-, -, -, -, -, -, e0, e1, -⟩ := bn_idx5 t
  unfold iblk5
  rw [View.read_apply]
  show V c (Pipeline.arrRef spec5 3) _ = V c (Pipeline.arrRef spec5 3) _
  refine congrArg _ ?_
  funext a
  apply Fin.ext
  match a with
  | ⟨0, _⟩ => show win5_3.index t (0 : Fin 2) * 1 + 1 * 0 = 0; rw [e0]
  | ⟨1, _⟩ => show win5_3.index t (1 : Fin 2) * 64 + 1 * q.val = q.val; rw [e1]; omega

theorem bn_blk5_4 (c : Dev nD) (t : Fin cfg5.N) (q : Fin 64) :
    (iblk5 V c 4 t : Vec Ideal S1x64 .f32) (ix2 0 q) = nb5 V c (ix2 0 q) := by
  obtain ⟨-, -, -, -, -, -, -, -, e0, e1, -⟩ := bn_idx5 t
  unfold iblk5
  rw [View.read_apply]
  show V c (Pipeline.arrRef spec5 4) _ = V c (Pipeline.arrRef spec5 4) _
  refine congrArg _ ?_
  funext a
  apply Fin.ext
  match a with
  | ⟨0, _⟩ => show win5_4.index t (0 : Fin 2) * 1 + 1 * 0 = 0; rw [e0]
  | ⟨1, _⟩ => show win5_4.index t (1 : Fin 2) * 64 + 1 * q.val = q.val; rw [e1]; omega

/-! ## From blocks to the table -/

/-- What grid point `t` writes back is the `t`-th band of the normalised table: the body stores its value over the
    whole block, entry `(r, q)` of that value reads the table's block at `(r, q)`, which is the table at row
    `10000 * t + r`, and the four rows at `q`; the output's block at `t` covers the same rows. -/
theorem bn_flushed5 (c : Dev nD) (t : Fin cfg5.N) :
    (dat5 (F := Ideal) V c).flushed 5 t
      = ((cfg5.win 5).blk t).view.read (Elt Ideal) (bnOut5 (na5 V c) (nm5 V c) (nv5 V c) (ng5 V c) (nb5 V c)) := by
  show (cfg5.win 5).cut (grid5.coords t) ((dat5 (F := Ideal) V c).after 5 t) = _
  rw [after5_5]
  unfold out5_5
  rw [View.canon_unit_zero bn_hz5]
  simp only [View.ld_unit_zero (S := S10000x64) bn_hz5, View.ld_unit_zero (S := S1x64) bn_hz5]
  funext j
  obtain ⟨r, q, rfl⟩ : ∃ (r : Fin 10000) (q : Fin 64), j = ix2 r q := ⟨j 0, j 1, eq_ix2 j⟩
  show k5_pay1 (F := Ideal) (iblk5 V c 0 t) (iblk5 V c 2 t) (iblk5 V c 3 t) (iblk5 V c 1 t) (iblk5 V c 4 t) (ix2 r q)
    = bnOut5 (na5 V c) (nm5 V c) (nv5 V c) (ng5 V c) (nb5 V c) (((cfg5.win 5).blk t).view.emb (ix2 r q))
  refine (bn_pay5 (iblk5 V c 0 t) (iblk5 V c 2 t) (iblk5 V c 3 t) (iblk5 V c 1 t) (iblk5 V c 4 t) r q).trans ?_
  have hN : t.val < 10 := lt_of_lt_of_eq t.isLt N_5
  obtain ⟨-, -, -, -, -, -, -, -, -, -, e0, e1⟩ := bn_idx5 t
  have h0 : ((cfg5.win 5).blk t).view.emb (ix2 r q) 0 = (⟨10000 * t.val + r.val, by omega⟩ : Fin 100000) :=
    Fin.ext (by show win5_5.index t (0 : Fin 2) * 10000 + 1 * r.val = 10000 * t.val + r.val; rw [e0]; omega)
  have h1 : ((cfg5.win 5).blk t).view.emb (ix2 r q) 1 = q :=
    Fin.ext (by show win5_5.index t (1 : Fin 2) * 64 + 1 * q.val = q.val; rw [e1]; omega)
  refine Eq.trans ?_ (congrArg₂ (bnAt5 (na5 V c) (nm5 V c) (nv5 V c) (ng5 V c) (nb5 V c)) h0 h1).symm
  unfold bnAt5
  rw [bn_blk5_0 V c t r q (ix2 ⟨10000 * t.val + r.val, by omega⟩ q) rfl rfl, bn_blk5_1, bn_blk5_2, bn_blk5_3, bn_blk5_4]

/-- An index of the table lies in point `t`'s output block iff, on each axis, its coordinate is within the block's
    extent from the block's first coordinate. -/
theorem bn_mem5 (t : Fin cfg5.N) (i : S100000x64.Idx) :
    i ∈ ((cfg5.win 5).blk t).view.set
      ↔ ∀ a : Fin 2, win5_5.index t a * S10000x64.size a ≤ (i a).val ∧ (i a).val < win5_5.index t a * S10000x64.size a + S10000x64.size a := by
  show i ∈ ((View.whole main_v90).slice (win5_5.rect t)).set ↔ _
  rw [View.set_slice_whole, Rect.mem_set_unit]
  exact Iff.rfl

/-- The ten bands tile the table: row `p` is in the band of point `p / 10000`, and every point writes its band back. So
    the output array ends holding the normalised table. -/
theorem bn_final5 (c : Dev nD) : no5 V c = bnOut5 (na5 V c) (nm5 V c) (nv5 V c) (ng5 V c) (nb5 V c) :=
  (dat5 (F := Ideal) V c).arrAt_eq_of_cover 5 _ (fun t _ => bn_flushed5 V c t) fun i => by
    have hi0 : (i 0).val < 100000 := (i 0).isLt
    have hi1 : (i 1).val < 64 := (i 1).isLt
    have hN : cfg5.N = 10 := N_5
    refine ⟨⟨(i 0).val / 10000, by rw [hN]; omega⟩, flush5_5 _, ?_⟩
    rw [bn_mem5]
    obtain ⟨-, -, -, -, -, -, -, -, -, -, e0, e1⟩ := bn_idx5 ⟨(i 0).val / 10000, by rw [hN]; omega⟩
    intro a
    match a with
    | ⟨0, _⟩ =>
      show win5_5.index ⟨(i 0).val / 10000, _⟩ (0 : Fin 2) * 10000 ≤ (i 0).val
        ∧ (i 0).val < win5_5.index ⟨(i 0).val / 10000, _⟩ (0 : Fin 2) * 10000 + 10000
      rw [e0]
      show (i 0).val / 10000 * 10000 ≤ (i 0).val ∧ (i 0).val < (i 0).val / 10000 * 10000 + 10000
      omega
    | ⟨1, _⟩ =>
      show win5_5.index ⟨(i 0).val / 10000, _⟩ (1 : Fin 2) * 64 ≤ (i 1).val
        ∧ (i 1).val < win5_5.index ⟨(i 0).val / 10000, _⟩ (1 : Fin 2) * 64 + 64
      rw [e1]
      omega

theorem bn5 (c : Dev nD) (p : Fin 100000) (q : Fin 64) :
    no5 V c (ix2 p q)
      = ng5 V c (ix2 0 q) * (Gcn.leaky (na5 V c (ix2 p q)) - nm5 V c (ix2 0 q)) * Ideal.rsqrt (nv5 V c (ix2 0 q) + Gcn.eps)
        + nb5 V c (ix2 0 q) := by
  rw [bn_final5 V c]
  rfl

end Cert.KernelIdeal.KerValue

end
-- ==== Proof.KLayer3.lean ====
import proofs.«426465_j33225867002208_1_alg».proof.Proof.Gen.KernelIdeal.Frame
import proofs.«426465_j33225867002208_1_alg».proof.Proof.KerTerm
import proofs.«426465_j33225867002208_1_alg».proof.Proof.Spec
import proofs.«426465_j33225867002208_1_alg».proof.Proof.KMatmul3
import proofs.«426465_j33225867002208_1_alg».proof.Proof.KStats4
import proofs.«426465_j33225867002208_1_alg».proof.Proof.KBn5
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx

variable (m : (ℓ : Loc nD τ sig) → Buf (Elt Ideal) ℓ) (ρ : Dev nD → PrngReg)

/-- A buffer that no operation of a stretch of host operations writes holds after the stretch what it held before. -/
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Layer 1

The layer is five steps: the product region, the aggregation over the graph (two stretches of host operations), the
statistics region, the stretch that turns the two column sums into mean and variance and lays out the scale and shift
rows, and the normalisation region. -/

/-- Contents moved to a buffer's own type and back are unchanged. -/
theorem lay3_ofBuf_toBuf {T : BufTy} (x : StableHlo.TRef sig T) (v : T.Contents (Elt Ideal)) : x.ofBuf (x.toBuf v) = v := by
  cases x with
  | mk r h a b => cases h; rfl

/-- At the three buffers through which the gather's operations meet the rest of the program the move is the identity. -/
theorem lay3_ofBuf_src (h1 h2 h3) (X : IVec S1200000 32) :
    (StableHlo.TRef.of main_v1 h1 h2 h3 : StableHlo.TRef sig ⟨S1200000, .i32⟩).ofBuf (Val := Elt Ideal) X = X := rfl
theorem lay3_ofBuf_prod (h1 h2 h3) (X : FVec Ideal S100000x64 .f32) :
    (StableHlo.TRef.of main_v62 h1 h2 h3 : StableHlo.TRef sig ⟨S100000x64, .f32⟩).ofBuf (Val := Elt Ideal) X = X := rfl
theorem lay3_toBuf_gath (h1 h2 h3) (X : FVec Ideal S1200000x64 .f32) :
    (StableHlo.TRef.of main_v63 h1 h2 h3 : StableHlo.TRef sig ⟨S1200000x64, .f32⟩).toBuf (Val := Elt Ideal) X = X := rfl

section Stretches

variable (V : Valuation τ sig (Elt Ideal))

/-- The gather: the product's rows at the edges' (wrapped) sources, with the fill value where a source is out of range. -/
theorem lay3_gath_after (ei : IVec S2x1200000 32)
    (h1 : (V (Proc.devRef .tc main_v1) : IVec S1200000 32) = Terms.src ei) :
    (StableHlo.after (hostOps4 (F := Ideal)) V (Proc.devRef .tc main_v63) : FVec Ideal S1200000x64 .f32)
      = Terms.gath (F := Ideal) ei (V (Proc.devRef .tc main_v62)) := by
  after_results_simp
  simp only [lay3_ofBuf_toBuf, lay3_ofBuf_src, lay3_ofBuf_prod, lay3_toBuf_gath]
  rw [h1]
  rfl

/-- The weighting, the scatter-add onto the destinations, the self-loop term and the bias row. -/
theorem lay3_agg_after (ei : IVec S2x1200000 32) (B : FVec Ideal S3x64 .f32) (xw : FVec Ideal S100000x64 .f32)
    (h32 : (V (Proc.devRef .tc main_v63) : FVec Ideal S1200000x64 .f32) = Terms.gath (F := Ideal) ei xw)
    (h31 : (V (Proc.devRef .tc main_v62) : FVec Ideal S100000x64 .f32) = xw)
    (h3 : (V (Proc.devRef .tc main_v3) : IVec S1200000 32) = Terms.dst ei)
    (h26 : (V (Proc.devRef .tc main_v26) : FVec Ideal S1200000x1 .f32) = Terms.enorm (F := Ideal) ei)
    (h28 : (V (Proc.devRef .tc main_v28) : FVec Ideal S100000x1 .f32) = Terms.snorm (F := Ideal) ei)
    (hB : (V (Proc.devRef .tc main_arg3) : FVec Ideal S3x64 .f32) = B) :
    (StableHlo.after (hostOps4_1 (F := Ideal)) V (Proc.devRef .tc main_v76) : FVec Ideal S100000x64 .f32)
      = Terms.agg (F := Ideal) ei (Terms.r1 (F := Ideal) B) xw := by
  after_results_simp
  rw [h32, h31, h3, h26, h28, hB]
  rfl

end Stretches

section Moments

variable (V : Valuation τ sig (Elt Ideal))

/-- A row laid out as a one-row table reads, at column `q` of its one row, the row's entry `q`. -/
theorem lay3_row_read (v : FVec Ideal S64 .f32) (q : Fin 64) :
    broadcastInDim S1x64 ![1] bcast_S64_S1x64_1 v (ix2 (0 : Fin 1) q) = v (ix1 q) := by
  simp only [broadcastInDim]
  congr 1
  funext a
  match a with
  | ⟨0, _⟩ =>
    apply Fin.ext
    split
    · next h1 => change (64 : ℕ) = 1 at h1; omega
    · rfl

/-- The column mean: the first column sum divided by the number of nodes. -/
theorem lay3_mean_after (q : Fin 64) :
    (StableHlo.after (hostOps5 (F := Ideal)) V (Proc.devRef .tc main_v79) : FVec Ideal S1x64 .f32) (ix2 0 q)
      = Ideal.div ((V (Proc.devRef .tc main_v77_0) : FVec Ideal S1x64 .f32) (ix2 0 q)) Gcn.cnt := by
  after_results
  rfl

/-- The column variance: the second column sum divided by the number of nodes, minus the square of the mean. -/
theorem lay3_var_after (q : Fin 64) :
    (StableHlo.after (hostOps5 (F := Ideal)) V (Proc.devRef .tc main_v83) : FVec Ideal S1x64 .f32) (ix2 0 q)
      = Ideal.div ((V (Proc.devRef .tc main_v77_1) : FVec Ideal S1x64 .f32) (ix2 0 q)) Gcn.cnt
        - Ideal.div ((V (Proc.devRef .tc main_v77_0) : FVec Ideal S1x64 .f32) (ix2 0 q)) Gcn.cnt
          * Ideal.div ((V (Proc.devRef .tc main_v77_0) : FVec Ideal S1x64 .f32) (ix2 0 q)) Gcn.cnt := by
  after_results
  rfl

/-- The scale row, laid out as a one-row table. -/
theorem lay3_scale_after (G : FVec Ideal S3x64 .f32) (hG : (V (Proc.devRef .tc main_arg4) : FVec Ideal S3x64 .f32) = G) (q : Fin 64) :
    (StableHlo.after (hostOps5 (F := Ideal)) V (Proc.devRef .tc main_v86) : FVec Ideal S1x64 .f32) (ix2 0 q)
      = Terms.r1 (F := Ideal) G (ix1 q) := by
  after_results
  rw [hG]
  refine (lay3_row_read _ q).trans ?_
  rfl

/-- The shift row, laid out as a one-row table. -/
theorem lay3_shift_after (BE : FVec Ideal S3x64 .f32) (hBE : (V (Proc.devRef .tc main_arg5) : FVec Ideal S3x64 .f32) = BE) (q : Fin 64) :
    (StableHlo.after (hostOps5 (F := Ideal)) V (Proc.devRef .tc main_v89) : FVec Ideal S1x64 .f32) (ix2 0 q)
      = Terms.r1 (F := Ideal) BE (ix1 q) := by
  after_results
  rw [hBE]
  refine (lay3_row_read _ q).trans ?_
  rfl

end Moments

/-- The normalisation, from its pieces: an output table whose entry `(p, q)` is the scale times the rectified entry
    minus the column mean, times the reciprocal root of the column variance plus the guard, plus the shift, where the
    mean and variance are formed from the two column sums of the rectified table and of its square. -/
theorem lay3_norm_of_pieces (o a : FVec Ideal S100000x64 .f32) (s1 s2 mu va ga sh : FVec Ideal S1x64 .f32) (g be : FVec Ideal S64 .f32)
    (ho : ∀ (p : Fin 100000) (q : Fin 64), o (ix2 p q)
      = ga (ix2 0 q) * (Gcn.leaky (a (ix2 p q)) - mu (ix2 0 q)) * Ideal.rsqrt (va (ix2 0 q) + Gcn.eps) + sh (ix2 0 q))
    (hs1 : ∀ q : Fin 64, s1 (ix2 0 q) = ∑ p : Fin 100000, Gcn.leaky (a (ix2 p q)))
    (hs2 : ∀ q : Fin 64, s2 (ix2 0 q) = ∑ p : Fin 100000, Gcn.leaky (a (ix2 p q)) * Gcn.leaky (a (ix2 p q)))
    (hmu : ∀ q : Fin 64, mu (ix2 0 q) = Ideal.div (s1 (ix2 0 q)) Gcn.cnt)
    (hva : ∀ q : Fin 64, va (ix2 0 q)
      = Ideal.div (s2 (ix2 0 q)) Gcn.cnt - Ideal.div (s1 (ix2 0 q)) Gcn.cnt * Ideal.div (s1 (ix2 0 q)) Gcn.cnt)
    (hga : ∀ q : Fin 64, ga (ix2 0 q) = g (ix1 q)) (hsh : ∀ q : Fin 64, sh (ix2 0 q) = be (ix1 q)) :
    Gcn.toMat o = Gcn.normK (Gcn.toRow g) (Gcn.toRow be) (Gcn.toMat a) := by
  funext p q
  show o (ix2 p q) = _
  rw [ho, hmu, hva, hs1, hs2, hga, hsh]
  rfl

section Chain

/-- The product region: its output table is the input table times the weight table. -/
theorem lay3_prod (c : Dev nD) :
    (W9 m ρ c (Proc.devRef .tc main_v62) : FVec Ideal S100000x64 .f32)
      = Gcn.ofMat (Gcn.mm (Gcn.toMat (W8 m ρ c (Proc.devRef .tc main_v59) : FVec Ideal S100000x64 .f32))
          (Gcn.toWt (W8 m ρ c (Proc.devRef .tc main_v61) : FVec Ideal S64x64 .f32))) := by
  funext i
  obtain ⟨p, q, rfl⟩ : ∃ (p : Fin 100000) (q : Fin 64), i = ix2 p q := ⟨i 0, i 1, eq_ix2 i⟩
  exact (congrFun (W9_arr m ρ c 2) (ix2 p q)).trans (mm3 (V8 m ρ) c p q)

/-- The aggregation of the product over the graph: the product region writes none of the buffers the two stretches
    read besides its own output, and the gather's stretch writes none that the second stretch reads besides the
    gathered rows. -/
theorem lay3_agg (c : Dev nD) (ei : IVec S2x1200000 32) (B : FVec Ideal S3x64 .f32)
    (h1 : (W8 m ρ c (Proc.devRef .tc main_v1) : IVec S1200000 32) = Terms.src ei)
    (h3 : (W8 m ρ c (Proc.devRef .tc main_v3) : IVec S1200000 32) = Terms.dst ei)
    (h26 : (W8 m ρ c (Proc.devRef .tc main_v26) : FVec Ideal S1200000x1 .f32) = Terms.enorm (F := Ideal) ei)
    (h28 : (W8 m ρ c (Proc.devRef .tc main_v28) : FVec Ideal S100000x1 .f32) = Terms.snorm (F := Ideal) ei)
    (hB : (W8 m ρ c (Proc.devRef .tc main_arg3) : FVec Ideal S3x64 .f32) = B) :
    (W11 m ρ c (Proc.devRef .tc main_v76) : FVec Ideal S100000x64 .f32)
      = Terms.agg (F := Ideal) ei (Terms.r1 (F := Ideal) B) (W9 m ρ c (Proc.devRef .tc main_v62)) := by
  have k1 : W9 m ρ c (Proc.devRef .tc main_v1) = W8 m ρ c (Proc.devRef .tc main_v1) := W9_of_ne m ρ c main_v1 (by decide)
  have k3 : W9 m ρ c (Proc.devRef .tc main_v3) = W8 m ρ c (Proc.devRef .tc main_v3) := W9_of_ne m ρ c main_v3 (by decide)
  have k26 : W9 m ρ c (Proc.devRef .tc main_v26) = W8 m ρ c (Proc.devRef .tc main_v26) := W9_of_ne m ρ c main_v26 (by decide)
  have k28 : W9 m ρ c (Proc.devRef .tc main_v28) = W8 m ρ c (Proc.devRef .tc main_v28) := W9_of_ne m ρ c main_v28 (by decide)
  have kB : W9 m ρ c (Proc.devRef .tc main_arg3) = W8 m ρ c (Proc.devRef .tc main_arg3) := W9_of_ne m ρ c main_arg3 (by decide)
  have g31 : W10 m ρ c (Proc.devRef .tc main_v62) = W9 m ρ c (Proc.devRef .tc main_v62) := by host_keeps hostOps4
  have g3 : W10 m ρ c (Proc.devRef .tc main_v3) = W9 m ρ c (Proc.devRef .tc main_v3) := by host_keeps hostOps4
  have g26 : W10 m ρ c (Proc.devRef .tc main_v26) = W9 m ρ c (Proc.devRef .tc main_v26) := by host_keeps hostOps4
  have g28 : W10 m ρ c (Proc.devRef .tc main_v28) = W9 m ρ c (Proc.devRef .tc main_v28) := by host_keeps hostOps4
  have gB : W10 m ρ c (Proc.devRef .tc main_arg3) = W9 m ρ c (Proc.devRef .tc main_arg3) := by host_keeps hostOps4
  exact lay3_agg_after (W10 m ρ c) ei B _ (lay3_gath_after (W9 m ρ c) ei (k1.trans h1)) g31 (g3.trans (k3.trans h3))
    (g26.trans (k26.trans h26)) (g28.trans (k28.trans h28)) (gB.trans (kB.trans hB))

/-- The statistics region: the column sums of the rectified aggregate and of its square. -/
theorem lay3_sums (c : Dev nD) (q : Fin 64) :
    (W12 m ρ c (Proc.devRef .tc main_v77_0) : FVec Ideal S1x64 .f32) (ix2 0 q)
      = ∑ p : Fin 100000, Gcn.leaky ((W11 m ρ c (Proc.devRef .tc main_v76) : FVec Ideal S100000x64 .f32) (ix2 p q)) :=
  (congrFun (W12_arr m ρ c 1) (ix2 0 q)).trans (sum4 (V11 m ρ) c q)

theorem lay3_sqsums (c : Dev nD) (q : Fin 64) :
    (W12 m ρ c (Proc.devRef .tc main_v77_1) : FVec Ideal S1x64 .f32) (ix2 0 q)
      = ∑ p : Fin 100000, Gcn.leaky ((W11 m ρ c (Proc.devRef .tc main_v76) : FVec Ideal S100000x64 .f32) (ix2 p q))
          * Gcn.leaky ((W11 m ρ c (Proc.devRef .tc main_v76) : FVec Ideal S100000x64 .f32) (ix2 p q)) :=
  (congrFun (W12_arr m ρ c 2) (ix2 0 q)).trans (sqsum4 (V11 m ρ) c q)

/-- The aggregate is an input of the statistics region and no operation of the next stretch writes it. -/
theorem lay3_kept_agg (c : Dev nD) : W13 m ρ c (Proc.devRef .tc main_v76) = W11 m ρ c (Proc.devRef .tc main_v76) := by
  have a : W13 m ρ c (Proc.devRef .tc main_v76) = W12 m ρ c (Proc.devRef .tc main_v76) := by host_keeps hostOps5
  exact a.trans ((W12_arr m ρ c 0).trans (((dat4 (V11 m ρ) c).arrAt_in 0 rfl _).trans (A_eq4 (V11 m ρ) c 0)))

/-- A stacked parameter array reaches the moments' stretch as the product region found it. -/
theorem lay3_kept_scale (c : Dev nD) : W12 m ρ c (Proc.devRef .tc main_arg4) = W8 m ρ c (Proc.devRef .tc main_arg4) := by
  have a : W11 m ρ c (Proc.devRef .tc main_arg4) = W10 m ρ c (Proc.devRef .tc main_arg4) := by host_keeps hostOps4_1
  have b : W10 m ρ c (Proc.devRef .tc main_arg4) = W9 m ρ c (Proc.devRef .tc main_arg4) := by host_keeps hostOps4
  exact (W12_of_ne m ρ c main_arg4 (by decide)).trans (a.trans (b.trans (W9_of_ne m ρ c main_arg4 (by decide))))

theorem lay3_kept_shift (c : Dev nD) : W12 m ρ c (Proc.devRef .tc main_arg5) = W8 m ρ c (Proc.devRef .tc main_arg5) := by
  have a : W11 m ρ c (Proc.devRef .tc main_arg5) = W10 m ρ c (Proc.devRef .tc main_arg5) := by host_keeps hostOps4_1
  have b : W10 m ρ c (Proc.devRef .tc main_arg5) = W9 m ρ c (Proc.devRef .tc main_arg5) := by host_keeps hostOps4
  exact (W12_of_ne m ρ c main_arg5 (by decide)).trans (a.trans (b.trans (W9_of_ne m ρ c main_arg5 (by decide))))

end Chain

/-- Layer 1, from the contents at the product region's entry to the contents after the normalisation region. -/
theorem layer3 (c : Dev nD) (ei : IVec S2x1200000 32) (w : FVec Ideal S64x64 .f32) (B G BE : FVec Ideal S3x64 .f32)
    (h1 : (W8 m ρ c (Proc.devRef .tc main_v1) : IVec S1200000 32) = Terms.src ei)
    (h3 : (W8 m ρ c (Proc.devRef .tc main_v3) : IVec S1200000 32) = Terms.dst ei)
    (h26 : (W8 m ρ c (Proc.devRef .tc main_v26) : FVec Ideal S1200000x1 .f32) = Terms.enorm (F := Ideal) ei)
    (h28 : (W8 m ρ c (Proc.devRef .tc main_v28) : FVec Ideal S100000x1 .f32) = Terms.snorm (F := Ideal) ei)
    (hw : (W8 m ρ c (Proc.devRef .tc main_v61) : FVec Ideal S64x64 .f32) = w)
    (hB : (W8 m ρ c (Proc.devRef .tc main_arg3) : FVec Ideal S3x64 .f32) = B)
    (hG : (W8 m ρ c (Proc.devRef .tc main_arg4) : FVec Ideal S3x64 .f32) = G)
    (hBE : (W8 m ρ c (Proc.devRef .tc main_arg5) : FVec Ideal S3x64 .f32) = BE) :
    Gcn.toMat (W14 m ρ c (Proc.devRef .tc main_v90) : FVec Ideal S100000x64 .f32)
      = Gcn.layerK (fun y => Gcn.toMat (Terms.agg (F := Ideal) ei (Terms.r1 (F := Ideal) B) (Gcn.ofMat y))) (Gcn.toWt w)
          (Gcn.toRow (Terms.r1 (F := Ideal) G)) (Gcn.toRow (Terms.r1 (F := Ideal) BE))
          (Gcn.toMat (W8 m ρ c (Proc.devRef .tc main_v59) : FVec Ideal S100000x64 .f32)) := by
  have key := lay3_norm_of_pieces
    (W14 m ρ c (Proc.devRef .tc main_v90)) (W11 m ρ c (Proc.devRef .tc main_v76))
    (W12 m ρ c (Proc.devRef .tc main_v77_0)) (W12 m ρ c (Proc.devRef .tc main_v77_1))
    (W13 m ρ c (Proc.devRef .tc main_v79)) (W13 m ρ c (Proc.devRef .tc main_v83))
    (W13 m ρ c (Proc.devRef .tc main_v86)) (W13 m ρ c (Proc.devRef .tc main_v89))
    (Terms.r1 (F := Ideal) G) (Terms.r1 (F := Ideal) BE)
    (fun p q => by
      rw [← lay3_kept_agg m ρ c]
      exact (congrFun (W14_arr m ρ c 5) (ix2 p q)).trans (bn5 (V13 m ρ) c p q))
    (lay3_sums m ρ c) (lay3_sqsums m ρ c) (lay3_mean_after (W12 m ρ c)) (lay3_var_after (W12 m ρ c))
    (lay3_scale_after (W12 m ρ c) G ((lay3_kept_scale m ρ c).trans hG)) (lay3_shift_after (W12 m ρ c) BE ((lay3_kept_shift m ρ c).trans hBE))
  rw [key, lay3_agg m ρ c ei B h1 h3 h26 h28 hB, lay3_prod m ρ c, hw]
  rfl

end Cert.KernelIdeal.KerValue

end
-- ==== Proof.KMatmul6.lean ====
import proofs.«426465_j33225867002208_1_alg».proof.Proof.Gen.KernelIdeal.Frame
import proofs.«426465_j33225867002208_1_alg».proof.Proof.Spec
import proofs.«426465_j33225867002208_1_alg».proof.Proof.LibPlainDot
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The node table the product region finds on entry. -/
abbrev mx6 (c : Dev nD) : Vec Ideal S100000x64 .f32 := V c (Pipeline.arrRef spec6 0)
/-- The weight table it finds. -/
abbrev mw6 (c : Dev nD) : Vec Ideal S64x64 .f32 := V c (Pipeline.arrRef spec6 1)
/-- What the region leaves in its output array. -/
abbrev mo6 (c : Dev nD) : Vec Ideal S100000x64 .f32 := (dat6 (F := Ideal) V c).arrAt 2 cfg6.N

/-! ## The product region's output array, entry by entry

The region's grid has 10 points. Point `t` reads rows `10000 t … 10000 t + 9999` of the node table and the whole
weight table, and writes rows `10000 t … 10000 t + 9999` of the output array; the body stores the matrix product
of its two blocks into the zero accumulator, the change of format on both operands being the identity on the
extended reals. So every point writes back its rows of ONE table, the product of the two tables the region finds,
and the ten row blocks cover the output array. -/

/-- The offset pair (0, 0) is the constant zero offset. -/
theorem origin6 : (![0, 0] : Fin 2 → Nat) = fun _ => 0 := funext fun a => by fin_cases a <;> rfl

/-- The product of a node table and a weight table as one table: entry (p, q) is the sum over k of
    x (p, k) · w (k, q), the coordinates read off the index. -/
def prod6 (x : Vec Ideal S100000x64 .f32) (w : Vec Ideal S64x64 .f32) : Vec Ideal S100000x64 .f32 :=
  fun i => ∑ k : Fin 64, x (ix2 ⟨(i 0).val, (i 0).isLt⟩ k) * w (ix2 k ⟨(i 1).val, (i 1).isLt⟩)

/-- The body's stored value at entry (r, q) of its block: the sum over k of x0 (r, k) · x1 (k, q). The record
    contracts the left operand's axis 1 with the right operand's axis 0 and has no batch axes; the accumulator
    is the zero constant; truncation and the cast to the same shape leave every entry as it is. -/
theorem body6_entry (x0 : Vec Ideal S10000x64 .f32) (x1 : Vec Ideal S64x64 .f32) (r : Fin 10000) (q : Fin 64) :
    k6_pay1 (F := Ideal) x0 x1 (ix2 r q) = ∑ k : Fin 64, x0 (ix2 r k) * x1 (ix2 k q) := by
  unfold k6_pay1
  refine (PlainDot.matmul_zero_apply dot_S10000x64_S64x64_S10000x64_1_0_0_1_n_n rfl rfl rfl rfl rfl rfl rfl rfl none _ _ r q).trans ?_
  refine Finset.sum_congr rfl fun k _ => ?_
  simp only [shapeCast_self, truncf_apply]

/-- The same at any index of the block, its two coordinates read off it. -/
theorem body6_at (x0 : Vec Ideal S10000x64 .f32) (x1 : Vec Ideal S64x64 .f32) (j : S10000x64.Idx) :
    k6_pay1 (F := Ideal) x0 x1 j = ∑ k : Fin 64, x0 (ix2 ⟨(j 0).val, (j 0).isLt⟩ k) * x1 (ix2 k ⟨(j 1).val, (j 1).isLt⟩) :=
  (congrArg (k6_pay1 (F := Ideal) x0 x1) (eq_ix2 j)).trans (body6_entry x0 x1 (j 0) (j 1))

/-- The printed index maps over the grid: the node table's and the output's block row is the point, their block
    column 0; the weight table's block is (0, 0) at every point. -/
theorem blockIdx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The node table's block at point t, entry (r, k), is the table's entry (10000 t + r, k): a block's coordinate
    is block index × block size + the coordinate inside the block. -/
theorem xrows6 (c : Dev nD) (t : Fin cfg6.N) (r : Fin 10000) (k : Fin 64) (p : Fin 100000)
    (hp : p.val = t.val * 10000 + r.val) :
    (iblk6 V c 0 t : Vec Ideal S10000x64 .f32) (ix2 r k) = mx6 V c (ix2 p k) := by
  obtain ⟨e0, e1, -⟩ := blockIdx6 t
  unfold iblk6
  rw [View.read_apply]
  show V c (Pipeline.arrRef spec6 0) _ = V c (Pipeline.arrRef spec6 0) _
  congr 1
  funext a; apply Fin.ext
  match a with
  | ⟨0, _⟩ => show win6_0.index t 0 * 10000 + 1 * r.val = p.val; omega
  | ⟨1, _⟩ => show win6_0.index t 1 * 64 + 1 * k.val = k.val; omega

/-- The weight table's block at every point is the whole table. -/
theorem wwhole6 (c : Dev nD) (t : Fin cfg6.N) (k : Fin 64) (q q' : Fin 64) (hq : q'.val = q.val) :
    (iblk6 V c 1 t : Vec Ideal S64x64 .f32) (ix2 k q) = mw6 V c (ix2 k q') := by
  obtain ⟨-, -, e0, e1, -⟩ := blockIdx6 t
  unfold iblk6
  rw [View.read_apply]
  show V c (Pipeline.arrRef spec6 1) _ = V c (Pipeline.arrRef spec6 1) _
  congr 1
  funext a; apply Fin.ext
  match a with
  | ⟨0, _⟩ => show win6_1.index t 0 * 64 + 1 * k.val = k.val; omega
  | ⟨1, _⟩ => show win6_1.index t 1 * 64 + 1 * q.val = q'.val; omega

/-- What point t writes back is rows 10000 t … 10000 t + 9999 of the product of the two tables: the body's one
    store fills the whole block from offset (0, 0); at entry (r, q) it holds the sum over k of the node block's
    (r, k) times the weight block's (k, q), which are the tables' entries (10000 t + r, k) and (k, q); and the
    output block's entry (r, q) sits at (10000 t + r, q) of the array. -/
theorem written6 (c : Dev nD) (t : Fin cfg6.N) :
    (dat6 (F := Ideal) V c).flushed 2 t = ((cfg6.win 2).blk t).view.read (Elt Ideal) (prod6 (mx6 V c) (mw6 V c)) := by
  show (cfg6.win 2).cut (grid6.coords t) ((dat6 (F := Ideal) V c).after 2 t) = _
  rw [after6_2]
  unfold out6_2
  rw [View.canon_unit_zero origin6]
  simp only [View.ld_unit_zero (S := S10000x64) origin6, View.ld_unit_zero (S := S64x64) origin6]
  funext j
  show k6_pay1 (F := Ideal) (iblk6 V c 0 t) (iblk6 V c 1 t) j = prod6 (mx6 V c) (mw6 V c) (((cfg6.win 2).blk t).view.emb j)
  obtain ⟨-, -, -, -, e0, e1⟩ := blockIdx6 t
  have h0 : ((((cfg6.win 2).blk t).view.emb j) 0).val = t.val * 10000 + (j 0).val := by
    show win6_2.index t 0 * 10000 + 1 * (j 0).val = _; omega
  have h1 : ((((cfg6.win 2).blk t).view.emb j) 1).val = (j 1).val := by
    show win6_2.index t 1 * 64 + 1 * (j 1).val = _; omega
  refine (body6_at (iblk6 V c 0 t) (iblk6 V c 1 t) j).trans ?_
  unfold prod6
  refine Finset.sum_congr rfl fun k _ => ?_
  exact congrArg₂ (· * ·) (xrows6 V c t _ k _ h0) (wwhole6 V c t k _ _ h1)

/-- An index of the output array is in point t's block iff each coordinate is in the block's range on its axis. -/
theorem mem_rows6 (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v93).slice (win6_2.rect t)).set ↔ _
  rw [View.set_slice_whole, Rect.mem_set_unit]
  exact Iff.rfl

/-- Row r of the output array is written back by point r / 10000: the ten row blocks cover the array. -/
theorem rows_cover6 (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  obtain ⟨t, ht⟩ : ∃ t : Fin cfg6.N, t.val = (i 0).val / 10000 :=
    ⟨⟨(i 0).val / 10000, by rw [show cfg6.N = 10 from N_6]; omega⟩, rfl⟩
  obtain ⟨-, -, -, -, e0, e1⟩ := blockIdx6 t
  refine ⟨t, flush6_2 t, ?_⟩
  rw [mem_rows6]
  intro a
  match a with
  | ⟨0, _⟩ => show win6_2.index t 0 * 10000 ≤ (i 0).val ∧ (i 0).val < win6_2.index t 0 * 10000 + 10000; omega
  | ⟨1, _⟩ => show win6_2.index t 1 * 64 ≤ (i 1).val ∧ (i 1).val < win6_2.index t 1 * 64 + 64; omega

/-- So the output array ends holding the product of the two tables the region finds. -/
theorem mo6_eq (c : Dev nD) : mo6 V c = prod6 (mx6 V c) (mw6 V c) :=
  (dat6 (F := Ideal) V c).arrAt_eq_of_cover 2 (prod6 (mx6 V c) (mw6 V c)) (fun t _ => written6 V c t) rows_cover6

theorem mm6 (c : Dev nD) (p : Fin 100000) (q : Fin 64) :
    mo6 V c (ix2 p q) = ∑ k : Fin 64, mx6 V c (ix2 p k) * mw6 V c (ix2 k q) :=
  congrFun (mo6_eq V c) (ix2 p q)

end Cert.KernelIdeal.KerValue

end
-- ==== Proof.KStats7.lean ====
/-
  The column statistics of one layer. The region walks the node table (100000 rows, 64 columns) in ten blocks of
  10000 rows. It keeps two rows of 64 accumulators: at the first block it clears them; at every block it applies the
  leaky rectifier to the block's entries, adds each column's sum to the first row and each column's sum of squares to
  the second. The accumulators are written out after the last block.

  Shown here, over the extended reals: the first output row holds, in column `q`, the sum over all 100000 rows `p` of
  `leaky (a p q)`, and the second the sum of `leaky (a p q) * leaky (a p q)`. The argument: what one block contributes
  (the body's arithmetic read entry by entry), the running sums by induction over the blocks, and the regrouping of a
  sum over 100000 rows into ten sums over 10000 rows, which needs only that addition is commutative and associative.
-/
import proofs.«426465_j33225867002208_1_alg».proof.Proof.Gen.KernelIdeal.Frame
import proofs.«426465_j33225867002208_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The node table the statistics region finds on entry. -/
abbrev sa7 (c : Dev nD) : Vec Ideal S100000x64 .f32 := V c (Pipeline.arrRef spec7 0)
/-- What the region leaves in its first output array (the column sums). -/
abbrev ss7 (c : Dev nD) : Vec Ideal S1x64 .f32 := (dat7 (F := Ideal) V c).arrAt 1 cfg7.N
/-- What it leaves in its second (the column sums of squares). -/
abbrev sq7 (c : Dev nD) : Vec Ideal S1x64 .f32 := (dat7 (F := Ideal) V c).arrAt 2 cfg7.N

/-! ## What one run of the body leaves in the two accumulators

The body stores, in each of the two one-row outputs, the sum of what the output held and a column sum over the
10000 rows of the input block. At the first point it first stores a row of zeros and reads that row back. -/

section Pieces
variable {F : FTy → Type} [FloatOps F]

theorem hz_k7 : (![0, 0] : Fin 2 → Nat) = fun _ => 0 := funext fun a => by fin_cases a <;> rfl

/-- Away from the first point the first output ends at its old contents plus the block's column sums. -/
theorem outB1_k7 (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond7_0 i) (x : Vec F S10000x64 .f32) (xo1 xo2 : Vec F S1x64 .f32) :
    out7_B_1 c i a1 h1 a2 h2 a3 h3 hc x xo1 xo2 = k7_pay4 x xo1 := by
  unfold out7_B_1
  rw [View.read_writes_eq_canon _ _ _ (cover7_B_1 c i a1 h1 a2 h2 a3 h3 hc x xo1 xo2)]
  unfold kernelRun7_B
  dsimp only
  sl_unfold_words
  rw [View.canon_unit_zero hz_k7]
  simp only [View.readAt_eq_ld, h1.read_unread, h2.read_unread, View.ld_unit_zero (S := S10000x64) hz_k7,
    View.ld_unit_zero (S := S1x64) hz_k7]

/-- Away from the first point the second output ends at its old contents plus the block's column sums of squares. -/
theorem outB2_k7 (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond7_0 i) (x : Vec F S10000x64 .f32) (xo1 xo2 : Vec F S1x64 .f32) :
    out7_B_2 c i a1 h1 a2 h2 a3 h3 hc x xo1 xo2 = k7_pay5 x xo2 := by
  unfold out7_B_2
  rw [View.read_writes_eq_canon _ _ _ (cover7_B_2 c i a1 h1 a2 h2 a3 h3 hc x xo1 xo2)]
  unfold kernelRun7_B
  dsimp only
  sl_unfold_words
  rw [View.canon_unit_zero hz_k7]
  simp only [View.readAt_eq_ld, h1.read_unread, h3.read_unread, View.ld_unit_zero (S := S10000x64) hz_k7,
    View.ld_unit_zero (S := S1x64) hz_k7]

/-- At the first point the first output ends at the row of zeros plus the block's column sums. -/
theorem outA1_k7 (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond7_0 i) (x : Vec F S10000x64 .f32) :
    out7_A_1 c i a1 h1 a2 h2 a3 h3 hc x = k7_pay4 x (k7_pay1 (F := F)) := by
  unfold out7_A_1
  rw [View.read_writes_eq_canon _ _ _ (cover7_A_1 c i a1 h1 a2 h2 a3 h3 hc x)]
  unfold kernelRun7_A
  dsimp only
  sl_unfold_words
  rw [View.canon_cons_unit_zero (S := S1x64) hz_k7, View.readCov_unit_zero (S := S1x64) _ hz_k7]
  simp only [View.readAt_eq_ld, h1.read_unread, View.ld_unit_zero (S := S10000x64) hz_k7]

/-- At the first point the second output ends at the row of zeros plus the block's column sums of squares. -/
theorem outA2_k7 (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond7_0 i) (x : Vec F S10000x64 .f32) :
    out7_A_2 c i a1 h1 a2 h2 a3 h3 hc x = k7_pay5 x (k7_pay2 (F := F)) := by
  unfold out7_A_2
  rw [View.read_writes_eq_canon _ _ _ (cover7_A_2 c i a1 h1 a2 h2 a3 h3 hc x)]
  unfold kernelRun7_A
  dsimp only
  sl_unfold_words
  rw [View.canon_cons_unit_zero (S := S1x64) hz_k7, View.readCov_unit_zero (S := S1x64) _ hz_k7]
  simp only [View.readAt_eq_ld, h1.read_unread, View.ld_unit_zero (S := S10000x64) hz_k7]

end Pieces

/-! ## Regrouping a sum over 100000 rows into ten blocks of 10000

Addition in a commutative monoid may be regrouped freely, so the sum over all rows is the sum over the ten
blocks of the sums inside each block. No finiteness of the summands is used. -/

section Regroup
variable {M : Type*} [AddCommMonoid M]

/-- Row `r` of block `t` of a table of 100000 rows cut into consecutive blocks of 10000 rows. -/
def blockRow_k7 (t : ℕ) (r : Fin 10000) : Fin 100000 := ⟨(10000 * t + r.val) % 100000, Nat.mod_lt _ (by decide)⟩

theorem blockRow_val_k7 (t : ℕ) (ht : t < 10) (r : Fin 10000) : (blockRow_k7 t r).val = 10000 * t + r.val := by
  show (10000 * t + r.val) % 100000 = _
  have := r.isLt
  omega

/-- The sum of `f` over the rows of block `t`. -/
def blockSum_k7 (f : Fin 100000 → M) (t : ℕ) : M := ∑ r : Fin 10000, f (blockRow_k7 t r)

/-- The ten block sums add up to the sum over all rows: every row `p` is row `p % 10000` of block `p / 10000`. -/
theorem sum_blocks_k7 (f : Fin 100000 → M) : ∑ t ∈ Finset.range 10, blockSum_k7 f t = ∑ p : Fin 100000, f p := by
  rw [← Fin.sum_univ_eq_sum_range (fun t => blockSum_k7 f t) 10]
  unfold blockSum_k7
  rw [← Fintype.sum_prod_type' (fun (t : Fin 10) (r : Fin 10000) => f (blockRow_k7 t.val r))]
  refine Fintype.sum_equiv (finProdFinEquiv : Fin 10 × Fin 10000 ≃ Fin 100000) _ _ (fun x => ?_)
  refine congrArg f (Fin.ext ?_)
  rw [blockRow_val_k7 _ x.1.isLt]
  show _ = x.2.val + 10000 * x.1.val
  omega

end Regroup

/-! ## The body's arithmetic at an entry, over the extended reals -/

section Payloads

/-- The entry of the reduced row above entry `q` of the result, at row `r` of the block. -/
theorem lift_eq_k7 (q : Fin 64) (r : Fin 10000) : reduces_S10000x64_S64.lift (ix1 q) r = ix2 r q := by
  funext a
  apply Fin.ext
  match a with
  | ⟨0, _⟩ => rfl
  | ⟨1, _⟩ => rfl

/-- Dropping the leading unit coordinate of `(0, q)` leaves `q`. -/
theorem tail_ix2_k7 (q : Fin 64) : (fun a : Fin 1 => (ix2 (0 : Fin 1) q) a.succ) = ix1 q := by
  funext a
  match a with
  | ⟨0, _⟩ => rfl

/-- The rectified block at an entry: the leaky rectifier of the block's entry. -/
theorem pay3_k7 (x : Vec Ideal S10000x64 .f32) (r : Fin 10000) (q : Fin 64) :
    k7_pay3 (F := Ideal) x (ix2 r q) = Gcn.leaky (x (ix2 r q)) := by
  have e : shapeCast S10000x64 x shapeCasts_S10000x64_S10000x64 = x := shapeCast_self x _
  unfold k7_pay3 Gcn.leaky Gcn.zero Gcn.slope
  rw [e]
  rfl

/-- A column sum over the 10000 rows of a block, reshaped to one row: entry `(0, q)` is the sum of column `q`. -/
theorem colsum_k7 (y : FVec Ideal S10000x64 .f32) (hφ : FKind.Formats .f32)
    (hacc : (0x00000000#32 : BitVec 32) = FKind.add.neutral .f32 hφ) (q : Fin 64) :
    shapeCast S1x64 (multiReduction .add [0] S64 y 0x00000000#32 reduces_S10000x64_S64 hφ hacc) shapeCasts_S64_S1x64 (ix2 0 q)
      = ∑ r : Fin 10000, y (ix2 r q) := by
  refine (shapeCast_addUnit_apply ![64] _ shapeCasts_S64_S1x64 (ix2 0 q)).trans ?_
  rw [tail_ix2_k7]
  refine (Ideal.multiReduction_add_single y 0x00000000#32 reduces_S10000x64_S64 hφ hacc (ix1 q)).trans ?_
  exact Finset.sum_congr rfl fun r _ => congrArg y (lift_eq_k7 q r)

/-- The first accumulator's update at entry `(0, q)`: the old entry plus the sum of the rectified column. -/
theorem pay4_k7 (x : Vec Ideal S10000x64 .f32) (v : Vec Ideal S1x64 .f32) (q : Fin 64) :
    k7_pay4 (F := Ideal) x v (ix2 0 q) = v (ix2 0 q) + ∑ r : Fin 10000, Gcn.leaky (x (ix2 r q)) := by
  have e : shapeCast S1x64 v shapeCasts_S1x64_S1x64 = v := shapeCast_self v _
  unfold k7_pay4
  refine (addf_apply _ _ (ix2 0 q)).trans ?_
  rw [e]
  refine congrArg (v (ix2 0 q) + ·) ?_
  refine (colsum_k7 (k7_pay3 (F := Ideal) x) _ _ q).trans ?_
  exact Finset.sum_congr rfl fun r _ => pay3_k7 x r q

/-- The second accumulator's update at entry `(0, q)`: the old entry plus the sum of the squared rectified column. -/
theorem pay5_k7 (x : Vec Ideal S10000x64 .f32) (v : Vec Ideal S1x64 .f32) (q : Fin 64) :
    k7_pay5 (F := Ideal) x v (ix2 0 q)
      = v (ix2 0 q) + ∑ r : Fin 10000, Gcn.leaky (x (ix2 r q)) * Gcn.leaky (x (ix2 r q)) := by
  have e : shapeCast S1x64 v shapeCasts_S1x64_S1x64 = v := shapeCast_self v _
  unfold k7_pay5
  refine (addf_apply _ _ (ix2 0 q)).trans ?_
  rw [e]
  refine congrArg (v (ix2 0 q) + ·) ?_
  refine (colsum_k7 (mulf (k7_pay3 (F := Ideal) x) (k7_pay3 (F := Ideal) x)) _ _ q).trans ?_
  refine Finset.sum_congr rfl fun r _ => ?_
  refine (mulf_apply _ _ (ix2 r q)).trans ?_
  rw [pay3_k7]

/-- The row of zeros the first point stores, at an entry. -/
theorem pay1_k7 (q : Fin 64) : k7_pay1 (F := Ideal) (ix2 0 q) = 0 := Ideal.ofBits_zero_f32
theorem pay2_k7 (q : Fin 64) : k7_pay2 (F := Ideal) (ix2 0 q) = 0 := Ideal.ofBits_zero_f32

end Payloads

/-! ## The input block at a point

Point `t` of the grid sees rows `10000 t … 10000 t + 9999` of the node table. -/

/-- The block of the node table that point `t` reads. -/
abbrev xblk_k7 (c : Dev nD) (t : Fin cfg7.N) : Vec Ideal S10000x64 .f32 := iblk7 (F := Ideal) V c 0 t

/-- The input window's block index at point `t` is `(t, 0)`: decided over the ten points. -/
theorem idx_k7 : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)

/-- Entry `(r, q)` of point `t`'s block is entry `(10000 t + r, q)` of the node table. -/
theorem xblk_apply_k7 (c : Dev nD) (t : Fin cfg7.N) (r : Fin 10000) (q : Fin 64) :
    xblk_k7 V c t (ix2 r q) = sa7 V c (ix2 (blockRow_k7 t.val r) q) := by
  have hN : t.val < 10 := lt_of_lt_of_eq t.isLt (show cfg7.N = 10 from N_7)
  have hi := idx_k7 t
  show iblk7 (F := Ideal) V c 0 t (ix2 r q) = _
  unfold iblk7
  rw [View.read_apply]
  show V c (Pipeline.arrRef spec7 0) _ = V c (Pipeline.arrRef spec7 0) _
  refine congrArg (V c (Pipeline.arrRef spec7 0)) ?_
  funext a
  apply Fin.ext
  match a with
  | ⟨0, _⟩ =>
    show win7_0.index t 0 * 10000 + 1 * r.val = (10000 * t.val + r.val) % 100000
    rw [hi.1]; have := r.isLt; omega
  | ⟨1, _⟩ =>
    show win7_0.index t 1 * 64 + 1 * q.val = q.val
    rw [hi.2]; omega

/-! ## One point's effect on the two accumulators, entry by entry -/

/-- The rectified entries of column `q` of the node table. -/
abbrev lk_k7 (c : Dev nD) (q : Fin 64) : Fin 100000 → EReal := fun p => Gcn.leaky (sa7 V c (ix2 p q))
/-- Their squares. -/
abbrev lq_k7 (c : Dev nD) (q : Fin 64) : Fin 100000 → EReal :=
  fun p => Gcn.leaky (sa7 V c (ix2 p q)) * Gcn.leaky (sa7 V c (ix2 p q))

/-- The first point leaves in each accumulator the block's own sums (zero plus the sum). -/
theorem stepA_k7 (c : Dev nD) (t : Fin cfg7.N) (h0 : t.val % 10 = 0) (q : Fin 64) :
    (outsAt7 (F := Ideal) V c t.val t.isLt).1 (ix2 0 q) = blockSum_k7 (lk_k7 V c q) t.val
    ∧ (outsAt7 (F := Ideal) V c t.val t.isLt).2 (ix2 0 q) = blockSum_k7 (lq_k7 V c q) t.val := by
  rw [outsAt7_A V c t h0]
  dsimp only
  constructor
  · refine (congrFun (outA1_k7 (F := Ideal) c (grid7.coords t) (ms7_0 t) (hs7_0 t) (ms7_1 t) (hs7_1 t) (ms7_2 t) (hs7_2 t)
      ((hcond7_0 t).mpr h0) (xblk_k7 V c t)) (ix2 0 q)).trans ?_
    rw [pay4_k7, pay1_k7, zero_add]
    exact Finset.sum_congr rfl fun r _ => congrArg Gcn.leaky (xblk_apply_k7 V c t r q)
  · refine (congrFun (outA2_k7 (F := Ideal) c (grid7.coords t) (ms7_0 t) (hs7_0 t) (ms7_1 t) (hs7_1 t) (ms7_2 t) (hs7_2 t)
      ((hcond7_0 t).mpr h0) (xblk_k7 V c t)) (ix2 0 q)).trans ?_
    rw [pay5_k7, pay2_k7, zero_add]
    exact Finset.sum_congr rfl fun r _ => by rw [xblk_apply_k7 V c t r q]

/-- Every later point adds its block's sums to what the point before left. -/
theorem stepB_k7 (c : Dev nD) (t : Fin cfg7.N) (h0 : ¬t.val % 10 = 0) (q : Fin 64) :
    (outsAt7 (F := Ideal) V c t.val t.isLt).1 (ix2 0 q)
        = (outsAt7 (F := Ideal) V c (t.val - 1) (Nat.lt_of_le_of_lt (Nat.sub_le _ _) t.isLt)).1 (ix2 0 q)
          + blockSum_k7 (lk_k7 V c q) t.val
    ∧ (outsAt7 (F := Ideal) V c t.val t.isLt).2 (ix2 0 q)
        = (outsAt7 (F := Ideal) V c (t.val - 1) (Nat.lt_of_le_of_lt (Nat.sub_le _ _) t.isLt)).2 (ix2 0 q)
          + blockSum_k7 (lq_k7 V c q) t.val := by
  rw [outsAt7_B V c t h0]
  dsimp only
  constructor
  · refine (congrFun (outB1_k7 (F := Ideal) c (grid7.coords t) (ms7_0 t) (hs7_0 t) (ms7_1 t) (hs7_1 t) (ms7_2 t) (hs7_2 t)
      (fun h => h0 ((hcond7_0 t).mp h)) (xblk_k7 V c t)
      (outsAt7 (F := Ideal) V c (t.val - 1) (Nat.lt_of_le_of_lt (Nat.sub_le _ _) t.isLt)).1
      (outsAt7 (F := Ideal) V c (t.val - 1) (Nat.lt_of_le_of_lt (Nat.sub_le _ _) t.isLt)).2) (ix2 0 q)).trans ?_
    rw [pay4_k7]
    refine congrArg (_ + ·) ?_
    exact Finset.sum_congr rfl fun r _ => congrArg Gcn.leaky (xblk_apply_k7 V c t r q)
  · refine (congrFun (outB2_k7 (F := Ideal) c (grid7.coords t) (ms7_0 t) (hs7_0 t) (ms7_1 t) (hs7_1 t) (ms7_2 t) (hs7_2 t)
      (fun h => h0 ((hcond7_0 t).mp h)) (xblk_k7 V c t)
      (outsAt7 (F := Ideal) V c (t.val - 1) (Nat.lt_of_le_of_lt (Nat.sub_le _ _) t.isLt)).1
      (outsAt7 (F := Ideal) V c (t.val - 1) (Nat.lt_of_le_of_lt (Nat.sub_le _ _) t.isLt)).2) (ix2 0 q)).trans ?_
    rw [pay5_k7]
    refine congrArg (_ + ·) ?_
    exact Finset.sum_congr rfl fun r _ => by rw [xblk_apply_k7 V c t r q]

/-! ## The running sums

After point `n` each accumulator holds, at entry `(0, q)`, the sum of the block sums of the points `0 … n`:
by induction on the point. -/

theorem outs_eq_k7 (c : Dev nD) (q : Fin 64) : ∀ (n : ℕ) (h : n < cfg7.N),
    (outsAt7 (F := Ideal) V c n h).1 (ix2 0 q) = ∑ t ∈ Finset.range (n + 1), blockSum_k7 (lk_k7 V c q) t
    ∧ (outsAt7 (F := Ideal) V c n h).2 (ix2 0 q) = ∑ t ∈ Finset.range (n + 1), blockSum_k7 (lq_k7 V c q) t
  | 0, h => by
    have s := stepA_k7 V c ⟨0, h⟩ rfl q
    rw [Finset.sum_range_one, Finset.sum_range_one]
    exact s
  | n + 1, h => by
    have hN : cfg7.N = 10 := N_7
    have hB : ¬(⟨n + 1, h⟩ : Fin cfg7.N).val % 10 = 0 := by dsimp only; omega
    have s := stepB_k7 V c ⟨n + 1, h⟩ hB q
    have ih := outs_eq_k7 c q n (Nat.lt_of_succ_lt h)
    rw [Finset.sum_range_succ _ (n + 1), Finset.sum_range_succ _ (n + 1), ← ih.1, ← ih.2]
    exact s

/-! ## The output arrays after the region

Each output window has a single block, the whole one-row array, carried from point to point and written back
after the last point only; so each output array ends holding what point 9 leaves in the accumulator. -/

/-- What the last point leaves in the first accumulator, as contents of the first output array. -/
abbrev res1_k7 (c : Dev nD) : Buf (Elt Ideal) ((c : Thread nD τ).loc main_v108_0) :=
  (outsAt7 (F := Ideal) V c t7_9.val t7_9.isLt).1
/-- What it leaves in the second, as contents of the second output array. -/
abbrev res2_k7 (c : Dev nD) : Buf (Elt Ideal) ((c : Thread nD τ).loc main_v108_1) :=
  (outsAt7 (F := Ideal) V c t7_9.val t7_9.isLt).2

/-- The one write-back of the first output, at point 9: block `(0, 0)` of a `[1, 64]` array is the array. -/
theorem flushed1_k7 (c : Dev nD) (t : Fin cfg7.N) (hf : (cfg7.win 1).flush t = true) :
    (dat7 (F := Ideal) V c).flushed 1 t = ((cfg7.win 1).blk t).view.read (Elt Ideal) (res1_k7 V c) := by
  have hN : cfg7.N = 10 := N_7
  have h9 : t.val = 9 := by have := (flush7_1 t).mp hf; have := t.isLt; omega
  obtain rfl : t = t7_9 := Fin.ext h9
  show (cfg7.win 1).cut (grid7.coords t7_9) ((dat7 (F := Ideal) V c).after 1 t7_9) = _
  rw [after7_1]
  have hz' : (fun a => win7_1.index t7_9 a * main_v108_0.ty.shape.size a) = fun _ => 0 :=
    funext fun a => by fin_cases a <;> decide +kernel
  exact (Memref.read_access_unit_zero (Elt Ideal) main_v108_0 hz' (fun a => by rw [congrFun hz' a]; simp) (res1_k7 V c)).symm

/-- The one write-back of the second output, at point 9. -/
theorem flushed2_k7 (c : Dev nD) (t : Fin cfg7.N) (hf : (cfg7.win 2).flush t = true) :
    (dat7 (F := Ideal) V c).flushed 2 t = ((cfg7.win 2).blk t).view.read (Elt Ideal) (res2_k7 V c) := by
  have hN : cfg7.N = 10 := N_7
  have h9 : t.val = 9 := by have := (flush7_2 t).mp hf; have := t.isLt; omega
  obtain rfl : t = t7_9 := Fin.ext h9
  show (cfg7.win 2).cut (grid7.coords t7_9) ((dat7 (F := Ideal) V c).after 2 t7_9) = _
  rw [after7_2]
  have hz' : (fun a => win7_2.index t7_9 a * main_v108_1.ty.shape.size a) = fun _ => 0 :=
    funext fun a => by fin_cases a <;> decide +kernel
  exact (Memref.read_access_unit_zero (Elt Ideal) main_v108_1 hz' (fun a => by rw [congrFun hz' a]; simp) (res2_k7 V c)).symm

/-- Point 9's block covers the first output array, so the array ends at what point 9 leaves. -/
theorem final1_k7 (c : Dev nD) : ss7 V c = res1_k7 V c :=
  (dat7 (F := Ideal) V c).arrAt_eq_of_cover 1 (res1_k7 V c) (flushed1_k7 V c) fun i =>
    ⟨t7_9, (flush7_1 t7_9).mpr rfl, by
      show i ∈ ((View.whole main_v108_0).slice (win7_1.rect t7_9)).set
      rw [View.set_slice_whole, Rect.mem_set_unit]
      intro a
      have h0 : (i 0 : Nat) < 1 := (i 0).isLt
      have h1 : (i 1 : Nat) < 64 := (i 1).isLt
      match a with
      | ⟨0, _⟩ =>
        show win7_1.index t7_9 0 * win7_1.size 0 ≤ (i 0 : Nat) ∧ (i 0 : Nat) < win7_1.index t7_9 0 * win7_1.size 0 + win7_1.xsize (grid7.coords t7_9) 0
        rw [show win7_1.index t7_9 0 * win7_1.size 0 = 0 from by decide +kernel, show win7_1.xsize (grid7.coords t7_9) 0 = 1 from by decide +kernel]; omega
      | ⟨1, _⟩ =>
        show win7_1.index t7_9 1 * win7_1.size 1 ≤ (i 1 : Nat) ∧ (i 1 : Nat) < win7_1.index t7_9 1 * win7_1.size 1 + win7_1.xsize (grid7.coords t7_9) 1
        rw [show win7_1.index t7_9 1 * win7_1.size 1 = 0 from by decide +kernel, show win7_1.xsize (grid7.coords t7_9) 1 = 64 from by decide +kernel]; omega⟩

/-- Likewise the second output array. -/
theorem final2_k7 (c : Dev nD) : sq7 V c = res2_k7 V c :=
  (dat7 (F := Ideal) V c).arrAt_eq_of_cover 2 (res2_k7 V c) (flushed2_k7 V c) fun i =>
    ⟨t7_9, (flush7_2 t7_9).mpr rfl, by
      show i ∈ ((View.whole main_v108_1).slice (win7_2.rect t7_9)).set
      rw [View.set_slice_whole, Rect.mem_set_unit]
      intro a
      have h0 : (i 0 : Nat) < 1 := (i 0).isLt
      have h1 : (i 1 : Nat) < 64 := (i 1).isLt
      match a with
      | ⟨0, _⟩ =>
        show win7_2.index t7_9 0 * win7_2.size 0 ≤ (i 0 : Nat) ∧ (i 0 : Nat) < win7_2.index t7_9 0 * win7_2.size 0 + win7_2.xsize (grid7.coords t7_9) 0
        rw [show win7_2.index t7_9 0 * win7_2.size 0 = 0 from by decide +kernel, show win7_2.xsize (grid7.coords t7_9) 0 = 1 from by decide +kernel]; omega
      | ⟨1, _⟩ =>
        show win7_2.index t7_9 1 * win7_2.size 1 ≤ (i 1 : Nat) ∧ (i 1 : Nat) < win7_2.index t7_9 1 * win7_2.size 1 + win7_2.xsize (grid7.coords t7_9) 1
        rw [show win7_2.index t7_9 1 * win7_2.size 1 = 0 from by decide +kernel, show win7_2.xsize (grid7.coords t7_9) 1 = 64 from by decide +kernel]; omega⟩

/-! ## The two results -/

theorem sum7 (c : Dev nD) (q : Fin 64) :
    ss7 V c (ix2 0 q) = ∑ p : Fin 100000, Gcn.leaky (sa7 V c (ix2 p q)) := by
  rw [final1_k7 V c]
  refine ((outs_eq_k7 V c q t7_9.val t7_9.isLt).1).trans ?_
  exact sum_blocks_k7 (lk_k7 V c q)

theorem sqsum7 (c : Dev nD) (q : Fin 64) :
    sq7 V c (ix2 0 q) = ∑ p : Fin 100000, Gcn.leaky (sa7 V c (ix2 p q)) * Gcn.leaky (sa7 V c (ix2 p q)) := by
  rw [final2_k7 V c]
  refine ((outs_eq_k7 V c q t7_9.val t7_9.isLt).2).trans ?_
  exact sum_blocks_k7 (lq_k7 V c q)

end Cert.KernelIdeal.KerValue

end
-- ==== Proof.KBn8.lean ====
import proofs.«426465_j33225867002208_1_alg».proof.Proof.Gen.KernelIdeal.Frame
import proofs.«426465_j33225867002208_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The arrays the normalisation region finds on entry: the node table, the column means, the column variances, the
    scale row and the shift row. -/
abbrev na8 (c : Dev nD) : Vec Ideal S100000x64 .f32 := V c (Pipeline.arrRef spec8 0)
abbrev nm8 (c : Dev nD) : Vec Ideal S1x64 .f32 := V c (Pipeline.arrRef spec8 1)
abbrev nv8 (c : Dev nD) : Vec Ideal S1x64 .f32 := V c (Pipeline.arrRef spec8 2)
abbrev ng8 (c : Dev nD) : Vec Ideal S1x64 .f32 := V c (Pipeline.arrRef spec8 3)
abbrev nb8 (c : Dev nD) : Vec Ideal S1x64 .f32 := V c (Pipeline.arrRef spec8 4)
/-- What the region leaves in its output array. -/
abbrev no8 (c : Dev nD) : Vec Ideal S100000x64 .f32 := (dat8 (F := Ideal) V c).arrAt 5 cfg8.N

/-! ## One block: the body's value at a row and a feature

The body works on a block of ten thousand rows `x0` and on the four rows `xv` (variances), `xg` (scales), `xm`
(means), `xb` (shifts), each broadcast down the block. Entry `(r, q)` of what it stores depends only on `x0 (r, q)`
and on entry `q` of each row:
`xg q * (leaky (x0 (r, q)) - xm q) * rsqrt (xv q + eps) + xb q`,
the products taken from the left, the guard added to the variance before the reciprocal square root. -/

theorem bn_pay8 (x0 : Vec Ideal S10000x64 .f32) (xv xg xm xb : Vec Ideal S1x64 .f32) (r : Fin 10000) (q : Fin 64) :
    k8_pay1 (F := Ideal) x0 xv xg xm xb (ix2 r q)
      = xg (ix2 0 q) * (Gcn.leaky (x0 (ix2 r q)) - xm (ix2 0 q)) * Ideal.rsqrt (xv (ix2 0 q) + Gcn.eps) + xb (ix2 0 q) := by
  unfold k8_pay1
  simp only [shapeCast_self]
  rw [addf_apply, mulf_apply, mulf_apply, broadcastTo_1b_ab_apply, broadcastTo_1b_ab_apply, broadcastTo_1b_ab_apply,
    subf_apply, broadcastTo_1b_ab_apply]
  -- the rectifier at an entry is `Gcn.leaky`: the comparison with the zero pattern chooses between the entry and the
  -- slope times the entry; the guard constant is `Gcn.eps`
  rfl

/-! ## The whole table

The value the region computes, as ONE function of the five arrays: at node `p` and feature `q` it reads the table at
`(p, q)` and each row at `q`. -/

/-- The normalised entry at node `p` and feature `q`. -/
def bnAt8 (a : Vec Ideal S100000x64 .f32) (m v g b : Vec Ideal S1x64 .f32) (p : Fin 100000) (q : Fin 64) : EReal :=
  g (ix2 0 q) * (Gcn.leaky (a (ix2 p q)) - m (ix2 0 q)) * Ideal.rsqrt (v (ix2 0 q) + Gcn.eps) + b (ix2 0 q)

/-- The normalised table. -/
def bnOut8 (a : Vec Ideal S100000x64 .f32) (m v g b : Vec Ideal S1x64 .f32) : Vec Ideal S100000x64 .f32 :=
  fun i => bnAt8 a m v g b (i 0) (i 1)

theorem bn_hz8 : (![0, 0] : Fin 2 → Nat) = fun _ => 0 := funext fun a => by fin_cases a <;> rfl

/-- Where each window's block sits at grid point `t`: the table's and the output's block is the `t`-th band of ten
    thousand rows (block index `(t, 0)`); each of the four rows is its own single block (block index `(0, 0)`).
    Decided over the ten grid points. -/
theorem bn_idx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-! ## The input blocks as parts of the arrays

An element of a block sits in its array, on each axis, at the block index times the block's extent plus its coordinate
inside the block. So row `r` of the table's block at point `t` is row `10000 * t + r` of the table, and the one block
of each row array is the row array itself. -/

theorem bn_blk8_0 (c : Dev nD) (t : Fin cfg8.N) (r : Fin 10000) (q : Fin 64) (k : S100000x64.Idx)
    (hk0 : (k 0).val = 10000 * t.val + r.val) (hk1 : (k 1).val = q.val) :
    (iblk8 V c 0 t : Vec Ideal S10000x64 .f32) (ix2 r q) = na8 V c k := by
  obtain ⟨e0, e1, -⟩ := bn_idx8 t
  unfold iblk8
  rw [View.read_apply]
  show V c (Pipeline.arrRef spec8 0) _ = V c (Pipeline.arrRef spec8 0) _
  refine congrArg _ ?_
  funext a
  apply Fin.ext
  match a with
  | ⟨0, _⟩ => show win8_0.index t (0 : Fin 2) * 10000 + 1 * r.val = (k 0).val; rw [e0, hk0]; omega
  | ⟨1, _⟩ => show win8_0.index t (1 : Fin 2) * 64 + 1 * q.val = (k 1).val; rw [e1, hk1]; omega

theorem bn_blk8_1 (c : Dev nD) (t : Fin cfg8.N) (q : Fin 64) :
    (iblk8 V c 1 t : Vec Ideal S1x64 .f32) (ix2 0 q) = nm8 V c (ix2 0 q) := by
  obtain ⟨-, -, e0, e1, -⟩ := bn_idx8 t
  unfold iblk8
  rw [View.read_apply]
  show V c (Pipeline.arrRef spec8 1) _ = V c (Pipeline.arrRef spec8 1) _
  refine congrArg _ ?_
  funext a
  apply Fin.ext
  match a with
  | ⟨0, _⟩ => show win8_1.index t (0 : Fin 2) * 1 + 1 * 0 = 0; rw [e0]
  | ⟨1, _⟩ => show win8_1.index t (1 : Fin 2) * 64 + 1 * q.val = q.val; rw [e1]; omega

theorem bn_blk8_2 (c : Dev nD) (t : Fin cfg8.N) (q : Fin 64) :
    (iblk8 V c 2 t : Vec Ideal S1x64 .f32) (ix2 0 q) = nv8 V c (ix2 0 q) := by
  obtain ⟨-, -, -, -, e0, e1, -⟩ := bn_idx8 t
  unfold iblk8
  rw [View.read_apply]
  show V c (Pipeline.arrRef spec8 2) _ = V c (Pipeline.arrRef spec8 2) _
  refine congrArg _ ?_
  funext a
  apply Fin.ext
  match a with
  | ⟨0, _⟩ => show win8_2.index t (0 : Fin 2) * 1 + 1 * 0 = 0; rw [e0]
  | ⟨1, _⟩ => show win8_2.index t (1 : Fin 2) * 64 + 1 * q.val = q.val; rw [e1]; omega

theorem bn_blk8_3 (c : Dev nD) (t : Fin cfg8.N) (q : Fin 64) :
    (iblk8 V c 3 t : Vec Ideal S1x64 .f32) (ix2 0 q) = ng8 V c (ix2 0 q) := by
  obtain ⟨-, -, -, -, -, -, e0, e1, -⟩ := bn_idx8 t
  unfold iblk8
  rw [View.read_apply]
  show V c (Pipeline.arrRef spec8 3) _ = V c (Pipeline.arrRef spec8 3) _
  refine congrArg _ ?_
  funext a
  apply Fin.ext
  match a with
  | ⟨0, _⟩ => show win8_3.index t (0 : Fin 2) * 1 + 1 * 0 = 0; rw [e0]
  | ⟨1, _⟩ => show win8_3.index t (1 : Fin 2) * 64 + 1 * q.val = q.val; rw [e1]; omega

theorem bn_blk8_4 (c : Dev nD) (t : Fin cfg8.N) (q : Fin 64) :
    (iblk8 V c 4 t : Vec Ideal S1x64 .f32) (ix2 0 q) = nb8 V c (ix2 0 q) := by
  obtain ⟨-, -, -, -, -, -, -, -, e0, e1, -⟩ := bn_idx8 t
  unfold iblk8
  rw [View.read_apply]
  show V c (Pipeline.arrRef spec8 4) _ = V c (Pipeline.arrRef spec8 4) _
  refine congrArg _ ?_
  funext a
  apply Fin.ext
  match a with
  | ⟨0, _⟩ => show win8_4.index t (0 : Fin 2) * 1 + 1 * 0 = 0; rw [e0]
  | ⟨1, _⟩ => show win8_4.index t (1 : Fin 2) * 64 + 1 * q.val = q.val; rw [e1]; omega

/-! ## From blocks to the table -/

/-- What grid point `t` writes back is the `t`-th band of the normalised table: the body stores its value over the
    whole block, entry `(r, q)` of that value reads the table's block at `(r, q)`, which is the table at row
    `10000 * t + r`, and the four rows at `q`; the output's block at `t` covers the same rows. -/
theorem bn_flushed8 (c : Dev nD) (t : Fin cfg8.N) :
    (dat8 (F := Ideal) V c).flushed 5 t
      = ((cfg8.win 5).blk t).view.read (Elt Ideal) (bnOut8 (na8 V c) (nm8 V c) (nv8 V c) (ng8 V c) (nb8 V c)) := by
  show (cfg8.win 5).cut (grid8.coords t) ((dat8 (F := Ideal) V c).after 5 t) = _
  rw [after8_5]
  unfold out8_5
  rw [View.canon_unit_zero bn_hz8]
  simp only [View.ld_unit_zero (S := S10000x64) bn_hz8, View.ld_unit_zero (S := S1x64) bn_hz8]
  funext j
  obtain ⟨r, q, rfl⟩ : ∃ (r : Fin 10000) (q : Fin 64), j = ix2 r q := ⟨j 0, j 1, eq_ix2 j⟩
  show k8_pay1 (F := Ideal) (iblk8 V c 0 t) (iblk8 V c 2 t) (iblk8 V c 3 t) (iblk8 V c 1 t) (iblk8 V c 4 t) (ix2 r q)
    = bnOut8 (na8 V c) (nm8 V c) (nv8 V c) (ng8 V c) (nb8 V c) (((cfg8.win 5).blk t).view.emb (ix2 r q))
  refine (bn_pay8 (iblk8 V c 0 t) (iblk8 V c 2 t) (iblk8 V c 3 t) (iblk8 V c 1 t) (iblk8 V c 4 t) r q).trans ?_
  have hN : t.val < 10 := lt_of_lt_of_eq t.isLt N_8
  obtain ⟨-, -, -, -, -, -, -, -, -, -, e0, e1⟩ := bn_idx8 t
  have h0 : ((cfg8.win 5).blk t).view.emb (ix2 r q) 0 = (⟨10000 * t.val + r.val, by omega⟩ : Fin 100000) :=
    Fin.ext (by show win8_5.index t (0 : Fin 2) * 10000 + 1 * r.val = 10000 * t.val + r.val; rw [e0]; omega)
  have h1 : ((cfg8.win 5).blk t).view.emb (ix2 r q) 1 = q :=
    Fin.ext (by show win8_5.index t (1 : Fin 2) * 64 + 1 * q.val = q.val; rw [e1]; omega)
  refine Eq.trans ?_ (congrArg₂ (bnAt8 (na8 V c) (nm8 V c) (nv8 V c) (ng8 V c) (nb8 V c)) h0 h1).symm
  unfold bnAt8
  rw [bn_blk8_0 V c t r q (ix2 ⟨10000 * t.val + r.val, by omega⟩ q) rfl rfl, bn_blk8_1, bn_blk8_2, bn_blk8_3, bn_blk8_4]

/-- An index of the table lies in point `t`'s output block iff, on each axis, its coordinate is within the block's
    extent from the block's first coordinate. -/
theorem bn_mem8 (t : Fin cfg8.N) (i : S100000x64.Idx) :
    i ∈ ((cfg8.win 5).blk t).view.set
      ↔ ∀ a : Fin 2, win8_5.index t a * S10000x64.size a ≤ (i a).val ∧ (i a).val < win8_5.index t a * S10000x64.size a + S10000x64.size a := by
  show i ∈ ((View.whole main_v121).slice (win8_5.rect t)).set ↔ _
  rw [View.set_slice_whole, Rect.mem_set_unit]
  exact Iff.rfl

/-- The ten bands tile the table: row `p` is in the band of point `p / 10000`, and every point writes its band back. So
    the output array ends holding the normalised table. -/
theorem bn_final8 (c : Dev nD) : no8 V c = bnOut8 (na8 V c) (nm8 V c) (nv8 V c) (ng8 V c) (nb8 V c) :=
  (dat8 (F := Ideal) V c).arrAt_eq_of_cover 5 _ (fun t _ => bn_flushed8 V c t) fun i => by
    have hi0 : (i 0).val < 100000 := (i 0).isLt
    have hi1 : (i 1).val < 64 := (i 1).isLt
    have hN : cfg8.N = 10 := N_8
    refine ⟨⟨(i 0).val / 10000, by rw [hN]; omega⟩, flush8_5 _, ?_⟩
    rw [bn_mem8]
    obtain ⟨-, -, -, -, -, -, -, -, -, -, e0, e1⟩ := bn_idx8 ⟨(i 0).val / 10000, by rw [hN]; omega⟩
    intro a
    match a with
    | ⟨0, _⟩ =>
      show win8_5.index ⟨(i 0).val / 10000, _⟩ (0 : Fin 2) * 10000 ≤ (i 0).val
        ∧ (i 0).val < win8_5.index ⟨(i 0).val / 10000, _⟩ (0 : Fin 2) * 10000 + 10000
      rw [e0]
      show (i 0).val / 10000 * 10000 ≤ (i 0).val ∧ (i 0).val < (i 0).val / 10000 * 10000 + 10000
      omega
    | ⟨1, _⟩ =>
      show win8_5.index ⟨(i 0).val / 10000, _⟩ (1 : Fin 2) * 64 ≤ (i 1).val
        ∧ (i 1).val < win8_5.index ⟨(i 0).val / 10000, _⟩ (1 : Fin 2) * 64 + 64
      rw [e1]
      omega

theorem bn8 (c : Dev nD) (p : Fin 100000) (q : Fin 64) :
    no8 V c (ix2 p q)
      = ng8 V c (ix2 0 q) * (Gcn.leaky (na8 V c (ix2 p q)) - nm8 V c (ix2 0 q)) * Ideal.rsqrt (nv8 V c (ix2 0 q) + Gcn.eps)
        + nb8 V c (ix2 0 q) := by
  rw [bn_final8 V c]
  rfl

end Cert.KernelIdeal.KerValue

end
-- ==== Proof.KLayer6.lean ====
import proofs.«426465_j33225867002208_1_alg».proof.Proof.Gen.KernelIdeal.Frame
import proofs.«426465_j33225867002208_1_alg».proof.Proof.KerTerm
import proofs.«426465_j33225867002208_1_alg».proof.Proof.Spec
import proofs.«426465_j33225867002208_1_alg».proof.Proof.KMatmul6
import proofs.«426465_j33225867002208_1_alg».proof.Proof.KStats7
import proofs.«426465_j33225867002208_1_alg».proof.Proof.KBn8
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx

variable (m : (ℓ : Loc nD τ sig) → Buf (Elt Ideal) ℓ) (ρ : Dev nD → PrngReg)

/-- A buffer that no operation of a stretch of host operations writes holds after the stretch what it held before. -/
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Layer 2

The layer is five steps: the product region, the aggregation over the graph (two stretches of host operations), the
statistics region, the stretch that turns the two column sums into mean and variance and lays out the scale and shift
rows, and the normalisation region. -/

/-- Contents moved to a buffer's own type and back are unchanged. -/
theorem lay6_ofBuf_toBuf {T : BufTy} (x : StableHlo.TRef sig T) (v : T.Contents (Elt Ideal)) : x.ofBuf (x.toBuf v) = v := by
  cases x with
  | mk r h a b => cases h; rfl

/-- At the three buffers through which the gather's operations meet the rest of the program the move is the identity. -/
theorem lay6_ofBuf_src (h1 h2 h3) (X : IVec S1200000 32) :
    (StableHlo.TRef.of main_v1 h1 h2 h3 : StableHlo.TRef sig ⟨S1200000, .i32⟩).ofBuf (Val := Elt Ideal) X = X := rfl
theorem lay6_ofBuf_prod (h1 h2 h3) (X : FVec Ideal S100000x64 .f32) :
    (StableHlo.TRef.of main_v93 h1 h2 h3 : StableHlo.TRef sig ⟨S100000x64, .f32⟩).ofBuf (Val := Elt Ideal) X = X := rfl
theorem lay6_toBuf_gath (h1 h2 h3) (X : FVec Ideal S1200000x64 .f32) :
    (StableHlo.TRef.of main_v94 h1 h2 h3 : StableHlo.TRef sig ⟨S1200000x64, .f32⟩).toBuf (Val := Elt Ideal) X = X := rfl

section Stretches

variable (V : Valuation τ sig (Elt Ideal))

/-- The gather: the product's rows at the edges' (wrapped) sources, with the fill value where a source is out of range. -/
theorem lay6_gath_after (ei : IVec S2x1200000 32)
    (h1 : (V (Proc.devRef .tc main_v1) : IVec S1200000 32) = Terms.src ei) :
    (StableHlo.after (hostOps7 (F := Ideal)) V (Proc.devRef .tc main_v94) : FVec Ideal S1200000x64 .f32)
      = Terms.gath (F := Ideal) ei (V (Proc.devRef .tc main_v93)) := by
  after_results_simp
  simp only [lay6_ofBuf_toBuf, lay6_ofBuf_src, lay6_ofBuf_prod, lay6_toBuf_gath]
  rw [h1]
  rfl

/-- The weighting, the scatter-add onto the destinations, the self-loop term and the bias row. -/
theorem lay6_agg_after (ei : IVec S2x1200000 32) (B : FVec Ideal S3x64 .f32) (xw : FVec Ideal S100000x64 .f32)
    (h32 : (V (Proc.devRef .tc main_v94) : FVec Ideal S1200000x64 .f32) = Terms.gath (F := Ideal) ei xw)
    (h31 : (V (Proc.devRef .tc main_v93) : FVec Ideal S100000x64 .f32) = xw)
    (h3 : (V (Proc.devRef .tc main_v3) : IVec S1200000 32) = Terms.dst ei)
    (h26 : (V (Proc.devRef .tc main_v26) : FVec Ideal S1200000x1 .f32) = Terms.enorm (F := Ideal) ei)
    (h28 : (V (Proc.devRef .tc main_v28) : FVec Ideal S100000x1 .f32) = Terms.snorm (F := Ideal) ei)
    (hB : (V (Proc.devRef .tc main_arg3) : FVec Ideal S3x64 .f32) = B) :
    (StableHlo.after (hostOps7_1 (F := Ideal)) V (Proc.devRef .tc main_v107) : FVec Ideal S100000x64 .f32)
      = Terms.agg (F := Ideal) ei (Terms.r2 (F := Ideal) B) xw := by
  after_results_simp
  rw [h32, h31, h3, h26, h28, hB]
  rfl

end Stretches

section Moments

variable (V : Valuation τ sig (Elt Ideal))

/-- A row laid out as a one-row table reads, at column `q` of its one row, the row's entry `q`. -/
theorem lay6_row_read (v : FVec Ideal S64 .f32) (q : Fin 64) :
    broadcastInDim S1x64 ![1] bcast_S64_S1x64_1 v (ix2 (0 : Fin 1) q) = v (ix1 q) := by
  simp only [broadcastInDim]
  congr 1
  funext a
  match a with
  | ⟨0, _⟩ =>
    apply Fin.ext
    split
    · next h1 => change (64 : ℕ) = 1 at h1; omega
    · rfl

/-- The column mean: the first column sum divided by the number of nodes. -/
theorem lay6_mean_after (q : Fin 64) :
    (StableHlo.after (hostOps8 (F := Ideal)) V (Proc.devRef .tc main_v110) : FVec Ideal S1x64 .f32) (ix2 0 q)
      = Ideal.div ((V (Proc.devRef .tc main_v108_0) : FVec Ideal S1x64 .f32) (ix2 0 q)) Gcn.cnt := by
  after_results
  rfl

/-- The column variance: the second column sum divided by the number of nodes, minus the square of the mean. -/
theorem lay6_var_after (q : Fin 64) :
    (StableHlo.after (hostOps8 (F := Ideal)) V (Proc.devRef .tc main_v114) : FVec Ideal S1x64 .f32) (ix2 0 q)
      = Ideal.div ((V (Proc.devRef .tc main_v108_1) : FVec Ideal S1x64 .f32) (ix2 0 q)) Gcn.cnt
        - Ideal.div ((V (Proc.devRef .tc main_v108_0) : FVec Ideal S1x64 .f32) (ix2 0 q)) Gcn.cnt
          * Ideal.div ((V (Proc.devRef .tc main_v108_0) : FVec Ideal S1x64 .f32) (ix2 0 q)) Gcn.cnt := by
  after_results
  rfl

/-- The scale row, laid out as a one-row table. -/
theorem lay6_scale_after (G : FVec Ideal S3x64 .f32) (hG : (V (Proc.devRef .tc main_arg4) : FVec Ideal S3x64 .f32) = G) (q : Fin 64) :
    (StableHlo.after (hostOps8 (F := Ideal)) V (Proc.devRef .tc main_v117) : FVec Ideal S1x64 .f32) (ix2 0 q)
      = Terms.r2 (F := Ideal) G (ix1 q) := by
  after_results
  rw [hG]
  refine (lay6_row_read _ q).trans ?_
  rfl

/-- The shift row, laid out as a one-row table. -/
theorem lay6_shift_after (BE : FVec Ideal S3x64 .f32) (hBE : (V (Proc.devRef .tc main_arg5) : FVec Ideal S3x64 .f32) = BE) (q : Fin 64) :
    (StableHlo.after (hostOps8 (F := Ideal)) V (Proc.devRef .tc main_v120) : FVec Ideal S1x64 .f32) (ix2 0 q)
      = Terms.r2 (F := Ideal) BE (ix1 q) := by
  after_results
  rw [hBE]
  refine (lay6_row_read _ q).trans ?_
  rfl

end Moments

/-- The normalisation, from its pieces: an output table whose entry `(p, q)` is the scale times the rectified entry
    minus the column mean, times the reciprocal root of the column variance plus the guard, plus the shift, where the
    mean and variance are formed from the two column sums of the rectified table and of its square. -/
theorem lay6_norm_of_pieces (o a : FVec Ideal S100000x64 .f32) (s1 s2 mu va ga sh : FVec Ideal S1x64 .f32) (g be : FVec Ideal S64 .f32)
    (ho : ∀ (p : Fin 100000) (q : Fin 64), o (ix2 p q)
      = ga (ix2 0 q) * (Gcn.leaky (a (ix2 p q)) - mu (ix2 0 q)) * Ideal.rsqrt (va (ix2 0 q) + Gcn.eps) + sh (ix2 0 q))
    (hs1 : ∀ q : Fin 64, s1 (ix2 0 q) = ∑ p : Fin 100000, Gcn.leaky (a (ix2 p q)))
    (hs2 : ∀ q : Fin 64, s2 (ix2 0 q) = ∑ p : Fin 100000, Gcn.leaky (a (ix2 p q)) * Gcn.leaky (a (ix2 p q)))
    (hmu : ∀ q : Fin 64, mu (ix2 0 q) = Ideal.div (s1 (ix2 0 q)) Gcn.cnt)
    (hva : ∀ q : Fin 64, va (ix2 0 q)
      = Ideal.div (s2 (ix2 0 q)) Gcn.cnt - Ideal.div (s1 (ix2 0 q)) Gcn.cnt * Ideal.div (s1 (ix2 0 q)) Gcn.cnt)
    (hga : ∀ q : Fin 64, ga (ix2 0 q) = g (ix1 q)) (hsh : ∀ q : Fin 64, sh (ix2 0 q) = be (ix1 q)) :
    Gcn.toMat o = Gcn.normK (Gcn.toRow g) (Gcn.toRow be) (Gcn.toMat a) := by
  funext p q
  show o (ix2 p q) = _
  rw [ho, hmu, hva, hs1, hs2, hga, hsh]
  rfl

section Chain

/-- The product region: its output table is the input table times the weight table. -/
theorem lay6_prod (c : Dev nD) :
    (W16 m ρ c (Proc.devRef .tc main_v93) : FVec Ideal S100000x64 .f32)
      = Gcn.ofMat (Gcn.mm (Gcn.toMat (W15 m ρ c (Proc.devRef .tc main_v90) : FVec Ideal S100000x64 .f32))
          (Gcn.toWt (W15 m ρ c (Proc.devRef .tc main_v92) : FVec Ideal S64x64 .f32))) := by
  funext i
  obtain ⟨p, q, rfl⟩ : ∃ (p : Fin 100000) (q : Fin 64), i = ix2 p q := ⟨i 0, i 1, eq_ix2 i⟩
  exact (congrFun (W16_arr m ρ c 2) (ix2 p q)).trans (mm6 (V15 m ρ) c p q)

/-- The aggregation of the product over the graph: the product region writes none of the buffers the two stretches
    read besides its own output, and the gather's stretch writes none that the second stretch reads besides the
    gathered rows. -/
theorem lay6_agg (c : Dev nD) (ei : IVec S2x1200000 32) (B : FVec Ideal S3x64 .f32)
    (h1 : (W15 m ρ c (Proc.devRef .tc main_v1) : IVec S1200000 32) = Terms.src ei)
    (h3 : (W15 m ρ c (Proc.devRef .tc main_v3) : IVec S1200000 32) = Terms.dst ei)
    (h26 : (W15 m ρ c (Proc.devRef .tc main_v26) : FVec Ideal S1200000x1 .f32) = Terms.enorm (F := Ideal) ei)
    (h28 : (W15 m ρ c (Proc.devRef .tc main_v28) : FVec Ideal S100000x1 .f32) = Terms.snorm (F := Ideal) ei)
    (hB : (W15 m ρ c (Proc.devRef .tc main_arg3) : FVec Ideal S3x64 .f32) = B) :
    (W18 m ρ c (Proc.devRef .tc main_v107) : FVec Ideal S100000x64 .f32)
      = Terms.agg (F := Ideal) ei (Terms.r2 (F := Ideal) B) (W16 m ρ c (Proc.devRef .tc main_v93)) := by
  have k1 : W16 m ρ c (Proc.devRef .tc main_v1) = W15 m ρ c (Proc.devRef .tc main_v1) := W16_of_ne m ρ c main_v1 (by decide)
  have k3 : W16 m ρ c (Proc.devRef .tc main_v3) = W15 m ρ c (Proc.devRef .tc main_v3) := W16_of_ne m ρ c main_v3 (by decide)
  have k26 : W16 m ρ c (Proc.devRef .tc main_v26) = W15 m ρ c (Proc.devRef .tc main_v26) := W16_of_ne m ρ c main_v26 (by decide)
  have k28 : W16 m ρ c (Proc.devRef .tc main_v28) = W15 m ρ c (Proc.devRef .tc main_v28) := W16_of_ne m ρ c main_v28 (by decide)
  have kB : W16 m ρ c (Proc.devRef .tc main_arg3) = W15 m ρ c (Proc.devRef .tc main_arg3) := W16_of_ne m ρ c main_arg3 (by decide)
  have g31 : W17 m ρ c (Proc.devRef .tc main_v93) = W16 m ρ c (Proc.devRef .tc main_v93) := by host_keeps hostOps7
  have g3 : W17 m ρ c (Proc.devRef .tc main_v3) = W16 m ρ c (Proc.devRef .tc main_v3) := by host_keeps hostOps7
  have g26 : W17 m ρ c (Proc.devRef .tc main_v26) = W16 m ρ c (Proc.devRef .tc main_v26) := by host_keeps hostOps7
  have g28 : W17 m ρ c (Proc.devRef .tc main_v28) = W16 m ρ c (Proc.devRef .tc main_v28) := by host_keeps hostOps7
  have gB : W17 m ρ c (Proc.devRef .tc main_arg3) = W16 m ρ c (Proc.devRef .tc main_arg3) := by host_keeps hostOps7
  exact lay6_agg_after (W17 m ρ c) ei B _ (lay6_gath_after (W16 m ρ c) ei (k1.trans h1)) g31 (g3.trans (k3.trans h3))
    (g26.trans (k26.trans h26)) (g28.trans (k28.trans h28)) (gB.trans (kB.trans hB))

/-- The statistics region: the column sums of the rectified aggregate and of its square. -/
theorem lay6_sums (c : Dev nD) (q : Fin 64) :
    (W19 m ρ c (Proc.devRef .tc main_v108_0) : FVec Ideal S1x64 .f32) (ix2 0 q)
      = ∑ p : Fin 100000, Gcn.leaky ((W18 m ρ c (Proc.devRef .tc main_v107) : FVec Ideal S100000x64 .f32) (ix2 p q)) :=
  (congrFun (W19_arr m ρ c 1) (ix2 0 q)).trans (sum7 (V18 m ρ) c q)

theorem lay6_sqsums (c : Dev nD) (q : Fin 64) :
    (W19 m ρ c (Proc.devRef .tc main_v108_1) : FVec Ideal S1x64 .f32) (ix2 0 q)
      = ∑ p : Fin 100000, Gcn.leaky ((W18 m ρ c (Proc.devRef .tc main_v107) : FVec Ideal S100000x64 .f32) (ix2 p q))
          * Gcn.leaky ((W18 m ρ c (Proc.devRef .tc main_v107) : FVec Ideal S100000x64 .f32) (ix2 p q)) :=
  (congrFun (W19_arr m ρ c 2) (ix2 0 q)).trans (sqsum7 (V18 m ρ) c q)

/-- The aggregate is an input of the statistics region and no operation of the next stretch writes it. -/
theorem lay6_kept_agg (c : Dev nD) : W20 m ρ c (Proc.devRef .tc main_v107) = W18 m ρ c (Proc.devRef .tc main_v107) := by
  have a : W20 m ρ c (Proc.devRef .tc main_v107) = W19 m ρ c (Proc.devRef .tc main_v107) := by host_keeps hostOps8
  exact a.trans ((W19_arr m ρ c 0).trans (((dat7 (V18 m ρ) c).arrAt_in 0 rfl _).trans (A_eq7 (V18 m ρ) c 0)))

/-- A stacked parameter array reaches the moments' stretch as the product region found it. -/
theorem lay6_kept_scale (c : Dev nD) : W19 m ρ c (Proc.devRef .tc main_arg4) = W15 m ρ c (Proc.devRef .tc main_arg4) := by
  have a : W18 m ρ c (Proc.devRef .tc main_arg4) = W17 m ρ c (Proc.devRef .tc main_arg4) := by host_keeps hostOps7_1
  have b : W17 m ρ c (Proc.devRef .tc main_arg4) = W16 m ρ c (Proc.devRef .tc main_arg4) := by host_keeps hostOps7
  exact (W19_of_ne m ρ c main_arg4 (by decide)).trans (a.trans (b.trans (W16_of_ne m ρ c main_arg4 (by decide))))

theorem lay6_kept_shift (c : Dev nD) : W19 m ρ c (Proc.devRef .tc main_arg5) = W15 m ρ c (Proc.devRef .tc main_arg5) := by
  have a : W18 m ρ c (Proc.devRef .tc main_arg5) = W17 m ρ c (Proc.devRef .tc main_arg5) := by host_keeps hostOps7_1
  have b : W17 m ρ c (Proc.devRef .tc main_arg5) = W16 m ρ c (Proc.devRef .tc main_arg5) := by host_keeps hostOps7
  exact (W19_of_ne m ρ c main_arg5 (by decide)).trans (a.trans (b.trans (W16_of_ne m ρ c main_arg5 (by decide))))

end Chain

/-- Layer 2, from the contents at the product region's entry to the contents after the normalisation region. -/
theorem layer6 (c : Dev nD) (ei : IVec S2x1200000 32) (w : FVec Ideal S64x64 .f32) (B G BE : FVec Ideal S3x64 .f32)
    (h1 : (W15 m ρ c (Proc.devRef .tc main_v1) : IVec S1200000 32) = Terms.src ei)
    (h3 : (W15 m ρ c (Proc.devRef .tc main_v3) : IVec S1200000 32) = Terms.dst ei)
    (h26 : (W15 m ρ c (Proc.devRef .tc main_v26) : FVec Ideal S1200000x1 .f32) = Terms.enorm (F := Ideal) ei)
    (h28 : (W15 m ρ c (Proc.devRef .tc main_v28) : FVec Ideal S100000x1 .f32) = Terms.snorm (F := Ideal) ei)
    (hw : (W15 m ρ c (Proc.devRef .tc main_v92) : FVec Ideal S64x64 .f32) = w)
    (hB : (W15 m ρ c (Proc.devRef .tc main_arg3) : FVec Ideal S3x64 .f32) = B)
    (hG : (W15 m ρ c (Proc.devRef .tc main_arg4) : FVec Ideal S3x64 .f32) = G)
    (hBE : (W15 m ρ c (Proc.devRef .tc main_arg5) : FVec Ideal S3x64 .f32) = BE) :
    Gcn.toMat (W21 m ρ c (Proc.devRef .tc main_v121) : FVec Ideal S100000x64 .f32)
      = Gcn.layerK (fun y => Gcn.toMat (Terms.agg (F := Ideal) ei (Terms.r2 (F := Ideal) B) (Gcn.ofMat y))) (Gcn.toWt w)
          (Gcn.toRow (Terms.r2 (F := Ideal) G)) (Gcn.toRow (Terms.r2 (F := Ideal) BE))
          (Gcn.toMat (W15 m ρ c (Proc.devRef .tc main_v90) : FVec Ideal S100000x64 .f32)) := by
  have key := lay6_norm_of_pieces
    (W21 m ρ c (Proc.devRef .tc main_v121)) (W18 m ρ c (Proc.devRef .tc main_v107))
    (W19 m ρ c (Proc.devRef .tc main_v108_0)) (W19 m ρ c (Proc.devRef .tc main_v108_1))
    (W20 m ρ c (Proc.devRef .tc main_v110)) (W20 m ρ c (Proc.devRef .tc main_v114))
    (W20 m ρ c (Proc.devRef .tc main_v117)) (W20 m ρ c (Proc.devRef .tc main_v120))
    (Terms.r2 (F := Ideal) G) (Terms.r2 (F := Ideal) BE)
    (fun p q => by
      rw [← lay6_kept_agg m ρ c]
      exact (congrFun (W21_arr m ρ c 5) (ix2 p q)).trans (bn8 (V20 m ρ) c p q))
    (lay6_sums m ρ c) (lay6_sqsums m ρ c) (lay6_mean_after (W19 m ρ c)) (lay6_var_after (W19 m ρ c))
    (lay6_scale_after (W19 m ρ c) G ((lay6_kept_scale m ρ c).trans hG)) (lay6_shift_after (W19 m ρ c) BE ((lay6_kept_shift m ρ c).trans hBE))
  rw [key, lay6_agg m ρ c ei B h1 h3 h26 h28 hB, lay6_prod m ρ c, hw]
  rfl

end Cert.KernelIdeal.KerValue

end
-- ==== Proof.KKeep.lean ====
import proofs.«426465_j33225867002208_1_alg».proof.Proof.Gen.KernelIdeal.Frame
import proofs.«426465_j33225867002208_1_alg».proof.Proof.KerTerm

set_option maxRecDepth 16384

noncomputable section

namespace Cert.KernelIdeal.KerValue

open Cert.KernelIdeal Cert.KernelIdeal.Gen Idealize.ShloMosaic Idealize.ShloMosaic.TcCoe

variable (m : (ℓ : Loc nD τ sig) → Buf (Elt Ideal) ℓ) (ρ : Dev nD → PrngReg)

/-- The buffers every layer reads and no layer writes: the edge list's two rows, the two normalisation columns,
    and the four stacked parameter arrays. -/
def Carried (b : Ref sig .tc) : Prop :=
  b = main_v1 ∨ b = main_v3 ∨ b = main_v26 ∨ b = main_v28 ∨ b = main_arg2 ∨ b = main_arg3 ∨ b = main_arg4 ∨ b = main_arg5

/-- A straight line of host operations leaves a buffer as it was when none of its operations has that buffer as
    its result: each operation writes exactly one reference, and that reference differs from the given one. -/
local macro "host_keep " h:ident : tactic => `(tactic|
  exact StableHlo.after_of_forall_not_mem _ _ (List.forall_iff_forall_mem.mp (by
    simp only [$h:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-- A pallas_call leaves a buffer as it was at entry when the buffer is none of the call's arrays. -/
local macro "region_keep " h:ident : tactic => `(tactic| exact $h:ident _ _ _ _ (by decide))

/-! ## One segment at a time: a carried buffer passes each segment of layers 0 and 1 unchanged -/

section Segments
variable (c : Dev nD) (b : Ref sig .tc) (hb : Carried b)
include hb

/-- Layer 0's matmul call has none of the carried buffers among its arrays. -/
theorem keep2 : W2 m ρ c (Proc.devRef .tc b) = W1 m ρ c (Proc.devRef .tc b) := by
  rcases hb with rfl | rfl | rfl | rfl | rfl | rfl | rfl | rfl <;> region_keep W2_of_ne
/-- Layer 0's gather writes only its own temporaries and the gathered rows. -/
theorem keep3 : W3 m ρ c (Proc.devRef .tc b) = W2 m ρ c (Proc.devRef .tc b) := by
  rcases hb with rfl | rfl | rfl | rfl | rfl | rfl | rfl | rfl <;> host_keep hostOps1
/-- Layer 0's weighting, scatter-add, self-loop term and bias row write only their own results. -/
theorem keep4 : W4 m ρ c (Proc.devRef .tc b) = W3 m ρ c (Proc.devRef .tc b) := by
  rcases hb with rfl | rfl | rfl | rfl | rfl | rfl | rfl | rfl <;> host_keep hostOps1_1
/-- Layer 0's column-statistics call has none of the carried buffers among its arrays. -/
theorem keep5 : W5 m ρ c (Proc.devRef .tc b) = W4 m ρ c (Proc.devRef .tc b) := by
  rcases hb with rfl | rfl | rfl | rfl | rfl | rfl | rfl | rfl <;> region_keep W5_of_ne
/-- Layer 0's mean, variance, scale and shift rows are fresh results. -/
theorem keep6 : W6 m ρ c (Proc.devRef .tc b) = W5 m ρ c (Proc.devRef .tc b) := by
  rcases hb with rfl | rfl | rfl | rfl | rfl | rfl | rfl | rfl <;> host_keep hostOps2
/-- Layer 0's normalisation call has none of the carried buffers among its arrays. -/
theorem keep7 : W7 m ρ c (Proc.devRef .tc b) = W6 m ρ c (Proc.devRef .tc b) := by
  rcases hb with rfl | rfl | rfl | rfl | rfl | rfl | rfl | rfl <;> region_keep W7_of_ne
/-- Slicing layer 1's weight table out of the stack writes the slice and its reshape only. -/
theorem keep8 : W8 m ρ c (Proc.devRef .tc b) = W7 m ρ c (Proc.devRef .tc b) := by
  rcases hb with rfl | rfl | rfl | rfl | rfl | rfl | rfl | rfl <;> host_keep hostOps3
/-- Layer 1's matmul call. -/
theorem keep9 : W9 m ρ c (Proc.devRef .tc b) = W8 m ρ c (Proc.devRef .tc b) := by
  rcases hb with rfl | rfl | rfl | rfl | rfl | rfl | rfl | rfl <;> region_keep W9_of_ne
/-- Layer 1's gather. -/
theorem keep10 : W10 m ρ c (Proc.devRef .tc b) = W9 m ρ c (Proc.devRef .tc b) := by
  rcases hb with rfl | rfl | rfl | rfl | rfl | rfl | rfl | rfl <;> host_keep hostOps4
/-- Layer 1's weighting, scatter-add, self-loop term and bias row. -/
theorem keep11 : W11 m ρ c (Proc.devRef .tc b) = W10 m ρ c (Proc.devRef .tc b) := by
  rcases hb with rfl | rfl | rfl | rfl | rfl | rfl | rfl | rfl <;> host_keep hostOps4_1
/-- Layer 1's column-statistics call. -/
theorem keep12 : W12 m ρ c (Proc.devRef .tc b) = W11 m ρ c (Proc.devRef .tc b) := by
  rcases hb with rfl | rfl | rfl | rfl | rfl | rfl | rfl | rfl <;> region_keep W12_of_ne
/-- Layer 1's mean, variance, scale and shift rows. -/
theorem keep13 : W13 m ρ c (Proc.devRef .tc b) = W12 m ρ c (Proc.devRef .tc b) := by
  rcases hb with rfl | rfl | rfl | rfl | rfl | rfl | rfl | rfl <;> host_keep hostOps5
/-- Layer 1's normalisation call. -/
theorem keep14 : W14 m ρ c (Proc.devRef .tc b) = W13 m ρ c (Proc.devRef .tc b) := by
  rcases hb with rfl | rfl | rfl | rfl | rfl | rfl | rfl | rfl <;> region_keep W14_of_ne
/-- Slicing layer 2's weight table out of the stack. -/
theorem keep15 : W15 m ρ c (Proc.devRef .tc b) = W14 m ρ c (Proc.devRef .tc b) := by
  rcases hb with rfl | rfl | rfl | rfl | rfl | rfl | rfl | rfl <;> host_keep hostOps6

/-- Through layer 0's three calls and the host lines between them (six segments). -/
theorem carry7 : W7 m ρ c (Proc.devRef .tc b) = W1 m ρ c (Proc.devRef .tc b) :=
  (keep7 m ρ c b hb).trans <| (keep6 m ρ c b hb).trans <| (keep5 m ρ c b hb).trans <|
    (keep4 m ρ c b hb).trans <| (keep3 m ρ c b hb).trans (keep2 m ρ c b hb)

end Segments

/-! ## A whole layer -/

theorem carry8 (c : Dev nD) (b : Ref sig .tc) (hb : Carried b) :
    W8 m ρ c (Proc.devRef .tc b) = W1 m ρ c (Proc.devRef .tc b) :=
  (keep8 m ρ c b hb).trans (carry7 m ρ c b hb)

/-- Through layer 1's three calls and the host lines between them (six segments), onto layer 0's seven. -/
theorem carry14 (c : Dev nD) (b : Ref sig .tc) (hb : Carried b) :
    W14 m ρ c (Proc.devRef .tc b) = W1 m ρ c (Proc.devRef .tc b) :=
  (keep14 m ρ c b hb).trans <| (keep13 m ρ c b hb).trans <| (keep12 m ρ c b hb).trans <|
    (keep11 m ρ c b hb).trans <| (keep10 m ρ c b hb).trans <| (keep9 m ρ c b hb).trans (carry8 m ρ c b hb)

theorem carry15 (c : Dev nD) (b : Ref sig .tc) (hb : Carried b) :
    W15 m ρ c (Proc.devRef .tc b) = W1 m ρ c (Proc.devRef .tc b) :=
  (keep15 m ρ c b hb).trans (carry14 m ρ c b hb)

/-! ## A layer's output passes the next weight table's slicing -/

theorem x8 (c : Dev nD) : W8 m ρ c (Proc.devRef .tc main_v59) = W7 m ρ c (Proc.devRef .tc main_v59) := by
  host_keep hostOps3
theorem x15 (c : Dev nD) : W15 m ρ c (Proc.devRef .tc main_v90) = W14 m ρ c (Proc.devRef .tc main_v90) := by
  host_keep hostOps6

/-! ## The next layer's weight table: the stack's row sliced out and reshaped, the stack as at region 0's entry -/

/-- From any contents, the two operations that cut layer 1's table out of the stack leave, at the table's buffer,
    row 1 of the stack as it stood before them, reshaped to 64 × 64. -/
theorem w1_after (V : Valuation τ sig (Elt Ideal)) :
    (StableHlo.after hostOps3 V (Proc.devRef .tc main_v61) : FVec Ideal S64x64 .f32)
      = Terms.w1 (F := Ideal) (V (Proc.devRef .tc main_arg2) : FVec Ideal S3x64x64 .f32) := by
  after_results
  rfl
/-- The same for layer 2's table: row 2 of the stack. -/
theorem w2_after (V : Valuation τ sig (Elt Ideal)) :
    (StableHlo.after hostOps6 V (Proc.devRef .tc main_v92) : FVec Ideal S64x64 .f32)
      = Terms.w2 (F := Ideal) (V (Proc.devRef .tc main_arg2) : FVec Ideal S3x64x64 .f32) := by
  after_results
  rfl

theorem w8 (c : Dev nD) :
    (W8 m ρ c (Proc.devRef .tc main_v61) : FVec Ideal S64x64 .f32)
      = Terms.w1 (F := Ideal) (W1 m ρ c (Proc.devRef .tc main_arg2) : FVec Ideal S3x64x64 .f32) := by
  have h := w1_after (W7 m ρ c)
  rw [carry7 m ρ c main_arg2 (by simp only [Carried, true_or, or_true])] at h
  exact h
theorem w15 (c : Dev nD) :
    (W15 m ρ c (Proc.devRef .tc main_v92) : FVec Ideal S64x64 .f32)
      = Terms.w2 (F := Ideal) (W1 m ρ c (Proc.devRef .tc main_arg2) : FVec Ideal S3x64x64 .f32) := by
  have h := w2_after (W14 m ρ c)
  rw [carry14 m ρ c main_arg2 (by simp only [Carried, true_or, or_true])] at h
  exact h

end Cert.KernelIdeal.KerValue

end
-- ==== Proof.RefTerm.lean ====
/-
  The pure terms the plain program's host operations compute, named by what they are: the edge list's two rows,
  the symmetric normalisation weights of the graph (one over the square root of a node's degree, with its self loop),
  the aggregation of a node table over the graph, and each layer's slice of the stacked parameters. Each is the
  composition of the printed operations, in the printed order, so that a buffer's contents after the run can be
  stated with these names.
-/
import proofs.«426465_j33225867002208_1_alg».proof.Proof.Gen.ReferenceIdeal
import Idealize.ShloMosaic.PureOps.Ideal

noncomputable section

namespace Cert.ReferenceIdeal.Terms

open Cert.ReferenceIdeal Cert.ReferenceIdeal.Gen Idealize.ShloMosaic

variable {F : FTy → Type} [FloatOps F]

/-- The edges' source nodes: row 0 of the edge list. -/
def src (ei : IVec S2x1200000 32) : IVec S1200000 32 :=
  shapeCast S1200000 (extractStridedSlice S1x1200000 ![0, 0] ei slices_S2x1200000_S1x1200000_0_0) shapeCasts_S1x1200000_S1200000
/-- The edges' destination nodes: row 1 of the edge list. -/
def dst (ei : IVec S2x1200000 32) : IVec S1200000 32 :=
  shapeCast S1200000 (extractStridedSlice S1x1200000 ![1, 0] ei slices_S2x1200000_S1x1200000_1_0) shapeCasts_S1x1200000_S1200000
/-- A negative node number counted from the end: `v + 100000` where `v < 0`, else `v`. -/
def wrap (v : IVec S1200000 32) : IVec S1200000 32 :=
  select (cmpi .slt v (broadcastInDim S1200000 ![] bcast_S_S1200000 (constantI S_ 32 0#32)))
    (addi v (broadcastInDim S1200000 ![] bcast_S_S1200000 (constantI S_ 32 100000#32))) v
/-- A node list as a column of start indices. -/
def col (v : IVec S1200000 32) : IVec S1200000x1 32 := broadcastInDim S1200000x1 ![0] bcast_S1200000_S1200000x1_0 v
/-- Each node's in-degree plus one (its self loop): ones scattered onto the destinations, plus one. -/
def deg (ei : IVec S2x1200000 32) : FVec F S100000 .f32 :=
  addf (Host.scatterAdd scatter_S100000_S1200000x1_S1200000_n_0_0_1
      (broadcastInDim S100000 ![] bcast_S_S100000 (constant S_ .f32 0x00000000#32)) (col (dst ei))
      (broadcastInDim S1200000 ![] bcast_S_S1200000 (constant S_ .f32 0x3F800000#32)))
    (broadcastInDim S100000 ![] bcast_S_S100000 (constant S_ .f32 0x3F800000#32))
/-- One over the square root of the degree. -/
def dinv (ei : IVec S2x1200000 32) : FVec F S100000 .f32 := Host.rsqrt (deg ei)
/-- An edge's weight: the product of its endpoints' `dinv`, as a column. -/
def enorm (ei : IVec S2x1200000 32) : FVec F S1200000x1 .f32 :=
  broadcastInDim S1200000x1 ![0] bcast_S1200000_S1200000x1_0
    (mulf (Host.gather gather_S100000_S1200000x1_S1200000_n_0_n_n_0_1_1 (dinv ei) (col (wrap (src ei))))
      (Host.gather gather_S100000_S1200000x1_S1200000_n_0_n_n_0_1_1 (dinv ei) (col (wrap (dst ei)))))
/-- A node's self-loop weight: `dinv` squared, as a column. -/
def snorm (ei : IVec S2x1200000 32) : FVec F S100000x1 .f32 :=
  broadcastInDim S100000x1 ![0] bcast_S100000_S100000x1_0 (mulf (dinv ei) (dinv ei))
/-- The source rows of a node table, one per edge. -/
def gath (ei : IVec S2x1200000 32) (xw : FVec F S100000x64 .f32) : FVec F S1200000x64 .f32 :=
  Host.gather gather_S100000x64_S1200000x1_S1200000x64_1_0_n_n_0_1_164 xw (col (wrap (src ei)))
/-- The aggregation over the graph: each edge's weighted source row summed onto its destination, plus the node's own
    row times its self-loop weight, plus the bias row `b`. -/
def agg (ei : IVec S2x1200000 32) (b : FVec F S64 .f32) (xw : FVec F S100000x64 .f32) : FVec F S100000x64 .f32 :=
  addf (addf (Host.scatterAdd scatter_S100000x64_S1200000x1_S1200000x64_1_0_0_1
        (broadcastInDim S100000x64 ![] bcast_S_S100000x64 (constant S_ .f32 0x00000000#32)) (col (dst ei))
        (mulf (gath ei xw) (broadcastInDim S1200000x64 ![0, 1] bcast_S1200000x1_S1200000x64_0_1 (enorm ei))))
      (mulf xw (broadcastInDim S100000x64 ![0, 1] bcast_S100000x1_S100000x64_0_1 (snorm ei))))
    (broadcastInDim S100000x64 ![0, 1] bcast_S1x64_S100000x64_0_1 (broadcastInDim S1x64 ![1] bcast_S64_S1x64_1 b))

/-- Layer 0's weight table out of the stack of three. -/
def w0 (W : FVec F S3x64x64 .f32) : FVec F S64x64 .f32 :=
  shapeCast S64x64 (extractStridedSlice S1x64x64 ![0, 0, 0] W slices_S3x64x64_S1x64x64_0_0_0) shapeCasts_S1x64x64_S64x64
/-- Layer 1's weight table. -/
def w1 (W : FVec F S3x64x64 .f32) : FVec F S64x64 .f32 :=
  shapeCast S64x64 (extractStridedSlice S1x64x64 ![1, 0, 0] W slices_S3x64x64_S1x64x64_1_0_0) shapeCasts_S1x64x64_S64x64
/-- Layer 2's weight table. -/
def w2 (W : FVec F S3x64x64 .f32) : FVec F S64x64 .f32 :=
  shapeCast S64x64 (extractStridedSlice S1x64x64 ![2, 0, 0] W slices_S3x64x64_S1x64x64_2_0_0) shapeCasts_S1x64x64_S64x64
/-- Row 0 of a stack of three rows (a layer's bias, scale or shift). -/
def r0 (B : FVec F S3x64 .f32) : FVec F S64 .f32 :=
  shapeCast S64 (extractStridedSlice S1x64 ![0, 0] B slices_S3x64_S1x64_0_0) shapeCasts_S1x64_S64
/-- Row 1. -/
def r1 (B : FVec F S3x64 .f32) : FVec F S64 .f32 :=
  shapeCast S64 (extractStridedSlice S1x64 ![1, 0] B slices_S3x64_S1x64_1_0) shapeCasts_S1x64_S64
/-- Row 2. -/
def r2 (B : FVec F S3x64 .f32) : FVec F S64 .f32 :=
  shapeCast S64 (extractStridedSlice S1x64 ![2, 0] B slices_S3x64_S1x64_2_0) shapeCasts_S1x64_S64

/-- The leaky rectifier on a node table: `a` where `a > 0`, else `0.2 * a`. -/
def hact (a : FVec F S100000x64 .f32) : FVec F S100000x64 .f32 :=
  select (cmpf .ogt a (broadcastInDim S100000x64 ![] bcast_S_S100000x64 (constant S_ .f32 0x00000000#32))) a
    (mulf (broadcastInDim S100000x64 ![] bcast_S_S100000x64 (constant S_ .f32 0x3E4CCCCD#32)) a)
/-- The column sums of a node table. -/
def colsum (h : FVec F S100000x64 .f32) : FVec F S64 .f32 :=
  Host.reduceAdd h (constant S_ .f32 0x00000000#32) reducesTo_S100000x64_S64_d0 h_S_
/-- The column means: the sums over 100000. -/
def hmean (h : FVec F S100000x64 .f32) : FVec F S64 .f32 :=
  Host.divf (colsum h) (broadcastInDim S64 ![] bcast_S_S64 (constant S_ .f32 0x47C35000#32))
/-- A row repeated down all nodes. -/
def rows (r : FVec F S64 .f32) : FVec F S100000x64 .f32 :=
  broadcastInDim S100000x64 ![0, 1] bcast_S1x64_S100000x64_0_1 (broadcastInDim S1x64 ![1] bcast_S64_S1x64_1 r)
/-- The variance's divisor: the count minus the correction 0. -/
def cntv : FVec F S_ .f32 := subf (constant S_ .f32 0x47C35000#32) (sitofp .f32 (constantI S_ 32 0#32))
/-- The deviations from the column means, the means formed the way the variance routine forms them. -/
def dev (h : FVec F S100000x64 .f32) : FVec F S100000x64 .f32 :=
  subf h (broadcastInDim S100000x64 ![0, 1] bcast_S1x64_S100000x64_0_1
    (Host.divf (broadcastInDim S1x64 ![1] bcast_S64_S1x64_1 (colsum h)) (broadcastInDim S1x64 ![] bcast_S_S1x64 (constant S_ .f32 0x47C35000#32))))
/-- The column variances: the mean of the squared deviations, guarded by "the divisor is positive". -/
def hvar (h : FVec F S100000x64 .f32) : FVec F S64 .f32 :=
  select (broadcastInDim S64 ![] bcast_S_S64 (cmpf .ogt (cntv (F := F)) (constant S_ .f32 0x00000000#32)))
    (Host.divf (Host.reduceAdd (mulf (dev h) (dev h)) (constant S_ .f32 0x00000000#32) reducesTo_S100000x64_S64_d0 h_S_)
      (broadcastInDim S64 ![] bcast_S_S64 (cntv (F := F))))
    (broadcastInDim S64 ![] bcast_S_S64 (id (constant S_ .f32 0x7FC00000#32)))
/-- The rectifier, then each column normalised and mapped affinely: `g * (h - mean) * rsqrt (var + eps) + be`. -/
def rnorm (g be : FVec F S64 .f32) (a : FVec F S100000x64 .f32) : FVec F S100000x64 .f32 :=
  addf (mulf (mulf (rows g) (subf (hact a) (rows (hmean (hact a)))))
      (rows (Host.rsqrt (addf (hvar (hact a)) (broadcastInDim S64 ![] bcast_S_S64 (constant S_ .f32 0x3727C5AC#32))))))
    (rows be)
/-- One layer: the product with the weight table, the aggregation over the graph, the normalisation. -/
def rlayer (ei : IVec S2x1200000 32) (w : FVec F S64x64 .f32) (b g be : FVec F S64 .f32) (x : FVec F S100000x64 .f32) :
    FVec F S100000x64 .f32 :=
  rnorm g be (agg ei b (Host.dotGeneral dot_S100000x64_S64x64_S100000x64_1_0_0_1_n_n none x w))
/-- The three layers. -/
def rnet (x : FVec F S100000x64 .f32) (ei : IVec S2x1200000 32) (W : FVec F S3x64x64 .f32) (B G BE : FVec F S3x64 .f32) :
    FVec F S100000x64 .f32 :=
  rlayer ei (w2 W) (r2 B) (r2 G) (r2 BE) (rlayer ei (w1 W) (r1 B) (r1 G) (r1 BE) (rlayer ei (w0 W) (r0 B) (r0 G) (r0 BE) x))

end Cert.ReferenceIdeal.Terms

end
-- ==== Proof.GathEq.lean ====
/-
  The guarded gather of the source rows is the plain gather where every source index is in range.

  The gather's start indices are the column of the wrapped source words (a negative word has 100000 added). Beside the
  gathered rows stands a mask: per row, "0 ≤ start index" and "start index ≤ 99999", joined by `and`, reduced by `and`
  from 1 over the column's one-element second axis, and laid along the rows of the [1200000 × 64] result; a select keeps
  the gathered row where the mask reads 1 and puts a fill value elsewhere. Under the hypothesis that each source word
  is at least 0 and below 100000 as a signed integer: the wrap leaves each word as it is (it is not negative), both
  comparisons read 1 at each row, an `and`-fold from 1 over ones is 1, so the mask is 1 at every result index and the
  select is its first operand. The mask's value at a result index depends only on the source word of that index's row.
-/
import proofs.«426465_j33225867002208_1_alg».proof.Proof.KerTerm
import Idealize.ShloMosaic.Lib.ValueIdx
import Idealize.ShloMosaic.Lib.ValueLayout
import Idealize.ShloMosaic.Lib.ReduceAll
import Idealize.ShloMosaic.Lib.StableHlo.Predicate

noncomputable section

namespace Cert.KernelIdeal.KerValue

open Cert.KernelIdeal Cert.KernelIdeal.Gen Idealize.ShloMosaic Idealize.ShloMosaic.ValueIdx

/-! ## Words: a signed 32-bit word in 0 … 99999 -/

/-- A word that is at least 0 and below 100000 as a signed integer is not negative and is at most 99999. -/
theorem word_in_range (v : BitVec 32) (h0 : IntOp.cmpi .sge v 0#32 = 1#1) (h1 : IntOp.cmpi .slt v 100000#32 = 1#1) :
    IntOp.cmpi .slt v 0#32 = 0#1 ∧ IntOp.cmpi .sge v 0#32 = 1#1 ∧ IntOp.cmpi .sle v 99999#32 = 1#1 := by
  have e0 : (0#32 : BitVec 32).toInt = 0 := by decide
  have e1 : (100000#32 : BitVec 32).toInt = 100000 := by decide
  have e2 : (99999#32 : BitVec 32).toInt = 99999 := by decide
  simp only [IntOp.cmpi, BitVec.sle, BitVec.slt, StableHlo.Predicate.ofBool_eq_one_iff, decide_eq_true_eq, e0, e1] at h0 h1
  refine ⟨?_, ?_, ?_⟩
  · have hs : v.slt 0#32 = false := by
      simp only [BitVec.slt, e0, decide_eq_false_iff_not]; omega
    simp only [IntOp.cmpi, hs]; rfl
  · simp only [IntOp.cmpi, BitVec.sle, StableHlo.Predicate.ofBool_eq_one_iff, decide_eq_true_eq, e0]; exact h0
  · simp only [IntOp.cmpi, BitVec.sle, StableHlo.Predicate.ofBool_eq_one_iff, decide_eq_true_eq, e2]; omega

/-! ## An and-reduction of ones -/

/-- A left fold by `and` from 1 over a list whose every element reads 1 is 1. -/
theorem foldl_andi_of_all {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_of_all f l fun n hn => h n (List.mem_cons_of_mem _ hn)

/-- A reduce by `and` from the constant 1 over an operand whose every element is 1 is 1 at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_of_all x _ fun i _ => hx i

/-! ## The range test, row by row -/

/-- The wrap read at an edge: the word plus 100000 where the word is negative, else the word. -/
theorem wrap_apply (v : IVec S1200000 32) (e : S1200000.Idx) :
    Terms.wrap v e = Scalar.select (IntOp.cmpi .slt (v e) 0#32) (IntOp.addi (v e) 100000#32) (v e) := rfl

/-- Each element of the range test on the column of start indices compares one edge's wrapped word with 0 and 99999. -/
theorem test_apply (W : IVec S1200000 32) (i : S1200000x1.Idx) :
    ∃ e : S1200000.Idx,
      andi (cmpi .sge (Terms.col W) (broadcastInDim S1200000x1 ![] bcast_S_S1200000x1 (constantI S_ 32 0#32)))
          (cmpi .sle (Terms.col W)
            (broadcastInDim S1200000x1 ![0, 1] bcast_S1x1_S1200000x1_0_1 (broadcastInDim S1x1 ![1] bcast_S1_S1x1_1 (constantI S1 32 99999#32)))) i
        = IntOp.andi (IntOp.cmpi .sge (W e) 0#32) (IntOp.cmpi .sle (W e) 99999#32) := ⟨_, rfl⟩

/-- Where every source index lies in 0 … 99999, the guarded gather is the plain gather: the wrap leaves the index
    as it is, the range test holds on every row, and the select keeps the gathered row. -/
theorem gath_eq (ei : IVec S2x1200000 32) (xw : FVec Ideal S100000x64 .f32)
    (hsrc : ∀ e : S1200000.Idx, IntOp.cmpi .sge (Terms.src ei e) 0#32 = 1#1 ∧ IntOp.cmpi .slt (Terms.src ei e) 100000#32 = 1#1) :
    Terms.gath (F := Ideal) ei xw
      = Host.gather gather_S100000x64_S1200000x1_S1200000x64_1_0_n_n_0_1_164 xw (Terms.col (Terms.wrap (Terms.src ei))) := by
  -- the wrap leaves every source word as it is
  have hwrap : ∀ e : S1200000.Idx, Terms.wrap (Terms.src ei) e = Terms.src ei e := fun e => by
    rw [wrap_apply, (word_in_range _ (hsrc e).1 (hsrc e).2).1, select_zero]
  -- so every element of the range test is 1
  have htest : ∀ i : S1200000x1.Idx,
      andi (cmpi .sge (Terms.col (Terms.wrap (Terms.src ei))) (broadcastInDim S1200000x1 ![] bcast_S_S1200000x1 (constantI S_ 32 0#32)))
          (cmpi .sle (Terms.col (Terms.wrap (Terms.src ei)))
            (broadcastInDim S1200000x1 ![0, 1] bcast_S1x1_S1200000x1_0_1 (broadcastInDim S1x1 ![1] bcast_S1_S1x1_1 (constantI S1 32 99999#32)))) i
        = 1#1 := fun i => by
    obtain ⟨e, he⟩ := test_apply (Terms.wrap (Terms.src ei)) i
    rw [he, hwrap e, (word_in_range _ (hsrc e).1 (hsrc e).2).2.1, (word_in_range _ (hsrc e).1 (hsrc e).2).2.2]
    rfl
  funext j
  unfold Terms.gath
  rw [select_apply]
  have hmask : broadcastInDim S1200000x64 ![0] bcast_S1200000_S1200000x64_0
      (Host.reduce IntOp.andi
        (andi (cmpi .sge (Terms.col (Terms.wrap (Terms.src ei))) (broadcastInDim S1200000x1 ![] bcast_S_S1200000x1 (constantI S_ 32 0#32)))
          (cmpi .sle (Terms.col (Terms.wrap (Terms.src ei)))
            (broadcastInDim S1200000x1 ![0, 1] bcast_S1x1_S1200000x1_0_1 (broadcastInDim S1x1 ![1] bcast_S1_S1x1_1 (constantI S1 32 99999#32)))))
        (constantI S_ 1 1#1) reducesTo_S1200000x1_S1200000_d1 h_S_) j = 1#1 := by
    unfold broadcastInDim
    exact reduce_andi_of_all _ _ _ _ rfl htest _
  rw [hmask, select_one]

end Cert.KernelIdeal.KerValue

end
-- ==== Proof.AggReal.lean ====
import proofs.«426465_j33225867002208_1_alg».proof.Proof.RefTerm
import Idealize.ShloMosaic.Lib.ValueIdx
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

namespace AggReal

/-! ### Two predicates on an extended real: "is a real number", "is a real number at least c" -/

/-- The extended real a is a real number. -/
def IsR (a : EReal) : Prop := ∃ r : ℝ, a = (r : EReal)

/-- The extended real a is a real number that is at least c. -/
def IsGe (c : ℝ) (a : EReal) : Prop := ∃ r : ℝ, c ≤ r ∧ a = (r : EReal)

theorem IsGe.isR {c : ℝ} {a : EReal} (h : IsGe c a) : IsR a := by
  obtain ⟨r, _, hr⟩ := h
  exact ⟨r, hr⟩

/-- The sum of two real numbers is a real number. -/
theorem IsR.add {a b : EReal} (ha : IsR a) (hb : IsR b) : IsR (a + b) := by
  obtain ⟨x, rfl⟩ := ha
  obtain ⟨y, rfl⟩ := hb
  exact ⟨x + y, (EReal.coe_add x y).symm⟩

/-- The product of two real numbers is a real number. -/
theorem IsR.mul {a b : EReal} (ha : IsR a) (hb : IsR b) : IsR (a * b) := by
  obtain ⟨x, rfl⟩ := ha
  obtain ⟨y, rfl⟩ := hb
  exact ⟨x * y, (EReal.coe_mul x y).symm⟩

/-- Lower bounds add. -/
theorem IsGe.add {c d : ℝ} {a b : EReal} (ha : IsGe c a) (hb : IsGe d b) : IsGe (c + d) (a + b) := by
  obtain ⟨x, hx, rfl⟩ := ha
  obtain ⟨y, hy, rfl⟩ := hb
  exact ⟨x + y, add_le_add hx hy, (EReal.coe_add x y).symm⟩

/-- A lower bound can be weakened. -/
theorem IsGe.mono {c d : ℝ} (hcd : c ≤ d) {a : EReal} (h : IsGe d a) : IsGe c a := by
  obtain ⟨r, hr, e⟩ := h
  exact ⟨r, le_trans hcd hr, e⟩

theorem IsGe.mono0 {a : EReal} (h : IsGe 1 a) : IsGe 0 a := h.mono zero_le_one

theorem isGe_zero : IsGe 0 (0 : EReal) := ⟨0, le_refl _, EReal.coe_zero.symm⟩

theorem isGe_one : IsGe 1 (1 : EReal) := ⟨1, le_refl _, EReal.coe_one.symm⟩

/-- A finite sum of real numbers is a real number (induction on the index set). -/
theorem IsR.sum {ι : Type} (S : Finset ι) (f : ι → EReal) (hf : ∀ j, IsR (f j)) : IsR (∑ j ∈ S, f j) := by
  classical
  induction S using Finset.induction_on with
  | empty => exact ⟨0, by rw [Finset.sum_empty, EReal.coe_zero]⟩
  | insert a S ha ih =>
    rw [Finset.sum_insert ha]
    exact (hf a).add ih

/-- A finite sum of nonnegative real numbers is a nonnegative real number. -/
theorem IsGe.sum {ι : Type} (S : Finset ι) (f : ι → EReal) (hf : ∀ j, IsGe 0 (f j)) : IsGe 0 (∑ j ∈ S, f j) := by
  classical
  induction S using Finset.induction_on with
  | empty =>
    rw [Finset.sum_empty]
    exact isGe_zero
  | insert a S ha ih =>
    rw [Finset.sum_insert ha]
    have h := (hf a).add ih
    rwa [add_zero] at h

/-- One over the square root of a positive real number is a real number. -/
theorem isR_rsqrt {c : ℝ} (hc : 0 < c) {a : EReal} (ha : IsGe c a) : IsR (Ideal.rsqrt a) := by
  obtain ⟨r, hr, rfl⟩ := ha
  have h0 : 0 < r := lt_of_lt_of_le hc hr
  exact ⟨(Real.sqrt r)⁻¹, by rw [Ideal.rsqrt_coe, if_neg (not_lt.mpr h0.le), if_neg h0.ne']⟩

/-! ### The two constant patterns: +0.0 is 0 and 1.0 is 1 -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

/-! ### One law per operation: each keeps "every entry is a real number" -/

section ops

variable {s t : Shape} {φ : FTy}

/-- Every entry of a broadcast is an entry of its operand, so a property of all the operand's entries
    is a property of all the result's. -/
theorem broadcast_all {α : Type} (Q : α → Prop) (dims : Fin s.rank → Fin t.rank) (h : s.BroadcastsInDim t dims)
    (x : s.Idx → α) (hx : ∀ i, Q (x i)) : ∀ j, Q (broadcastInDim t dims h x j) := by
  intro j
  unfold broadcastInDim
  exact hx _

/-- Every entry of a gather is an entry of its operand. -/
theorem gather_all {α : Type} (Q : α → Prop) {si : Shape} {w : Nat} (d : GatherDims s si t) (x : s.Idx → α)
    (idx : IVec si w) (hx : ∀ i, Q (x i)) : ∀ j, Q (Host.gather d x idx j) := by
  intro j
  unfold Host.gather
  exact hx _

theorem addf_isR (a b : FVec Ideal s φ) (ha : ∀ i, IsR (a i)) (hb : ∀ i, IsR (b i)) : ∀ i, IsR (addf a b i) := by
  intro i
  rw [addf_apply]
  exact (ha i).add (hb i)

theorem mulf_isR (a b : FVec Ideal s φ) (ha : ∀ i, IsR (a i)) (hb : ∀ i, IsR (b i)) : ∀ i, IsR (mulf a b i) := by
  intro i
  rw [mulf_apply]
  exact (ha i).mul (hb i)

theorem addf_isGe {c d : ℝ} (a b : FVec Ideal s φ) (ha : ∀ i, IsGe c (a i)) (hb : ∀ i, IsGe d (b i)) :
    ∀ i, IsGe (c + d) (addf a b i) := by
  intro i
  rw [addf_apply]
  exact (ha i).add (hb i)

theorem const_zero_isGe (i : s.Idx) : IsGe 0 (constant (F := Ideal) s .f32 0x00000000#32 i) := by
  rw [constant_apply, ofBits_zero]
  exact isGe_zero

theorem const_one_isGe (i : s.Idx) : IsGe 1 (constant (F := Ideal) s .f32 0x3F800000#32 i) := by
  rw [constant_apply, ofBits_one]
  exact isGe_one

/-- The accumulating scatter is, at each entry, the operand's entry plus a finite sum of update entries. -/
theorem scatterAdd_isR {si u : Shape} {w : Nat} (d : ScatterDims s si u) (x : FVec Ideal s φ) (idx : IVec si w)
    (upd : FVec Ideal u φ) (hx : ∀ i, IsR (x i)) (hu : ∀ j, IsR (upd j)) : ∀ i, IsR (Host.scatterAdd d x idx upd i) := by
  intro i
  have key : ∀ S : Finset u.Idx, IsR (x i + ∑ j ∈ S, upd j) := fun S => (hx i).add (IsR.sum S upd hu)
  exact key _

theorem scatterAdd_isGe {si u : Shape} {w : Nat} (d : ScatterDims s si u) (x : FVec Ideal s φ) (idx : IVec si w)
    (upd : FVec Ideal u φ) (hx : ∀ i, IsGe 0 (x i)) (hu : ∀ j, IsGe 0 (upd j)) :
    ∀ i, IsGe 0 (Host.scatterAdd d x idx upd i) := by
  intro i
  have key : ∀ S : Finset u.Idx, IsGe 0 (x i + ∑ j ∈ S, upd j) := fun S => by
    have h := (hx i).add (IsGe.sum S upd hu)
    rwa [add_zero] at h
  exact key _

theorem rsqrt_isR {c : ℝ} (hc : 0 < c) (v : FVec Ideal s φ) (hv : ∀ i, IsGe c (v i)) : ∀ i, IsR (Host.rsqrt v i) := by
  intro i
  show IsR (Ideal.rsqrt (v i))
  exact isR_rsqrt hc (hv i)

end ops

/-! ### The graph's weights -/

/-- A node's degree is a real number at least one: zero, plus a finite sum of ones, plus one. -/
theorem deg_isGe (ei : IVec S2x1200000 32) : ∀ i, IsGe 1 (Terms.deg (F := Ideal) ei i) := by
  unfold Terms.deg
  intro i
  have h := addf_isGe (φ := .f32) (c := 0) (d := 1) _ _
    (scatterAdd_isGe (φ := .f32) scatter_S100000_S1200000x1_S1200000_n_0_0_1 _ (Terms.col (Terms.dst ei)) _
      (broadcast_all (IsGe 0) _ bcast_S_S100000 _ const_zero_isGe)
      (fun j => (broadcast_all (IsGe 1) _ bcast_S_S1200000 _ const_one_isGe j).mono0))
    (broadcast_all (IsGe 1) _ bcast_S_S100000 _ const_one_isGe) i
  rwa [zero_add] at h

/-- One over the square root of the degree is a real number. -/
theorem dinv_isR (ei : IVec S2x1200000 32) : ∀ i, IsR (Terms.dinv (F := Ideal) ei i) := by
  unfold Terms.dinv
  exact rsqrt_isR one_pos _ (deg_isGe ei)

/-- An edge's weight, the product of two gathered entries of dinv, is a real number. -/
theorem enorm_isR (ei : IVec S2x1200000 32) : ∀ i, IsR (Terms.enorm (F := Ideal) ei i) := by
  unfold Terms.enorm
  exact broadcast_all IsR _ _ _ (mulf_isR _ _ (gather_all IsR _ _ _ (dinv_isR ei)) (gather_all IsR _ _ _ (dinv_isR ei)))

/-- A node's self-loop weight, dinv squared, is a real number. -/
theorem snorm_isR (ei : IVec S2x1200000 32) : ∀ i, IsR (Terms.snorm (F := Ideal) ei i) := by
  unfold Terms.snorm
  exact broadcast_all IsR _ _ _ (mulf_isR _ _ (dinv_isR ei) (dinv_isR ei))

end AggReal

open AggReal in
/-- The aggregation of a table of real numbers, with a bias row of real numbers, is a table of real numbers: a node's
    degree is a real number at least one, so the normalisation weights are real; a gathered row is a row of the
    table; a scatter-add is a finite sum. -/
theorem agg_real (ei : IVec S2x1200000 32) (b : FVec Ideal S64 .f32) (xw : FVec Ideal S100000x64 .f32)
    (hb : ∀ i, ∃ r : ℝ, b i = (r : EReal)) (hx : ∀ i, ∃ r : ℝ, xw i = (r : EReal)) :
    ∀ i, ∃ r : ℝ, Terms.agg (F := Ideal) ei b xw i = (r : EReal) := by
  have hb' : ∀ i, IsR (b i) := hb
  have hx' : ∀ i, IsR (xw i) := hx
  have hg : ∀ i, IsR (Terms.gath (F := Ideal) ei xw i) := by
    unfold Terms.gath
    exact gather_all IsR _ _ _ hx'
  have h : ∀ i, IsR (Terms.agg (F := Ideal) ei b xw i) := by
    unfold Terms.agg
    exact addf_isR _ _
      (addf_isR _ _
        (scatterAdd_isR _ _ _ _
          (broadcast_all IsR _ _ _ (fun i => (const_zero_isGe i).isR))
          (mulf_isR _ _ hg (broadcast_all IsR _ _ _ (enorm_isR ei))))
        (mulf_isR _ _ hx' (broadcast_all IsR _ _ _ (snorm_isR ei))))
      (broadcast_all IsR _ _ _ (broadcast_all IsR _ _ _ hb'))
  exact h

end Cert.ReferenceIdeal.RefValue

end
-- ==== Proof.RefLayer.lean ====
/-
  One layer of the plain program, read entry by entry.

  The array-level term of a layer is the normalisation applied to the aggregation of the product of the node table
  with the layer's weight table. Read at entry (p, q), with the aggregation kept as one opaque function of the
  product array:
  • the product is, at (p, k), the sum over the 64 contracted coordinates of x (p, ·) times w (·, q);
  • the rectifier is a select on "entry above zero" between the entry and the slope times the entry;
  • a column sum is the initial value zero plus the sum of the column's 100000 entries;
  • the column mean is that sum divided by the count 100000;
  • the variance's divisor is the count minus the correction zero, which is the count, a positive number, so the
    guarding select returns the quotient: the column sum of the squared deviations from the column mean, over the count;
  • a row broadcast down all nodes reads, at (p, q), the row at q;
  • the outer arithmetic is entry by entry.
  Together these are the coordinate-level layer with the variance as the mean of the squared deviations.
-/
import proofs.«426465_j33225867002208_1_alg».proof.Proof.RefTerm
import proofs.«426465_j33225867002208_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The product with the weight table -/

/-- The left operand's index on its free axis 0 is the result's row. -/
theorem lhs_dot_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
/-- The left operand's index on its contracted axis 1 is the contraction coordinate. -/
theorem lhs_dot_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
/-- The right operand's index on its contracted axis 0 is the contraction coordinate. -/
theorem rhs_dot_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
/-- The right operand's index on its free axis 1 is the result's column. -/
theorem rhs_dot_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The product array is the coordinate-level product: entry (p, q) is the sum over k of x (p, k) * w (k, q). -/
theorem dot_eq (x : FVec Ideal S100000x64 .f32) (w : FVec Ideal S64x64 .f32) :
    Host.dotGeneral dot_S100000x64_S64x64_S100000x64_1_0_0_1_n_n none x w
      = Gcn.ofMat (Gcn.mm (Gcn.toMat x) (Gcn.toWt w)) := by
  funext i
  simp only [Host.dotGeneral]
  rw [Ideal.dotGeneral_apply,
    ← Equiv.sum_comp (contrEquiv1 dot_S100000x64_S64x64_S100000x64_1_0_0_1_n_n 64 rfl rfl).symm]
  show _ = ∑ k : Fin 64, x (ix2 (i 0 : Fin 100000) k) * w (ix2 k (i 1 : Fin 64))
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx i
      ((contrEquiv1 dot_S100000x64_S64x64_S100000x64_1_0_0_1_n_n 64 rfl rfl).symm k) = ix2 (i 0 : Fin 100000) k :=
    funext fun a => Fin.ext (by
      match a with
      | ⟨0, _⟩ => exact lhs_dot_0 _ _
      | ⟨1, _⟩ => exact (lhs_dot_1 _ _).trans hk)
  have er : dot_S100000x64_S64x64_S100000x64_1_0_0_1_n_n.rhsIdx i
      ((contrEquiv1 dot_S100000x64_S64x64_S100000x64_1_0_0_1_n_n 64 rfl rfl).symm k) = ix2 k (i 1 : Fin 64) :=
    funext fun a => Fin.ext (by
      match a with
      | ⟨0, _⟩ => exact (rhs_dot_0 _ _).trans hk
      | ⟨1, _⟩ => exact rhs_dot_1 _ _)
  rw [el, er]
  rfl

/-! ## The pieces of the normalisation, read at an index -/

/-- The rectifier at an index: a select on "entry above zero" between the entry and the slope times the entry. -/
theorem hact_apply (a : FVec Ideal S100000x64 .f32) (i : S100000x64.Idx) :
    Terms.hact (F := Ideal) a i = Gcn.leaky (a i) := rfl

/-- A one-row table broadcast down all nodes reads, at (p, q), the row's entry q. -/
theorem down_apply (y : FVec Ideal S1x64 .f32) (p : Fin 100000) (q : Fin 64) :
    broadcastInDim S100000x64 ![0, 1] bcast_S1x64_S100000x64_0_1 y (ix2 p q) = y (ix2 (0 : Fin 1) q) :=
  broadcastInDim_apply ![0, 1] bcast_S1x64_S100000x64_0_1 y (ix2 p q) (ix2 (0 : Fin 1) q)
    (fun a => by match a with | ⟨0, _⟩ => rfl | ⟨1, _⟩ => rfl)

/-- A row written as a one-row table reads, at (0, q), the row at q. -/
theorem asrow_apply (r : FVec Ideal S64 .f32) (q : Fin 64) :
    broadcastInDim S1x64 ![1] bcast_S64_S1x64_1 r (ix2 (0 : Fin 1) q) = r (ix1 q) :=
  broadcastInDim_apply ![1] bcast_S64_S1x64_1 r (ix2 (0 : Fin 1) q) (ix1 q)
    (fun a => by match a with | ⟨0, _⟩ => rfl)

/-- A row broadcast down all nodes reads, at (p, q), the row at q. -/
theorem rows_apply (r : FVec Ideal S64 .f32) (p : Fin 100000) (q : Fin 64) :
    Terms.rows (F := Ideal) r (ix2 p q) = r (ix1 q) := by
  unfold Terms.rows
  rw [down_apply, asrow_apply]

/-- A sum over the node axis from the initial value zero: at column q, the sum of the column's entries. -/
theorem reduce_col (y : FVec Ideal S100000x64 .f32) (q : Fin 64) :
    Host.reduceAdd y (constant (F := Ideal) S_ .f32 0x00000000#32) reducesTo_S100000x64_S64_d0 h_S_ (ix1 q)
      = ∑ p : Fin 100000, y (ix2 p q) := by
  rw [hostReduceAdd_apply, Ideal.hostReduceAdd_single reducesTo_S100000x64_S64_d0 (by decide), constant_apply,
    Ideal.ofBits_zero_f32, zero_add]
  refine Finset.sum_congr rfl fun k _ => ?_
  exact congrArg y (funext fun a => Fin.ext (by match a with | ⟨0, _⟩ => rfl | ⟨1, _⟩ => rfl))

/-- A column sum of a node table. -/
theorem colsum_apply (h : FVec Ideal S100000x64 .f32) (q : Fin 64) :
    Terms.colsum (F := Ideal) h (ix1 q) = ∑ p : Fin 100000, h (ix2 p q) := by
  unfold Terms.colsum
  exact reduce_col h q

/-- The column mean: the column sum over the count. -/
theorem hmean_apply (h : FVec Ideal S100000x64 .f32) (q : Fin 64) :
    Terms.hmean (F := Ideal) h (ix1 q) = Ideal.div (∑ p : Fin 100000, h (ix2 p q)) Gcn.cnt := by
  unfold Terms.hmean
  rw [hostDivf_apply, colsum_apply, broadcastInDim_scalar_apply, constant_apply]
  rfl

/-- The variance's divisor is the count: the correction is the integer zero. -/
theorem cntv_apply (j : S_.Idx) : Terms.cntv (F := Ideal) j = Gcn.cnt := by
  unfold Terms.cntv
  rw [subf_apply, constant_apply, sitofp_apply]
  show Gcn.cnt - (((0#32 : BitVec 32).toInt : ℝ) : EReal) = Gcn.cnt
  simp

/-- The count is above zero, so the variance's guard is the bit one. -/
theorem guard_one : Ideal.cmp .ogt Gcn.cnt (Ideal.ofBits .f32 0x00000000#32) = 1#1 := by
  have h : (0 : EReal) < Gcn.cnt := by rw [Gcn.cnt_eq]; exact EReal.coe_pos.mpr (by norm_num)
  rw [Ideal.ofBits_zero_f32]
  simp [Ideal.cmp, h]

/-- A deviation from the column mean, the mean formed as the variance routine forms it. -/
theorem dev_apply (h : FVec Ideal S100000x64 .f32) (p : Fin 100000) (q : Fin 64) :
    Terms.dev (F := Ideal) h (ix2 p q)
      = h (ix2 p q) - Ideal.div (∑ p' : Fin 100000, h (ix2 p' q)) Gcn.cnt := by
  unfold Terms.dev
  rw [subf_apply, down_apply, hostDivf_apply, asrow_apply, colsum_apply, broadcastInDim_scalar_apply, constant_apply]
  rfl

/-- The column variance: the guard holds, so it is the column sum of the squared deviations over the count. -/
theorem hvar_apply (h : FVec Ideal S100000x64 .f32) (q : Fin 64) :
    Terms.hvar (F := Ideal) h (ix1 q)
      = Ideal.div (∑ p : Fin 100000,
          (h (ix2 p q) - Ideal.div (∑ p' : Fin 100000, h (ix2 p' q)) Gcn.cnt)
            * (h (ix2 p q) - Ideal.div (∑ p' : Fin 100000, h (ix2 p' q)) Gcn.cnt)) Gcn.cnt := by
  unfold Terms.hvar
  rw [select_apply, broadcastInDim_scalar_apply, cmpf_apply, cntv_apply, constant_apply]
  show Scalar.select (Ideal.cmp .ogt Gcn.cnt (Ideal.ofBits .f32 0x00000000#32)) _ _ = _
  rw [guard_one, select_one, hostDivf_apply, broadcastInDim_scalar_apply, cntv_apply, reduce_col]
  refine congrArg (Ideal.div · Gcn.cnt) (Finset.sum_congr rfl fun p _ => ?_)
  rw [mulf_apply, dev_apply]

/-- The host's reciprocal square root at an index is the extended reals' one of the entry. -/
theorem hostRsqrt_apply (x : FVec Ideal S64 .f32) (i : S64.Idx) : Host.rsqrt x i = Ideal.rsqrt (x i) := rfl

/-! ## The normalisation and the layer -/

/-- The normalisation at (p, q): the scale times the deviation of the rectified entry from its column's mean, times
    the reciprocal square root of the column's variance plus the guard, plus the shift. -/
theorem rnorm_apply (g be : FVec Ideal S64 .f32) (a : FVec Ideal S100000x64 .f32) (p : Fin 100000) (q : Fin 64) :
    Terms.rnorm (F := Ideal) g be a (ix2 p q) = Gcn.normR (Gcn.toRow g) (Gcn.toRow be) (Gcn.toMat a) p q := by
  unfold Terms.rnorm
  rw [addf_apply, mulf_apply, mulf_apply, subf_apply, rows_apply, rows_apply, rows_apply, rows_apply, hmean_apply,
    hostRsqrt_apply, addf_apply, hvar_apply, broadcastInDim_scalar_apply, constant_apply]
  simp only [hact_apply]
  rfl

/-- One layer of the plain program, entry by entry, is the coordinate-level layer (variance as the mean of the squared
    deviations) over the same aggregation, kept opaque. -/
theorem rlayer_eq (ei : IVec S2x1200000 32) (w : FVec Ideal S64x64 .f32) (b g be : FVec Ideal S64 .f32)
    (x : FVec Ideal S100000x64 .f32) :
    Gcn.toMat (Terms.rlayer (F := Ideal) ei w b g be x)
      = Gcn.layerR (fun y => Gcn.toMat (Terms.agg (F := Ideal) ei b (Gcn.ofMat y))) (Gcn.toWt w) (Gcn.toRow g) (Gcn.toRow be)
          (Gcn.toMat x) := by
  funext p q
  show Terms.rlayer (F := Ideal) ei w b g be x (ix2 p q) = _
  unfold Terms.rlayer
  rw [dot_eq, rnorm_apply]
  rfl

end Cert.ReferenceIdeal.RefValue

end
-- ==== Proof.PreDecode.lean ====
import proofs.«426465_j33225867002208_1_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Decode

open Cert.Pre_finite_inputs Cert.Pre_finite_inputs.Gen Idealize.ShloMosaic Idealize.ShloMosaic.ValueIdx

/-- The rank-0 shape has exactly one index. -/
instance : Subsingleton S_.Idx := ⟨fun a b => funext fun d => d.elim0⟩

/-- An extended real `x` with `max x (-x) < +∞` (the word 0x7F800000 reads as `⊤`) is neither `⊤` nor `⊥`:
    it is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- One test `all(|a| < +∞)` that came out 1: the conjunction over every index of `a` of the elementwise
    comparison is 1, so each comparison is 1, so every entry of `a` is a real number. -/
theorem real_of_all {s : Shape} {axes : List (Fin s.rank)} (a : FVec Ideal s .f32)
    (hb : S_.BroadcastsInDim s (![] : Fin 0 → Fin s.rank)) (hr : s.ReducesTo axes S_) (h0 : 0 < S_.numel) (init : IVec S_ 1)
    (h : Host.reduce IntOp.andi
        (cmpf .olt (Host.absf a) (broadcastInDim s ![] hb (constant (F := Ideal) S_ .f32 0x7F800000#32))) init hr h0 ix0 = 1#1)
    (i : s.Idx) : ∃ r : ℝ, a i = (r : EReal) :=
  real_of_abs_lt (a i) (Host.reduce_andi_all _ init hr h0 ix0 h i)

/-- The edges' source nodes as the precondition reads them: row 0 of the edge list. -/
def srcP (ei : IVec S2x1200000 32) : IVec S1200000 32 :=
  shapeCast S1200000 (extractStridedSlice S1x1200000 ![0, 0] ei slices_S2x1200000_S1x1200000_0_0) shapeCasts_S1x1200000_S1200000

/-- The precondition read back. It is a conjunction of six one-bit words: five tests `all(|a| < +∞)`, one per float
    input, and `all(0 ≤ s ∧ s < 100000)` over the source row `s` of the edge list. A conjunction of bits is 1 exactly
    when each bit is; each `all` is 1 only when its operand is 1 at every index; and a scalar broadcast reads the
    scalar at every index, so the two word comparisons at an edge are against the constants 0 and 100000. -/
theorem pre_facts (x : FVec Ideal S100000x64 .f32) (ei : IVec S2x1200000 32) (W : FVec Ideal S3x64x64 .f32)
    (B G BE : FVec Ideal S3x64 .f32)
    (h : Cert.Pre_finite_inputs.fn (F := Ideal) x ei W B G BE = fun _ => 1#1) :
    (∀ i, ∃ r : ℝ, x i = (r : EReal)) ∧ (∀ i, ∃ r : ℝ, W i = (r : EReal)) ∧ (∀ i, ∃ r : ℝ, B i = (r : EReal))
      ∧ (∀ i, ∃ r : ℝ, G i = (r : EReal)) ∧ (∀ i, ∃ r : ℝ, BE i = (r : EReal))
      ∧ (∀ e : S1200000.Idx, IntOp.cmpi .sge (srcP ei e) 0#32 = 1#1 ∧ IntOp.cmpi .slt (srcP ei e) 100000#32 = 1#1) := by
  have h0 := congrFun h ValueIdx.ix0
  dsimp only [Cert.Pre_finite_inputs.fn, Cert.Pre_finite_inputs.fn_part1] at h0
  -- the six conjuncts, outermost last
  obtain ⟨h1, h6⟩ := IntOp.andi_eq_one.1 h0
  obtain ⟨h1, h5⟩ := IntOp.andi_eq_one.1 h1
  obtain ⟨h1, h4⟩ := IntOp.andi_eq_one.1 h1
  obtain ⟨h1, h3⟩ := IntOp.andi_eq_one.1 h1
  obtain ⟨h1, h2⟩ := IntOp.andi_eq_one.1 h1
  refine ⟨real_of_all x _ _ _ _ h1, real_of_all W _ _ _ _ h2, real_of_all B _ _ _ _ h3, real_of_all G _ _ _ _ h4,
    real_of_all BE _ _ _ _ h5, fun e => ?_⟩
  -- the range test at edge `e`: both comparisons are 1 there
  have he := Host.reduce_andi_all _ _ _ _ ix0 h6 e
  obtain ⟨ha, hb⟩ := IntOp.andi_eq_one.1 he
  -- the two broadcast scalars at `e` are the constants themselves
  have z0 : broadcastInDim S1200000 ![] bcast_S_S1200000 (constantI S_ 32 0#32) e = 0#32 :=
    StableHlo.Predicate.bcast_scalar _ h_S_ _ e
  have z1 : broadcastInDim S1200000 ![] bcast_S_S1200000 (constantI S_ 32 100000#32) e = 100000#32 :=
    StableHlo.Predicate.bcast_scalar _ h_S_ _ e
  have ha' : IntOp.cmpi .sge (srcP ei e)
      (broadcastInDim S1200000 ![] bcast_S_S1200000 (constantI S_ 32 0#32) e) = 1#1 := ha
  have hb' : IntOp.cmpi .slt (srcP ei e)
      (broadcastInDim S1200000 ![] bcast_S_S1200000 (constantI S_ 32 100000#32) e) = 1#1 := hb
  rw [z0] at ha'
  rw [z1] at hb'
  exact ⟨ha', hb'⟩

end Cert.Pre_finite_inputs.Decode

end
-- ==== Proof.Bridge.lean ====
/-
  The two programs' results are one table.

  Both programs compute three layers `normalise (aggregate (x · w))`. The kernel program's layer, read on
  coordinates, is `Gcn.layerK` over its own aggregation term; the plain program's is `Gcn.layerR` over its own.
  The two aggregation terms are the same host operations, except that the kernel program passes the gathered source
  rows through a select on "the source index lies in 0 … 99999"; the precondition says every source index does, so
  the select keeps every row and the two aggregations are one function. The aggregation of a real table is a real
  table, every parameter slice of a real array is real, so `Gcn.layer_eq` applies layer after layer, each layer's
  result being real again for the next.
-/
import proofs.«426465_j33225867002208_1_alg».proof.Proof.KerTerm
import proofs.«426465_j33225867002208_1_alg».proof.Proof.RefTerm
import proofs.«426465_j33225867002208_1_alg».proof.Proof.Spec
import proofs.«426465_j33225867002208_1_alg».proof.Proof.GathEq
import proofs.«426465_j33225867002208_1_alg».proof.Proof.AggReal
import proofs.«426465_j33225867002208_1_alg».proof.Proof.RefLayer
import proofs.«426465_j33225867002208_1_alg».proof.Proof.PreDecode

noncomputable section

namespace Cert.Bridge

open Idealize.ShloMosaic Idealize.ShloMosaic.ValueIdx Gcn

/-- The array shapes, spelt once (each program spells the same literals under its own names). -/
abbrev SX : Shape := ⟨2, ![100000, 64]⟩
abbrev SE : Shape := ⟨2, ![2, 1200000]⟩
abbrev SW : Shape := ⟨3, ![3, 64, 64]⟩
abbrev SB : Shape := ⟨2, ![3, 64]⟩

/-- The kernel program's aggregation as a map of tables. -/
def aggK (ei : IVec SE 32) (b : FVec Ideal ⟨1, ![64]⟩ .f32) : Mat → Mat :=
  fun y => toMat (Cert.KernelIdeal.Terms.agg (F := Ideal) ei b (ofMat y))
/-- The plain program's aggregation as a map of tables. -/
def aggR (ei : IVec SE 32) (b : FVec Ideal ⟨1, ![64]⟩ .f32) : Mat → Mat :=
  fun y => toMat (Cert.ReferenceIdeal.Terms.agg (F := Ideal) ei b (ofMat y))

/-! ## The two programs' terms are the same terms -/

theorem src_eq (ei : IVec SE 32) : Cert.KernelIdeal.Terms.src ei = Cert.ReferenceIdeal.Terms.src ei := rfl
theorem srcP_eq (ei : IVec SE 32) : Cert.Pre_finite_inputs.Decode.srcP ei = Cert.KernelIdeal.Terms.src ei := rfl
theorem w0_eq (W : FVec Ideal SW .f32) : Cert.KernelIdeal.Terms.w0 W = Cert.ReferenceIdeal.Terms.w0 W := rfl
theorem w1_eq (W : FVec Ideal SW .f32) : Cert.KernelIdeal.Terms.w1 W = Cert.ReferenceIdeal.Terms.w1 W := rfl
theorem w2_eq (W : FVec Ideal SW .f32) : Cert.KernelIdeal.Terms.w2 W = Cert.ReferenceIdeal.Terms.w2 W := rfl
theorem r0_eq (B : FVec Ideal SB .f32) : Cert.KernelIdeal.Terms.r0 B = Cert.ReferenceIdeal.Terms.r0 B := rfl
theorem r1_eq (B : FVec Ideal SB .f32) : Cert.KernelIdeal.Terms.r1 B = Cert.ReferenceIdeal.Terms.r1 B := rfl
theorem r2_eq (B : FVec Ideal SB .f32) : Cert.KernelIdeal.Terms.r2 B = Cert.ReferenceIdeal.Terms.r2 B := rfl

/-- With every source index in range the kernel program's aggregation is the plain program's. -/
theorem agg_eq (ei : IVec SE 32) (b : FVec Ideal ⟨1, ![64]⟩ .f32) (xw : FVec Ideal SX .f32)
    (hsrc : ∀ e, IntOp.cmpi .sge (Cert.KernelIdeal.Terms.src ei e) 0#32 = 1#1
      ∧ IntOp.cmpi .slt (Cert.KernelIdeal.Terms.src ei e) 100000#32 = 1#1) :
    Cert.KernelIdeal.Terms.agg (F := Ideal) ei b xw = Cert.ReferenceIdeal.Terms.agg (F := Ideal) ei b xw := by
  unfold Cert.KernelIdeal.Terms.agg Cert.ReferenceIdeal.Terms.agg
  rw [Cert.KernelIdeal.KerValue.gath_eq ei xw hsrc]
  rfl

theorem aggK_eq (ei : IVec SE 32) (b : FVec Ideal ⟨1, ![64]⟩ .f32)
    (hsrc : ∀ e, IntOp.cmpi .sge (Cert.KernelIdeal.Terms.src ei e) 0#32 = 1#1
      ∧ IntOp.cmpi .slt (Cert.KernelIdeal.Terms.src ei e) 100000#32 = 1#1) :
    aggK ei b = aggR ei b := by
  funext y; unfold aggK aggR; rw [agg_eq ei b _ hsrc]

/-! ## Real arrays -/

theorem aggR_real (ei : IVec SE 32) (b : FVec Ideal ⟨1, ![64]⟩ .f32) (hb : ∀ i, ∃ r : ℝ, b i = (r : EReal)) :
    ∀ y, RealM y → RealM (aggR ei b y) := fun y hy p q =>
  Cert.ReferenceIdeal.RefValue.agg_real ei b (ofMat y) hb (fun i => hy (i 0) (i 1)) (ix2 p q)

/-- A layer's weight table holds entries of the stack. -/
theorem w0_real {W : FVec Ideal SW .f32} (h : ∀ i, ∃ r : ℝ, W i = (r : EReal)) : RealW (toWt (Cert.ReferenceIdeal.Terms.w0 W)) :=
  fun _ _ => h _
theorem w1_real {W : FVec Ideal SW .f32} (h : ∀ i, ∃ r : ℝ, W i = (r : EReal)) : RealW (toWt (Cert.ReferenceIdeal.Terms.w1 W)) :=
  fun _ _ => h _
theorem w2_real {W : FVec Ideal SW .f32} (h : ∀ i, ∃ r : ℝ, W i = (r : EReal)) : RealW (toWt (Cert.ReferenceIdeal.Terms.w2 W)) :=
  fun _ _ => h _
/-- A layer's row holds entries of the stack. -/
theorem r0_real {B : FVec Ideal SB .f32} (h : ∀ i, ∃ r : ℝ, B i = (r : EReal)) : ∀ i, ∃ r : ℝ, Cert.ReferenceIdeal.Terms.r0 B i = (r : EReal) :=
  fun _ => h _
theorem r1_real {B : FVec Ideal SB .f32} (h : ∀ i, ∃ r : ℝ, B i = (r : EReal)) : ∀ i, ∃ r : ℝ, Cert.ReferenceIdeal.Terms.r1 B i = (r : EReal) :=
  fun _ => h _
theorem r2_real {B : FVec Ideal SB .f32} (h : ∀ i, ∃ r : ℝ, B i = (r : EReal)) : ∀ i, ∃ r : ℝ, Cert.ReferenceIdeal.Terms.r2 B i = (r : EReal) :=
  fun _ => h _

/-! ## The three layers -/

/-- The kernel program's three layers, on coordinates. -/
def netK (x : FVec Ideal SX .f32) (ei : IVec SE 32) (W : FVec Ideal SW .f32) (B G BE : FVec Ideal SB .f32) : Mat :=
  layerK (aggK ei (Cert.KernelIdeal.Terms.r2 B)) (toWt (Cert.KernelIdeal.Terms.w2 W)) (toRow (Cert.KernelIdeal.Terms.r2 G)) (toRow (Cert.KernelIdeal.Terms.r2 BE))
    (layerK (aggK ei (Cert.KernelIdeal.Terms.r1 B)) (toWt (Cert.KernelIdeal.Terms.w1 W)) (toRow (Cert.KernelIdeal.Terms.r1 G)) (toRow (Cert.KernelIdeal.Terms.r1 BE))
      (layerK (aggK ei (Cert.KernelIdeal.Terms.r0 B)) (toWt (Cert.KernelIdeal.Terms.w0 W)) (toRow (Cert.KernelIdeal.Terms.r0 G)) (toRow (Cert.KernelIdeal.Terms.r0 BE))
        (toMat x)))

/-- Under the precondition the kernel program's three layers are the plain program's result. -/
theorem net_eq (x : FVec Ideal SX .f32) (ei : IVec SE 32) (W : FVec Ideal SW .f32) (B G BE : FVec Ideal SB .f32)
    (hpre : Cert.Pre_finite_inputs.fn (F := Ideal) x ei W B G BE = fun _ => 1#1) :
    netK x ei W B G BE = toMat (Cert.ReferenceIdeal.Terms.rnet (F := Ideal) x ei W B G BE) := by
  obtain ⟨hx, hW, hB, hG, hBE, hsrc⟩ := Cert.Pre_finite_inputs.Decode.pre_facts x ei W B G BE hpre
  have hsrc' : ∀ e, IntOp.cmpi .sge (Cert.KernelIdeal.Terms.src ei e) 0#32 = 1#1
      ∧ IntOp.cmpi .slt (Cert.KernelIdeal.Terms.src ei e) 100000#32 = 1#1 := hsrc
  have hx0 : RealM (toMat x) := fun p q => hx (ix2 p q)
  unfold netK Cert.ReferenceIdeal.Terms.rnet
  rw [Cert.ReferenceIdeal.RefValue.rlayer_eq, Cert.ReferenceIdeal.RefValue.rlayer_eq, Cert.ReferenceIdeal.RefValue.rlayer_eq]
  rw [aggK_eq ei _ hsrc', aggK_eq ei _ hsrc', aggK_eq ei _ hsrc', w0_eq, w1_eq, w2_eq, r0_eq, r1_eq, r2_eq, r0_eq, r1_eq, r2_eq,
    r0_eq, r1_eq, r2_eq]
  have toRow_real : ∀ {g : FVec Ideal ⟨1, ![64]⟩ .f32}, (∀ i, ∃ r : ℝ, g i = (r : EReal)) → RealR (toRow g) := fun h q => h _
  obtain ⟨e0, h0⟩ := layer_eq (aggR_real ei _ (r0_real hB)) hx0 (w0_real hW) (toRow_real (r0_real hG)) (toRow_real (r0_real hBE))
  obtain ⟨e1, h1⟩ := layer_eq (aggR_real ei _ (r1_real hB)) h0 (w1_real hW) (toRow_real (r1_real hG)) (toRow_real (r1_real hBE))
  obtain ⟨e2, _⟩ := layer_eq (aggR_real ei _ (r2_real hB)) h1 (w2_real hW) (toRow_real (r2_real hG)) (toRow_real (r2_real hBE))
  change layerK _ _ _ _ (layerK _ _ _ _ (layerK _ _ _ _ (toMat x))) = _
  rw [e0, e1, e2]
  rfl

end Cert.Bridge

end
-- ==== Proof.KResult.lean ====
/-
  The kernel program's result, read back through the whole run.

  The run's last boundary holds, in the result buffer, what the last normalisation region left. Each layer's three
  regions and the host operations between them take the layer's input table to `Gcn.layerK` of it (one lemma per
  layer); between layers the edge list's rows, the normalisation columns and the parameter stacks keep the contents the
  first stretch of host operations gave them, and the next layer's weight table is sliced from the stack. Composing the
  three layers from the launch memory gives the three-layer table of the arguments.
-/
import proofs.«426465_j33225867002208_1_alg».proof.Proof.KLayer0
import proofs.«426465_j33225867002208_1_alg».proof.Proof.KLayer3
import proofs.«426465_j33225867002208_1_alg».proof.Proof.KLayer6
import proofs.«426465_j33225867002208_1_alg».proof.Proof.KKeep
import proofs.«426465_j33225867002208_1_alg».proof.Proof.Bridge

set_option maxRecDepth 16384

noncomputable section

namespace Cert.KernelIdeal.KerValue

open Cert.KernelIdeal Cert.KernelIdeal.Gen Idealize.ShloMosaic Idealize.ShloMosaic.TcCoe Idealize.ShloMosaic.ValueIdx

variable (m : (ℓ : Loc nD τ sig) → Buf (Elt Ideal) ℓ) (ρ : Dev nD → PrngReg)

/-- The result buffer at the run's last boundary, read as a table, is the three layers of the launch arguments. -/
theorem result_eq (c : Dev nD) :
    Gcn.toMat (W21 m ρ c (Proc.devRef .tc main_v121) : FVec Ideal S100000x64 .f32)
      = Cert.Bridge.netK (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  obtain ⟨p1, p3, p26, p28, p30, pa0, pa2, pa3, pa4, pa5⟩ := prelude m ρ c
  have L0 := layer0 m ρ c _ _ _ _ _ p1 p3 p26 p28 p30 pa3 pa4 pa5
  have L3 := layer3 m ρ c _ _ _ _ _
    ((carry8 m ρ c main_v1 (Or.inl rfl)).trans p1)
    ((carry8 m ρ c main_v3 (Or.inr (Or.inl rfl))).trans p3)
    ((carry8 m ρ c main_v26 (Or.inr (Or.inr (Or.inl rfl)))).trans p26)
    ((carry8 m ρ c main_v28 (Or.inr (Or.inr (Or.inr (Or.inl rfl))))).trans p28)
    ((w8 m ρ c).trans (congrArg (Terms.w1 (F := Ideal)) pa2))
    ((carry8 m ρ c main_arg3 (Or.inr (Or.inr (Or.inr (Or.inr (Or.inr (Or.inl rfl))))))).trans pa3)
    ((carry8 m ρ c main_arg4 (Or.inr (Or.inr (Or.inr (Or.inr (Or.inr (Or.inr (Or.inl rfl)))))))).trans pa4)
    ((carry8 m ρ c main_arg5 (Or.inr (Or.inr (Or.inr (Or.inr (Or.inr (Or.inr (Or.inr rfl)))))))).trans pa5)
  have L6 := layer6 m ρ c _ _ _ _ _
    ((carry15 m ρ c main_v1 (Or.inl rfl)).trans p1)
    ((carry15 m ρ c main_v3 (Or.inr (Or.inl rfl))).trans p3)
    ((carry15 m ρ c main_v26 (Or.inr (Or.inr (Or.inl rfl)))).trans p26)
    ((carry15 m ρ c main_v28 (Or.inr (Or.inr (Or.inr (Or.inl rfl))))).trans p28)
    ((w15 m ρ c).trans (congrArg (Terms.w2 (F := Ideal)) pa2))
    ((carry15 m ρ c main_arg3 (Or.inr (Or.inr (Or.inr (Or.inr (Or.inr (Or.inl rfl))))))).trans pa3)
    ((carry15 m ρ c main_arg4 (Or.inr (Or.inr (Or.inr (Or.inr (Or.inr (Or.inr (Or.inl rfl)))))))).trans pa4)
    ((carry15 m ρ c main_arg5 (Or.inr (Or.inr (Or.inr (Or.inr (Or.inr (Or.inr (Or.inr rfl)))))))).trans pa5)
  rw [L6, x15 m ρ c, L3, x8 m ρ c, L0, pa0]
  rfl

end Cert.KernelIdeal.KerValue

end
-- ==== Proof.RefOps.lean ====
/-
  The plain program's 279 host operations in program order, as seven lists: @main's statements with each call of an
  outlined function replaced by the callee's operations over that call's record of buffers (the select of _where;
  the twenty-two operations of _var, the last three of them _where_0's). The sequence is cut after the prelude,
  after each layer, and where a window of @main ends, so that every window and every layer is a concatenation of
  whole lists. With each list: every operation touches TensorCore references only.
-/
import proofs.«426465_j33225867002208_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The prelude: the edge list's two rows, the degrees, the edge and self-loop weights (values %0 … %28). 36 operations. -/
abbrev opsP : List (HloOp τ sig (Elt F)) :=
  [ StableHlo.unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    StableHlo.reshape main_v0 main_v1 rfl shapeCasts_S1x1200000_S1200000,
    StableHlo.unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    StableHlo.reshape main_v2 main_v3 rfl shapeCasts_S1x1200000_S1200000,
    StableHlo.nullary main_cst (constant S_ .f32 0x3F800000#32),
    StableHlo.unary main_cst main_v4 (broadcastInDim S1200000 ![] bcast_S_S1200000 : (⟨S_, .f32⟩ : BufTy).Contents (Elt F) → (⟨S1200000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1200000x1 ![0] bcast_S1200000_S1200000x1_0 : (⟨S1200000, .i32⟩ : BufTy).Contents (Elt F) → (⟨S1200000x1, .i32⟩ : BufTy).Contents (Elt F)),
    StableHlo.ternary main_v5 main_v6 main_v4 main_v7 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (addf : (⟨S100000, .f32⟩ : BufTy).Contents (Elt F) → (⟨S100000, .f32⟩ : BufTy).Contents (Elt F) → (⟨S100000, .f32⟩ : BufTy).Contents (Elt F)),
    StableHlo.unary main_v9 main_v10 (Host.rsqrt : (⟨S100000, .f32⟩ : BufTy).Contents (Elt F) → (⟨S100000, .f32⟩ : BufTy).Contents (Elt F)),
    StableHlo.nullary main_c (constantI S_ 32 0#32),
    StableHlo.unary main_c main_v11 (broadcastInDim S1200000 ![] bcast_S_S1200000 : (⟨S_, .i32⟩ : BufTy).Contents (Elt F) → (⟨S1200000, .i32⟩ : BufTy).Contents (Elt F)),
    StableHlo.binary main_v1 main_v11 main_v12 (cmpi .slt : (⟨S1200000, .i32⟩ : BufTy).Contents (Elt F) → (⟨S1200000, .i32⟩ : BufTy).Contents (Elt F) → (⟨S1200000, .i1⟩ : BufTy).Contents (Elt F)),
    StableHlo.nullary main_c_2 (constantI S_ 32 100000#32),
    StableHlo.unary main_c_2 main_v13 (broadcastInDim S1200000 ![] bcast_S_S1200000 : (⟨S_, .i32⟩ : BufTy).Contents (Elt F) → (⟨S1200000, .i32⟩ : BufTy).Contents (Elt F)),
    StableHlo.binary main_v1 main_v13 main_v14 (addi : (⟨S1200000, .i32⟩ : BufTy).Contents (Elt F) → (⟨S1200000, .i32⟩ : BufTy).Contents (Elt F) → (⟨S1200000, .i32⟩ : BufTy).Contents (Elt F)),
    StableHlo.ternary main_v12 main_v14 main_v1 main_v15 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v15 main_v16 (broadcastInDim S1200000x1 ![0] bcast_S1200000_S1200000x1_0 : (⟨S1200000, .i32⟩ : BufTy).Contents (Elt F) → (⟨S1200000x1, .i32⟩ : BufTy).Contents (Elt F)),
    StableHlo.binary main_v10 main_v16 main_v17 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    StableHlo.nullary main_c_3 (constantI S_ 32 0#32),
    StableHlo.unary main_c_3 main_v18 (broadcastInDim S1200000 ![] bcast_S_S1200000 : (⟨S_, .i32⟩ : BufTy).Contents (Elt F) → (⟨S1200000, .i32⟩ : BufTy).Contents (Elt F)),
    StableHlo.binary main_v3 main_v18 main_v19 (cmpi .slt : (⟨S1200000, .i32⟩ : BufTy).Contents (Elt F) → (⟨S1200000, .i32⟩ : BufTy).Contents (Elt F) → (⟨S1200000, .i1⟩ : BufTy).Contents (Elt F)),
    StableHlo.nullary main_c_4 (constantI S_ 32 100000#32),
    StableHlo.unary main_c_4 main_v20 (broadcastInDim S1200000 ![] bcast_S_S1200000 : (⟨S_, .i32⟩ : BufTy).Contents (Elt F) → (⟨S1200000, .i32⟩ : BufTy).Contents (Elt F)),
    StableHlo.binary main_v3 main_v20 main_v21 (addi : (⟨S1200000, .i32⟩ : BufTy).Contents (Elt F) → (⟨S1200000, .i32⟩ : BufTy).Contents (Elt F) → (⟨S1200000, .i32⟩ : BufTy).Contents (Elt F)),
    StableHlo.ternary main_v19 main_v21 main_v3 main_v22 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v22 main_v23 (broadcastInDim S1200000x1 ![0] bcast_S1200000_S1200000x1_0 : (⟨S1200000, .i32⟩ : BufTy).Contents (Elt F) → (⟨S1200000x1, .i32⟩ : BufTy).Contents (Elt F)),
    StableHlo.binary main_v10 main_v23 main_v24 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    StableHlo.binary main_v17 main_v24 main_v25 (mulf : (⟨S1200000, .f32⟩ : BufTy).Contents (Elt F) → (⟨S1200000, .f32⟩ : BufTy).Contents (Elt F) → (⟨S1200000, .f32⟩ : BufTy).Contents (Elt F)),
    StableHlo.unary main_v25 main_v26 (broadcastInDim S1200000x1 ![0] bcast_S1200000_S1200000x1_0 : (⟨S1200000, .f32⟩ : BufTy).Contents (Elt F) → (⟨S1200000x1, .f32⟩ : BufTy).Contents (Elt F)),
    StableHlo.binary main_v10 main_v10 main_v27 (mulf : (⟨S100000, .f32⟩ : BufTy).Contents (Elt F) → (⟨S100000, .f32⟩ : BufTy).Contents (Elt F) → (⟨S100000, .f32⟩ : BufTy).Contents (Elt F)),
    StableHlo.unary main_v27 main_v28 (broadcastInDim S100000x1 ![0] bcast_S100000_S100000x1_0 : (⟨S100000, .f32⟩ : BufTy).Contents (Elt F) → (⟨S100000x1, .f32⟩ : BufTy).Contents (Elt F)) ]

theorem opsP_sub : (opsP : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub ..⟩

/-- Layer 0, first part: the product with the weight table, the aggregation, up to the bias row as a 1 × 64 table (%29 … %49). 24 operations. -/
abbrev opsA0 : List (HloOp τ sig (Elt F)) :=
  [ StableHlo.unary main_arg2 main_v29 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v29 main_v30 rfl shapeCasts_S1x64x64_S64x64,
    StableHlo.binary main_arg0 main_v30 main_v31 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_5 (constantI S_ 32 0#32),
    StableHlo.unary main_c_5 main_v32 (broadcastInDim S1200000 ![] bcast_S_S1200000 : (⟨S_, .i32⟩ : BufTy).Contents (Elt F) → (⟨S1200000, .i32⟩ : BufTy).Contents (Elt F)),
    StableHlo.binary main_v1 main_v32 main_v33 (cmpi .slt : (⟨S1200000, .i32⟩ : BufTy).Contents (Elt F) → (⟨S1200000, .i32⟩ : BufTy).Contents (Elt F) → (⟨S1200000, .i1⟩ : BufTy).Contents (Elt F)),
    StableHlo.nullary main_c_6 (constantI S_ 32 100000#32),
    StableHlo.unary main_c_6 main_v34 (broadcastInDim S1200000 ![] bcast_S_S1200000 : (⟨S_, .i32⟩ : BufTy).Contents (Elt F) → (⟨S1200000, .i32⟩ : BufTy).Contents (Elt F)),
    StableHlo.binary main_v1 main_v34 main_v35 (addi : (⟨S1200000, .i32⟩ : BufTy).Contents (Elt F) → (⟨S1200000, .i32⟩ : BufTy).Contents (Elt F) → (⟨S1200000, .i32⟩ : BufTy).Contents (Elt F)),
    StableHlo.ternary main_v33 main_v35 main_v1 main_v36 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v36 main_v37 (broadcastInDim S1200000x1 ![0] bcast_S1200000_S1200000x1_0 : (⟨S1200000, .i32⟩ : BufTy).Contents (Elt F) → (⟨S1200000x1, .i32⟩ : BufTy).Contents (Elt F)),
    StableHlo.binary main_v31 main_v37 main_v38 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_v26 main_v39 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v38 main_v39 main_v40 (mulf : (⟨S1200000x64, .f32⟩ : BufTy).Contents (Elt F) → (⟨S1200000x64, .f32⟩ : BufTy).Contents (Elt F) → (⟨S1200000x64, .f32⟩ : BufTy).Contents (Elt F)),
    StableHlo.nullary main_cst_7 (constant S_ .f32 0x00000000#32),
    StableHlo.unary main_cst_7 main_v41 (broadcastInDim S100000x64 ![] bcast_S_S100000x64 : (⟨S_, .f32⟩ : BufTy).Contents (Elt F) → (⟨S100000x64, .f32⟩ : BufTy).Contents (Elt F)),
    StableHlo.unary main_v3 main_v42 (broadcastInDim S1200000x1 ![0] bcast_S1200000_S1200000x1_0 : (⟨S1200000, .i32⟩ : BufTy).Contents (Elt F) → (⟨S1200000x1, .i32⟩ : BufTy).Contents (Elt F)),
    StableHlo.ternary main_v41 main_v42 main_v40 main_v43 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_v28 main_v44 (broadcastInDim S100000x64 ![0, 1] bcast_S100000x1_S100000x64_0_1 : (⟨S100000x1, .f32⟩ : BufTy).Contents (Elt F) → (⟨S100000x64, .f32⟩ : BufTy).Contents (Elt F)),
    StableHlo.binary main_v31 main_v44 main_v45 (mulf : (⟨S100000x64, .f32⟩ : BufTy).Contents (Elt F) → (⟨S100000x64, .f32⟩ : BufTy).Contents (Elt F) → (⟨S100000x64, .f32⟩ : BufTy).Contents (Elt F)),
    StableHlo.binary main_v43 main_v45 main_v46 (addf : (⟨S100000x64, .f32⟩ : BufTy).Contents (Elt F) → (⟨S100000x64, .f32⟩ : BufTy).Contents (Elt F) → (⟨S100000x64, .f32⟩ : BufTy).Contents (Elt F)),
    StableHlo.unary main_arg3 main_v47 ((extractStridedSlice S1x64 ![0, 0] · slices_S3x64_S1x64_0_0) : (⟨S3x64, .f32⟩ : BufTy).Contents (Elt F) → (⟨S1x64, .f32⟩ : BufTy).Contents (Elt F)),
    StableHlo.reshape main_v47 main_v48 rfl shapeCasts_S1x64_S64,
    StableHlo.unary main_v48 main_v49 (broadcastInDim S1x64 ![1] bcast_S64_S1x64_1 : (⟨S64, .f32⟩ : BufTy).Contents (Elt F) → (⟨S1x64, .f32⟩ : BufTy).Contents (Elt F)) ]

theorem opsA0_sub : (opsA0 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub ..⟩

/-- Layer 0, second part: the bias added, the rectifier, the column means and variances, the normalisation (%50 … %79). 57 operations. -/
abbrev opsA1 : List (HloOp τ sig (Elt F)) :=
  [ StableHlo.unary main_v49 main_v50 (broadcastInDim S100000x64 ![0, 1] bcast_S1x64_S100000x64_0_1 : (⟨S1x64, .f32⟩ : BufTy).Contents (Elt F) → (⟨S100000x64, .f32⟩ : BufTy).Contents (Elt F)),
    StableHlo.binary main_v46 main_v50 main_v51 (addf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x00000000#32),
    StableHlo.unary main_cst_8 main_v52 (broadcastInDim S100000x64 ![] bcast_S_S100000x64 : (⟨S_, .f32⟩ : BufTy).Contents (Elt F) → (⟨S100000x64, .f32⟩ : BufTy).Contents (Elt F)),
    StableHlo.binary main_v51 main_v52 main_v53 (cmpf .ogt : (⟨S100000x64, .f32⟩ : BufTy).Contents (Elt F) → (⟨S100000x64, .f32⟩ : BufTy).Contents (Elt F) → (⟨S100000x64, .i1⟩ : BufTy).Contents (Elt F)),
    StableHlo.nullary main_cst_9 (constant S_ .f32 0x3E4CCCCD#32),
    StableHlo.unary main_cst_9 main_v54 (broadcastInDim S100000x64 ![] bcast_S_S100000x64 : (⟨S_, .f32⟩ : BufTy).Contents (Elt F) → (⟨S100000x64, .f32⟩ : BufTy).Contents (Elt F)),
    StableHlo.binary main_v54 main_v51 main_v55 (mulf : (⟨S100000x64, .f32⟩ : BufTy).Contents (Elt F) → (⟨S100000x64, .f32⟩ : BufTy).Contents (Elt F) → (⟨S100000x64, .f32⟩ : BufTy).Contents (Elt F)),
    StableHlo.TRef.ternary (.of main_v53 : StableHlo.TRef sig ⟨S100000x64, .i1⟩) (.of main_v51 : StableHlo.TRef sig ⟨S100000x64, .f32⟩) (.of main_v55 : StableHlo.TRef sig ⟨S100000x64, .f32⟩) main_call0.v0 select,
    StableHlo.nullary main_cst_10 (constant S_ .f32 0x00000000#32),
    StableHlo.binary main_v56 main_cst_10 main_v57 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_11 (constant S_ .f32 0x47C35000#32),
    StableHlo.unary main_cst_11 main_v58 (broadcastInDim S64 ![] bcast_S_S64 : (⟨S_, .f32⟩ : BufTy).Contents (Elt F) → (⟨S64, .f32⟩ : BufTy).Contents (Elt F)),
    StableHlo.binary main_v57 main_v58 main_v59 (Host.divf : (⟨S64, .f32⟩ : BufTy).Contents (Elt F) → (⟨S64, .f32⟩ : BufTy).Contents (Elt F) → (⟨S64, .f32⟩ : BufTy).Contents (Elt F)),
    StableHlo.nullary main_c_12 (constantI S_ 32 0#32),
    StableHlo.TRef.nullary main_call1.cst (constant S_ .f32 0x00000000#32),
    StableHlo.TRef.binary (.of main_v56 : StableHlo.TRef sig ⟨S100000x64, .f32⟩) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v56 : StableHlo.TRef sig ⟨S100000x64, .f32⟩) main_call1.v4 main_call1.v5 subf,
    StableHlo.TRef.binary main_call1.v5 main_call1.v5 main_call1.v6 mulf,
    StableHlo.TRef.unary (.of main_c_12 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_arg4 main_v61 ((extractStridedSlice S1x64 ![0, 0] · slices_S3x64_S1x64_0_0) : (⟨S3x64, .f32⟩ : BufTy).Contents (Elt F) → (⟨S1x64, .f32⟩ : BufTy).Contents (Elt F)),
    StableHlo.reshape main_v61 main_v62 rfl shapeCasts_S1x64_S64,
    StableHlo.unary main_v59 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S100000x64 ![0, 1] bcast_S1x64_S100000x64_0_1 : (⟨S1x64, .f32⟩ : BufTy).Contents (Elt F) → (⟨S100000x64, .f32⟩ : BufTy).Contents (Elt F)),
    StableHlo.binary main_v56 main_v64 main_v65 (subf : (⟨S100000x64, .f32⟩ : BufTy).Contents (Elt F) → (⟨S100000x64, .f32⟩ : BufTy).Contents (Elt F) → (⟨S100000x64, .f32⟩ : BufTy).Contents (Elt F)),
    StableHlo.unary main_v62 main_v66 (broadcastInDim S1x64 ![1] bcast_S64_S1x64_1 : (⟨S64, .f32⟩ : BufTy).Contents (Elt F) → (⟨S1x64, .f32⟩ : BufTy).Contents (Elt F)),
    StableHlo.unary main_v66 main_v67 (broadcastInDim S100000x64 ![0, 1] bcast_S1x64_S100000x64_0_1 : (⟨S1x64, .f32⟩ : BufTy).Contents (Elt F) → (⟨S100000x64, .f32⟩ : BufTy).Contents (Elt F)),
    StableHlo.binary main_v67 main_v65 main_v68 (mulf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3727C5AC#32),
    StableHlo.unary main_cst_13 main_v69 (broadcastInDim S64 ![] bcast_S_S64 : (⟨S_, .f32⟩ : BufTy).Contents (Elt F) → (⟨S64, .f32⟩ : BufTy).Contents (Elt F)),
    StableHlo.binary main_v60 main_v69 main_v70 (addf : (⟨S64, .f32⟩ : BufTy).Contents (Elt F) → (⟨S64, .f32⟩ : BufTy).Contents (Elt F) → (⟨S64, .f32⟩ : BufTy).Contents (Elt F)),
    StableHlo.unary main_v70 main_v71 (Host.rsqrt : (⟨S64, .f32⟩ : BufTy).Contents (Elt F) → (⟨S64, .f32⟩ : BufTy).Contents (Elt F)),
    StableHlo.unary main_v71 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S100000x64 ![0, 1] bcast_S1x64_S100000x64_0_1 : (⟨S1x64, .f32⟩ : BufTy).Contents (Elt F) → (⟨S100000x64, .f32⟩ : BufTy).Contents (Elt F)),
    StableHlo.binary main_v68 main_v73 main_v74 (mulf : (⟨S100000x64, .f32⟩ : BufTy).Contents (Elt F) → (⟨S100000x64, .f32⟩ : BufTy).Contents (Elt F) → (⟨S100000x64, .f32⟩ : BufTy).Contents (Elt F)),
    StableHlo.unary main_arg5 main_v75 ((extractStridedSlice S1x64 ![0, 0] · slices_S3x64_S1x64_0_0) : (⟨S3x64, .f32⟩ : BufTy).Contents (Elt F) → (⟨S1x64, .f32⟩ : BufTy).Contents (Elt F)),
    StableHlo.reshape main_v75 main_v76 rfl shapeCasts_S1x64_S64,
    StableHlo.unary main_v76 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S100000x64 ![0, 1] bcast_S1x64_S100000x64_0_1 : (⟨S1x64, .f32⟩ : BufTy).Contents (Elt F) → (⟨S100000x64, .f32⟩ : BufTy).Contents (Elt F)),
    StableHlo.binary main_v74 main_v78 main_v79 (addf : (⟨S100000x64, .f32⟩ : BufTy).Contents (Elt F) → (⟨S100000x64, .f32⟩ : BufTy).Contents (Elt F) → (⟨S100000x64, .f32⟩ : BufTy).Contents (Elt F)) ]

theorem opsA1_sub : (opsA1 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub ..⟩

/-- Layer 1, first part (%80 … %100). 24 operations. -/
abbrev opsB1 : List (HloOp τ sig (Elt F)) :=
  [ StableHlo.unary main_arg2 main_v80 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v80 main_v81 rfl shapeCasts_S1x64x64_S64x64,
    StableHlo.binary main_v79 main_v81 main_v82 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_14 (constantI S_ 32 0#32),
    StableHlo.unary main_c_14 main_v83 (broadcastInDim S1200000 ![] bcast_S_S1200000 : (⟨S_, .i32⟩ : BufTy).Contents (Elt F) → (⟨S1200000, .i32⟩ : BufTy).Contents (Elt F)),
    StableHlo.binary main_v1 main_v83 main_v84 (cmpi .slt : (⟨S1200000, .i32⟩ : BufTy).Contents (Elt F) → (⟨S1200000, .i32⟩ : BufTy).Contents (Elt F) → (⟨S1200000, .i1⟩ : BufTy).Contents (Elt F)),
    StableHlo.nullary main_c_15 (constantI S_ 32 100000#32),
    StableHlo.unary main_c_15 main_v85 (broadcastInDim S1200000 ![] bcast_S_S1200000 : (⟨S_, .i32⟩ : BufTy).Contents (Elt F) → (⟨S1200000, .i32⟩ : BufTy).Contents (Elt F)),
    StableHlo.binary main_v1 main_v85 main_v86 (addi : (⟨S1200000, .i32⟩ : BufTy).Contents (Elt F) → (⟨S1200000, .i32⟩ : BufTy).Contents (Elt F) → (⟨S1200000, .i32⟩ : BufTy).Contents (Elt F)),
    StableHlo.ternary main_v84 main_v86 main_v1 main_v87 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v87 main_v88 (broadcastInDim S1200000x1 ![0] bcast_S1200000_S1200000x1_0 : (⟨S1200000, .i32⟩ : BufTy).Contents (Elt F) → (⟨S1200000x1, .i32⟩ : BufTy).Contents (Elt F)),
    StableHlo.binary main_v82 main_v88 main_v89 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_v26 main_v90 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v89 main_v90 main_v91 (mulf : (⟨S1200000x64, .f32⟩ : BufTy).Contents (Elt F) → (⟨S1200000x64, .f32⟩ : BufTy).Contents (Elt F) → (⟨S1200000x64, .f32⟩ : BufTy).Contents (Elt F)),
    StableHlo.nullary main_cst_16 (constant S_ .f32 0x00000000#32),
    StableHlo.unary main_cst_16 main_v92 (broadcastInDim S100000x64 ![] bcast_S_S100000x64 : (⟨S_, .f32⟩ : BufTy).Contents (Elt F) → (⟨S100000x64, .f32⟩ : BufTy).Contents (Elt F)),
    StableHlo.unary main_v3 main_v93 (broadcastInDim S1200000x1 ![0] bcast_S1200000_S1200000x1_0 : (⟨S1200000, .i32⟩ : BufTy).Contents (Elt F) → (⟨S1200000x1, .i32⟩ : BufTy).Contents (Elt F)),
    StableHlo.ternary main_v92 main_v93 main_v91 main_v94 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_v28 main_v95 (broadcastInDim S100000x64 ![0, 1] bcast_S100000x1_S100000x64_0_1 : (⟨S100000x1, .f32⟩ : BufTy).Contents (Elt F) → (⟨S100000x64, .f32⟩ : BufTy).Contents (Elt F)),
    StableHlo.binary main_v82 main_v95 main_v96 (mulf : (⟨S100000x64, .f32⟩ : BufTy).Contents (Elt F) → (⟨S100000x64, .f32⟩ : BufTy).Contents (Elt F) → (⟨S100000x64, .f32⟩ : BufTy).Contents (Elt F)),
    StableHlo.binary main_v94 main_v96 main_v97 (addf : (⟨S100000x64, .f32⟩ : BufTy).Contents (Elt F) → (⟨S100000x64, .f32⟩ : BufTy).Contents (Elt F) → (⟨S100000x64, .f32⟩ : BufTy).Contents (Elt F)),
    StableHlo.unary main_arg3 main_v98 ((extractStridedSlice S1x64 ![1, 0] · slices_S3x64_S1x64_1_0) : (⟨S3x64, .f32⟩ : BufTy).Contents (Elt F) → (⟨S1x64, .f32⟩ : BufTy).Contents (Elt F)),
    StableHlo.reshape main_v98 main_v99 rfl shapeCasts_S1x64_S64,
    StableHlo.unary main_v99 main_v100 (broadcastInDim S1x64 ![1] bcast_S64_S1x64_1 : (⟨S64, .f32⟩ : BufTy).Contents (Elt F) → (⟨S1x64, .f32⟩ : BufTy).Contents (Elt F)) ]

theorem opsB1_sub : (opsB1 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub ..⟩

/-- Layer 1, second part (%101 … %130). 57 operations. -/
abbrev opsB2 : List (HloOp τ sig (Elt F)) :=
  [ StableHlo.unary main_v100 main_v101 (broadcastInDim S100000x64 ![0, 1] bcast_S1x64_S100000x64_0_1 : (⟨S1x64, .f32⟩ : BufTy).Contents (Elt F) → (⟨S100000x64, .f32⟩ : BufTy).Contents (Elt F)),
    StableHlo.binary main_v97 main_v101 main_v102 (addf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x00000000#32),
    StableHlo.unary main_cst_17 main_v103 (broadcastInDim S100000x64 ![] bcast_S_S100000x64 : (⟨S_, .f32⟩ : BufTy).Contents (Elt F) → (⟨S100000x64, .f32⟩ : BufTy).Contents (Elt F)),
    StableHlo.binary main_v102 main_v103 main_v104 (cmpf .ogt : (⟨S100000x64, .f32⟩ : BufTy).Contents (Elt F) → (⟨S100000x64, .f32⟩ : BufTy).Contents (Elt F) → (⟨S100000x64, .i1⟩ : BufTy).Contents (Elt F)),
    StableHlo.nullary main_cst_18 (constant S_ .f32 0x3E4CCCCD#32),
    StableHlo.unary main_cst_18 main_v105 (broadcastInDim S100000x64 ![] bcast_S_S100000x64 : (⟨S_, .f32⟩ : BufTy).Contents (Elt F) → (⟨S100000x64, .f32⟩ : BufTy).Contents (Elt F)),
    StableHlo.binary main_v105 main_v102 main_v106 (mulf : (⟨S100000x64, .f32⟩ : BufTy).Contents (Elt F) → (⟨S100000x64, .f32⟩ : BufTy).Contents (Elt F) → (⟨S100000x64, .f32⟩ : BufTy).Contents (Elt F)),
    StableHlo.TRef.ternary (.of main_v104 : StableHlo.TRef sig ⟨S100000x64, .i1⟩) (.of main_v102 : StableHlo.TRef sig ⟨S100000x64, .f32⟩) (.of main_v106 : StableHlo.TRef sig ⟨S100000x64, .f32⟩) main_call2.v0 select,
    StableHlo.nullary main_cst_19 (constant S_ .f32 0x00000000#32),
    StableHlo.binary main_v107 main_cst_19 main_v108 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_20 (constant S_ .f32 0x47C35000#32),
    StableHlo.unary main_cst_20 main_v109 (broadcastInDim S64 ![] bcast_S_S64 : (⟨S_, .f32⟩ : BufTy).Contents (Elt F) → (⟨S64, .f32⟩ : BufTy).Contents (Elt F)),
    StableHlo.binary main_v108 main_v109 main_v110 (Host.divf : (⟨S64, .f32⟩ : BufTy).Contents (Elt F) → (⟨S64, .f32⟩ : BufTy).Contents (Elt F) → (⟨S64, .f32⟩ : BufTy).Contents (Elt F)),
    StableHlo.nullary main_c_21 (constantI S_ 32 0#32),
    StableHlo.TRef.nullary main_call3.cst (constant S_ .f32 0x00000000#32),
    StableHlo.TRef.binary (.of main_v107 : StableHlo.TRef sig ⟨S100000x64, .f32⟩) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (.of main_v107 : StableHlo.TRef sig ⟨S100000x64, .f32⟩) main_call3.v4 main_call3.v5 subf,
    StableHlo.TRef.binary main_call3.v5 main_call3.v5 main_call3.v6 mulf,
    StableHlo.TRef.unary (.of main_c_21 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_arg4 main_v112 ((extractStridedSlice S1x64 ![1, 0] · slices_S3x64_S1x64_1_0) : (⟨S3x64, .f32⟩ : BufTy).Contents (Elt F) → (⟨S1x64, .f32⟩ : BufTy).Contents (Elt F)),
    StableHlo.reshape main_v112 main_v113 rfl shapeCasts_S1x64_S64,
    StableHlo.unary main_v110 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S100000x64 ![0, 1] bcast_S1x64_S100000x64_0_1 : (⟨S1x64, .f32⟩ : BufTy).Contents (Elt F) → (⟨S100000x64, .f32⟩ : BufTy).Contents (Elt F)),
    StableHlo.binary main_v107 main_v115 main_v116 (subf : (⟨S100000x64, .f32⟩ : BufTy).Contents (Elt F) → (⟨S100000x64, .f32⟩ : BufTy).Contents (Elt F) → (⟨S100000x64, .f32⟩ : BufTy).Contents (Elt F)),
    StableHlo.unary main_v113 main_v117 (broadcastInDim S1x64 ![1] bcast_S64_S1x64_1 : (⟨S64, .f32⟩ : BufTy).Contents (Elt F) → (⟨S1x64, .f32⟩ : BufTy).Contents (Elt F)),
    StableHlo.unary main_v117 main_v118 (broadcastInDim S100000x64 ![0, 1] bcast_S1x64_S100000x64_0_1 : (⟨S1x64, .f32⟩ : BufTy).Contents (Elt F) → (⟨S100000x64, .f32⟩ : BufTy).Contents (Elt F)),
    StableHlo.binary main_v118 main_v116 main_v119 (mulf : (⟨S100000x64, .f32⟩ : BufTy).Contents (Elt F) → (⟨S100000x64, .f32⟩ : BufTy).Contents (Elt F) → (⟨S100000x64, .f32⟩ : BufTy).Contents (Elt F)),
    StableHlo.nullary main_cst_22 (constant S_ .f32 0x3727C5AC#32),
    StableHlo.unary main_cst_22 main_v120 (broadcastInDim S64 ![] bcast_S_S64 : (⟨S_, .f32⟩ : BufTy).Contents (Elt F) → (⟨S64, .f32⟩ : BufTy).Contents (Elt F)),
    StableHlo.binary main_v111 main_v120 main_v121 (addf : (⟨S64, .f32⟩ : BufTy).Contents (Elt F) → (⟨S64, .f32⟩ : BufTy).Contents (Elt F) → (⟨S64, .f32⟩ : BufTy).Contents (Elt F)),
    StableHlo.unary main_v121 main_v122 (Host.rsqrt : (⟨S64, .f32⟩ : BufTy).Contents (Elt F) → (⟨S64, .f32⟩ : BufTy).Contents (Elt F)),
    StableHlo.unary main_v122 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S100000x64 ![0, 1] bcast_S1x64_S100000x64_0_1 : (⟨S1x64, .f32⟩ : BufTy).Contents (Elt F) → (⟨S100000x64, .f32⟩ : BufTy).Contents (Elt F)),
    StableHlo.binary main_v119 main_v124 main_v125 (mulf : (⟨S100000x64, .f32⟩ : BufTy).Contents (Elt F) → (⟨S100000x64, .f32⟩ : BufTy).Contents (Elt F) → (⟨S100000x64, .f32⟩ : BufTy).Contents (Elt F)),
    StableHlo.unary main_arg5 main_v126 ((extractStridedSlice S1x64 ![1, 0] · slices_S3x64_S1x64_1_0) : (⟨S3x64, .f32⟩ : BufTy).Contents (Elt F) → (⟨S1x64, .f32⟩ : BufTy).Contents (Elt F)),
    StableHlo.reshape main_v126 main_v127 rfl shapeCasts_S1x64_S64,
    StableHlo.unary main_v127 main_v128 (broadcastInDim S1x64 ![1] bcast_S64_S1x64_1 : (⟨S64, .f32⟩ : BufTy).Contents (Elt F) → (⟨S1x64, .f32⟩ : BufTy).Contents (Elt F)),
    StableHlo.unary main_v128 main_v129 (broadcastInDim S100000x64 ![0, 1] bcast_S1x64_S100000x64_0_1 : (⟨S1x64, .f32⟩ : BufTy).Contents (Elt F) → (⟨S100000x64, .f32⟩ : BufTy).Contents (Elt F)),
    StableHlo.binary main_v125 main_v129 main_v130 (addf : (⟨S100000x64, .f32⟩ : BufTy).Contents (Elt F) → (⟨S100000x64, .f32⟩ : BufTy).Contents (Elt F) → (⟨S100000x64, .f32⟩ : BufTy).Contents (Elt F)) ]

theorem opsB2_sub : (opsB2 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub ..⟩

/-- Layer 2, first part (%131 … %151). 24 operations. -/
abbrev opsC2 : List (HloOp τ sig (Elt F)) :=
  [ StableHlo.unary main_arg2 main_v131 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v131 main_v132 rfl shapeCasts_S1x64x64_S64x64,
    StableHlo.binary main_v130 main_v132 main_v133 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_23 (constantI S_ 32 0#32),
    StableHlo.unary main_c_23 main_v134 (broadcastInDim S1200000 ![] bcast_S_S1200000 : (⟨S_, .i32⟩ : BufTy).Contents (Elt F) → (⟨S1200000, .i32⟩ : BufTy).Contents (Elt F)),
    StableHlo.binary main_v1 main_v134 main_v135 (cmpi .slt : (⟨S1200000, .i32⟩ : BufTy).Contents (Elt F) → (⟨S1200000, .i32⟩ : BufTy).Contents (Elt F) → (⟨S1200000, .i1⟩ : BufTy).Contents (Elt F)),
    StableHlo.nullary main_c_24 (constantI S_ 32 100000#32),
    StableHlo.unary main_c_24 main_v136 (broadcastInDim S1200000 ![] bcast_S_S1200000 : (⟨S_, .i32⟩ : BufTy).Contents (Elt F) → (⟨S1200000, .i32⟩ : BufTy).Contents (Elt F)),
    StableHlo.binary main_v1 main_v136 main_v137 (addi : (⟨S1200000, .i32⟩ : BufTy).Contents (Elt F) → (⟨S1200000, .i32⟩ : BufTy).Contents (Elt F) → (⟨S1200000, .i32⟩ : BufTy).Contents (Elt F)),
    StableHlo.ternary main_v135 main_v137 main_v1 main_v138 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v138 main_v139 (broadcastInDim S1200000x1 ![0] bcast_S1200000_S1200000x1_0 : (⟨S1200000, .i32⟩ : BufTy).Contents (Elt F) → (⟨S1200000x1, .i32⟩ : BufTy).Contents (Elt F)),
    StableHlo.binary main_v133 main_v139 main_v140 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_v26 main_v141 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v140 main_v141 main_v142 (mulf : (⟨S1200000x64, .f32⟩ : BufTy).Contents (Elt F) → (⟨S1200000x64, .f32⟩ : BufTy).Contents (Elt F) → (⟨S1200000x64, .f32⟩ : BufTy).Contents (Elt F)),
    StableHlo.nullary main_cst_25 (constant S_ .f32 0x00000000#32),
    StableHlo.unary main_cst_25 main_v143 (broadcastInDim S100000x64 ![] bcast_S_S100000x64 : (⟨S_, .f32⟩ : BufTy).Contents (Elt F) → (⟨S100000x64, .f32⟩ : BufTy).Contents (Elt F)),
    StableHlo.unary main_v3 main_v144 (broadcastInDim S1200000x1 ![0] bcast_S1200000_S1200000x1_0 : (⟨S1200000, .i32⟩ : BufTy).Contents (Elt F) → (⟨S1200000x1, .i32⟩ : BufTy).Contents (Elt F)),
    StableHlo.ternary main_v143 main_v144 main_v142 main_v145 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_v28 main_v146 (broadcastInDim S100000x64 ![0, 1] bcast_S100000x1_S100000x64_0_1 : (⟨S100000x1, .f32⟩ : BufTy).Contents (Elt F) → (⟨S100000x64, .f32⟩ : BufTy).Contents (Elt F)),
    StableHlo.binary main_v133 main_v146 main_v147 (mulf : (⟨S100000x64, .f32⟩ : BufTy).Contents (Elt F) → (⟨S100000x64, .f32⟩ : BufTy).Contents (Elt F) → (⟨S100000x64, .f32⟩ : BufTy).Contents (Elt F)),
    StableHlo.binary main_v145 main_v147 main_v148 (addf : (⟨S100000x64, .f32⟩ : BufTy).Contents (Elt F) → (⟨S100000x64, .f32⟩ : BufTy).Contents (Elt F) → (⟨S100000x64, .f32⟩ : BufTy).Contents (Elt F)),
    StableHlo.unary main_arg3 main_v149 ((extractStridedSlice S1x64 ![2, 0] · slices_S3x64_S1x64_2_0) : (⟨S3x64, .f32⟩ : BufTy).Contents (Elt F) → (⟨S1x64, .f32⟩ : BufTy).Contents (Elt F)),
    StableHlo.reshape main_v149 main_v150 rfl shapeCasts_S1x64_S64,
    StableHlo.unary main_v150 main_v151 (broadcastInDim S1x64 ![1] bcast_S64_S1x64_1 : (⟨S64, .f32⟩ : BufTy).Contents (Elt F) → (⟨S1x64, .f32⟩ : BufTy).Contents (Elt F)) ]

theorem opsC2_sub : (opsC2 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub ..⟩

/-- Layer 2, second part (%152 … %181). 57 operations. -/
abbrev opsC3 : List (HloOp τ sig (Elt F)) :=
  [ StableHlo.unary main_v151 main_v152 (broadcastInDim S100000x64 ![0, 1] bcast_S1x64_S100000x64_0_1 : (⟨S1x64, .f32⟩ : BufTy).Contents (Elt F) → (⟨S100000x64, .f32⟩ : BufTy).Contents (Elt F)),
    StableHlo.binary main_v148 main_v152 main_v153 (addf : (⟨S100000x64, .f32⟩ : BufTy).Contents (Elt F) → (⟨S100000x64, .f32⟩ : BufTy).Contents (Elt F) → (⟨S100000x64, .f32⟩ : BufTy).Contents (Elt F)),
    StableHlo.nullary main_cst_26 (constant S_ .f32 0x00000000#32),
    StableHlo.unary main_cst_26 main_v154 (broadcastInDim S100000x64 ![] bcast_S_S100000x64 : (⟨S_, .f32⟩ : BufTy).Contents (Elt F) → (⟨S100000x64, .f32⟩ : BufTy).Contents (Elt F)),
    StableHlo.binary main_v153 main_v154 main_v155 (cmpf .ogt : (⟨S100000x64, .f32⟩ : BufTy).Contents (Elt F) → (⟨S100000x64, .f32⟩ : BufTy).Contents (Elt F) → (⟨S100000x64, .i1⟩ : BufTy).Contents (Elt F)),
    StableHlo.nullary main_cst_27 (constant S_ .f32 0x3E4CCCCD#32),
    StableHlo.unary main_cst_27 main_v156 (broadcastInDim S100000x64 ![] bcast_S_S100000x64 : (⟨S_, .f32⟩ : BufTy).Contents (Elt F) → (⟨S100000x64, .f32⟩ : BufTy).Contents (Elt F)),
    StableHlo.binary main_v156 main_v153 main_v157 (mulf : (⟨S100000x64, .f32⟩ : BufTy).Contents (Elt F) → (⟨S100000x64, .f32⟩ : BufTy).Contents (Elt F) → (⟨S100000x64, .f32⟩ : BufTy).Contents (Elt F)),
    StableHlo.TRef.ternary (.of main_v155 : StableHlo.TRef sig ⟨S100000x64, .i1⟩) (.of main_v153 : StableHlo.TRef sig ⟨S100000x64, .f32⟩) (.of main_v157 : StableHlo.TRef sig ⟨S100000x64, .f32⟩) main_call4.v0 select,
    StableHlo.nullary main_cst_28 (constant S_ .f32 0x00000000#32),
    StableHlo.binary main_v158 main_cst_28 main_v159 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_29 (constant S_ .f32 0x47C35000#32),
    StableHlo.unary main_cst_29 main_v160 (broadcastInDim S64 ![] bcast_S_S64 : (⟨S_, .f32⟩ : BufTy).Contents (Elt F) → (⟨S64, .f32⟩ : BufTy).Contents (Elt F)),
    StableHlo.binary main_v159 main_v160 main_v161 (Host.divf : (⟨S64, .f32⟩ : BufTy).Contents (Elt F) → (⟨S64, .f32⟩ : BufTy).Contents (Elt F) → (⟨S64, .f32⟩ : BufTy).Contents (Elt F)),
    StableHlo.nullary main_c_30 (constantI S_ 32 0#32),
    StableHlo.TRef.nullary main_call5.cst (constant S_ .f32 0x00000000#32),
    StableHlo.TRef.binary (.of main_v158 : StableHlo.TRef sig ⟨S100000x64, .f32⟩) main_call5.cst main_call5.v0 (fun x v => Host.reduceAdd x v reducesTo_S100000x64_S64_d0 h_S_),
    StableHlo.TRef.unary main_call5.v0 main_call5.v1 (broadcastInDim S1x64 ![1] bcast_S64_S1x64_1),
    StableHlo.TRef.nullary main_call5.cst_0 (constant S_ .f32 0x47C35000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S100000x64 ![0, 1] bcast_S1x64_S100000x64_0_1),
    StableHlo.TRef.binary (.of main_v158 : StableHlo.TRef sig ⟨S100000x64, .f32⟩) main_call5.v4 main_call5.v5 subf,
    StableHlo.TRef.binary main_call5.v5 main_call5.v5 main_call5.v6 mulf,
    StableHlo.TRef.unary (.of main_c_30 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S64 ![] bcast_S_S64),
    StableHlo.TRef.ternary main_call5.v12 main_call5.v11 main_call5.call0.v1 main_call5.call0.v2 (fun p a b => select (broadcastInDim S64 ![] bcast_S_S64 p) a b),
    StableHlo.unary main_arg4 main_v163 ((extractStridedSlice S1x64 ![2, 0] · slices_S3x64_S1x64_2_0) : (⟨S3x64, .f32⟩ : BufTy).Contents (Elt F) → (⟨S1x64, .f32⟩ : BufTy).Contents (Elt F)),
    StableHlo.reshape main_v163 main_v164 rfl shapeCasts_S1x64_S64,
    StableHlo.unary main_v161 main_v165 (broadcastInDim S1x64 ![1] bcast_S64_S1x64_1 : (⟨S64, .f32⟩ : BufTy).Contents (Elt F) → (⟨S1x64, .f32⟩ : BufTy).Contents (Elt F)),
    StableHlo.unary main_v165 main_v166 (broadcastInDim S100000x64 ![0, 1] bcast_S1x64_S100000x64_0_1 : (⟨S1x64, .f32⟩ : BufTy).Contents (Elt F) → (⟨S100000x64, .f32⟩ : BufTy).Contents (Elt F)),
    StableHlo.binary main_v158 main_v166 main_v167 (subf : (⟨S100000x64, .f32⟩ : BufTy).Contents (Elt F) → (⟨S100000x64, .f32⟩ : BufTy).Contents (Elt F) → (⟨S100000x64, .f32⟩ : BufTy).Contents (Elt F)),
    StableHlo.unary main_v164 main_v168 (broadcastInDim S1x64 ![1] bcast_S64_S1x64_1 : (⟨S64, .f32⟩ : BufTy).Contents (Elt F) → (⟨S1x64, .f32⟩ : BufTy).Contents (Elt F)),
    StableHlo.unary main_v168 main_v169 (broadcastInDim S100000x64 ![0, 1] bcast_S1x64_S100000x64_0_1 : (⟨S1x64, .f32⟩ : BufTy).Contents (Elt F) → (⟨S100000x64, .f32⟩ : BufTy).Contents (Elt F)),
    StableHlo.binary main_v169 main_v167 main_v170 (mulf : (⟨S100000x64, .f32⟩ : BufTy).Contents (Elt F) → (⟨S100000x64, .f32⟩ : BufTy).Contents (Elt F) → (⟨S100000x64, .f32⟩ : BufTy).Contents (Elt F)),
    StableHlo.nullary main_cst_31 (constant S_ .f32 0x3727C5AC#32),
    StableHlo.unary main_cst_31 main_v171 (broadcastInDim S64 ![] bcast_S_S64 : (⟨S_, .f32⟩ : BufTy).Contents (Elt F) → (⟨S64, .f32⟩ : BufTy).Contents (Elt F)),
    StableHlo.binary main_v162 main_v171 main_v172 (addf : (⟨S64, .f32⟩ : BufTy).Contents (Elt F) → (⟨S64, .f32⟩ : BufTy).Contents (Elt F) → (⟨S64, .f32⟩ : BufTy).Contents (Elt F)),
    StableHlo.unary main_v172 main_v173 (Host.rsqrt : (⟨S64, .f32⟩ : BufTy).Contents (Elt F) → (⟨S64, .f32⟩ : BufTy).Contents (Elt F)),
    StableHlo.unary main_v173 main_v174 (broadcastInDim S1x64 ![1] bcast_S64_S1x64_1 : (⟨S64, .f32⟩ : BufTy).Contents (Elt F) → (⟨S1x64, .f32⟩ : BufTy).Contents (Elt F)),
    StableHlo.unary main_v174 main_v175 (broadcastInDim S100000x64 ![0, 1] bcast_S1x64_S100000x64_0_1 : (⟨S1x64, .f32⟩ : BufTy).Contents (Elt F) → (⟨S100000x64, .f32⟩ : BufTy).Contents (Elt F)),
    StableHlo.binary main_v170 main_v175 main_v176 (mulf : (⟨S100000x64, .f32⟩ : BufTy).Contents (Elt F) → (⟨S100000x64, .f32⟩ : BufTy).Contents (Elt F) → (⟨S100000x64, .f32⟩ : BufTy).Contents (Elt F)),
    StableHlo.unary main_arg5 main_v177 ((extractStridedSlice S1x64 ![2, 0] · slices_S3x64_S1x64_2_0) : (⟨S3x64, .f32⟩ : BufTy).Contents (Elt F) → (⟨S1x64, .f32⟩ : BufTy).Contents (Elt F)),
    StableHlo.reshape main_v177 main_v178 rfl shapeCasts_S1x64_S64,
    StableHlo.unary main_v178 main_v179 (broadcastInDim S1x64 ![1] bcast_S64_S1x64_1 : (⟨S64, .f32⟩ : BufTy).Contents (Elt F) → (⟨S1x64, .f32⟩ : BufTy).Contents (Elt F)),
    StableHlo.unary main_v179 main_v180 (broadcastInDim S100000x64 ![0, 1] bcast_S1x64_S100000x64_0_1 : (⟨S1x64, .f32⟩ : BufTy).Contents (Elt F) → (⟨S100000x64, .f32⟩ : BufTy).Contents (Elt F)),
    StableHlo.binary main_v176 main_v180 main_v181 (addf : (⟨S100000x64, .f32⟩ : BufTy).Contents (Elt F) → (⟨S100000x64, .f32⟩ : BufTy).Contents (Elt F) → (⟨S100000x64, .f32⟩ : BufTy).Contents (Elt F)) ]

theorem opsC3_sub : (opsC3 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub ..⟩

end Cert.ReferenceIdeal.RefValue

end
-- ==== Proof.RefRun.lean ====
/-
  The plain program's run. @main is a straight line of 279 host operations (its statements, each call of an
  outlined function being the callee's operations over that call's buffers), so every weakly fair execution
  terminates with each buffer at the fold of the operations' results over the launch contents. The fold is read
  stretch by stretch, each stretch over an arbitrary valuation at its entry: the prelude puts the edge list's two
  rows, the edge weights and the self-loop weights into four buffers and leaves the arguments; each layer leaves
  those ten buffers and puts one layer of its input buffer (the product with its weight table, the aggregation over
  the graph, the rectifier and the column normalisation) into its result buffer. Chained through the two
  intermediate result buffers, the last result buffer holds the three layers of the arguments.
-/
import proofs.«426465_j33225867002208_1_alg».proof.Proof.RefTerm
import proofs.«426465_j33225867002208_1_alg».proof.Proof.RefOps
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line of its operations -/

/-- The operations run one list after the other are the concatenation run as one. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- All 279 operations, in program order: the prelude, then each layer's two lists. -/
abbrev ops : List (HloOp τ sig (Elt F)) := opsP ++ opsA0 ++ opsA1 ++ opsB1 ++ opsB2 ++ opsC2 ++ opsC3

set_option maxRecDepth 4096 in
/-- Each window of @main is the straight line of its lists: the called functions' definitions unfolded at their
    calls, both sides are one chain of steps once sequencing is reassociated. -/
theorem part0_eq (d : Dev nD) : main_part0 (F := F) d = seq (opsP ++ opsA0) := by
  simp only [main_part0, seq_append, seq, bind_assoc, pure_bind]
  rfl

set_option maxRecDepth 4096 in
theorem part1_eq (d : Dev nD) : main_part1 (F := F) d = seq (opsA1 ++ opsB1) := by
  simp only [main_part1, fn_where.body, fn_var.body, fn_where_0.body, seq_append, seq, bind_assoc, pure_bind]
  rfl

set_option maxRecDepth 4096 in
theorem part2_eq (d : Dev nD) : main_part2 (F := F) d = seq (opsB2 ++ opsC2) := by
  simp only [main_part2, fn_where.body, fn_var.body, fn_where_0.body, seq_append, seq, bind_assoc, pure_bind]
  rfl

set_option maxRecDepth 4096 in
theorem part3_eq (d : Dev nD) : main_part3 (F := F) d = seq opsC3 := by
  simp only [main_part3, fn_where.body, fn_var.body, fn_where_0.body, seq, bind_assoc, pure_bind]

/-- @main runs its four windows in order: the straight line of all the lists. -/
theorem main_eq (d : Dev nD) : main (F := F) d = seq ops := by
  simp only [main, part0_eq, part1_eq, part2_eq, part3_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: list by list. -/
theorem ops_sub : (ops : List (HloOp τ sig (Elt F))).Forall fun op => op.bufs ⊆ tcRefs τ sig := by
  simp only [ops, List.forall_append]
  exact ⟨⟨⟨⟨⟨⟨opsP_sub, opsA0_sub⟩, opsA1_sub⟩, opsB1_sub⟩, opsB2_sub⟩, opsC2_sub⟩, opsC3_sub⟩

/-! ## No operation allocates -/

theorem opsP_fresh : ∀ op ∈ (opsP : List (HloOp τ sig (Elt F))), op.fresh = ∅ := by
  intro _ h; (repeat (cases h with | head => rfl | tail _ h => ?_)); exact nomatch h
theorem opsA0_fresh : ∀ op ∈ (opsA0 : List (HloOp τ sig (Elt F))), op.fresh = ∅ := by
  intro _ h; (repeat (cases h with | head => rfl | tail _ h => ?_)); exact nomatch h
theorem opsA1_fresh : ∀ op ∈ (opsA1 : List (HloOp τ sig (Elt F))), op.fresh = ∅ := by
  intro _ h; (repeat (cases h with | head => rfl | tail _ h => ?_)); exact nomatch h
theorem opsB1_fresh : ∀ op ∈ (opsB1 : List (HloOp τ sig (Elt F))), op.fresh = ∅ := by
  intro _ h; (repeat (cases h with | head => rfl | tail _ h => ?_)); exact nomatch h
theorem opsB2_fresh : ∀ op ∈ (opsB2 : List (HloOp τ sig (Elt F))), op.fresh = ∅ := by
  intro _ h; (repeat (cases h with | head => rfl | tail _ h => ?_)); exact nomatch h
theorem opsC2_fresh : ∀ op ∈ (opsC2 : List (HloOp τ sig (Elt F))), op.fresh = ∅ := by
  intro _ h; (repeat (cases h with | head => rfl | tail _ h => ?_)); exact nomatch h
theorem opsC3_fresh : ∀ op ∈ (opsC3 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with (((((h | h) | h) | h) | h) | h) | h
  exacts [opsP_fresh op h, opsA0_fresh op h, opsA1_fresh op h, opsB1_fresh op h, opsB2_fresh op h, opsC2_fresh op h, opsC3_fresh op h]

/-! ## The buffers after each stretch

Each lemma is over an arbitrary valuation at the stretch's entry, so that the stretches compose (after_app) and no
single reading walks more than one layer's operations. -/

/-- The aggregation over the graph with the graph's four tables as arguments (the edges' source and destination
    nodes, the edge weights, the self-loop weights): what a layer's operations compute from the buffers that hold
    them. At the prelude's values of the four it is Terms.agg. -/
def aggG (s d : IVec S1200000 32) (en : FVec F S1200000x1 .f32) (sn : FVec F S100000x1 .f32)
    (b : FVec F S64 .f32) (xw : FVec F S100000x64 .f32) : FVec F S100000x64 .f32 :=
  addf (addf (Host.scatterAdd scatter_S100000x64_S1200000x1_S1200000x64_1_0_0_1
        (broadcastInDim S100000x64 ![] bcast_S_S100000x64 (constant S_ .f32 0x00000000#32)) (Terms.col d)
        (mulf (Host.gather gather_S100000x64_S1200000x1_S1200000x64_1_0_n_n_0_1_164 xw (Terms.col (Terms.wrap s)))
          (broadcastInDim S1200000x64 ![0, 1] bcast_S1200000x1_S1200000x64_0_1 en)))
      (mulf xw (broadcastInDim S100000x64 ![0, 1] bcast_S100000x1_S100000x64_0_1 sn)))
    (broadcastInDim S100000x64 ![0, 1] bcast_S1x64_S100000x64_0_1 (broadcastInDim S1x64 ![1] bcast_S64_S1x64_1 b))

/-- One layer over those four tables: the product with the weight table, the aggregation, the normalisation. -/
def layG (s d : IVec S1200000 32) (en : FVec F S1200000x1 .f32) (sn : FVec F S100000x1 .f32)
    (w : FVec F S64x64 .f32) (b g be : FVec F S64 .f32) (x : FVec F S100000x64 .f32) : FVec F S100000x64 .f32 :=
  Terms.rnorm g be (aggG s d en sn b (Host.dotGeneral dot_S100000x64_S64x64_S100000x64_1_0_0_1_n_n none x w))

/-- At the prelude's tables of an edge list the layer is Terms.rlayer: both sides are the same composition. -/
theorem layG_eq (ei : IVec S2x1200000 32) (w : FVec F S64x64 .f32) (b g be : FVec F S64 .f32) (x : FVec F S100000x64 .f32) :
    layG (Terms.src ei) (Terms.dst ei) (Terms.enorm ei) (Terms.snorm ei) w b g be x = Terms.rlayer ei w b g be x := rfl

/-- The buffers every later stretch reads and none writes: the six arguments, the edge list's two rows, the edge
    weights and the self-loop weights. -/
abbrev keep : List (Ref sig .tc) :=
  [main_arg0, main_arg1, main_arg2, main_arg3, main_arg4, main_arg5, main_v1, main_v3, main_v26, main_v28]

/-- A valuation holding the arguments and, of the edge list ei, the prelude's four tables. -/
structure Held (x : FVec F S100000x64 .f32) (ei : IVec S2x1200000 32) (Wt : FVec F S3x64x64 .f32) (B G BE : FVec F S3x64 .f32)
    (W : Valuation τ sig (Elt F)) : Prop where
  a0 : W (main_arg0 : DevRef τ sig) = x
  a1 : W (main_arg1 : DevRef τ sig) = ei
  a2 : W (main_arg2 : DevRef τ sig) = Wt
  a3 : W (main_arg3 : DevRef τ sig) = B
  a4 : W (main_arg4 : DevRef τ sig) = G
  a5 : W (main_arg5 : DevRef τ sig) = BE
  v1 : W (main_v1 : DevRef τ sig) = Terms.src ei
  v3 : W (main_v3 : DevRef τ sig) = Terms.dst ei
  v26 : W (main_v26 : DevRef τ sig) = Terms.enorm ei
  v28 : W (main_v28 : DevRef τ sig) = Terms.snorm ei

/-- A stretch that leaves the kept buffers as they were leaves a holding valuation holding. -/
theorem Held.of_keep {x : FVec F S100000x64 .f32} {ei : IVec S2x1200000 32} {Wt : FVec F S3x64x64 .f32} {B G BE : FVec F S3x64 .f32}
    {W W' : Valuation τ sig (Elt F)} (h : Held x ei Wt B G BE W)
    (hk : ∀ r ∈ keep, W' (Proc.devRef .tc r) = W (Proc.devRef .tc r)) : Held x ei Wt B G BE W' :=
  ⟨(hk main_arg0 (by decide)).trans h.a0, (hk main_arg1 (by decide)).trans h.a1, (hk main_arg2 (by decide)).trans h.a2,
    (hk main_arg3 (by decide)).trans h.a3, (hk main_arg4 (by decide)).trans h.a4, (hk main_arg5 (by decide)).trans h.a5,
    (hk main_v1 (by decide)).trans h.v1, (hk main_v3 (by decide)).trans h.v3, (hk main_v26 (by decide)).trans h.v26,
    (hk main_v28 (by decide)).trans h.v28⟩

/-- A layer's result buffer, read as the layer over the buffers holding the four tables and the stacked parameters
    (fw, fb, fg, fbe cut the layer's slice out of each stack), is Terms.rlayer of the edge list and the arguments. -/
theorem Held.layer {x : FVec F S100000x64 .f32} {ei : IVec S2x1200000 32} {Wt : FVec F S3x64x64 .f32} {B G BE : FVec F S3x64 .f32}
    {W : Valuation τ sig (Elt F)} (h : Held x ei Wt B G BE W)
    (fw : FVec F S3x64x64 .f32 → FVec F S64x64 .f32) (fb fg fbe : FVec F S3x64 .f32 → FVec F S64 .f32)
    {inp out : FVec F S100000x64 .f32}
    (hraw : out = layG (W (main_v1 : DevRef τ sig)) (W (main_v3 : DevRef τ sig)) (W (main_v26 : DevRef τ sig))
      (W (main_v28 : DevRef τ sig)) (fw (W (main_arg2 : DevRef τ sig))) (fb (W (main_arg3 : DevRef τ sig)))
      (fg (W (main_arg4 : DevRef τ sig))) (fbe (W (main_arg5 : DevRef τ sig))) inp) :
    out = Terms.rlayer ei (fw Wt) (fb B) (fg G) (fbe BE) inp := by
  rw [hraw, h.v1, h.v3, h.v26, h.v28, h.a2, h.a3, h.a4, h.a5]; exact layG_eq ..

/-- After the prelude: the arguments as they were, the four tables those of the edge list. -/
theorem heldP (V : Valuation τ sig (Elt F)) :
    Held (V (main_arg0 : DevRef τ sig)) (V (main_arg1 : DevRef τ sig)) (V (main_arg2 : DevRef τ sig))
      (V (main_arg3 : DevRef τ sig)) (V (main_arg4 : DevRef τ sig)) (V (main_arg5 : DevRef τ sig)) (after opsP V) := by
  refine ⟨?_, ?_, ?_, ?_, ?_, ?_, ?_, ?_, ?_, ?_⟩
  · after_results_simp
  · after_results_simp
  · after_results_simp
  · after_results_simp
  · after_results_simp
  · after_results_simp
  · after_results_simp; rfl
  · after_results_simp; rfl
  · after_results_simp; rfl
  · after_results_simp; rfl

-- ten buffers, each followed back through the stretch's 81 operations
set_option maxHeartbeats 4000000 in
/-- Layer 0's operations leave the kept buffers. -/
theorem keepA (V : Valuation τ sig (Elt F)) (r : Ref sig .tc) (hr : r ∈ keep) :
    after opsA1 (after opsA0 V) (Proc.devRef .tc r) = V (Proc.devRef .tc r) := by
  simp only [keep, List.mem_cons, List.not_mem_nil, or_false] at hr
  rcases hr with rfl | rfl | rfl | rfl | rfl | rfl | rfl | rfl | rfl | rfl <;> after_results_simp

/-- Layer 0's result, over the entry valuation's buffers. -/
theorem layA (V : Valuation τ sig (Elt F)) :
    after opsA1 (after opsA0 V) (main_v79 : DevRef τ sig)
      = layG (V (main_v1 : DevRef τ sig)) (V (main_v3 : DevRef τ sig)) (V (main_v26 : DevRef τ sig)) (V (main_v28 : DevRef τ sig))
          (Terms.w0 (V (main_arg2 : DevRef τ sig))) (Terms.r0 (V (main_arg3 : DevRef τ sig)))
          (Terms.r0 (V (main_arg4 : DevRef τ sig))) (Terms.r0 (V (main_arg5 : DevRef τ sig))) (V (main_arg0 : DevRef τ sig)) := by
  after_results_simp
  rfl

-- ten buffers, each followed back through the stretch's 81 operations
set_option maxHeartbeats 4000000 in
/-- Layer 1's operations leave the kept buffers. -/
theorem keepB (V : Valuation τ sig (Elt F)) (r : Ref sig .tc) (hr : r ∈ keep) :
    after opsB2 (after opsB1 V) (Proc.devRef .tc r) = V (Proc.devRef .tc r) := by
  simp only [keep, List.mem_cons, List.not_mem_nil, or_false] at hr
  rcases hr with rfl | rfl | rfl | rfl | rfl | rfl | rfl | rfl | rfl | rfl <;> after_results_simp

/-- Layer 1's result, over the entry valuation's buffers: its input is layer 0's result buffer. -/
theorem layB (V : Valuation τ sig (Elt F)) :
    after opsB2 (after opsB1 V) (main_v130 : DevRef τ sig)
      = layG (V (main_v1 : DevRef τ sig)) (V (main_v3 : DevRef τ sig)) (V (main_v26 : DevRef τ sig)) (V (main_v28 : DevRef τ sig))
          (Terms.w1 (V (main_arg2 : DevRef τ sig))) (Terms.r1 (V (main_arg3 : DevRef τ sig)))
          (Terms.r1 (V (main_arg4 : DevRef τ sig))) (Terms.r1 (V (main_arg5 : DevRef τ sig))) (V (main_v79 : DevRef τ sig)) := by
  after_results_simp
  rfl

-- ten buffers, each followed back through the stretch's 81 operations
set_option maxHeartbeats 4000000 in
/-- Layer 2's operations leave the kept buffers. -/
theorem keepC (V : Valuation τ sig (Elt F)) (r : Ref sig .tc) (hr : r ∈ keep) :
    after opsC3 (after opsC2 V) (Proc.devRef .tc r) = V (Proc.devRef .tc r) := by
  simp only [keep, List.mem_cons, List.not_mem_nil, or_false] at hr
  rcases hr with rfl | rfl | rfl | rfl | rfl | rfl | rfl | rfl | rfl | rfl <;> after_results_simp

/-- Layer 2's result, over the entry valuation's buffers: its input is layer 1's result buffer. -/
theorem layC (V : Valuation τ sig (Elt F)) :
    after opsC3 (after opsC2 V) (main_v181 : DevRef τ sig)
      = layG (V (main_v1 : DevRef τ sig)) (V (main_v3 : DevRef τ sig)) (V (main_v26 : DevRef τ sig)) (V (main_v28 : DevRef τ sig))
          (Terms.w2 (V (main_arg2 : DevRef τ sig))) (Terms.r2 (V (main_arg3 : DevRef τ sig)))
          (Terms.r2 (V (main_arg4 : DevRef τ sig))) (Terms.r2 (V (main_arg5 : DevRef τ sig))) (V (main_v130 : DevRef τ sig)) := by
  after_results_simp
  rfl

/-! ## The whole run -/

/-- After all the operations, from any valuation: the result buffer holds the three layers of the arguments, and the
    arguments (with the prelude's tables) are as they were. The prelude's valuation holds; each layer keeps it
    holding and puts Terms.rlayer of its input buffer into its result buffer; the three equations chain through
    layer 0's and layer 1's result buffers. -/
theorem out_eq (V : Valuation τ sig (Elt F)) :
    after ops V (main_v181 : DevRef τ sig)
        = Terms.rnet (V (main_arg0 : DevRef τ sig)) (V (main_arg1 : DevRef τ sig)) (V (main_arg2 : DevRef τ sig))
            (V (main_arg3 : DevRef τ sig)) (V (main_arg4 : DevRef τ sig)) (V (main_arg5 : DevRef τ sig))
      ∧ Held (V (main_arg0 : DevRef τ sig)) (V (main_arg1 : DevRef τ sig)) (V (main_arg2 : DevRef τ sig))
          (V (main_arg3 : DevRef τ sig)) (V (main_arg4 : DevRef τ sig)) (V (main_arg5 : DevRef τ sig)) (after ops V) := by
  simp only [ops, after_app]
  have hP := heldP V
  have hA := hP.of_keep (keepA _)
  have hB := hA.of_keep (keepB _)
  have hC := hB.of_keep (keepC _)
  have eA := hP.layer Terms.w0 Terms.r0 Terms.r0 Terms.r0 (layA _)
  have eB := hA.layer Terms.w1 Terms.r1 Terms.r1 Terms.r1 (layB _)
  have eC := hB.layer Terms.w2 Terms.r2 Terms.r2 Terms.r2 (layC _)
  refine ⟨?_, hC⟩
  rw [eC, eB, eA, hP.a0]
  rfl

/-- On every device, from any memory with zero counters: every weakly fair execution of @main terminates with the
    result buffer at the three layers of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v181)
          = Terms.rnet (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      have e := out_eq (F := Ideal) (launchContents m c)
      ⟨(h c main_v181).trans e.1, (h c main_arg0).trans e.2.a0, (h c main_arg1).trans e.2.a1, (h c main_arg2).trans e.2.a2,
        (h c main_arg3).trans e.2.a3, (h c main_arg4).trans e.2.a4, (h c main_arg5).trans e.2.a5⟩)
    (run_seq scopedRefs_eq scopedSems_eq defs main (fun _ => ops) main_eq (fun _ => ops_sub) m ρ (fun _ => ops_fresh))

end Cert.ReferenceIdeal.RefValue

end
-- ==== Proof.lean ====
/-
  A three-layer graph convolution: the kernel program against the plain one.

  Per layer the kernel program multiplies the node table by a weight table in one pallas_call, aggregates over the
  graph on the host (a gather of the source rows, a scatter-add onto the destinations, the self-loop term, the bias),
  sums the rectified columns and their squares in a second pallas_call, forms mean and variance on the host, and
  normalises in a third. The plain program does the same with a matrix product, a column mean and a column variance of
  the rectified table. Over the extended reals the matrix products are the same sums, the aggregations are the same
  host operations once every source index is in range (the added precondition conjunct: the kernel program fills a
  gathered row whose index is out of range, the plain program clamps the index), and the two variances — the mean of
  the squares minus the square of the mean, against the mean of the squared deviations — agree on tables of real
  numbers, which the tables are, layer after layer, because the inputs are finite.

  The frames of the two kernel programs are the generated ones; the plain program's frame is its run with the result
  dropped; the ideal pass rewrote nothing, so `preserves` is trivial.
-/
import proofs.«426465_j33225867002208_1_alg».proof.Defs
import proofs.«426465_j33225867002208_1_alg».proof.Proof.Gen.Kernel
import proofs.«426465_j33225867002208_1_alg».proof.Proof.Gen.Kernel.Skeleton
import proofs.«426465_j33225867002208_1_alg».proof.Proof.Gen.Kernel.Launch
import proofs.«426465_j33225867002208_1_alg».proof.Proof.Gen.Kernel.Points
import proofs.«426465_j33225867002208_1_alg».proof.Proof.Gen.Kernel.Frame
import proofs.«426465_j33225867002208_1_alg».proof.Proof.Gen.KernelIdeal
import proofs.«426465_j33225867002208_1_alg».proof.Proof.Gen.KernelIdeal.Skeleton
import proofs.«426465_j33225867002208_1_alg».proof.Proof.Gen.KernelIdeal.Launch
import proofs.«426465_j33225867002208_1_alg».proof.Proof.Gen.KernelIdeal.Points
import proofs.«426465_j33225867002208_1_alg».proof.Proof.Gen.KernelIdeal.Frame
import proofs.«426465_j33225867002208_1_alg».proof.Proof.Gen.ReferenceIdeal
import proofs.«426465_j33225867002208_1_alg».proof.Proof.Gen.Pre_finite_inputs
import proofs.«426465_j33225867002208_1_alg».proof.Proof.KFrame
import proofs.«426465_j33225867002208_1_alg».proof.Proof.KResult
import proofs.«426465_j33225867002208_1_alg».proof.Proof.RefRun
import proofs.«426465_j33225867002208_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- Both programs end at the three-layer table of the arguments: the kernel program's run ends with the result buffer
    at its last boundary's contents, which read back are the three layers; the plain program's run ends at its
    operations' composed term, which is the same table. -/
theorem algebraic : Cert.algebraic_KernelIdeal_ReferenceIdeal := by
  intro m ρ m' ρ' hpre hagree
  refine ⟨fun c => Cert.KernelIdeal.Gen.W21 m ρ c (Proc.devRef .tc Cert.KernelIdeal.main_v121),
    Cert.KernelIdeal.Gen.run_result m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]
  have hk := Cert.KernelIdeal.KerValue.result_eq m ρ c
  rw [Cert.Bridge.net_eq _ _ _ _ _ _ (hpre c)] at hk
  have := congrArg Gcn.ofMat hk
  rw [Gcn.ofMat_toMat, Gcn.ofMat_toMat] at this
  exact this.symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
